-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S1024x512 : Shape := ⟨2, ![1024, 512]⟩
abbrev S16 : Shape := ⟨1, ![16]⟩
abbrev S_ : Shape := ⟨0, ![]⟩
abbrev S1 : Shape := ⟨1, ![1]⟩
abbrev S16x512 : Shape := ⟨2, ![16, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .local _ .vmem, ⟨0, _⟩ => ⟨S512x512, .f32⟩
  | .local _ .vmem, ⟨1, _⟩ => ⟨S1024x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let c0_i32 : BitVec 32 := 0#32
  ![v8.toNat, 0]
def k0_dev1 (d0 : Dev nD) : Nat :=
  let c0_i32_6 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v11 : BitVec 32 := Scalar.muli v6 c2_i32_5
  let v12 : BitVec 32 := Scalar.addi c0_i32_6 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7 : BitVec 32 := 1#32
  let v13 : BitVec 32 := Scalar.muli v5 c1_i32_7
  let v14 : BitVec 32 := Scalar.addi v12 v13
  v14.toNat
def k0_dev2 (d0 : Dev nD) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v15 : BitVec 32 := Scalar.muli v2 c2_i32_9
  let v16 : BitVec 32 := Scalar.addi c0_i32_10 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_11 : BitVec 32 := 1#32
  let v17 : BitVec 32 := Scalar.muli v7 c1_i32_11
  let v18 : BitVec 32 := Scalar.addi v16 v17
  v18.toNat
def k0_off2 (d0 : Dev nD) (c0_i32_18 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_13 : BitVec 32 := 512#32
  let v19 : BitVec 32 := Scalar.muli v2 c512_i32_13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v20 : BitVec 32 := Scalar.muli v5 c256_i32
  let v21 : BitVec 32 := Scalar.addi v19 v20
  let v27 : BitVec 32 := Scalar.addi v21 c0_i32_18
  let c0_i32_24 : BitVec 32 := 0#32
  ![v27.toNat, 0]
def k0_off3 (d0 : Dev nD) (c0_i32_17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_16 : BitVec 32 := 256#32
  let v25 : BitVec 32 := Scalar.muli v5 c256_i32_16
  let v26 : BitVec 32 := Scalar.addi v25 c0_i32_17
  let c0_i32_25 : BitVec 32 := 0#32
  ![v26.toNat, 0]
def k0_dev3 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v28 : BitVec 32 := Scalar.muli v6 c2_i32_21
  let v29 : BitVec 32 := Scalar.addi c0_i32_22 v28
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v30 : BitVec 32 := Scalar.muli v5 c1_i32_23
  let v31 : BitVec 32 := Scalar.addi v29 v30
  v31.toNat
def k0_dev4 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v41 : BitVec 32 := Scalar.muli v6 c2_i32_30
  let v42 : BitVec 32 := Scalar.addi c0_i32_31 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v43 : BitVec 32 := Scalar.muli v5 c1_i32_32
  let v44 : BitVec 32 := Scalar.addi v42 v43
  v44.toNat
def k0_dev5 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v54 : BitVec 32 := Scalar.muli v6 c2_i32_39
  let v55 : BitVec 32 := Scalar.addi c0_i32_40 v54
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v56 : BitVec 32 := Scalar.muli v5 c1_i32_41
  let v57 : BitVec 32 := Scalar.addi v55 v56
  v57.toNat
def k0_dev6 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v67 : BitVec 32 := Scalar.muli v6 c2_i32_47
  let v68 : BitVec 32 := Scalar.addi c0_i32_48 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v69 : BitVec 32 := Scalar.muli v5 c1_i32_49
  let v70 : BitVec 32 := Scalar.addi v68 v69
  v70.toNat
def k0_dev7 (d0 : Dev nD) : Nat :=
  let c0_i32_56 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_55 : BitVec 32 := 2#32
  let v80 : BitVec 32 := Scalar.muli v6 c2_i32_55
  let v81 : BitVec 32 := Scalar.addi c0_i32_56 v80
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v82 : BitVec 32 := Scalar.muli v5 c1_i32_57
  let v83 : BitVec 32 := Scalar.addi v81 v82
  v83.toNat
def k0_dev8 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v93 : BitVec 32 := Scalar.muli v6 c2_i32_63
  let v94 : BitVec 32 := Scalar.addi c0_i32_64 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v95 : BitVec 32 := Scalar.muli v5 c1_i32_65
  let v96 : BitVec 32 := Scalar.addi v94 v95
  v96.toNat
def k0_dev9 (d0 : Dev nD) : Nat :=
  let c0_i32_72 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_71 : BitVec 32 := 2#32
  let v106 : BitVec 32 := Scalar.muli v6 c2_i32_71
  let v107 : BitVec 32 := Scalar.addi c0_i32_72 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_73 : BitVec 32 := 1#32
  let v108 : BitVec 32 := Scalar.muli v5 c1_i32_73
  let v109 : BitVec 32 := Scalar.addi v107 v108
  v109.toNat
def k0_dev10 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v119 : BitVec 32 := Scalar.muli v6 c2_i32_79
  let v120 : BitVec 32 := Scalar.addi c0_i32_80 v119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v121 : BitVec 32 := Scalar.muli v5 c1_i32_81
  let v122 : BitVec 32 := Scalar.addi v120 v121
  v122.toNat
def k0_dev11 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v132 : BitVec 32 := Scalar.muli v6 c2_i32_87
  let v133 : BitVec 32 := Scalar.addi c0_i32_88 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v134 : BitVec 32 := Scalar.muli v5 c1_i32_89
  let v135 : BitVec 32 := Scalar.addi v133 v134
  v135.toNat
def k0_dev12 (d0 : Dev nD) : Nat :=
  let c0_i32_96 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_95 : BitVec 32 := 2#32
  let v145 : BitVec 32 := Scalar.muli v6 c2_i32_95
  let v146 : BitVec 32 := Scalar.addi c0_i32_96 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_97 : BitVec 32 := 1#32
  let v147 : BitVec 32 := Scalar.muli v5 c1_i32_97
  let v148 : BitVec 32 := Scalar.addi v146 v147
  v148.toNat
def k0_dev13 (d0 : Dev nD) : Nat :=
  let c0_i32_104 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_103 : BitVec 32 := 2#32
  let v158 : BitVec 32 := Scalar.muli v6 c2_i32_103
  let v159 : BitVec 32 := Scalar.addi c0_i32_104 v158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v160 : BitVec 32 := Scalar.muli v5 c1_i32_105
  let v161 : BitVec 32 := Scalar.addi v159 v160
  v161.toNat
def k0_dev14 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v171 : BitVec 32 := Scalar.muli v6 c2_i32_111
  let v172 : BitVec 32 := Scalar.addi c0_i32_112 v171
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v173 : BitVec 32 := Scalar.muli v5 c1_i32_113
  let v174 : BitVec 32 := Scalar.addi v172 v173
  v174.toNat
def k0_dev15 (d0 : Dev nD) : Nat :=
  let c0_i32_120 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_119 : BitVec 32 := 2#32
  let v184 : BitVec 32 := Scalar.muli v6 c2_i32_119
  let v185 : BitVec 32 := Scalar.addi c0_i32_120 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v186 : BitVec 32 := Scalar.muli v5 c1_i32_121
  let v187 : BitVec 32 := Scalar.addi v185 v186
  v187.toNat
def k0_dev16 (d0 : Dev nD) : Nat :=
  let c0_i32_128 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_127 : BitVec 32 := 2#32
  let v197 : BitVec 32 := Scalar.muli v6 c2_i32_127
  let v198 : BitVec 32 := Scalar.addi c0_i32_128 v197
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_129 : BitVec 32 := 1#32
  let v199 : BitVec 32 := Scalar.muli v5 c1_i32_129
  let v200 : BitVec 32 := Scalar.addi v198 v199
  v200.toNat
def k0_dev17 (d0 : Dev nD) : Nat :=
  let c0_i32_136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_135 : BitVec 32 := 2#32
  let v210 : BitVec 32 := Scalar.muli v6 c2_i32_135
  let v211 : BitVec 32 := Scalar.addi c0_i32_136 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v212 : BitVec 32 := Scalar.muli v5 c1_i32_137
  let v213 : BitVec 32 := Scalar.addi v211 v212
  v213.toNat
def k0_dev18 (d0 : Dev nD) : Nat :=
  let c0_i32_144 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_143 : BitVec 32 := 2#32
  let v223 : BitVec 32 := Scalar.muli v6 c2_i32_143
  let v224 : BitVec 32 := Scalar.addi c0_i32_144 v223
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_145 : BitVec 32 := 1#32
  let v225 : BitVec 32 := Scalar.muli v5 c1_i32_145
  let v226 : BitVec 32 := Scalar.addi v224 v225
  v226.toNat
def k0_off4 (d0 : Dev nD) (c0_i32_155 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_14 : BitVec 32 := 512#32
  let v22 : BitVec 32 := Scalar.muli v6 c512_i32_14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_15 : BitVec 32 := 256#32
  let v23 : BitVec 32 := Scalar.muli v5 c256_i32_15
  let v24 : BitVec 32 := Scalar.addi v22 v23
  let v241 : BitVec 32 := Scalar.addi v24 c0_i32_155
  let c0_i32_161 : BitVec 32 := 0#32
  ![v241.toNat, 0]
def k0_dev19 (d0 : Dev nD) : Nat :=
  let c0_i32_159 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_158 : BitVec 32 := 2#32
  let v242 : BitVec 32 := Scalar.muli v2 c2_i32_158
  let v243 : BitVec 32 := Scalar.addi c0_i32_159 v242
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_160 : BitVec 32 := 1#32
  let v244 : BitVec 32 := Scalar.muli v7 c1_i32_160
  let v245 : BitVec 32 := Scalar.addi v243 v244
  v245.toNat
def k0_dev20 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_173 : BitVec 32 := 2#32
  let v261 : BitVec 32 := Scalar.muli v2 c2_i32_173
  let v262 : BitVec 32 := Scalar.addi c0_i32_174 v261
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_175 : BitVec 32 := 1#32
  let v263 : BitVec 32 := Scalar.muli v7 c1_i32_175
  let v264 : BitVec 32 := Scalar.addi v262 v263
  v264.toNat
def k0_dev21 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v280 : BitVec 32 := Scalar.muli v2 c2_i32_188
  let v281 : BitVec 32 := Scalar.addi c0_i32_189 v280
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_190 : BitVec 32 := 1#32
  let v282 : BitVec 32 := Scalar.muli v7 c1_i32_190
  let v283 : BitVec 32 := Scalar.addi v281 v282
  v283.toNat
def k0_dev22 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v299 : BitVec 32 := Scalar.muli v2 c2_i32_203
  let v300 : BitVec 32 := Scalar.addi c0_i32_204 v299
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_205 : BitVec 32 := 1#32
  let v301 : BitVec 32 := Scalar.muli v7 c1_i32_205
  let v302 : BitVec 32 := Scalar.addi v300 v301
  v302.toNat
def k0_dev23 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v318 : BitVec 32 := Scalar.muli v2 c2_i32_218
  let v319 : BitVec 32 := Scalar.addi c0_i32_219 v318
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_220 : BitVec 32 := 1#32
  let v320 : BitVec 32 := Scalar.muli v7 c1_i32_220
  let v321 : BitVec 32 := Scalar.addi v319 v320
  v321.toNat
def k0_dev24 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v337 : BitVec 32 := Scalar.muli v2 c2_i32_233
  let v338 : BitVec 32 := Scalar.addi c0_i32_234 v337
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_235 : BitVec 32 := 1#32
  let v339 : BitVec 32 := Scalar.muli v7 c1_i32_235
  let v340 : BitVec 32 := Scalar.addi v338 v339
  v340.toNat
def k0_dev25 (d0 : Dev nD) : Nat :=
  let c0_i32_249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_248 : BitVec 32 := 2#32
  let v356 : BitVec 32 := Scalar.muli v2 c2_i32_248
  let v357 : BitVec 32 := Scalar.addi c0_i32_249 v356
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_250 : BitVec 32 := 1#32
  let v358 : BitVec 32 := Scalar.muli v7 c1_i32_250
  let v359 : BitVec 32 := Scalar.addi v357 v358
  v359.toNat
def k0_dev26 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v375 : BitVec 32 := Scalar.muli v2 c2_i32_263
  let v376 : BitVec 32 := Scalar.addi c0_i32_264 v375
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_265 : BitVec 32 := 1#32
  let v377 : BitVec 32 := Scalar.muli v7 c1_i32_265
  let v378 : BitVec 32 := Scalar.addi v376 v377
  v378.toNat
def k0_dev27 (d0 : Dev nD) : Nat :=
  let c0_i32_279 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_278 : BitVec 32 := 2#32
  let v394 : BitVec 32 := Scalar.muli v2 c2_i32_278
  let v395 : BitVec 32 := Scalar.addi c0_i32_279 v394
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_280 : BitVec 32 := 1#32
  let v396 : BitVec 32 := Scalar.muli v7 c1_i32_280
  let v397 : BitVec 32 := Scalar.addi v395 v396
  v397.toNat
def k0_dev28 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v413 : BitVec 32 := Scalar.muli v2 c2_i32_293
  let v414 : BitVec 32 := Scalar.addi c0_i32_294 v413
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_295 : BitVec 32 := 1#32
  let v415 : BitVec 32 := Scalar.muli v7 c1_i32_295
  let v416 : BitVec 32 := Scalar.addi v414 v415
  v416.toNat
def k0_dev29 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v432 : BitVec 32 := Scalar.muli v2 c2_i32_308
  let v433 : BitVec 32 := Scalar.addi c0_i32_309 v432
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_310 : BitVec 32 := 1#32
  let v434 : BitVec 32 := Scalar.muli v7 c1_i32_310
  let v435 : BitVec 32 := Scalar.addi v433 v434
  v435.toNat
def k0_dev30 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_323 : BitVec 32 := 2#32
  let v451 : BitVec 32 := Scalar.muli v2 c2_i32_323
  let v452 : BitVec 32 := Scalar.addi c0_i32_324 v451
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_325 : BitVec 32 := 1#32
  let v453 : BitVec 32 := Scalar.muli v7 c1_i32_325
  let v454 : BitVec 32 := Scalar.addi v452 v453
  v454.toNat
def k0_dev31 (d0 : Dev nD) : Nat :=
  let c0_i32_339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_338 : BitVec 32 := 2#32
  let v470 : BitVec 32 := Scalar.muli v2 c2_i32_338
  let v471 : BitVec 32 := Scalar.addi c0_i32_339 v470
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_340 : BitVec 32 := 1#32
  let v472 : BitVec 32 := Scalar.muli v7 c1_i32_340
  let v473 : BitVec 32 := Scalar.addi v471 v472
  v473.toNat
def k0_dev32 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v489 : BitVec 32 := Scalar.muli v2 c2_i32_353
  let v490 : BitVec 32 := Scalar.addi c0_i32_354 v489
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_355 : BitVec 32 := 1#32
  let v491 : BitVec 32 := Scalar.muli v7 c1_i32_355
  let v492 : BitVec 32 := Scalar.addi v490 v491
  v492.toNat
def k0_dev33 (d0 : Dev nD) : Nat :=
  let c0_i32_369 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_368 : BitVec 32 := 2#32
  let v508 : BitVec 32 := Scalar.muli v2 c2_i32_368
  let v509 : BitVec 32 := Scalar.addi c0_i32_369 v508
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_370 : BitVec 32 := 1#32
  let v510 : BitVec 32 := Scalar.muli v7 c1_i32_370
  let v511 : BitVec 32 := Scalar.addi v509 v510
  v511.toNat
def k0_dev34 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v527 : BitVec 32 := Scalar.muli v2 c2_i32_383
  let v528 : BitVec 32 := Scalar.addi c0_i32_384 v527
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_385 : BitVec 32 := 1#32
  let v529 : BitVec 32 := Scalar.muli v7 c1_i32_385
  let v530 : BitVec 32 := Scalar.addi v528 v529
  v530.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  hcc0_scratch0 : 2 + S16.numel ≤ 67
  hcc0_scratch1 : 18 + S16.numel ≤ 67
  hcc0_scratch2 : 34 + S16.numel ≤ 67
  hcc0_scratch3 : 50 + S16.numel ≤ 67
  hcc0_scratch4 : 66 + S_.numel ≤ 67
  k0_off1_inb : ∀ d0 : Dev nD, ∀ a, (k0_off1 d0) a + S512x512.size a ≤ S1024x512.size a
  k0_dev1_lt : ∀ d0 : Dev nD, (k0_dev1 d0) < nD
  k0_dev2_lt : ∀ d0 : Dev nD, (k0_dev2 d0) < nD
  k0_off2_inb : ∀ d0 : Dev nD, ∀ (r : Fin 16), ∀ a, (k0_off2 d0 (BitVec.ofNat 32 (16 * r.val))) a + S16x512.size a ≤ S1024x512.size a
  k0_off3_inb : ∀ d0 : Dev nD, ∀ (r : Fin 16), ∀ a, (k0_off3 d0 (BitVec.ofNat 32 (16 * r.val))) a + S16x512.size a ≤ S512x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off4_inb : ∀ d0 : Dev nD, ∀ (r : Fin 16), ∀ a, (k0_off4 d0 (BitVec.ofNat 32 (16 * r.val))) a + S16x512.size a ≤ S1024x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  hstage0_0 : ∀ j, (stage0_0 j).IsWhole
  hstage0_1 : ∀ j, (stage0_1 j).IsWhole

variable [Facts₀]

abbrev cc0_scratch0 : DmaSems sig S16 := SemArray.consecutive 2 S16 hcc0_scratch0
abbrev cc0_scratch1 : DmaSems sig S16 := SemArray.consecutive 18 S16 hcc0_scratch1
abbrev cc0_scratch2 : DmaSems sig S16 := SemArray.consecutive 34 S16 hcc0_scratch2
abbrev cc0_scratch3 : DmaSems sig S16 := SemArray.consecutive 50 S16 hcc0_scratch3
abbrev cc0_scratch4 : DmaSems sig S_ := SemArray.consecutive 66 S_ hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Kernel.AgDefs.lean ====
/-
  The all-gather on the 2 × 2 mesh, shared vocabulary: the two peers of a device, the slices of the staged
  operand and of the staged result the copies move, the semaphore cells, the result each device ends with, and
  the rounds schedule (one round per cell) whose payloads say what each landing hands its waiter.

  Device c = (x, y) has logical id 2 x + y. Its block of the operand is rows 512 x … 512 x + 511 of the whole
  array. The result buffer of c is filled from three sides: rows 512 x … by its own local copy; rows
  512 (1 - x) + 256 y … (sixteen chunks of sixteen rows) by the device across the x axis, from that device's
  own block; rows 512 (1 - x) + 256 (1 - y) … by the device across the y axis, which forwards what it received
  from ITS x-neighbour. Every device thus ends with both blocks, each in place.
-/
import proofs.«900089_g7700000000000090_dist_ag_v7x_xy2x2_x_m512_n512_f32_1_alg».proof.Proof.Gen.Kernel
import proofs.«900089_g7700000000000090_dist_ag_v7x_xy2x2_x_m512_n512_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Ring
import Idealize.ShloMosaic.Lib.Tactic

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by Bool) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The peers -/

/-- The device across the x axis: (1 - x, y). -/
def px (c : Dev nD) : Dev nD := ⟨(c.val + 2) % 4, Nat.mod_lt _ (by decide)⟩
/-- The device across the y axis: (x, 1 - y). -/
def py (c : Dev nD) : Dev nD := ⟨2 * (c.val / 2) + (c.val + 1) % 2, by have := c.isLt; revert this; generalize c.val = v; decide +revert⟩

theorem px_px (c : Dev nD) : px (px c) = c := by revert c; decide
theorem py_py (c : Dev nD) : py (py c) = c := by revert c; decide
theorem px_py (c : Dev nD) : px (py c) = py (px c) := by revert c; decide
theorem px_ne (c : Dev nD) : px c ≠ c := by revert c; decide
theorem py_ne (c : Dev nD) : py c ≠ c := by revert c; decide
theorem px_ne_py (c : Dev nD) : px c ≠ py c := by revert c; decide

def swapX : Dev nD ≃ Dev nD := ⟨px, px, px_px, px_px⟩
def swapY : Dev nD ≃ Dev nD := ⟨py, py, py_py, py_py⟩

/-- A device-id chain that names the x-peer, in closed form. -/
theorem devX_of {n : ℕ} (c : Dev nD) (h : n < nD) (e : n = ((c.val % 2) + 2) - 2 * (c.val / 2)) : (⟨n, h⟩ : Dev nD) = px c := by
  subst e; revert c; decide
/-- A device-id chain that names the y-peer, in closed form. -/
theorem devY_of {n : ℕ} (c : Dev nD) (h : n < nD) (e : n = (2 * (c.val / 2) + 1) - (c.val % 2)) : (⟨n, h⟩ : Dev nD) = py c := by
  subst e; revert c; decide

/-! ## The memrefs -/

/-- The staged operand block and the staged result, whole. -/
abbrev xM : Memref sig .tc .vmem S512x512 .f32 := Memref.whole cc0_stg0_0
abbrev oM : Memref sig .tc .vmem S1024x512 .f32 := Memref.whole cc0_stg1_0

/-- Chunk k's constant row offset, as the program passes it. -/
abbrev wk (k : Fin 16) : BitVec 32 := BitVec.ofNat 32 (16 * k.val)

/-- Where the local copy lands: rows 512 x … of the result. -/
abbrev locDst (c : Dev nD) : Memref sig .tc .vmem S512x512 .f32 :=
  oM.slice (Rect.unit (s := S1024x512) (k0_off1 c) S512x512.size (k0_off1_inb c)) (fun _ => rfl)
/-- Chunk k of what c sends across x: rows 256 y + 16 k … of its operand block. -/
abbrev p1Src (c : Dev nD) (k : Fin 16) : Memref sig .tc .vmem S16x512 .f32 :=
  xM.slice (Rect.unit (s := S512x512) (k0_off3 c (wk k)) S16x512.size (k0_off3_inb c k)) (fun _ => rfl)
/-- Where it lands in the x-peer's result: rows 512 x + 256 y + 16 k …. -/
abbrev p1Dst (c : Dev nD) (k : Fin 16) : Memref sig .tc .vmem S16x512 .f32 :=
  oM.slice (Rect.unit (s := S1024x512) (k0_off2 c (wk k)) S16x512.size (k0_off2_inb c k)) (fun _ => rfl)
/-- Chunk k of what c forwards across y, source and destination alike: rows 512 (1 - x) + 256 y + 16 k …. -/
abbrev p2Buf (c : Dev nD) (k : Fin 16) : Memref sig .tc .vmem S16x512 .f32 :=
  oM.slice (Rect.unit (s := S1024x512) (k0_off4 c (wk k)) S16x512.size (k0_off4_inb c k)) (fun _ => rfl)

/-- What a transfer of one chunk credits, and what the local copy credits. -/
abbrev N16 : ℕ := (p2Buf (0 : Dev nD) 0).view.dmaCredit
abbrev NL : ℕ := (locDst (0 : Dev nD)).view.dmaCredit
theorem N16_pos : 0 < N16 := View.dmaCredit_pos _ (by decide)
theorem NL_pos : 0 < NL := View.dmaCredit_pos _ (by decide)

/-! ## The cells -/

abbrev barS : Sem sig := (SemArray.scalar (sig.barrier 0 rfl) : Sems sig S_).sem
/-- The four semaphore arrays of sixteen, in the kernel's order: departures across x, arrivals across x,
    departures across y, arrivals across y. -/
abbrev dsem (j : Fin 4) (k : Fin 16) : DmaSem sig :=
  ⟨2 + 16 * j.val + k.val, by have := j.isLt; have := k.isLt; show 2 + 16 * j.val + k.val < 67; omega⟩
abbrev s1S (k : Fin 16) : DmaSem sig := dsem 0 k
abbrev r1S (k : Fin 16) : DmaSem sig := dsem 1 k
abbrev s2S (k : Fin 16) : DmaSem sig := dsem 2 k
abbrev r2S (k : Fin 16) : DmaSem sig := dsem 3 k
abbrev locS : DmaSem sig := ⟨66, by decide⟩

abbrev barCell (c : Dev nD) : GSem nD τ sig := ((c : Thread nD τ), .reg barS)
abbrev locCell (c : Dev nD) : GSem nD τ sig := ((c : Thread nD τ), .dma locS)
abbrev dCell (c : Dev nD) (j : Fin 4) (k : Fin 16) : GSem nD τ sig := ((c : Thread nD τ), .dma (dsem j k))
abbrev s1Cell (c : Dev nD) (k : Fin 16) : GSem nD τ sig := dCell c 0 k
abbrev r1Cell (c : Dev nD) (k : Fin 16) : GSem nD τ sig := dCell c 1 k
abbrev s2Cell (c : Dev nD) (k : Fin 16) : GSem nD τ sig := dCell c 2 k
abbrev r2Cell (c : Dev nD) (k : Fin 16) : GSem nD τ sig := dCell c 3 k

/-- The kernel's own (scoped) semaphores as the launch indexes them: the local copy's, then the four arrays. -/
abbrev OIx : Type := Unit ⊕ (Fin 4 × Fin 16)
abbrev osem : OIx → SemLoc sig
  | .inl _ => .dma locS
  | .inr jk => .dma (dsem jk.1 jk.2)
/-- All the protocol's semaphores: the barrier, then the own ones. -/
abbrev CIx : Type := Unit ⊕ OIx
abbrev csem : CIx → SemLoc sig
  | .inl _ => .reg barS
  | .inr i => osem i
abbrev kcell (ck : Dev nD × CIx) : GSem nD τ sig := ((ck.1 : Thread nD τ), csem ck.2)

/-- Which of the protocol's cells a semaphore is. -/
inductive CK | bar | loc | d (j : Fin 4) (k : Fin 16) | other
  deriving DecidableEq

def kindOf : SemLoc sig → CK
  | .reg s => if s = barS then .bar else .other
  | .dma q =>
    if h : 2 ≤ q.val ∧ q.val < 66 then .d ⟨(q.val - 2) / 16, by omega⟩ ⟨(q.val - 2) % 16, Nat.mod_lt _ (by decide)⟩
    else if q.val = 66 then .loc else .other

/-! ## Contents -/

/-- Device c's staged operand block: its block of the whole operand as launched. -/
def Xc (c : Dev nD) : (cc0_stg0_0 : Ref sig .tc).ty.Contents (Elt F) :=
  (win0_0.blk (0 : Fin 1)).view.read (Elt F) ((s₀ m ρ).mem ((c : Thread nD τ).loc main_arg0))

/-- Row r (of 1024), column j of the result, read in a device's operand block. -/
abbrev inBlk (i : S1024x512.Idx) : S512x512.Idx :=
  fun d => match d with
    | ⟨0, _⟩ => (⟨(i 0).val % 512, Nat.mod_lt _ (by decide)⟩ : Fin 512)
    | ⟨1, _⟩ => (⟨(i 1).val, (i 1).isLt⟩ : Fin 512)

/-- What device c's result buffer ends holding: rows of its own half from its own block; of the other half, the
    quarter of its own y from its x-peer's block, the other quarter from the block of the device diagonal to it. -/
def Gout (c : Dev nD) : (cc0_stg1_0 : Ref sig .tc).ty.Contents (Elt F) := fun i =>
  if (i 0).val / 512 = c.val / 2 then Xc m ρ c (inBlk i)
  else if ((i 0).val % 512) / 256 = c.val % 2 then Xc m ρ (px c) (inBlk i)
  else Xc m ρ (px (py c)) (inBlk i)

/-! ## The payloads -/

/-- What the x-peer's barrier signal hands c: the sixteen landing chunks in the x-peer's result that c's transfers
    across x will write. -/
def barPayX (c : Dev nD) : sProp 𝕄 :=
  bigSep Finset.univ fun k : Fin 16 => iprop(∃ f, (p1Dst c k).view.loc (px c : Thread nD τ) ↦[(p1Dst c k).view.set]{fullShare} f)
/-- What the y-peer's barrier signal hands c: the sixteen landing chunks in the y-peer's result that c's forwards
    across y will write. -/
def barPayY (c : Dev nD) : sProp 𝕄 :=
  bigSep Finset.univ fun k : Fin 16 => iprop(∃ f, (p2Buf c k).view.loc (py c : Thread nD τ) ↦[(p2Buf c k).view.set]{fullShare} f)
/-- The local copy done: c's own half of the result in place, and the operand share lent to it back. -/
def locPay (c : Dev nD) : sProp 𝕄 :=
  iprop(((locDst c).view.loc (c : Thread nD τ) ↦[(locDst c).view.set]{fullShare} Gout m ρ c)
    ∗ ((xM : Memref sig .tc .vmem S512x512 .f32).view.loc (c : Thread nD τ) ↦[(xM : Memref sig .tc .vmem S512x512 .f32).view.set]{fullShare.left} Xc m ρ c))
/-- Chunk k read out across x: the source chunk's share back. -/
def s1Pay (c : Dev nD) (k : Fin 16) : sProp 𝕄 :=
  (p1Src c k).view.loc (c : Thread nD τ) ↦[(p1Src c k).view.set]{fullShare.right} Xc m ρ c
/-- Chunk k landed from the x-peer (and, the same assertion, chunk k read out across y): those rows in place. -/
def r1Pay (c : Dev nD) (k : Fin 16) : sProp 𝕄 :=
  (p2Buf c k).view.loc (c : Thread nD τ) ↦[(p2Buf c k).view.set]{fullShare} Gout m ρ c
/-- Chunk k landed from the y-peer: those rows in place. -/
def r2Pay (c : Dev nD) (k : Fin 16) : sProp 𝕄 :=
  (p2Buf (py c) k).view.loc (c : Thread nD τ) ↦[(p2Buf (py c) k).view.set]{fullShare} Gout m ρ c

/-! ## The schedule: one round per cell -/

/-- What a unit on cell (j, k) of device c hands c: a departure, its source chunk back; an arrival, the rows in place. -/
def dPay (c : Dev nD) (j : Fin 4) (k : Fin 16) : sProp 𝕄 := match j with
  | 0 => s1Pay m ρ c k
  | 1 => r1Pay m ρ c k
  | 2 => r1Pay m ρ c k
  | 3 => r2Pay m ρ c k

def agRd : Rounds.Schedule (GSem nD τ sig) Bool 𝕄 where
  duties g r :=
    if g.1.2 = .tc ∧ r = 0 then
      match kindOf g.2 with
      | .bar => Finset.univ
      | .other => ∅
      | _ => {false}
    else ∅
  unitless _ := False
  amount g _ _ := match kindOf g.2 with
    | .bar => 1
    | .other => 1
    | .loc => NL
    | .d _ _ => N16
  payload g _ d := match kindOf g.2 with
    | .bar => if d then barPayY g.1.1 else barPayX g.1.1
    | .loc => locPay m ρ g.1.1
    | .d j k => dPay m ρ g.1.1 j k
    | .other => iprop(emp)
  amount_pos g _ _ _ := by
    cases kindOf g.2 <;> first | exact Nat.one_pos | exact NL_pos | exact N16_pos

instance dPay_storable (c : Dev nD) (j : Fin 4) (k : Fin 16) : BI.Storable (upEmb : UEmb _ 𝕄) (dPay (F := F) m ρ c j k) := by
  unfold dPay s1Pay r1Pay r2Pay
  split <;> infer_instance

instance agRd_payload_storable (g : GSem nD τ sig) (r : ℕ) (d : Bool) :
    BI.Storable (upEmb : UEmb _ 𝕄) ((agRd (F := F) m ρ).payload g r d) := by
  show BI.Storable upEmb (match kindOf g.2 with
    | .bar => if d then barPayY g.1.1 else barPayX g.1.1
    | .loc => locPay m ρ g.1.1
    | .d j k => dPay m ρ g.1.1 j k
    | .other => iprop(emp))
  unfold barPayX barPayY locPay
  split <;> (try split) <;> infer_instance

/-! ## What each device owes at launch; the levels -/

/-- The arrivals across x from chunk n on, and across y from chunk n on, that c still owes. -/
def owe1 (c : Dev nD) (n : ℕ) : CellTallies nD τ sig Unit :=
  ∑ k ∈ Ring.rangeSet 16 n 16, tallyAt (r1Cell (px c) k) () N16
def owe2 (c : Dev nD) (n : ℕ) : CellTallies nD τ sig Unit :=
  ∑ k ∈ Ring.rangeSet 16 n 16, tallyAt (r2Cell (py c) k) () N16

/-- After both barrier signals; after the first; at launch (the first signal, to the x-peer, peels the last summand). -/
def O₂ (c : Dev nD) : CellTallies nD τ sig Unit := owe2 c 0 + owe1 c 0
def O₁ (c : Dev nD) : CellTallies nD τ sig Unit := O₂ c + tallyAt (barCell (py c)) () 1
def O₀ (c : Dev nD) : CellTallies nD τ sig Unit := O₁ c + tallyAt (barCell (px c)) () 1

def L (g : GSem nD τ sig) : Finset Unit := if g.1.2 = .tc then {()} else ∅
/-- The barrier at 1, the arrivals across x at 2, the arrivals across y at 3, everything else at 0. -/
def lv (g : GSem nD τ sig) (_ : Unit) : ℕ := match kindOf g.2 with
  | .bar => 1
  | .d j _ => if j = 1 then 2 else if j = 3 then 3 else 0
  | _ => 0

/-! ## The ghost state a device starts from, and the pipeline's proof data -/

/-- Every cell's invariant under the names the launch allocated, and that round 0 of every cell is reached. -/
def records (K : Dev nD × CIx → ℕ) : sProp 𝕄 :=
  iprop((bigSep Finset.univ fun ck : Dev nD × CIx => cellInv ER (agRd m ρ) (K ck) (kcell ck))
    ∗ bigSep Finset.univ fun ck : Dev nD × CIx => reached ER (kcell ck) 0)

instance records_persistent (K : Dev nD × CIx → ℕ) : BI.Persistent (records m ρ K) := by unfold records; infer_instance

/-- The tokens of the duties device c pays: the x-peer's barrier duty false, the y-peer's barrier duty true, its
    local copy's, and per chunk its two departures and the two arrivals on its peers. -/
def payToks (c : Dev nD) : sProp 𝕄 :=
  iprop(dutyTok ER (barCell (px c)) 0 false ∗ dutyTok ER (barCell (py c)) 0 true ∗ dutyTok ER (locCell c) 0 false
    ∗ (bigSep Finset.univ fun k : Fin 16 => dutyTok ER (s1Cell c k) 0 false)
    ∗ (bigSep Finset.univ fun k : Fin 16 => dutyTok ER (r1Cell (px c) k) 0 false)
    ∗ (bigSep Finset.univ fun k : Fin 16 => dutyTok ER (s2Cell c k) 0 false)
    ∗ (bigSep Finset.univ fun k : Fin 16 => dutyTok ER (r2Cell (py c) k) 0 false))

/-- Device c's positions on its own cells. -/
def poss (c : Dev nD) : sProp 𝕄 :=
  iprop(atPos ER (barCell c) 0 ∅ 0 ∗ atPos ER (locCell c) 0 ∅ 0
    ∗ bigSep Finset.univ fun jk : Fin 4 × Fin 16 => atPos ER (dCell c jk.1 jk.2) 0 ∅ 0)

def ghost (K : Dev nD × CIx → ℕ) (c : Dev nD) : sProp 𝕄 := iprop(records m ρ K ∗ poss c ∗ payToks c)

/-- The credit dealt at launch for what others owe c's cells. -/
def creds0 (c : Dev nD) : sProp 𝕄 :=
  iprop(cred (tallyAt (barCell c) () 2)
    ∗ (bigSep Finset.univ fun k : Fin 16 => cred (tallyAt (r1Cell c k) () N16))
    ∗ (bigSep Finset.univ fun k : Fin 16 => cred (tallyAt (r2Cell c k) () N16)))

def start (c : Dev nD) : sProp 𝕄 := iprop((∃ K, ghost m ρ K c) ∗ creds0 c ∗ levAts L lv)

def Φ₀ (c : Dev nD) : sProp 𝕄 := start m ρ c
/-- After the point: the kernel's own cells closed, their counters at zero. -/
def Φ₁ (c : Dev nD) : sProp 𝕄 := bigSep Finset.univ fun i : OIx => semVal ((c : Thread nD τ), osem i) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xc m ρ c
    | ⟨1, _⟩ => Gout m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Kernel.AG

end
-- ==== Proof.Kernel.AgSched.lean ====
/-
  The schedule's tables, computed: per cell its duties, amounts, expected units and payloads at round 0, and that no
  later round has a duty; the semaphores as the program spells them.
-/
import proofs.«900089_g7700000000000090_dist_ag_v7x_xy2x2_x_m512_n512_f32_1_alg».proof.Proof.Kernel.AgDefs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell a semaphore is -/

theorem kindOf_bar : kindOf (.reg barS : SemLoc sig) = .bar := by decide
theorem kindOf_loc : kindOf (.dma locS : SemLoc sig) = .loc := by decide
theorem kindOf_d (j : Fin 4) (k : Fin 16) : kindOf (.dma (dsem j k) : SemLoc sig) = .d j k := by revert j k; decide
/-- The pipeline's two staging semaphores are none of the protocol's. -/
theorem kindOf_stage (q : DmaSem sig) (hq : q.val < 2) : kindOf (.dma q : SemLoc sig) = .other := by
  unfold kindOf
  dsimp only
  rw [dif_neg (by omega), if_neg (by omega)]

/-! ## The semaphores as the program spells them: slot k of each array, squeezed -/

theorem inbS (k : Fin 16) : ∀ a, (![k.val] : Fin 1 → Nat) a + S1.size a ≤ S16.size a := by revert k; decide
theorem sem_s1 (k : Fin 16) (h) : ((SemArray.slice cc0_scratch0 (Rect.unit (s := S16) ![k.val] S1.size h)).squeeze S_ squeezes_S1_S_).sem = s1S k := by
  revert h; revert k; decide
theorem sem_r1 (k : Fin 16) (h) : ((SemArray.slice cc0_scratch1 (Rect.unit (s := S16) ![k.val] S1.size h)).squeeze S_ squeezes_S1_S_).sem = r1S k := by
  revert h; revert k; decide
theorem sem_s2 (k : Fin 16) (h) : ((SemArray.slice cc0_scratch2 (Rect.unit (s := S16) ![k.val] S1.size h)).squeeze S_ squeezes_S1_S_).sem = s2S k := by
  revert h; revert k; decide
theorem sem_r2 (k : Fin 16) (h) : ((SemArray.slice cc0_scratch3 (Rect.unit (s := S16) ![k.val] S1.size h)).squeeze S_ squeezes_S1_S_).sem = r2S k := by
  revert h; revert k; decide
theorem sem_loc : (cc0_scratch4 : DmaSems sig S_).sem = locS := by decide

/-! ## The tables -/

section Sched
variable (c : Dev nD) (j : Fin 4) (k : Fin 16)

theorem duties_bar : (agRd (F := F) m ρ).duties (barCell c) 0 = Finset.univ := by
  dsimp only [agRd]
  rw [if_pos ⟨rfl, rfl⟩, kindOf_bar]
theorem duties_loc : (agRd (F := F) m ρ).duties (locCell c) 0 = {false} := by
  dsimp only [agRd]
  rw [if_pos ⟨rfl, rfl⟩, kindOf_loc]
theorem duties_d : (agRd (F := F) m ρ).duties (dCell c j k) 0 = {false} := by
  dsimp only [agRd]
  rw [if_pos ⟨rfl, rfl⟩, kindOf_d]
theorem duties_later (g : GSem nD τ sig) : ∀ r, 1 ≤ r → (agRd (F := F) m ρ).duties g r = ∅ := by
  intro r hr
  dsimp only [agRd]
  exact if_neg (fun h => by omega)

theorem amount_bar (r : ℕ) (d : Bool) : (agRd (F := F) m ρ).amount (barCell c) r d = 1 := by
  dsimp only [agRd]
  rw [kindOf_bar]
theorem amount_loc (r : ℕ) (d : Bool) : (agRd (F := F) m ρ).amount (locCell c) r d = NL := by
  dsimp only [agRd]
  rw [kindOf_loc]
theorem amount_d (r : ℕ) (d : Bool) : (agRd (F := F) m ρ).amount (dCell c j k) r d = N16 := by
  dsimp only [agRd]
  rw [kindOf_d]

theorem expect_bar : (agRd (F := F) m ρ).expect (barCell c) 0 = 2 := by
  unfold Schedule.expect Schedule.amountOf
  rw [duties_bar]
  simp only [amount_bar, Finset.sum_const, Finset.card_univ, Fintype.card_bool, smul_eq_mul]
theorem expect_loc : (agRd (F := F) m ρ).expect (locCell c) 0 = NL := by
  unfold Schedule.expect Schedule.amountOf
  rw [duties_loc, Finset.sum_singleton, amount_loc]
theorem expect_d : (agRd (F := F) m ρ).expect (dCell c j k) 0 = N16 := by
  unfold Schedule.expect Schedule.amountOf
  rw [duties_d, Finset.sum_singleton, amount_d]

theorem payload_bar_false (r : ℕ) : (agRd (F := F) m ρ).payload (barCell c) r false = barPayX c := by
  dsimp only [agRd]
  rw [kindOf_bar]; rfl
theorem payload_bar_true (r : ℕ) : (agRd (F := F) m ρ).payload (barCell c) r true = barPayY c := by
  dsimp only [agRd]
  rw [kindOf_bar]; rfl
theorem payload_loc (r : ℕ) (d : Bool) : (agRd (F := F) m ρ).payload (locCell c) r d = locPay m ρ c := by
  dsimp only [agRd]
  rw [kindOf_loc]
theorem payload_d (r : ℕ) (d : Bool) : (agRd (F := F) m ρ).payload (dCell c j k) r d = dPay m ρ c j k := by
  dsimp only [agRd]
  rw [kindOf_d]

/-! A wait for a whole round, no duty taken yet, gets the round's payloads. -/
theorem rest_bar : bigSep ((agRd (F := F) m ρ).duties (barCell c) 0 \ ∅) (fun d => (agRd (F := F) m ρ).payload (barCell c) 0 d) = iprop(barPayX c ∗ barPayY c) := by
  rw [duties_bar, Finset.sdiff_empty, bigSep_univ_eq_bigSepL [false, true] (by decide) (by decide), bigSepL_cons_cons,
    bigSepL_singleton, payload_bar_false, payload_bar_true]
  rfl
theorem rest_loc : bigSep ((agRd (F := F) m ρ).duties (locCell c) 0 \ ∅) (fun d => (agRd (F := F) m ρ).payload (locCell c) 0 d) = locPay m ρ c := by
  rw [duties_loc, Finset.sdiff_empty, bigSep_singleton, payload_loc]
theorem rest_d : bigSep ((agRd (F := F) m ρ).duties (dCell c j k) 0 \ ∅) (fun d => (agRd (F := F) m ρ).payload (dCell c j k) 0 d) = dPay m ρ c j k := by
  rw [duties_d, Finset.sdiff_empty, bigSep_singleton, payload_d]

end Sched

/-! ## A cell's invariant and its reached round 0, out of the records -/

theorem inv_at (K : Dev nD × CIx → ℕ) (ck : Dev nD × CIx) : records m ρ K ⊢ cellInv ER (agRd m ρ) (K ck) (kcell ck) := by
  unfold records
  exact (BI.sep_and.trans and_elimL).trans (bigSep_elim (Finset.mem_univ ck))
theorem reached_at (K : Dev nD × CIx → ℕ) (ck : Dev nD × CIx) : records m ρ K ⊢ (reached ER (kcell ck) 0 : sProp 𝕄) := by
  unfold records
  exact (BI.sep_and.trans and_elimR).trans (bigSep_elim (Finset.mem_univ ck))

end Cert.Kernel.AG

end
-- ==== Proof.Kernel.AgRegions.lean ====
/-
  The rows each slice covers; the result buffer cut into its thirty-three pieces and the operand block into its
  chunks; what each copy leaves where it lands.
-/
import proofs.«900089_g7700000000000090_dist_ag_v7x_xy2x2_x_m512_n512_f32_1_alg».proof.Proof.Kernel.AgDefs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Arithmetic on the mesh: the coordinates of the two peers -/

private theorem px_div (c : Dev nD) : (px c).val / 2 = 1 - c.val / 2 := by revert c; decide
private theorem px_mod (c : Dev nD) : (px c).val % 2 = c.val % 2 := by revert c; decide
private theorem py_div (c : Dev nD) : (py c).val / 2 = c.val / 2 := by revert c; decide
private theorem py_mod (c : Dev nD) : (py c).val % 2 = 1 - c.val % 2 := by revert c; decide

/-! ## Rows: a full-width unit rectangle holds an index exactly when it holds its row -/

private theorem mem_rows {R : ℕ} {off size : Fin 2 → ℕ} {inb : ∀ a, off a + size a ≤ (⟨2, ![R, 512]⟩ : Shape).size a}
    (r0 n : ℕ) (ho : off = ![r0, 0]) (hs : size = ![n, 512]) (i : (⟨2, ![R, 512]⟩ : Shape).Idx) :
    i ∈ (Rect.unit (s := ⟨2, ![R, 512]⟩) off size inb).set ↔ r0 ≤ (i 0).val ∧ (i 0).val < r0 + n := by
  subst ho hs
  have h1 : (i 1).val < 512 := (i 1).isLt
  rw [Rect.mem_set_unit]
  constructor
  · intro h; exact h 0
  · intro h
    refine Fin.forall_fin_two.mpr ⟨h, Nat.zero_le _, ?_⟩
    show (i 1).val < 0 + 512
    omega

/-- Two full-width unit rectangles whose row ranges are apart are disjoint. -/
private theorem rows_disjoint {R : ℕ} {off size off' size' : Fin 2 → ℕ}
    {inb : ∀ a, off a + size a ≤ (⟨2, ![R, 512]⟩ : Shape).size a} {inb' : ∀ a, off' a + size' a ≤ (⟨2, ![R, 512]⟩ : Shape).size a}
    (h : off 0 + size 0 ≤ off' 0 ∨ off' 0 + size' 0 ≤ off 0) :
    Disjoint (Rect.unit (s := ⟨2, ![R, 512]⟩) off size inb).set (Rect.unit (s := ⟨2, ![R, 512]⟩) off' size' inb').set :=
  Rect.unit_disjoint 0 h

/-! ## The slices' element sets and first rows -/

private theorem set_locDst (c : Dev nD) :
    (locDst c).view.set = (Rect.unit (s := S1024x512) (k0_off1 c) S512x512.size (k0_off1_inb c)).set :=
  View.set_slice_whole cc0_stg1_0 _
private theorem set_p1Dst (c : Dev nD) (k : Fin 16) :
    (p1Dst c k).view.set = (Rect.unit (s := S1024x512) (k0_off2 c (wk k)) S16x512.size (k0_off2_inb c k)).set :=
  View.set_slice_whole cc0_stg1_0 _
private theorem set_p1Src (c : Dev nD) (k : Fin 16) :
    (p1Src c k).view.set = (Rect.unit (s := S512x512) (k0_off3 c (wk k)) S16x512.size (k0_off3_inb c k)).set :=
  View.set_slice_whole cc0_stg0_0 _
private theorem set_p2Buf (c : Dev nD) (k : Fin 16) :
    (p2Buf c k).view.set = (Rect.unit (s := S1024x512) (k0_off4 c (wk k)) S16x512.size (k0_off4_inb c k)).set :=
  View.set_slice_whole cc0_stg1_0 _

private theorem off1_0 (c : Dev nD) : k0_off1 c 0 = 512 * (c.val / 2) := congrFun (k0_off1_eq c) 0
private theorem off2_0 (c : Dev nD) (k : Fin 16) : k0_off2 c (wk k) 0 = 512 * (c.val / 2) + 256 * (c.val % 2) + 16 * k.val :=
  congrFun (k0_off2_eq c k) 0
private theorem off3_0 (c : Dev nD) (k : Fin 16) : k0_off3 c (wk k) 0 = 256 * (c.val % 2) + 16 * k.val :=
  congrFun (k0_off3_eq c k) 0
private theorem off4_0 (c : Dev nD) (k : Fin 16) :
    k0_off4 c (wk k) 0 = (256 * (c.val % 2) + 16 * k.val + 512) - 512 * (c.val / 2) :=
  congrFun (k0_off4_eq c k) 0
private theorem off1_1 (c : Dev nD) : k0_off1 c 1 = 0 := congrFun (k0_off1_eq c) 1
private theorem off2_1 (c : Dev nD) (k : Fin 16) : k0_off2 c (wk k) 1 = 0 := congrFun (k0_off2_eq c k) 1
private theorem off3_1 (c : Dev nD) (k : Fin 16) : k0_off3 c (wk k) 1 = 0 := congrFun (k0_off3_eq c k) 1
private theorem off4_1 (c : Dev nD) (k : Fin 16) : k0_off4 c (wk k) 1 = 0 := congrFun (k0_off4_eq c k) 1

private theorem mem_locDst (c : Dev nD) (i : S1024x512.Idx) :
    i ∈ (locDst c).view.set ↔ 512 * (c.val / 2) ≤ (i 0).val ∧ (i 0).val < 512 * (c.val / 2) + 512 := by
  rw [set_locDst]; exact mem_rows _ 512 (k0_off1_eq c) rfl i
private theorem mem_p1Dst (c : Dev nD) (k : Fin 16) (i : S1024x512.Idx) :
    i ∈ (p1Dst c k).view.set ↔ 512 * (c.val / 2) + 256 * (c.val % 2) + 16 * k.val ≤ (i 0).val
      ∧ (i 0).val < 512 * (c.val / 2) + 256 * (c.val % 2) + 16 * k.val + 16 := by
  rw [set_p1Dst]; exact mem_rows _ 16 (k0_off2_eq c k) rfl i
private theorem mem_p1Src (c : Dev nD) (k : Fin 16) (i : S512x512.Idx) :
    i ∈ (p1Src c k).view.set ↔ 256 * (c.val % 2) + 16 * k.val ≤ (i 0).val ∧ (i 0).val < 256 * (c.val % 2) + 16 * k.val + 16 := by
  rw [set_p1Src]; exact mem_rows _ 16 (k0_off3_eq c k) rfl i
private theorem mem_p2Buf (c : Dev nD) (k : Fin 16) (i : S1024x512.Idx) :
    i ∈ (p2Buf c k).view.set ↔ (256 * (c.val % 2) + 16 * k.val + 512) - 512 * (c.val / 2) ≤ (i 0).val
      ∧ (i 0).val < (256 * (c.val % 2) + 16 * k.val + 512) - 512 * (c.val / 2) + 16 := by
  rw [set_p2Buf]; exact mem_rows _ 16 (k0_off4_eq c k) rfl i

/-! ## The slices as each other's: where c writes across x is where its x-peer forwards from -/

/-- The rows c's transfers across x write are the rows its x-peer forwards across y. -/
theorem p1Dst_eq (c : Dev nD) (k : Fin 16) : p1Dst c k = p2Buf (px c) k := by
  refine Memref.slice_unit_congr oM ?_ _ _ _ _
  rw [k0_off2_eq c k, k0_off4_eq (px c) k, px_div, px_mod]
  have hc : c.val < 4 := c.isLt
  congr 1
  omega

/-! ## Cutting the buffers -/

section Cut

variable {ℓ : Loc nD τ sig} {q : PosShare TreeShare} {f : Buf (Elt F) ℓ}

/-- A whole buffer cut into one region and two families of sixteen, all pairwise disjoint and covering it. -/
private theorem pointsTo_cut3 (A : Finset (Idx ℓ)) (B C : Fin 16 → Finset (Idx ℓ))
    (hB : ∀ k k', k ≠ k' → Disjoint (B k) (B k')) (hC : ∀ k k', k ≠ k' → Disjoint (C k) (C k'))
    (hAB : Disjoint A (Finset.univ.biUnion B ∪ Finset.univ.biUnion C))
    (hBC : Disjoint (Finset.univ.biUnion B) (Finset.univ.biUnion C))
    (hU : ∀ i, i ∈ A ∪ (Finset.univ.biUnion B ∪ Finset.univ.biUnion C)) :
    (ℓ ↦{q} f : sProp 𝕄)
      = iprop((ℓ ↦[A]{q} f) ∗ (bigSep Finset.univ fun k : Fin 16 => ℓ ↦[B k]{q} f)
          ∗ (bigSep Finset.univ fun k : Fin 16 => ℓ ↦[C k]{q} f)) := by
  have e1 : (ℓ ↦[A ∪ (Finset.univ.biUnion B ∪ Finset.univ.biUnion C)]{q} f : sProp 𝕄) ⊣⊢ _ := pointsTo_union hAB
  have e2 : (ℓ ↦[Finset.univ.biUnion B ∪ Finset.univ.biUnion C]{q} f : sProp 𝕄) ⊣⊢ _ := pointsTo_union hBC
  rw [← pointsTo_biUnion Finset.univ B (fun k _ k' _ h => hB k k' h),
    ← pointsTo_biUnion Finset.univ C (fun k _ k' _ h => hC k k' h),
    ← BI.equiv_iff.mp ⟨e2.1, e2.2⟩, ← BI.equiv_iff.mp ⟨e1.1, e1.2⟩, Finset.eq_univ_iff_forall.mpr hU]

/-- A whole buffer cut into a family of sixteen pairwise disjoint regions and the rest. -/
private theorem pointsTo_cut2 (B : Fin 16 → Finset (Idx ℓ)) (hB : ∀ k k', k ≠ k' → Disjoint (B k) (B k')) :
    (ℓ ↦{q} f : sProp 𝕄)
      = iprop((bigSep Finset.univ fun k : Fin 16 => ℓ ↦[B k]{q} f) ∗ ℓ ↦[Finset.univ \ Finset.univ.biUnion B]{q} f) := by
  have e1 : (ℓ ↦{q} f : sProp 𝕄) ⊣⊢ _ := pointsTo_split_subset (Finset.subset_univ (Finset.univ.biUnion B))
  rw [← pointsTo_biUnion Finset.univ B (fun k _ k' _ h => hB k k' h), ← BI.equiv_iff.mp ⟨e1.1, e1.2⟩]

end Cut

private theorem p2Buf_disjoint (c : Dev nD) (k k' : Fin 16) (h : k ≠ k') :
    Disjoint (p2Buf c k).view.set (p2Buf c k').view.set := by
  rw [set_p2Buf, set_p2Buf]
  refine rows_disjoint ?_
  rw [off4_0, off4_0]
  have hc : c.val < 4 := c.isLt
  have hk : k.val ≠ k'.val := fun e => h (Fin.ext e)
  show _ + 16 ≤ _ ∨ _ + 16 ≤ _
  omega

private theorem p1Src_disjoint (c : Dev nD) (k k' : Fin 16) (h : k ≠ k') :
    Disjoint (p1Src c k).view.set (p1Src c k').view.set := by
  rw [set_p1Src, set_p1Src]
  refine rows_disjoint ?_
  rw [off3_0, off3_0]
  have hk : k.val ≠ k'.val := fun e => h (Fin.ext e)
  show _ + 16 ≤ _ ∨ _ + 16 ≤ _
  omega

/-- The chunk rows of c's result that device d forwards from (or, on c's y-peer, into). -/
private abbrev chunkRows (d : Dev nD) (k : Fin 16) : Finset S1024x512.Idx := (p2Buf d k).view.set

/-- The result buffer of c, whole, is its own half, the sixteen chunks it receives across x (and forwards), and the
    sixteen it receives across y. -/
theorem out_split (c : Dev nD) (f : (cc0_stg1_0 : Ref sig .tc).ty.Contents (Elt F)) :
    (((c : Thread nD τ).loc cc0_stg1_0) ↦{fullShare} f : sProp 𝕄)
      ⊣⊢ iprop(((locDst c).view.loc (c : Thread nD τ) ↦[(locDst c).view.set]{fullShare} f)
        ∗ (bigSep Finset.univ fun k : Fin 16 => (p2Buf c k).view.loc (c : Thread nD τ) ↦[(p2Buf c k).view.set]{fullShare} f)
        ∗ (bigSep Finset.univ fun k : Fin 16 => (p2Buf (py c) k).view.loc (c : Thread nD τ) ↦[(p2Buf (py c) k).view.set]{fullShare} f)) := by
  have hc : c.val < 4 := c.isLt
  -- the three families of rows: the own half, the quarter of c's own y in the other half, the other quarter
  have hAB : Disjoint ((locDst c).view.set : Finset S1024x512.Idx)
      (Finset.univ.biUnion (chunkRows c) ∪ Finset.univ.biUnion (chunkRows (py c))) := by
    refine Finset.disjoint_left.mpr fun i hA hBC => ?_
    rw [mem_locDst] at hA
    rcases Finset.mem_union.mp hBC with hB | hC
    · obtain ⟨k, -, hk⟩ := Finset.mem_biUnion.mp hB
      rw [mem_p2Buf] at hk
      have := k.isLt
      omega
    · obtain ⟨k, -, hk⟩ := Finset.mem_biUnion.mp hC
      rw [mem_p2Buf, py_div, py_mod] at hk
      have := k.isLt
      omega
  have hBC : Disjoint (Finset.univ.biUnion (chunkRows c)) (Finset.univ.biUnion (chunkRows (py c))) := by
    refine Finset.disjoint_left.mpr fun i hB hC => ?_
    obtain ⟨k, -, hk⟩ := Finset.mem_biUnion.mp hB
    obtain ⟨k', -, hk'⟩ := Finset.mem_biUnion.mp hC
    rw [mem_p2Buf] at hk
    rw [mem_p2Buf, py_div, py_mod] at hk'
    have := k.isLt
    have := k'.isLt
    omega
  have hU : ∀ i : S1024x512.Idx, i ∈ ((locDst c).view.set : Finset S1024x512.Idx)
      ∪ (Finset.univ.biUnion (chunkRows c) ∪ Finset.univ.biUnion (chunkRows (py c))) := by
    intro i
    have hi : (i 0).val < 1024 := (i 0).isLt
    rw [Finset.mem_union, Finset.mem_union, mem_locDst]
    by_cases h1 : (i 0).val / 512 = c.val / 2
    · left; omega
    · right
      by_cases h2 : ((i 0).val % 512) / 256 = c.val % 2
      · left
        refine Finset.mem_biUnion.mpr ⟨⟨((i 0).val % 256) / 16, by omega⟩, Finset.mem_univ _, ?_⟩
        rw [mem_p2Buf]
        simp only [Fin.val_mk]
        constructor <;> omega
      · right
        refine Finset.mem_biUnion.mpr ⟨⟨((i 0).val % 256) / 16, by omega⟩, Finset.mem_univ _, ?_⟩
        rw [mem_p2Buf, py_div, py_mod]
        simp only [Fin.val_mk]
        constructor <;> omega
  exact BiEntails.of_eq (pointsTo_cut3 (ℓ := (c : Thread nD τ).loc cc0_stg1_0) (locDst c).view.set (chunkRows c) (chunkRows (py c))
    (p2Buf_disjoint c) (p2Buf_disjoint (py c)) hAB hBC hU)

/-- The rows of the operand block no transfer reads. -/
def xRest (c : Dev nD) : Finset (S512x512.Idx) :=
  Finset.univ \ (Finset.univ : Finset (Fin 16)).biUnion fun k => (p1Src c k).view.set

/-- A share of the operand block, whole, is the sixteen chunks sent across x and the rest. -/
theorem x_split (c : Dev nD) (q : PosShare TreeShare) (f : (cc0_stg0_0 : Ref sig .tc).ty.Contents (Elt F)) :
    (((c : Thread nD τ).loc cc0_stg0_0) ↦{q} f : sProp 𝕄)
      ⊣⊢ iprop((bigSep Finset.univ fun k : Fin 16 => (p1Src c k).view.loc (c : Thread nD τ) ↦[(p1Src c k).view.set]{q} f)
        ∗ (((c : Thread nD τ).loc cc0_stg0_0) ↦[xRest c]{q} f)) :=
  BiEntails.of_eq (pointsTo_cut2 (ℓ := (c : Thread nD τ).loc cc0_stg0_0) (fun k : Fin 16 => (p1Src c k).view.set)
    (p1Src_disjoint c))

/-! ## What each copy leaves -/

/-- Two indices of the operand block with the same row and the same column are equal. -/
private theorem idx_ext {u v : S512x512.Idx} (h0 : (u 0).val = (v 0).val) (h1 : (u 1).val = (v 1).val) : u = v := by
  funext d
  match d with
  | ⟨0, _⟩ => exact Fin.ext h0
  | ⟨1, _⟩ => exact Fin.ext h1

private theorem inBlk_0 (i : S1024x512.Idx) : (inBlk i 0).val = (i 0).val % 512 := rfl
private theorem inBlk_1 (i : S1024x512.Idx) : (inBlk i 1).val = (i 1).val := rfl

/-- An element of a slice of a whole buffer through a unit rectangle sits at the rectangle's offset plus its
    coordinate inside the slice. -/
private theorem slice_emb_val {b : Ref sig .tc} {off size : Fin b.ty.shape.rank → ℕ} {inb : ∀ a, off a + size a ≤ b.ty.shape.size a}
    (y : (Rect.unit off size inb).shape.Idx) (a : Fin b.ty.shape.rank) :
    ((((View.whole b).slice (Rect.unit off size inb)).emb y) a).val = off a + (y a).val := by
  show off a + 1 * (y a).val = _
  rw [Nat.one_mul]

/-- The result of c read at an index of its own half. -/
private theorem Gout_own (c : Dev nD) (i : S1024x512.Idx) (h : (i 0).val / 512 = c.val / 2) :
    Gout m ρ c i = Xc m ρ c (inBlk i) := by
  simp only [Gout]
  rw [if_pos h]

/-- The result of c read at an index of the other half, in the quarter of c's own y. -/
private theorem Gout_x (c : Dev nD) (i : S1024x512.Idx) (h : ¬ (i 0).val / 512 = c.val / 2)
    (h' : ((i 0).val % 512) / 256 = c.val % 2) : Gout m ρ c i = Xc m ρ (px c) (inBlk i) := by
  simp only [Gout]
  rw [if_neg h, if_pos h']

/-- The result of c read at an index of the other half, in the other quarter. -/
private theorem Gout_xy (c : Dev nD) (i : S1024x512.Idx) (h : ¬ (i 0).val / 512 = c.val / 2)
    (h' : ¬ ((i 0).val % 512) / 256 = c.val % 2) : Gout m ρ c i = Xc m ρ (px (py c)) (inBlk i) := by
  simp only [Gout]
  rw [if_neg h, if_neg h']

/-- The local copy leaves c's own half of the result in place. -/
theorem loc_val (c : Dev nD) (fd : (cc0_stg1_0 : Ref sig .tc).ty.Contents (Elt F)) :
    ∀ i ∈ (locDst c).view.set,
      (locDst c).view.write (Elt F) fd ((xM : Memref sig .tc .vmem S512x512 .f32).view.read (Elt F) (Xc m ρ c)) Finset.univ i = Gout m ρ c i := by
  intro i hi
  obtain ⟨y, rfl⟩ := View.exists_emb_of_mem_set _ hi
  clear hi
  rw [View.write_emb_of_mem _ _ (Finset.mem_univ y)]
  have hc : c.val < 4 := c.isLt
  have hy : (y 0).val < 512 := (y 0).isLt
  have e0 : (((locDst c).view.emb y) 0).val = 512 * (c.val / 2) + (y 0).val := by
    have := slice_emb_val (b := cc0_stg1_0) (inb := k0_off1_inb c) y 0
    rw [off1_0] at this; exact this
  have e1 : (((locDst c).view.emb y) 1).val = (y 1).val := by
    have := slice_emb_val (b := cc0_stg1_0) (inb := k0_off1_inb c) y 1
    rw [off1_1, Nat.zero_add] at this; exact this
  rw [Gout_own m ρ c _ (by omega)]
  show Xc m ρ c y = _
  refine congrArg (Xc m ρ c) (idx_ext ?_ ?_)
  · rw [inBlk_0]; omega
  · rw [inBlk_1]; omega

/-- Chunk k across x leaves, in the x-peer's result, the rows that peer is to end with. -/
theorem p1_val (c : Dev nD) (k : Fin 16) (fd : (cc0_stg1_0 : Ref sig .tc).ty.Contents (Elt F)) :
    ∀ i ∈ (p1Dst c k).view.set,
      (p1Dst c k).view.write (Elt F) fd ((p1Src c k).view.read (Elt F) (Xc m ρ c)) Finset.univ i = Gout m ρ (px c) i := by
  intro i hi
  obtain ⟨y, rfl⟩ := View.exists_emb_of_mem_set _ hi
  clear hi
  rw [View.write_emb_of_mem _ _ (Finset.mem_univ y)]
  have hc : c.val < 4 := c.isLt
  have hk : k.val < 16 := k.isLt
  have hy : (y 0).val < 16 := (y 0).isLt
  have e0 : (((p1Dst c k).view.emb y) 0).val = 512 * (c.val / 2) + 256 * (c.val % 2) + 16 * k.val + (y 0).val := by
    have := slice_emb_val (b := cc0_stg1_0) (inb := k0_off2_inb c k) y 0
    rw [off2_0] at this; exact this
  have e1 : (((p1Dst c k).view.emb y) 1).val = (y 1).val := by
    have := slice_emb_val (b := cc0_stg1_0) (inb := k0_off2_inb c k) y 1
    rw [off2_1, Nat.zero_add] at this; exact this
  have s0 : (((p1Src c k).view.emb y) 0).val = 256 * (c.val % 2) + 16 * k.val + (y 0).val := by
    have := slice_emb_val (b := cc0_stg0_0) (inb := k0_off3_inb c k) y 0
    rw [off3_0] at this; exact this
  have s1 : (((p1Src c k).view.emb y) 1).val = (y 1).val := by
    have := slice_emb_val (b := cc0_stg0_0) (inb := k0_off3_inb c k) y 1
    rw [off3_1, Nat.zero_add] at this; exact this
  rw [Gout_x m ρ (px c) _ (by rw [px_div]; omega) (by rw [px_mod]; omega), px_px]
  show Xc m ρ c ((p1Src c k).view.emb y) = _
  refine congrArg (Xc m ρ c) (idx_ext ?_ ?_)
  · rw [inBlk_0]; omega
  · rw [inBlk_1]; omega

/-- Chunk k forwarded across y, read from rows already in place on c, leaves in the y-peer's result the rows that
    peer is to end with. -/
theorem p2_val (c : Dev nD) (k : Fin 16) (fd fs : (cc0_stg1_0 : Ref sig .tc).ty.Contents (Elt F))
    (hfs : ∀ i ∈ (p2Buf c k).view.set, fs i = Gout m ρ c i) :
    ∀ i ∈ (p2Buf c k).view.set,
      (p2Buf c k).view.write (Elt F) fd ((p2Buf c k).view.read (Elt F) fs) Finset.univ i = Gout m ρ (py c) i := by
  intro i hi
  have hc : c.val < 4 := c.isLt
  have hk : k.val < 16 := k.isLt
  -- on these rows both devices are to end with the same element: of the block of c's x-peer
  have hG : Gout m ρ c i = Gout m ρ (py c) i := by
    obtain ⟨h1, h2⟩ := (mem_p2Buf c k i).mp hi
    rw [Gout_x m ρ c i (by omega) (by omega),
      Gout_xy m ρ (py c) i (by rw [py_div]; omega) (by rw [py_mod]; omega), py_py]
  rw [← hG, ← hfs i hi]
  obtain ⟨y, rfl⟩ := View.exists_emb_of_mem_set _ hi
  rw [View.write_emb_of_mem _ _ (Finset.mem_univ y)]
  rfl

/-- info: 'Cert.Kernel.AG.out_split' depends on axioms: [propext, Classical.choice, Quot.sound] -/
#guard_msgs in #print axioms out_split

/-- info: 'Cert.Kernel.AG.x_split' depends on axioms: [propext, Classical.choice, Quot.sound] -/
#guard_msgs in #print axioms x_split

/-- info: 'Cert.Kernel.AG.p1_val' depends on axioms: [propext, Classical.choice, Quot.sound] -/
#guard_msgs in #print axioms p1_val

/-- info: 'Cert.Kernel.AG.p2_val' depends on axioms: [propext, Classical.choice, Quot.sound] -/
#guard_msgs in #print axioms p2_val

end Cert.Kernel.AG

end
-- ==== Proof.Kernel.AgLevels.lean ====
/-
  What a device still owes, chunk by chunk; and that each of its waits is on a cell below everything it owes then
  (the barrier below the arrivals across x, those below the arrivals across y).
-/
import proofs.«900089_g7700000000000090_dist_ag_v7x_xy2x2_x_m512_n512_f32_1_alg».proof.Proof.Kernel.AgDefs

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The dues, peeled a chunk at a time -/

theorem owe1_succ (c : Dev nD) (n : ℕ) (hn : n < 16) : owe1 c n = owe1 c (n + 1) + tallyAt (r1Cell (px c) ⟨n, hn⟩) () N16 := by
  unfold owe1
  rw [Ring.rangeSet_head hn hn, Finset.sum_insert (Ring.head_not_mem_rangeSet hn), add_comm]
theorem owe2_succ (c : Dev nD) (n : ℕ) (hn : n < 16) : owe2 c n = owe2 c (n + 1) + tallyAt (r2Cell (py c) ⟨n, hn⟩) () N16 := by
  unfold owe2
  rw [Ring.rangeSet_head hn hn, Finset.sum_insert (Ring.head_not_mem_rangeSet hn), add_comm]
theorem owe1_end (c : Dev nD) : owe1 c 16 = 0 := by
  unfold owe1
  rw [Ring.rangeSet_empty (le_refl 16), Finset.sum_empty]
theorem owe2_end (c : Dev nD) : owe2 c 16 = 0 := by
  unfold owe2
  rw [Ring.rangeSet_empty (le_refl 16), Finset.sum_empty]

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- Which cell each of the protocol's semaphores is. -/
private theorem kindOf_bar : kindOf (.reg barS) = .bar := by decide
private theorem kindOf_loc : kindOf (.dma locS) = .loc := by decide
private theorem kindOf_d (j : Fin 4) (k : Fin 16) : kindOf (.dma (dsem j k)) = .d j k := by revert j k; decide
/-- The pipeline's two staging semaphores are none of the protocol's. -/
private theorem kindOf_stage (q : DmaSem sig) (hq : q.val < 2) : kindOf (.dma q) = .other := by
  revert q; decide

theorem lv_bar (c : Dev nD) : lv (barCell c) () = 1 := by
  show (match kindOf (.reg barS) with | .bar => 1 | .d j _ => if j = 1 then 2 else if j = 3 then 3 else 0 | _ => 0) = 1
  rw [kindOf_bar]
theorem lv_loc (c : Dev nD) : lv (locCell c) () = 0 := by
  show (match kindOf (.dma locS) with | .bar => 1 | .d j _ => if j = 1 then 2 else if j = 3 then 3 else 0 | _ => 0) = 0
  rw [kindOf_loc]
/-- The level of one of the sixty-four transfer cells, by its array. -/
private theorem lv_d (c : Dev nD) (j : Fin 4) (k : Fin 16) : lv (dCell c j k) () = if j = 1 then 2 else if j = 3 then 3 else 0 := by
  show (match kindOf (.dma (dsem j k)) with | .bar => 1 | .d j _ => if j = 1 then 2 else if j = 3 then 3 else 0 | _ => 0) = _
  rw [kindOf_d]
theorem lv_s1 (c : Dev nD) (k : Fin 16) : lv (s1Cell c k) () = 0 := by rw [lv_d]; rfl
theorem lv_r1 (c : Dev nD) (k : Fin 16) : lv (r1Cell c k) () = 2 := by rw [lv_d]; rfl
theorem lv_s2 (c : Dev nD) (k : Fin 16) : lv (s2Cell c k) () = 0 := by rw [lv_d]; rfl
theorem lv_r2 (c : Dev nD) (k : Fin 16) : lv (r2Cell c k) () = 3 := by rw [lv_d]; rfl
/-- A staging semaphore sits at level 0. -/
private theorem lv_stage (c : Dev nD) (q : DmaSem sig) (hq : q.val < 2) : lv ((c : Thread nD τ), .dma q) () = 0 := by
  show (match kindOf (.dma q) with | .bar => 1 | .d j _ => if j = 1 then 2 else if j = 3 then 3 else 0 | _ => 0) = 0
  rw [kindOf_stage q hq]

/-- Where the arrivals still owed are positive: at an arrival cell across y of the y-peer from chunk b on, or at an
    arrival cell across x of the x-peer from chunk a on. -/
private theorem owe_pos {c : Dev nD} {a b : ℕ} {g : GSem nD τ sig} {i : Unit} (h : 0 < (owe2 c b + owe1 c a) g i) :
    (∃ k : Fin 16, b ≤ k.val ∧ g = r2Cell (py c) k) ∨ (∃ k : Fin 16, a ≤ k.val ∧ g = r1Cell (px c) k) := by
  rcases Pipeline.add_pos_cases h with h | h
  · unfold owe2 at h
    obtain ⟨k, hk, hpos⟩ := Pipeline.sum_pos_exists h
    exact Or.inl ⟨k, ((Ring.mem_rangeSet _ _ _).mp hk).1, (Pipeline.tallyAt_pos hpos).1⟩
  · unfold owe1 at h
    obtain ⟨k, hk, hpos⟩ := Pipeline.sum_pos_exists h
    exact Or.inr ⟨k, ((Ring.mem_rangeSet _ _ _).mp hk).1, (Pipeline.tallyAt_pos hpos).1⟩

/-- A wait on one of c's cells while c owes the arrivals across x from chunk a on and across y from chunk b on:
    allowed when the cell is below 2 if an arrival across x is still owed, below 3 if one across y is. -/
theorem mayWait_gen (c : Dev nD) (sm : SemLoc sig) (a b : ℕ)
    (h1 : a < 16 → lv ((c : Thread nD τ), sm) () < 2) (h2 : b < 16 → lv ((c : Thread nD τ), sm) () < 3) :
    (levAts L lv : sProp 𝕄) ⊢ MayWait (c : Thread nD τ) sm () (owe2 c b + owe1 c a) := by
  refine Pipeline.mayWait_of_levAts (by rw [L_tc]; exact Finset.mem_singleton_self _) fun g i hg => ?_
  rcases owe_pos hg with ⟨k, hk, rfl⟩ | ⟨k, hk, rfl⟩
  · refine ⟨by rw [L_tc]; exact Finset.mem_singleton_self _, ?_⟩
    rw [lv_r2]; exact h2 (lt_of_le_of_lt hk k.isLt)
  · refine ⟨by rw [L_tc]; exact Finset.mem_singleton_self _, ?_⟩
    rw [lv_r1]; exact h1 (lt_of_le_of_lt hk k.isLt)

/-- Everything a device owes at launch sits at a positive level: its arrivals at 3 and 2, the two barrier signals at 1. -/
private theorem O₀_pos {c : Dev nD} {g : GSem nD τ sig} {i : Unit} (h : 0 < O₀ c g i) : i ∈ L g ∧ 0 < lv g i := by
  unfold O₀ O₁ O₂ at h
  rcases Pipeline.add_pos_cases h with h | h
  · rcases Pipeline.add_pos_cases h with h | h
    · rcases owe_pos h with ⟨k, hk, rfl⟩ | ⟨k, hk, rfl⟩
      · refine ⟨by rw [L_tc]; exact Finset.mem_singleton_self _, ?_⟩
        rw [lv_r2]; decide
      · refine ⟨by rw [L_tc]; exact Finset.mem_singleton_self _, ?_⟩
        rw [lv_r1]; decide
    · obtain ⟨rfl, rfl⟩ := Pipeline.tallyAt_pos h
      refine ⟨by rw [L_tc]; exact Finset.mem_singleton_self _, ?_⟩
      rw [lv_bar]; decide
  · obtain ⟨rfl, rfl⟩ := Pipeline.tallyAt_pos h
    refine ⟨by rw [L_tc]; exact Finset.mem_singleton_self _, ?_⟩
    rw [lv_bar]; decide

/-- The pipeline's own waits (on its staging semaphores, at level 0) while the device owes everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    rw [lv_stage c q hq]
    exact O₀_pos hg
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.Kernel.AG.waits' depends on axioms: [propext, Classical.choice, Quot.sound] -/
#guard_msgs in #print axioms waits
/-- info: 'Cert.Kernel.AG.mayWait_gen' depends on axioms: [propext, Classical.choice, Quot.sound] -/
#guard_msgs in #print axioms mayWait_gen

end Cert.Kernel.AG

end
-- ==== Proof.Kernel.AgState.lean ====
/-
  The kernel's remote statements as rules over the all-gather's schedule, one per shape and for any chunk; then the
  state a device's thread is in between two statements, as six counters — chunks sent across x, arrivals across x
  waited for, chunks forwarded across y, and the three kinds of closing waits done — and one transition per statement.
-/
import proofs.«900089_g7700000000000090_dist_ag_v7x_xy2x2_x_m512_n512_f32_1_alg».proof.Proof.Kernel.AgSched
import proofs.«900089_g7700000000000090_dist_ag_v7x_xy2x2_x_m512_n512_f32_1_alg».proof.Proof.Kernel.AgRegions
import proofs.«900089_g7700000000000090_dist_ag_v7x_xy2x2_x_m512_n512_f32_1_alg».proof.Proof.Kernel.AgLevels

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

/-! ## The rows c writes across x are the rows its x-peer holds as its forwarding chunk -/

theorem unit_set_congr {s : Shape} {off off' size : Fin s.rank → Nat} (h : off = off') (p : ∀ a, off a + size a ≤ s.size a)
    (p' : ∀ a, off' a + size a ≤ s.size a) : (Rect.unit off size p).set = (Rect.unit off' size p').set := by
  subst h; rfl

theorem off2_closed (c : Dev nD) (k : Fin 16) : k0_off2 c (wk k) = ![512 * (c.val / 2) + 256 * (c.val % 2) + 16 * k.val, 0] := k0_off2_eq c k
theorem off4_closed (c : Dev nD) (k : Fin 16) :
    k0_off4 (px c) (wk k) = ![(256 * ((px c).val % 2) + 16 * k.val + 512) - 512 * ((px c).val / 2), 0] := k0_off4_eq (px c) k
theorem row24 (c : Dev nD) (k : Fin 16) :
    512 * (c.val / 2) + 256 * (c.val % 2) + 16 * k.val = (256 * ((px c).val % 2) + 16 * k.val + 512) - 512 * ((px c).val / 2) := by
  have hc : (px c).val = (c.val + 2) % 4 := rfl
  have h4 : c.val < 4 := c.isLt
  rw [hc]; omega
theorem off24 (c : Dev nD) (k : Fin 16) : k0_off2 c (wk k) = k0_off4 (px c) (wk k) := by
  rw [off2_closed, off4_closed, row24]

theorem p1Dst_set (c : Dev nD) (k : Fin 16) :
    ((p1Dst c k).view.set : Finset (cc0_stg1_0 : Ref sig .tc).ty.shape.Idx) = (p2Buf (px c) k).view.set := by
  have h1 : ((p1Dst c k).view.set : Finset (cc0_stg1_0 : Ref sig .tc).ty.shape.Idx)
      = (Rect.unit (s := S1024x512) (k0_off2 c (wk k)) S16x512.size (k0_off2_inb c k)).set := View.set_slice_whole cc0_stg1_0 _
  have h2 : ((p2Buf (px c) k).view.set : Finset (cc0_stg1_0 : Ref sig .tc).ty.shape.Idx)
      = (Rect.unit (s := S1024x512) (k0_off4 (px c) (wk k)) S16x512.size (k0_off4_inb (px c) k)).set := View.set_slice_whole cc0_stg1_0 _
  rw [h1, h2]
  exact unit_set_congr (off24 c k) _ _

section Rules

variable {α : Type} {Q : α → sProp (MT nD τ sig Unit (Elt F) ℕ UU ℕ)} (K : Dev nD × CIx → ℕ) (c : Dev nD)

/-- A wait on cell (j, k) of c for its one round: the round's payload comes with it. -/
theorem wp_dwait (j : Fin 4) (k : Fin 16) {sm : DmaSem sig} (hsm : sm = dsem j k)
    {sp' : Space} {s' : Shape} {e' : EltTy} {src : Memref sig .tc sp' s' e'} {κ' : Idealize.ShloMosaic.Kind}
    {dst : Memref sig κ' .vmem S16x512 .f32} (hd : dst.view.dmaCredit = N16) {hsrc : src.view.WordExact} {hdst : dst.view.WordExact}
    {kk : PUnit → Prog (TpuEff nD τ sig (Elt F) Λ₀ .tc) α} {O : CellTallies nD τ sig Unit} {W : Waits sig Unit} :
    iprop(records m ρ K ∗ cred (tallyAt (dCell c j k) () N16) ∗ owes (c : Thread nD τ) O W
        ∗ MayWait (c : Thread nD τ) (.dma (dsem j k)) () O ∗ atPos ER (dCell c j k) 0 ∅ 0)
      ⊢ iprop(((owes (c : Thread nD τ) O (insert (SemLoc.dma (dsem j k), ()) W) ∗ atPos ER (dCell c j k) 1 ∅ 0 ∗ dPay m ρ c j k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm
  rw [← hd]
  iintro ⟨#HR, Hc, HO, #Hmw, Hat⟩ Hk
  ihave #HI := (inv_at m ρ K (c, .inr (.inr (j, k)))) $$ HR
  iapply (Rounds.wp_wait_rest_token 𝒱₀ ER (agRd m ρ) (c : Thread nD τ) none (κ := K (c, .inr (.inr (j, k)))) (k' := dst.view.dmaCredit)
      (wpE_waitDma2_eq 𝒱₀ (c : Thread nD τ) none Set.univ) (Set.mem_univ _) () (O := O) (W := W) (R := 0) (m := 0) (T := ∅)
      (by rw [Nat.zero_add, hd, expect_d m ρ c j k])) $$ [Hc HO Hat]
  · isplitr; · iexact HI
    isplitl [Hc]; · iexact Hc
    isplitl [HO]; · iexact HO
    isplitr; · iexact Hmw
    iexact Hat
  iintro ⟨HO, Hat, -, Hpay⟩
  iapply Hk
  ihave Hp := (Entails.of_eq (rest_d m ρ c j k)) $$ Hpay
  isplitl [HO]; · iexact HO
  isplitl [Hat]; · iexact Hat
  iexact Hp

/-- Chunk k sent across x: pays the x-peer's arrival duty with those rows of its result rewritten, and c's own
    departure duty with the source chunk's share. -/
theorem wp_p1send (n : Dev nD) (hn : n = px c) (k : Fin 16) {sS sR : DmaSem sig} (hsS : sS = s1S k) (hsR : sR = r1S k)
    {hsc : (p1Dst c k : Memref sig (Dev.tc n : Thread nD τ).2.kind .vmem S16x512 .f32).view.ref.isScScratch = false}
    {hsrc : (p1Src c k).view.WordExact} {hdst : (p1Dst c k).view.WordExact}
    {hsem : DmaTarget.Typed .vmem (.dma sR) (.remote (Dev.tc n : Thread nD τ) (p1Dst c k) (.dma sS) hsc)}
    {kk : PUnit → Prog (TpuEff nD τ sig (Elt F) Λ₀ .tc) α}
    (fd : Buf (Elt F) ((p1Dst c k).view.loc (px c : Thread nD τ))) (O : CellTallies nD τ sig Unit) (W : Waits sig Unit) :
    iprop(records m ρ K ∗ s1Pay m ρ c k ∗ ((p1Dst c k).view.loc (px c : Thread nD τ) ↦[(p1Dst c k).view.set]{fullShare} fd)
        ∗ owes (c : Thread nD τ) (O + tallyAt (r1Cell (px c) k) () N16) W
        ∗ dutyTok ER (s1Cell c k) 0 false ∗ dutyTok ER (r1Cell (px c) k) 0 false)
      ⊢ iprop(((cred (tallyAt (s1Cell c k) () N16) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p1Src c k) (.remote (Dev.tc n : Thread nD τ) (p1Dst c k) (.dma sS) hsc) (.dma sR) hsrc hdst hsem) kk) Q) := by
  subst hn hsS hsR
  unfold s1Pay
  iintro ⟨#HR, Hs, Hd, HO, Ht1, Ht2⟩ Hk
  ihave #HI1 := (inv_at m ρ K (c, .inr (.inr (0, k)))) $$ HR
  ihave #HI2 := (inv_at m ρ K (px c, .inr (.inr (1, k)))) $$ HR
  ihave #Hr1 := (reached_at m ρ K (c, .inr (.inr (0, k)))) $$ HR
  ihave #Hr2 := (reached_at m ρ K (px c, .inr (.inr (1, k)))) $$ HR
  iapply (Rounds.wp_send_pointsTo 𝒱₀ ER (agRd m ρ) (c : Thread nD τ) none (κ₁ := K (c, .inr (.inr (0, k)))) (κ₂ := K (px c, .inr (.inr (1, k))))
      (r₁ := 0) (r₂ := 0) (d₁ := false) (d₂ := false) (fd := fd)
      (by rw [duties_d m ρ c 0 k]; exact Finset.mem_singleton_self _) (by rw [duties_d m ρ (px c) 1 k]; exact Finset.mem_singleton_self _)
      () () N16 rfl (amount_d m ρ c 0 k 0 false) (amount_d m ρ (px c) 1 k 0 false) O rfl (W := W)
      (by rw [payload_d]; exact BI.Entails.refl _)
      (by
        rw [payload_d]; show _ ⊢ r1Pay m ρ (px c) k
        unfold r1Pay
        show ((((px c : Dev nD) : Thread nD τ).loc cc0_stg1_0) ↦[((p1Dst c k).view.set : Finset (cc0_stg1_0 : Ref sig .tc).ty.shape.Idx)]{fullShare}
              ((p1Dst c k).view.write (Elt F) fd ((p1Src c k).view.read (Elt F) (Xc m ρ c)) Finset.univ) : sProp 𝕄)
            ⊢ ((((px c : Dev nD) : Thread nD τ).loc cc0_stg1_0) ↦[((p2Buf (px c) k).view.set : Finset (cc0_stg1_0 : Ref sig .tc).ty.shape.Idx)]{fullShare} Gout m ρ (px c))
        rw [← p1Dst_set c k, pointsTo_congr (p1_val m ρ c k fd)]
        all_goals exact BI.Entails.refl _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- Chunk k forwarded across y, from rows of c's result already in place: pays the y-peer's arrival duty with those
    rows of its result rewritten, and c's own departure duty with the source rows. -/
theorem wp_p2send (n : Dev nD) (hn : n = py c) (k : Fin 16) {sS sR : DmaSem sig} (hsS : sS = s2S k) (hsR : sR = r2S k)
    {hsc : (p2Buf c k : Memref sig (Dev.tc n : Thread nD τ).2.kind .vmem S16x512 .f32).view.ref.isScScratch = false}
    {hsrc : (p2Buf c k).view.WordExact} {hdst : (p2Buf c k).view.WordExact}
    {hsem : DmaTarget.Typed .vmem (.dma sR) (.remote (Dev.tc n : Thread nD τ) (p2Buf c k) (.dma sS) hsc)}
    {kk : PUnit → Prog (TpuEff nD τ sig (Elt F) Λ₀ .tc) α}
    (fd : Buf (Elt F) ((p2Buf c k).view.loc (py c : Thread nD τ))) (O : CellTallies nD τ sig Unit) (W : Waits sig Unit) :
    iprop(records m ρ K ∗ r1Pay m ρ c k ∗ ((p2Buf c k).view.loc (py c : Thread nD τ) ↦[(p2Buf c k).view.set]{fullShare} fd)
        ∗ owes (c : Thread nD τ) (O + tallyAt (r2Cell (py c) k) () N16) W
        ∗ dutyTok ER (s2Cell c k) 0 false ∗ dutyTok ER (r2Cell (py c) k) 0 false)
      ⊢ iprop(((cred (tallyAt (s2Cell c k) () N16) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p2Buf c k) (.remote (Dev.tc n : Thread nD τ) (p2Buf c k) (.dma sS) hsc) (.dma sR) hsrc hdst hsem) kk) Q) := by
  subst hn hsS hsR
  unfold r1Pay
  iintro ⟨#HR, Hs, Hd, HO, Ht1, Ht2⟩ Hk
  ihave #HI1 := (inv_at m ρ K (c, .inr (.inr (2, k)))) $$ HR
  ihave #HI2 := (inv_at m ρ K (py c, .inr (.inr (3, k)))) $$ HR
  ihave #Hr1 := (reached_at m ρ K (c, .inr (.inr (2, k)))) $$ HR
  ihave #Hr2 := (reached_at m ρ K (py c, .inr (.inr (3, k)))) $$ HR
  iapply (Rounds.wp_send_pointsTo 𝒱₀ ER (agRd m ρ) (c : Thread nD τ) none (κ₁ := K (c, .inr (.inr (2, k)))) (κ₂ := K (py c, .inr (.inr (3, k))))
      (r₁ := 0) (r₂ := 0) (d₁ := false) (d₂ := false) (fd := fd)
      (by rw [duties_d m ρ c 2 k]; exact Finset.mem_singleton_self _) (by rw [duties_d m ρ (py c) 3 k]; exact Finset.mem_singleton_self _)
      () () N16 rfl (amount_d m ρ c 2 k 0 false) (amount_d m ρ (py c) 3 k 0 false) O rfl (W := W)
      (by rw [payload_d]; exact BI.Entails.refl _)
      (by
        rw [payload_d]; show _ ⊢ r2Pay m ρ (py c) k
        unfold r2Pay
        rw [py_py, pointsTo_congr (p2_val m ρ c k fd (Gout m ρ c) (fun _ _ => rfl))]
        all_goals exact BI.Entails.refl _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

end Rules

end Cert.Kernel.AG

end
-- ==== Proof.Kernel.AgSteps.lean ====
/-
  The state of a device's thread between two of the kernel's statements, as six counters — a chunks sent across x,
  b arrivals across x waited for, b' chunks forwarded across y, and d, e, f closing waits done on the departures
  across x, the departures across y and the arrivals across y — and one transition per statement.
-/
import proofs.«900089_g7700000000000090_dist_ag_v7x_xy2x2_x_m512_n512_f32_1_alg».proof.Proof.Kernel.AgState

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

/-- A run of chunks grows at its upper end. -/
theorem bigSep_rangeSet_snoc {M : Type} [URA M] (Φ : Fin 16 → sProp M) {lo n : ℕ} (h : lo ≤ n) (hn : n < 16) :
    bigSep (rangeSet 16 lo (n + 1)) Φ = iprop(Φ ⟨n, hn⟩ ∗ bigSep (rangeSet 16 lo n) Φ) := by
  have hs : rangeSet 16 lo (n + 1) = insert (⟨n, hn⟩ : Fin 16) (rangeSet 16 lo n) := by
    ext b; rw [Finset.mem_insert, Ring.mem_rangeSet, Ring.mem_rangeSet, Fin.ext_iff]; dsimp only; omega
  have hm : (⟨n, hn⟩ : Fin 16) ∉ rangeSet 16 lo n := by rw [Ring.mem_rangeSet]; dsimp only; omega
  rw [hs, bigSep_insert hm]; rfl

section State

variable (K : Dev nD × CIx → ℕ) (c : Dev nD)

/-- The landing chunk k in the x-peer's result, and in the y-peer's, at contents not named. -/
def dstX (k : Fin 16) : sProp 𝕄 := iprop(∃ f, (p1Dst c k).view.loc (px c : Thread nD τ) ↦[(p1Dst c k).view.set]{fullShare} f)
def dstY (k : Fin 16) : sProp 𝕄 := iprop(∃ f, (p2Buf c k).view.loc (py c : Thread nD τ) ↦[(p2Buf c k).view.set]{fullShare} f)

/-- Across x: chunks a … 15 still to send (source share, landing chunk, the two tokens); the credit of the chunks sent
    and not yet waited for (d … a − 1); the departure cells' positions, advanced for chunks 0 … d − 1, whose source
    shares are back. -/
def S1 (a d : ℕ) : sProp 𝕄 :=
  iprop((bigSep (rangeSet 16 a 16) fun k => s1Pay m ρ c k) ∗ (bigSep (rangeSet 16 a 16) fun k => dstX c k)
    ∗ (bigSep (rangeSet 16 a 16) fun k => dutyTok ER (s1Cell c k) 0 false)
    ∗ (bigSep (rangeSet 16 a 16) fun k => dutyTok ER (r1Cell (px c) k) 0 false)
    ∗ (bigSep (rangeSet 16 d a) fun k => cred (tallyAt (s1Cell c k) () N16))
    ∗ (bigSep (rangeSet 16 d 16) fun k => atPos ER (s1Cell c k) 0 ∅ 0)
    ∗ (bigSep (rangeSet 16 0 d) fun k => iprop(atPos ER (s1Cell c k) 1 ∅ 0 ∗ s1Pay m ρ c k)))

/-- The arrivals across x: credit and position for chunks b … 15 not yet waited for; the advanced positions of
    0 … b − 1; the landed rows of the chunks waited for and not yet forwarded (b' … b − 1). -/
def R1 (b b' : ℕ) : sProp 𝕄 :=
  iprop((bigSep (rangeSet 16 b 16) fun k => iprop(cred (tallyAt (r1Cell c k) () N16) ∗ atPos ER (r1Cell c k) 0 ∅ 0))
    ∗ (bigSep (rangeSet 16 0 b) fun k => atPos ER (r1Cell c k) 1 ∅ 0)
    ∗ (bigSep (rangeSet 16 b' b) fun k => r1Pay m ρ c k))

/-- Across y: chunks b' … 15 still to forward (landing chunk, the two tokens); the credit of the chunks forwarded and not
    yet waited for (e … b' − 1); the departure cells' positions, advanced for 0 … e − 1, whose rows are back. -/
def S2 (b' e : ℕ) : sProp 𝕄 :=
  iprop((bigSep (rangeSet 16 b' 16) fun k => dstY c k)
    ∗ (bigSep (rangeSet 16 b' 16) fun k => dutyTok ER (s2Cell c k) 0 false)
    ∗ (bigSep (rangeSet 16 b' 16) fun k => dutyTok ER (r2Cell (py c) k) 0 false)
    ∗ (bigSep (rangeSet 16 e b') fun k => cred (tallyAt (s2Cell c k) () N16))
    ∗ (bigSep (rangeSet 16 e 16) fun k => atPos ER (s2Cell c k) 0 ∅ 0)
    ∗ (bigSep (rangeSet 16 0 e) fun k => iprop(atPos ER (s2Cell c k) 1 ∅ 0 ∗ r1Pay m ρ c k)))

/-- The arrivals across y: credit and position for chunks f … 15; for 0 … f − 1 the advanced position and the rows. -/
def R2 (f : ℕ) : sProp 𝕄 :=
  iprop((bigSep (rangeSet 16 f 16) fun k => iprop(cred (tallyAt (r2Cell c k) () N16) ∗ atPos ER (r2Cell c k) 0 ∅ 0))
    ∗ (bigSep (rangeSet 16 0 f) fun k => iprop(atPos ER (r2Cell c k) 1 ∅ 0 ∗ r2Pay m ρ c k)))

/-- What the device still owes: the arrivals across x from chunk a on and across y from chunk b' on. -/
def OW (a b' : ℕ) : sProp 𝕄 := iprop(∃ W, owes (c : Thread nD τ) (owe2 c b' + owe1 c a) W)

end State

end Cert.Kernel.AG

end
-- ==== Proof.Kernel.AgClose.lean ====
/-
  The ends of a device's run: what it hands its two peers at the entry barrier, the buffers whole again at the exit,
  and its own cells closed.
-/
import proofs.«900089_g7700000000000090_dist_ag_v7x_xy2x2_x_m512_n512_f32_1_alg».proof.Proof.Kernel.AgSteps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : Dev nD × CIx → ℕ) (c : Dev nD)

/-! ## Small splittings of a conjunction over a finite index -/

theorem close_bigSep_unit {M : Type} [URA M] (Φ : Unit → sProp M) : bigSep Finset.univ Φ = Φ () := bigSep_univ_of_subsingleton ()
theorem close_bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem close_bigSep_sum {M : Type} [URA M] {α β : Type} [Fintype α] [Fintype β] (Φ : α ⊕ β → sProp M) :
    bigSep Finset.univ Φ = iprop(bigSep Finset.univ (fun a => Φ (.inl a)) ∗ bigSep Finset.univ (fun b => Φ (.inr b))) := bigSep_univ_sum Φ
/-- A persistent assertion in hand serves every summand. -/
theorem close_bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The sixteen chunks of c's result that its x-peer will write are what the x-peer's barrier cell is owed by c. -/
theorem barX_pay (f : (cc0_stg1_0 : Ref sig .tc).ty.Contents (Elt F)) :
    (bigSep Finset.univ fun k : Fin 16 => ((p2Buf c k).view.loc (c : Thread nD τ) ↦[(p2Buf c k).view.set]{fullShare} f : sProp 𝕄))
      ⊢ barPayX (px c) := by
  unfold barPayX
  rw [px_px]
  refine bigSep_mono fun k _ => ?_
  have hs : ((p1Dst (px c) k).view.set : Finset (cc0_stg1_0 : Ref sig .tc).ty.shape.Idx) = (p2Buf c k).view.set :=
    (p1Dst_set (px c) k).trans (by rw [px_px])
  show ((((c : Dev nD) : Thread nD τ).loc cc0_stg1_0) ↦[((p2Buf c k).view.set : Finset (cc0_stg1_0 : Ref sig .tc).ty.shape.Idx)]{fullShare} f : sProp 𝕄)
    ⊢ iprop(∃ f', (((c : Dev nD) : Thread nD τ).loc cc0_stg1_0) ↦[((p1Dst (px c) k).view.set : Finset (cc0_stg1_0 : Ref sig .tc).ty.shape.Idx)]{fullShare} f')
  rw [hs]
  iintro H
  iexists f
  iexact H

/-- The sixteen chunks of c's result that its y-peer will write are what the y-peer's barrier cell is owed by c. -/
theorem barY_pay (f : (cc0_stg1_0 : Ref sig .tc).ty.Contents (Elt F)) :
    (bigSep Finset.univ fun k : Fin 16 => ((p2Buf (py c) k).view.loc (c : Thread nD τ) ↦[(p2Buf (py c) k).view.set]{fullShare} f : sProp 𝕄))
      ⊢ barPayY (py c) := by
  unfold barPayY
  rw [py_py]
  refine bigSep_mono fun k _ => ?_
  show ((((c : Dev nD) : Thread nD τ).loc cc0_stg1_0) ↦[((p2Buf (py c) k).view.set : Finset (cc0_stg1_0 : Ref sig .tc).ty.shape.Idx)]{fullShare} f : sProp 𝕄)
    ⊢ iprop(∃ f', (((c : Dev nD) : Thread nD τ).loc cc0_stg1_0) ↦[((p2Buf (py c) k).view.set : Finset (cc0_stg1_0 : Ref sig .tc).ty.shape.Idx)]{fullShare} f')
  iintro H
  iexists f
  iexact H

/-- The operand block whole again: the share lent to the local copy, the sixteen chunk shares, and the rest. -/
theorem x_join :
    iprop((((c : Thread nD τ).loc cc0_stg0_0) ↦{fullShare.left} Xc m ρ c)
        ∗ (bigSep (rangeSet 16 0 16) fun k => s1Pay m ρ c k)
        ∗ (((c : Thread nD τ).loc cc0_stg0_0) ↦[xRest c]{fullShare.right} Xc m ρ c))
      ⊢ (((c : Thread nD τ).loc cc0_stg0_0) ↦{fullShare} Xc m ρ c : sProp 𝕄) := by
  rw [Ring.rangeSet_univ]
  unfold s1Pay
  iintro ⟨Hl, Hs, Hr⟩
  ihave Hright := ((x_split (F := F) c fullShare.right (Xc m ρ c)).2) $$ [Hs Hr]
  · isplitl [Hs] <;> iassumption
  iapply (pointsTo_share (PosShare.mem_left_op_right fullShare)).2
  isplitl [Hl] <;> iassumption

/-- The result whole at the gathered contents: its own half, the chunks received across x, the chunks received across y. -/
theorem out_join :
    iprop(((locDst c).view.loc (c : Thread nD τ) ↦[(locDst c).view.set]{fullShare} Gout m ρ c)
        ∗ (bigSep (rangeSet 16 0 16) fun k => r1Pay m ρ c k)
        ∗ (bigSep (rangeSet 16 0 16) fun k => r2Pay m ρ c k))
      ⊢ (((c : Thread nD τ).loc cc0_stg1_0) ↦{fullShare} Gout m ρ c : sProp 𝕄) := by
  rw [Ring.rangeSet_univ]
  unfold r1Pay r2Pay
  exact (out_split (F := F) c (Gout m ρ c)).2

/-- One own cell of c past its one round closes: its counter comes back at zero. -/
theorem close_cell (i : OIx) :
    iprop(records m ρ K ∗ atPos ER ((c : Thread nD τ), osem i) 1 ∅ 0) ⊢ |={Set.univ}=> (semVal ((c : Thread nD τ), osem i) 0 : sProp 𝕄) := by
  iintro ⟨#HR, Hat⟩
  ihave #HI := (inv_at m ρ K (c, .inr i)) $$ HR
  iapply (Rounds.cell_close ER (agRd m ρ) (g := ((c : Thread nD τ), osem i)) (κ := K (c, .inr i)) (Set.mem_univ _) (fun h => h) (R := 1)
    (duties_later m ρ ((c : Thread nD τ), osem i)))
  isplitr; · iexact HI
  iexact Hat

/-- The sixteen cells of one of c's four arrays close together. -/
theorem close_run (j : Fin 4) :
    iprop(records m ρ K ∗ bigSep Finset.univ fun k : Fin 16 => atPos ER (dCell c j k) 1 ∅ 0)
      ⊢ |={Set.univ}=> (bigSep Finset.univ fun k : Fin 16 => semVal (dCell c j k) 0 : sProp 𝕄) :=
  (close_bigSep_pers (R := records m ρ K) (Φ := fun k : Fin 16 => atPos ER (dCell c j k) 1 ∅ 0)
      (Ψ := fun k : Fin 16 => iprop(|={Set.univ}=> semVal (dCell c j k) 0)) fun k _ => close_cell m ρ K c (.inr (j, k))).trans (bigSep_fupd _ _)

/-- The own semaphores of c at zero, the local copy's and then the four arrays apart. -/
theorem Φ₁_eq : (Φ₁ c : sProp 𝕄) = iprop(semVal (locCell c) 0 ∗ (bigSep Finset.univ fun k : Fin 16 => semVal (dCell c 0 k) 0)
      ∗ (bigSep Finset.univ fun k : Fin 16 => semVal (dCell c 1 k) 0) ∗ (bigSep Finset.univ fun k : Fin 16 => semVal (dCell c 2 k) 0)
      ∗ (bigSep Finset.univ fun k : Fin 16 => semVal (dCell c 3 k) 0)) := by
  unfold Φ₁; rw [close_bigSep_sum, close_bigSep_unit, bigSep_univ_prod, close_bigSep_fin4] <;> rfl

/-- Every own cell of c past its one round closes: the kernel's own semaphores are the core's again, at zero. -/
theorem close_own :
    iprop(records m ρ K ∗ atPos ER (locCell c) 1 ∅ 0
        ∗ (bigSep (rangeSet 16 0 16) fun k => atPos ER (s1Cell c k) 1 ∅ 0)
        ∗ (bigSep (rangeSet 16 0 16) fun k => atPos ER (r1Cell c k) 1 ∅ 0)
        ∗ (bigSep (rangeSet 16 0 16) fun k => atPos ER (s2Cell c k) 1 ∅ 0)
        ∗ (bigSep (rangeSet 16 0 16) fun k => atPos ER (r2Cell c k) 1 ∅ 0))
      ⊢ |={Set.univ}=> Φ₁ c := by
  rw [Ring.rangeSet_univ, Φ₁_eq]
  iintro ⟨#HR, HL, H0, H1, H2, H3⟩
  imod (close_cell m ρ K c (.inl ())) $$ [HL] with HL'
  · isplitr; · iexact HR
    iexact HL
  imod (close_run m ρ K c 0) $$ [H0] with H0'
  · isplitr; · iexact HR
    iexact H0
  imod (close_run m ρ K c 1) $$ [H1] with H1'
  · isplitr; · iexact HR
    iexact H1
  imod (close_run m ρ K c 2) $$ [H2] with H2'
  · isplitr; · iexact HR
    iexact H2
  imod (close_run m ρ K c 3) $$ [H3] with H3'
  · isplitr; · iexact HR
    iexact H3
  imodintro
  isplitl [HL']; · iexact HL'
  isplitl [H0']; · iexact H0'
  isplitl [H1']; · iexact H1'
  isplitl [H2']; · iexact H2'
  iexact H3'

/-- info: 'Cert.Kernel.AG.barX_pay' depends on axioms: [propext, Classical.choice, Quot.sound] -/
#guard_msgs in #print axioms barX_pay

/-- info: 'Cert.Kernel.AG.barY_pay' depends on axioms: [propext, Classical.choice, Quot.sound] -/
#guard_msgs in #print axioms barY_pay

/-- info: 'Cert.Kernel.AG.x_join' depends on axioms: [propext, Classical.choice, Quot.sound] -/
#guard_msgs in #print axioms x_join

/-- info: 'Cert.Kernel.AG.out_join' depends on axioms: [propext, Classical.choice, Quot.sound] -/
#guard_msgs in #print axioms out_join

/-- info: 'Cert.Kernel.AG.close_own' depends on axioms: [propext, Classical.choice, Quot.sound] -/
#guard_msgs in #print axioms close_own

end Cert.Kernel.AG

end
-- ==== Proof.Kernel.AgHead.lean ====
/-
  The first part of the kernel's body on one device: the local copy started and the entry barrier, after which the
  thread holds everything its transfers need; and the rules for the local copy.
-/
import proofs.«900089_g7700000000000090_dist_ag_v7x_xy2x2_x_m512_n512_f32_1_alg».proof.Proof.Kernel.AgClose
import proofs.«900089_g7700000000000090_dist_ag_v7x_xy2x2_x_m512_n512_f32_1_alg».proof.Proof.Gen.Kernel.Skeleton

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

/-! ## The two device-id chains of the entry barrier -/

theorem dev1_eq (c : Dev nD) (h) : (⟨k0_dev1 c, h⟩ : Dev nD) = px c := devX_of c h (k0_dev1_eq c)
theorem dev2_eq (c : Dev nD) (h) : (⟨k0_dev2 c, h⟩ : Dev nD) = py c := devY_of c h (k0_dev2_eq c)

section Body

variable (K : Dev nD × CIx → ℕ) (c : Dev nD)
variable {α : Type} {Q : α → sProp (MT nD τ sig Unit (Elt F) ℕ UU ℕ)}

omit [FloatOps F] in
theorem x_whole_eq (q : PosShare TreeShare) (f : (cc0_stg0_0 : Ref sig .tc).ty.Contents (Elt F)) :
    ((xM : Memref sig .tc .vmem S512x512 .f32).view.loc (c : Thread nD τ) ↦[(xM : Memref sig .tc .vmem S512x512 .f32).view.set]{q} f : sProp 𝕄)
      = (((c : Thread nD τ).loc cc0_stg0_0) ↦{q} f) := by
  show ((View.whole cc0_stg0_0).loc (c : Thread nD τ) ↦[(View.whole cc0_stg0_0 : View sig .tc _ _ _).set]{q} f : sProp 𝕄) = _
  rw [View.set_whole]

/-- The local copy started: it pays the one duty of its own cell with c's own half of the result rewritten and the
    operand share it reads. -/
theorem wp_loccopy {sm : DmaSem sig} (hsm : sm = locS)
    {hsrc : (xM : Memref sig .tc .vmem S512x512 .f32).view.WordExact} {hdst : (locDst c).view.WordExact}
    {hsem : DmaTarget.Typed (nD := nD) .vmem (.dma sm) (DmaTarget.here (p := (Proc.tc : Proc τ)) (locDst c))}
    {kk : PUnit → Prog (TpuEff nD τ sig (Elt F) Λ₀ .tc) α} (fd : Buf (Elt F) ((locDst c).view.loc (c : Thread nD τ))) :
    iprop(records m ρ K ∗ (((c : Thread nD τ).loc cc0_stg0_0) ↦{fullShare.left} Xc m ρ c)
        ∗ ((locDst c).view.loc (c : Thread nD τ) ↦[(locDst c).view.set]{fullShare} fd) ∗ dutyTok ER (locCell c) 0 false)
      ⊢ iprop((cred (tallyAt (locCell c) () NL) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (DmaTarget.here (p := (Proc.tc : Proc τ)) (locDst c)) (.dma sm) hsrc hdst hsem) kk) Q) := by
  subst hsm
  rw [← x_whole_eq]
  iintro ⟨#HR, Hs, Hd, Ht⟩ Hk
  ihave #HI := (inv_at m ρ K (c, .inr (.inl ()))) $$ HR
  ihave #Hr := (reached_at m ρ K (c, .inr (.inl ()))) $$ HR
  iapply (Rounds.wp_copy_pointsTo 𝒱₀ ER (agRd m ρ) (c : Thread nD τ) none (κ := K (c, .inr (.inl ()))) (r := 0) (d := false) (fd := fd)
      (by rw [duties_loc]; exact Finset.mem_singleton_self _) () NL rfl (amount_loc m ρ c 0 false)
      (by
        rw [payload_loc]; unfold locPay
        rw [pointsTo_congr (loc_val m ρ c fd)]
        all_goals exact BI.Entails.refl _)) $$ [Hs Hd Ht]
  · isplitr; · iexact HI
    isplitl [Hs]; · iexact Hs
    isplitl [Hd]; · iexact Hd
    isplitl [Ht]; · iexact Ht
    iexact Hr
  iexact Hk

/-- The closing wait on the local copy's cell, nothing owed: c's own half in place and the operand share back. -/
theorem wp_locwait {sm : DmaSem sig} (hsm : sm = locS)
    {sp' : Space} {s' : Shape} {e' : EltTy} {src : Memref sig .tc sp' s' e'} {κ' : Idealize.ShloMosaic.Kind}
    {dst : Memref sig κ' .vmem S512x512 .f32} (hd : dst.view.dmaCredit = NL) {hsrc : src.view.WordExact} {hdst : dst.view.WordExact}
    {kk : PUnit → Prog (TpuEff nD τ sig (Elt F) Λ₀ .tc) α} {W : Waits sig Unit} :
    iprop(records m ρ K ∗ cred (tallyAt (locCell c) () NL) ∗ owes (c : Thread nD τ) 0 W ∗ atPos ER (locCell c) 0 ∅ 0)
      ⊢ iprop(((owes (c : Thread nD τ) 0 (insert (SemLoc.dma locS, ()) W) ∗ atPos ER (locCell c) 1 ∅ 0 ∗ locPay m ρ c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm
  rw [← hd]
  iintro ⟨#HR, Hc, HO, Hat⟩ Hk
  ihave #HI := (inv_at m ρ K (c, .inr (.inl ()))) $$ HR
  iapply (Rounds.wp_wait_rest_token 𝒱₀ ER (agRd m ρ) (c : Thread nD τ) none (κ := K (c, .inr (.inl ()))) (k' := dst.view.dmaCredit)
      (wpE_waitDma2_eq 𝒱₀ (c : Thread nD τ) none Set.univ) (Set.mem_univ _) () (O := 0) (W := W) (R := 0) (m := 0) (T := ∅)
      (by rw [Nat.zero_add, hd, expect_loc m ρ c])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  ihave Hp := (Entails.of_eq (rest_loc m ρ c)) $$ Hpay
  isplitl [HO]; · iexact HO
  isplitl [Hat]; · iexact Hat
  iexact Hp

/-! ## The local copy and the entry barrier -/

/-- What the thread holds for the local copy while the transfers run: its credit and position, and the operand rows
    no transfer reads. -/
def LocSt : sProp 𝕄 :=
  iprop(cred (tallyAt (locCell c) () NL) ∗ atPos ER (locCell c) 0 ∅ 0
    ∗ (((c : Thread nD τ).loc cc0_stg0_0) ↦[xRest c]{fullShare.right} Xc m ρ c))

omit [FloatOps F] in
theorem fin4_sep (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rangeSet_00 : rangeSet 16 0 0 = ∅ := Ring.rangeSet_empty (Nat.le_refl 0)

set_option maxHeartbeats 1600000 in
/-- The first part of the body: the device reads its id, starts the local copy, signals both peers' barrier
    semaphores — handing each the sixteen chunks of its result that peer will write — and waits for both of theirs:
    the thread then holds everything the transfers need, all six counters at zero. -/
theorem head_spec :
    iprop(records m ρ K ∗ levAts L lv ∗ poss c ∗ payToks c ∗ creds0 c ∗ (∃ W, owes (c : Thread nD τ) (O₀ c) W)
        ∗ (((c : Thread nD τ).loc cc0_stg0_0) ↦{fullShare} Xc m ρ c) ∗ (∃ f, ((c : Thread nD τ).loc cc0_stg1_0) ↦{fullShare} f))
      ⊢ wp frame (wpE (defs₀ (F := F)) 𝒱₀ (c : Thread nD τ) none) Set.univ
          (k0_part1 (F := F) xM (Memref.isWhole_whole _) oM (Memref.isWhole_whole _) cc0_scratch0 cc0_scratch1 cc0_scratch2 cc0_scratch3 cc0_scratch4)
          (fun r => iprop(⌜r.1 = c⌝ ∗ S1 m ρ c 0 0 ∗ R1 m ρ c 0 0 ∗ S2 m ρ c 0 0 ∗ R2 m ρ c 0 ∗ OW c 0 0 ∗ LocSt m ρ c)) := by
  rw [k0_part1_eq_skeleton]; unfold k0_part1_skel
  simp only [semSignalWord, semWaitWord, Prog.lift, Prog.bind_op, Prog.bind_ret, Prog.pure_eq_ret, wp_deviceId]
  simp only [dev1_eq, dev2_eq]
  unfold poss payToks creds0
  iintro ⟨#HR, #Hlev, ⟨HaB, HaL, HaD⟩, ⟨HtBX, HtBY, HtL, Ht0, Ht1, Ht2, Ht3⟩, ⟨HcB, Hc1, Hc3⟩, ⟨%W, HO⟩, Hx, ⟨%f0, Hout⟩⟩
  ihave Hx2 := (pointsTo_share (PosShare.mem_left_op_right fullShare)).1 $$ Hx
  icases Hx2 with ⟨HxL, HxR⟩
  ihave HxS := (x_split c fullShare.right (Xc m ρ c)).1 $$ HxR
  icases HxS with ⟨HxK, HxRest⟩
  ihave Ho3 := (out_split c f0).1 $$ Hout
  icases Ho3 with ⟨HoA, HoB, HoC⟩
  ihave HaD' := (Entails.of_eq ((bigSep_univ_prod _).trans (fin4_sep _))) $$ HaD
  icases HaD' with ⟨Ha0, Ha1, Ha2, Ha3⟩
  -- the local copy
  iapply (wp_loccopy m ρ K c sem_loc f0) $$ [HxL HoA HtL]
  · isplitr; · iexact HR
    isplitl [HxL]; · iexact HxL
    isplitl [HoA]; · iexact HoA
    iexact HtL
  iintro HcL
  -- the signal to the x-peer: the chunks it will write
  iapply (Rounds.wp_signal 𝒱₀ ER (agRd m ρ) (c : Thread nD τ) none (dst := (px c : Thread nD τ)) (κ := K (px c, .inl ()))
      (d := false) (by rw [duties_bar]; exact Finset.mem_univ _) ((amount_bar m ρ (px c) 0 false).trans (by decide)) () (O₁ c) rfl) $$ [HO HtBX HoB]
  · isplitr; · iapply (inv_at m ρ K (px c, .inl ())); iexact HR
    isplitl [HO]; · iexact HO
    isplitl [HtBX]; · iexact HtBX
    isplitl [HoB]
    · rw [payload_bar_false]; iapply (barX_pay c f0); iexact HoB
    · iapply (reached_at m ρ K (px c, .inl ())); iexact HR
  iintro HO
  -- the signal to the y-peer
  iapply (Rounds.wp_signal 𝒱₀ ER (agRd m ρ) (c : Thread nD τ) none (dst := (py c : Thread nD τ)) (κ := K (py c, .inl ()))
      (d := true) (by rw [duties_bar]; exact Finset.mem_univ _) ((amount_bar m ρ (py c) 0 true).trans (by decide)) () (O₂ c) rfl) $$ [HO HtBY HoC]
  · isplitr; · iapply (inv_at m ρ K (py c, .inl ())); iexact HR
    isplitl [HO]; · iexact HO
    isplitl [HtBY]; · iexact HtBY
    isplitl [HoC]
    · rw [payload_bar_true]; iapply (barY_pay c f0); iexact HoC
    · iapply (reached_at m ρ K (py c, .inl ())); iexact HR
  iintro HO
  -- the wait for both peers: their landing chunks come with it
  iapply (Rounds.wp_wait_rest_token 𝒱₀ ER (agRd m ρ) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_at m ρ K (c, .inl ())); iexact HR
    isplitl [HcB]; · iexact HcB
    isplitl [HO]; · iexact HO
    isplitr
    · iapply (mayWait_gen c (.reg barS) 0 0 (fun _ => by rw [lv_bar]; decide) (fun _ => by rw [lv_bar]; decide)); iexact Hlev
    iexact HaB
  iintro ⟨HO, -, -, Hpay⟩
  ihave Hp := (Entails.of_eq (rest_bar m ρ c)) $$ Hpay
  icases Hp with ⟨HdX, HdY⟩
  rw [wp_ret]; imodintro
  unfold S1 R1 S2 R2 OW LocSt s1Pay dstX dstY
  simp only [Ring.rangeSet_univ, rangeSet_00, bigSep_empty, bigSep_sep']
  unfold barPayX barPayY
  isplitr; · ipureintro; trivial
  isplitl [HxK HdX Ht0 Ht1 Ha0]
  · isplitl [HxK]; · iexact HxK
    isplitl [HdX]; · iexact HdX
    isplitl [Ht0]; · iexact Ht0
    isplitl [Ht1]; · iexact Ht1
    isplitr; · iempintro
    isplitl [Ha0]; · iexact Ha0
    isplitr <;> iempintro
  isplitl [Hc1 Ha1]
  · isplitl [Hc1 Ha1]
    · isplitl [Hc1]; · iexact Hc1
      iexact Ha1
    isplitr <;> iempintro
  isplitl [HdY Ht2 Ht3 Ha2]
  · isplitl [HdY]; · iexact HdY
    isplitl [Ht2]; · iexact Ht2
    isplitl [Ht3]; · iexact Ht3
    isplitr; · iempintro
    isplitl [Ha2]; · iexact Ha2
    isplitr <;> iempintro
  isplitl [Hc3 Ha3]
  · isplitl [Hc3 Ha3]
    · isplitl [Hc3]; · iexact Hc3
      iexact Ha3
    isplitr <;> iempintro
  isplitl [HO]
  · iexists (insert (SemLoc.reg barS, ()) W); iexact HO
  isplitl [HcL]; · iexact HcL
  isplitl [HaL]; · iexact HaL
  iexact HxRest

end Body

end Cert.Kernel.AG

end
-- ==== Proof.Kernel.AgStepP1.lean ====
/-
  The transition of a transfer across x.
-/
import proofs.«900089_g7700000000000090_dist_ag_v7x_xy2x2_x_m512_n512_f32_1_alg».proof.Proof.Kernel.AgSteps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- Chunk a sent across x. -/
theorem p1_step (a d b' : ℕ) (ha : a < 16) (hda : d ≤ a) (n : Dev nD) (hn : n = px c) {sS sR : DmaSem sig} (hsS : sS = s1S ⟨a, ha⟩) (hsR : sR = r1S ⟨a, ha⟩)
    {hsc : (p1Dst c ⟨a, ha⟩ : Memref sig (Dev.tc n : Thread nD τ).2.kind .vmem S16x512 .f32).view.ref.isScScratch = false}
    {hsrc : (p1Src c ⟨a, ha⟩).view.WordExact} {hdst : (p1Dst c ⟨a, ha⟩).view.WordExact}
    {hsem : DmaTarget.Typed .vmem (.dma sR) (.remote (Dev.tc n : Thread nD τ) (p1Dst c ⟨a, ha⟩) (.dma sS) hsc)}
    {kk : PUnit → Prog (TpuEff nD τ sig (Elt F) Λ₀ .tc) α} :
    iprop(records m ρ K ∗ S1 m ρ c a d ∗ OW c a b')
      ⊢ iprop((iprop(S1 m ρ c (a + 1) d ∗ OW c (a + 1) b') -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p1Src c ⟨a, ha⟩) (.remote (Dev.tc n : Thread nD τ) (p1Dst c ⟨a, ha⟩) (.dma sS) hsc) (.dma sR) hsrc hdst hsem) kk) Q) := by
  have hO : owe2 c b' + owe1 c a = (owe2 c b' + owe1 c (a + 1)) + tallyAt (r1Cell (px c) ⟨a, ha⟩) () N16 := by
    rw [owe1_succ c a ha, add_assoc]
  unfold S1 OW
  rw [Ring.bigSep_rangeSet_head (Φ := fun k => s1Pay m ρ c k) ha ha,
    Ring.bigSep_rangeSet_head (Φ := fun k => dstX c k) ha ha,
    Ring.bigSep_rangeSet_head (Φ := fun k => dutyTok ER (s1Cell c k) 0 false) ha ha,
    Ring.bigSep_rangeSet_head (Φ := fun k => dutyTok ER (r1Cell (px c) k) 0 false) ha ha,
    bigSep_rangeSet_snoc (fun k => cred (tallyAt (s1Cell c k) () N16)) hda ha, hO]
  unfold dstX
  iintro ⟨#HR, ⟨⟨Hs, Hss⟩, ⟨Hd, Hds⟩, ⟨Ht1, Ht1s⟩, ⟨Ht2, Ht2s⟩, Hcr, Hat, Hdone⟩, ⟨%W, HO⟩⟩ Hk
  icases Hd with ⟨%fd, Hd⟩
  iapply (wp_p1send m ρ K c n hn ⟨a, ha⟩ hsS hsR fd (owe2 c b' + owe1 c (a + 1)) W) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iintro ⟨Hc, HO⟩
  iapply Hk
  isplitr [HO]
  · isplitl [Hss]; · iexact Hss
    isplitl [Hds]; · iexact Hds
    isplitl [Ht1s]; · iexact Ht1s
    isplitl [Ht2s]; · iexact Ht2s
    isplitl [Hc Hcr]
    · isplitl [Hc]; · iexact Hc
      iexact Hcr
    isplitl [Hat]; · iexact Hat
    iexact Hdone
  iexists W; iexact HO

end State

end Cert.Kernel.AG

end
-- ==== Proof.Kernel.AgPartsP.lean ====
/-
  The sixteen transfers across x, printed part by printed part: each part sends the chunks it holds; the counter a
  of chunks sent moves as stated.
-/
import proofs.«900089_g7700000000000090_dist_ag_v7x_xy2x2_x_m512_n512_f32_1_alg».proof.Proof.Kernel.AgStepP1
import proofs.«900089_g7700000000000090_dist_ag_v7x_xy2x2_x_m512_n512_f32_1_alg».proof.Proof.Gen.Kernel.Skeleton

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Parts

variable (K : Dev nD × CIx → ℕ) (c : Dev nD)

set_option hygiene false in
/-- One transfer across x: the transition of chunk a, its side goal handed the records and the state, and the new
    state taken back under the same names. -/
local macro "p1_send " a:num " with " e:term : tactic =>
  `(tactic| (
    iapply (p1_step m ρ K c $a 0 0 (by decide) (by decide) _ (devX_of c _ ($e c)) (sem_s1 _ _) (sem_r1 _ _)) $$ [HS1 HOW]
    · isplitr; · iexact HR
      isplitl [HS1]; · iexact HS1
      iexact HOW
    iintro ⟨HS1, HOW⟩))

set_option hygiene false in
/-- The part's last statement returns: the state goes back to the caller. -/
local macro "p1_done" : tactic =>
  `(tactic| (
    rw [wp_ret]; imodintro
    isplitl [HS1]; · iexact HS1
    iexact HOW))

/-- Chunks 0 and 1. -/
theorem part2_spec (v5 v6 v21 : BitVec 32) :
    iprop(records m ρ K ∗ S1 m ρ c 0 0 ∗ OW c 0 0)
      ⊢ wp frame (wpE (defs₀ (F := F)) 𝒱₀ (c : Thread nD τ) none) Set.univ
          (k0_part2 (F := F) xM (Memref.isWhole_whole _) oM (Memref.isWhole_whole _) cc0_scratch0 cc0_scratch1 cc0_scratch2 cc0_scratch3 cc0_scratch4 c v5 v6 v21)
          (fun _ => iprop(S1 m ρ c 2 0 ∗ OW c 2 0)) := by
  rw [k0_part2_eq_skeleton]; unfold k0_part2_skel
  simp only [Prog.lift, Prog.bind_op, Prog.bind_ret, Prog.pure_eq_ret]
  iintro ⟨#HR, HS1, HOW⟩
  p1_send 0 with k0_dev3_eq
  p1_send 1 with k0_dev4_eq
  p1_done

/-- Chunks 2, 3 and 4. -/
theorem part3_spec (v5 v6 v21 : BitVec 32) :
    iprop(records m ρ K ∗ S1 m ρ c 2 0 ∗ OW c 2 0)
      ⊢ wp frame (wpE (defs₀ (F := F)) 𝒱₀ (c : Thread nD τ) none) Set.univ
          (k0_part3 (F := F) xM (Memref.isWhole_whole _) oM (Memref.isWhole_whole _) cc0_scratch0 cc0_scratch1 cc0_scratch2 cc0_scratch3 cc0_scratch4 c v5 v6 v21)
          (fun _ => iprop(S1 m ρ c 5 0 ∗ OW c 5 0)) := by
  rw [k0_part3_eq_skeleton]; unfold k0_part3_skel
  simp only [Prog.lift, Prog.bind_op, Prog.bind_ret, Prog.pure_eq_ret]
  iintro ⟨#HR, HS1, HOW⟩
  p1_send 2 with k0_dev5_eq
  p1_send 3 with k0_dev6_eq
  p1_send 4 with k0_dev7_eq
  p1_done

/-- Chunks 5 and 6. -/
theorem part4_spec (v5 v6 v21 : BitVec 32) :
    iprop(records m ρ K ∗ S1 m ρ c 5 0 ∗ OW c 5 0)
      ⊢ wp frame (wpE (defs₀ (F := F)) 𝒱₀ (c : Thread nD τ) none) Set.univ
          (k0_part4 (F := F) xM (Memref.isWhole_whole _) oM (Memref.isWhole_whole _) cc0_scratch0 cc0_scratch1 cc0_scratch2 cc0_scratch3 cc0_scratch4 c v5 v6 v21)
          (fun _ => iprop(S1 m ρ c 7 0 ∗ OW c 7 0)) := by
  rw [k0_part4_eq_skeleton]; unfold k0_part4_skel
  simp only [Prog.lift, Prog.bind_op, Prog.bind_ret, Prog.pure_eq_ret]
  iintro ⟨#HR, HS1, HOW⟩
  p1_send 5 with k0_dev8_eq
  p1_send 6 with k0_dev9_eq
  p1_done

/-- Chunks 7, 8 and 9. -/
theorem part5_spec (v5 v6 v21 : BitVec 32) :
    iprop(records m ρ K ∗ S1 m ρ c 7 0 ∗ OW c 7 0)
      ⊢ wp frame (wpE (defs₀ (F := F)) 𝒱₀ (c : Thread nD τ) none) Set.univ
          (k0_part5 (F := F) xM (Memref.isWhole_whole _) oM (Memref.isWhole_whole _) cc0_scratch0 cc0_scratch1 cc0_scratch2 cc0_scratch3 cc0_scratch4 c v5 v6 v21)
          (fun _ => iprop(S1 m ρ c 10 0 ∗ OW c 10 0)) := by
  rw [k0_part5_eq_skeleton]; unfold k0_part5_skel
  simp only [Prog.lift, Prog.bind_op, Prog.bind_ret, Prog.pure_eq_ret]
  iintro ⟨#HR, HS1, HOW⟩
  p1_send 7 with k0_dev10_eq
  p1_send 8 with k0_dev11_eq
  p1_send 9 with k0_dev12_eq
  p1_done

/-- Chunks 10 and 11. -/
theorem part6_spec (v5 v6 v21 : BitVec 32) :
    iprop(records m ρ K ∗ S1 m ρ c 10 0 ∗ OW c 10 0)
      ⊢ wp frame (wpE (defs₀ (F := F)) 𝒱₀ (c : Thread nD τ) none) Set.univ
          (k0_part6 (F := F) xM (Memref.isWhole_whole _) oM (Memref.isWhole_whole _) cc0_scratch0 cc0_scratch1 cc0_scratch2 cc0_scratch3 cc0_scratch4 c v5 v6 v21)
          (fun _ => iprop(S1 m ρ c 12 0 ∗ OW c 12 0)) := by
  rw [k0_part6_eq_skeleton]; unfold k0_part6_skel
  simp only [Prog.lift, Prog.bind_op, Prog.bind_ret, Prog.pure_eq_ret]
  iintro ⟨#HR, HS1, HOW⟩
  p1_send 10 with k0_dev13_eq
  p1_send 11 with k0_dev14_eq
  p1_done

/-- Chunks 12, 13 and 14. -/
theorem part7_spec (v5 v6 v21 : BitVec 32) :
    iprop(records m ρ K ∗ S1 m ρ c 12 0 ∗ OW c 12 0)
      ⊢ wp frame (wpE (defs₀ (F := F)) 𝒱₀ (c : Thread nD τ) none) Set.univ
          (k0_part7 (F := F) xM (Memref.isWhole_whole _) oM (Memref.isWhole_whole _) cc0_scratch0 cc0_scratch1 cc0_scratch2 cc0_scratch3 cc0_scratch4 c v5 v6 v21)
          (fun _ => iprop(S1 m ρ c 15 0 ∗ OW c 15 0)) := by
  rw [k0_part7_eq_skeleton]; unfold k0_part7_skel
  simp only [Prog.lift, Prog.bind_op, Prog.bind_ret, Prog.pure_eq_ret]
  iintro ⟨#HR, HS1, HOW⟩
  p1_send 12 with k0_dev15_eq
  p1_send 13 with k0_dev16_eq
  p1_send 14 with k0_dev17_eq
  p1_done

end Parts

end Cert.Kernel.AG

end
-- ==== Proof.Kernel.AgStepP2.lean ====
/-
  The transition of a forward across y.
-/
import proofs.«900089_g7700000000000090_dist_ag_v7x_xy2x2_x_m512_n512_f32_1_alg».proof.Proof.Kernel.AgSteps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- Chunk b' forwarded across y, its rows landed (b' < b). -/
theorem p2_step (a b b' e : ℕ) (hb' : b' < b) (hb : b ≤ 16) (he : e ≤ b') (n : Dev nD) (hn : n = py c)
    {sS sR : DmaSem sig} (hsS : sS = s2S ⟨b', by omega⟩) (hsR : sR = r2S ⟨b', by omega⟩)
    {hsc : (p2Buf c ⟨b', by omega⟩ : Memref sig (Dev.tc n : Thread nD τ).2.kind .vmem S16x512 .f32).view.ref.isScScratch = false}
    {hsrc : (p2Buf c ⟨b', by omega⟩).view.WordExact} {hdst : (p2Buf c ⟨b', by omega⟩).view.WordExact}
    {hsem : DmaTarget.Typed .vmem (.dma sR) (.remote (Dev.tc n : Thread nD τ) (p2Buf c ⟨b', by omega⟩) (.dma sS) hsc)}
    {kk : PUnit → Prog (TpuEff nD τ sig (Elt F) Λ₀ .tc) α} :
    iprop(records m ρ K ∗ R1 m ρ c b b' ∗ S2 m ρ c b' e ∗ OW c a b')
      ⊢ iprop((iprop(R1 m ρ c b (b' + 1) ∗ S2 m ρ c (b' + 1) e ∗ OW c a (b' + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p2Buf c ⟨b', by omega⟩) (.remote (Dev.tc n : Thread nD τ) (p2Buf c ⟨b', by omega⟩) (.dma sS) hsc) (.dma sR) hsrc hdst hsem) kk) Q) := by
  have hlt : b' < 16 := by omega
  unfold R1 S2 OW dstY
  rw [Ring.bigSep_rangeSet_head (lo := b') (hi := b) hb' hlt,
    Ring.bigSep_rangeSet_head (lo := b') (hi := 16) hlt hlt,
    Ring.bigSep_rangeSet_head (lo := b') (hi := 16) hlt hlt,
    Ring.bigSep_rangeSet_head (lo := b') (hi := 16) hlt hlt,
    bigSep_rangeSet_snoc _ he hlt,
    owe2_succ c b' hlt,
    add_right_comm (owe2 c (b' + 1)) (tallyAt (r2Cell (py c) ⟨b', hlt⟩) () N16) (owe1 c a)]
  iintro ⟨#HR, ⟨HA, HB, Hsrc, HC⟩, ⟨⟨Hd, HD1⟩, ⟨Ht1, HD2⟩, ⟨Ht2, HD3⟩, HD4, HD5, HD6⟩, HO⟩ Hk
  icases Hd with ⟨%fd, Hd⟩
  icases HO with ⟨%W, HO⟩
  iapply (wp_p2send m ρ K c n hn ⟨b', hlt⟩ hsS hsR fd (owe2 c (b' + 1) + owe1 c a) W) $$ [Hsrc Hd HO Ht1 Ht2]
  · isplitr; · iexact HR
    isplitl [Hsrc]; · iexact Hsrc
    isplitl [Hd]; · iexact Hd
    isplitl [HO]; · iexact HO
    isplitl [Ht1]; · iexact Ht1
    iexact Ht2
  iintro ⟨Hc, HO⟩
  iapply Hk
  isplitl [HA HB HC]
  · isplitl [HA]; · iexact HA
    isplitl [HB]; · iexact HB
    iexact HC
  isplitr [HO]
  · isplitl [HD1]; · iexact HD1
    isplitl [HD2]; · iexact HD2
    isplitl [HD3]; · iexact HD3
    isplitl [Hc HD4]
    · isplitl [Hc]; · iexact Hc
      iexact HD4
    isplitl [HD5]; · iexact HD5
    iexact HD6
  iexists W; iexact HO

end State

/-- info: 'Cert.Kernel.AG.p2_step' depends on axioms: [propext, Classical.choice, Quot.sound] -/
#guard_msgs in #print axioms p2_step

end Cert.Kernel.AG

end
-- ==== Proof.Kernel.AgStepW.lean ====
/-
  The transitions of the four kinds of wait.
-/
import proofs.«900089_g7700000000000090_dist_ag_v7x_xy2x2_x_m512_n512_f32_1_alg».proof.Proof.Kernel.AgSteps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- What a unit on a departure cell across x hands back, and on an arrival cell across x: the schedule's payload at
    those two arrays, by name. -/
private theorem dPay_s1 (k : Fin 16) : dPay (F := F) m ρ c 0 k = s1Pay m ρ c k := rfl
private theorem dPay_r1 (k : Fin 16) : dPay (F := F) m ρ c 1 k = r1Pay m ρ c k := rfl

/-- The wait for arrival b across x (everything across x sent: nothing owed at its level or below). -/
theorem r1w_step (b b' : ℕ) (hb : b < 16) (hbb : b' ≤ b) {sm : DmaSem sig} (hsm : sm = r1S ⟨b, hb⟩)
    {sp' : Space} {s' : Shape} {e' : EltTy} {src : Memref sig .tc sp' s' e'} {κ' : Idealize.ShloMosaic.Kind}
    {dst : Memref sig κ' .vmem S16x512 .f32} (hd : dst.view.dmaCredit = N16) {hsrc : src.view.WordExact} {hdst : dst.view.WordExact}
    {kk : PUnit → Prog (TpuEff nD τ sig (Elt F) Λ₀ .tc) α} :
    iprop(records m ρ K ∗ levAts L lv ∗ R1 m ρ c b b' ∗ OW c 16 b')
      ⊢ iprop((iprop(R1 m ρ c (b + 1) b' ∗ OW c 16 b') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  unfold R1 OW
  rw [Ring.bigSep_rangeSet_head hb hb, bigSep_rangeSet_snoc _ (Nat.zero_le b) hb, bigSep_rangeSet_snoc _ hbb hb]
  iintro ⟨#HR, #Hlev, ⟨⟨⟨Hc, Hat⟩, Hrest⟩, Hdone, Hpay⟩, ⟨%W, HO⟩⟩ Hk
  ihave #Hmw := (mayWait_gen (F := F) c (.dma (dsem 1 ⟨b, hb⟩)) 16 b' (fun h => absurd h (by decide))
    (fun _ => lt_of_eq_of_lt (lv_r1 c ⟨b, hb⟩) (by decide))) $$ Hlev
  iapply (wp_dwait m ρ K c 1 ⟨b, hb⟩ hsm hd (O := owe2 c b' + owe1 c 16) (W := W)) $$ [Hc HO Hat]
  · isplitr; · iexact HR
    isplitl [Hc]; · iexact Hc
    isplitl [HO]; · iexact HO
    isplitr; · iexact Hmw
    iexact Hat
  iintro ⟨HO, Hat, Hp⟩
  iapply Hk
  isplitr [HO]
  · isplitl [Hrest]; · iexact Hrest
    isplitl [Hat Hdone]
    · isplitl [Hat]; · iexact Hat
      iexact Hdone
    isplitl [Hp]
    · ihave Hp' := (Entails.of_eq (dPay_r1 m ρ c ⟨b, hb⟩)) $$ Hp
      iexact Hp'
    iexact Hpay
  · iexists _; iexact HO

/-- The closing wait on departure d across x (d < a: it was sent). -/
theorem s1w_step (a d b' : ℕ) (hd : d < a) (ha : a ≤ 16) {sm : DmaSem sig} (hsm : sm = s1S ⟨d, by omega⟩)
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α} :
    iprop(records m ρ K ∗ levAts L lv ∗ S1 m ρ c a d ∗ OW c a b')
      ⊢ iprop((iprop(S1 m ρ c a (d + 1) ∗ OW c a b') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  have hd16 : d < 16 := by omega
  unfold S1 OW
  rw [Ring.bigSep_rangeSet_head hd hd16, Ring.bigSep_rangeSet_head (lo := d) (hi := 16) hd16 hd16,
    bigSep_rangeSet_snoc _ (Nat.zero_le d) hd16]
  iintro ⟨#HR, #Hlev, ⟨Hsrc, Hdst, Ht1, Ht2, ⟨Hc, Hcs⟩, ⟨Hat, Hats⟩, Hdone⟩, ⟨%W, HO⟩⟩ Hk
  ihave #Hmw := (mayWait_gen (F := F) c (.dma (dsem 0 ⟨d, hd16⟩)) a b' (fun _ => lt_of_eq_of_lt (lv_s1 c ⟨d, hd16⟩) (by decide))
    (fun _ => lt_of_eq_of_lt (lv_s1 c ⟨d, hd16⟩) (by decide))) $$ Hlev
  iapply (wp_dwait m ρ K c 0 ⟨d, hd16⟩ hsm hdc (O := owe2 c b' + owe1 c a) (W := W)) $$ [Hc HO Hat]
  · isplitr; · iexact HR
    isplitl [Hc]; · iexact Hc
    isplitl [HO]; · iexact HO
    isplitr; · iexact Hmw
    iexact Hat
  iintro ⟨HO, Hat, Hp⟩
  iapply Hk
  isplitr [HO]
  · isplitl [Hsrc]; · iexact Hsrc
    isplitl [Hdst]; · iexact Hdst
    isplitl [Ht1]; · iexact Ht1
    isplitl [Ht2]; · iexact Ht2
    isplitl [Hcs]; · iexact Hcs
    isplitl [Hats]; · iexact Hats
    isplitl [Hat Hp]
    · isplitl [Hat]; · iexact Hat
      ihave Hp' := (Entails.of_eq (dPay_s1 m ρ c ⟨d, hd16⟩)) $$ Hp
      iexact Hp'
    iexact Hdone
  · iexists _; iexact HO

end State

end Cert.Kernel.AG

end
-- ==== Proof.Kernel.AgPartsF.lean ====
/-
  The forwards across y, printed part by printed part: the last transfer across x, then per chunk the wait for its
  arrival across x and its forward; the counters b (arrivals waited for) and b' (chunks forwarded) move as stated.
-/
import proofs.«900089_g7700000000000090_dist_ag_v7x_xy2x2_x_m512_n512_f32_1_alg».proof.Proof.Kernel.AgStepP1
import proofs.«900089_g7700000000000090_dist_ag_v7x_xy2x2_x_m512_n512_f32_1_alg».proof.Proof.Kernel.AgStepP2
import proofs.«900089_g7700000000000090_dist_ag_v7x_xy2x2_x_m512_n512_f32_1_alg».proof.Proof.Kernel.AgStepW
import proofs.«900089_g7700000000000090_dist_ag_v7x_xy2x2_x_m512_n512_f32_1_alg».proof.Proof.Gen.Kernel.Skeleton

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Parts

variable (K : Dev nD × CIx → ℕ) (c : Dev nD)

set_option hygiene false in
/-- A part's start: the part as its skeleton's chain of operations, and the state's pieces named. -/
local macro "enter " eq:ident skel:ident : tactic => `(tactic| (
  rw [$eq:ident]
  unfold $skel:ident
  simp only [Prog.lift, Prog.bind_op, Prog.bind_ret, Prog.pure_eq_ret]
  iintro ⟨#HR, #Hlev, HR1, HS2, HOW⟩))

set_option hygiene false in
/-- The wait for arrival b across x, b' chunks forwarded so far: from R1 b b' to R1 (b + 1) b'. -/
local macro "arrive " b:term:max b':term:max : tactic => `(tactic| (
  iapply (r1w_step m ρ K c $b $b' (by decide) (by decide) (sem_r1 _ _) (by rfl)) $$ [HR1 HOW]
  · isplitr; · iexact HR
    isplitr; · iexact Hlev
    isplitl [HR1] <;> iassumption
  iintro ⟨HR1, HOW⟩))

set_option hygiene false in
/-- The forward of chunk b' across y with b arrivals waited for (the addressed device is the y-peer by dv): from
    R1 b b', S2 b' 0, OW 16 b' to the same at b' + 1. -/
local macro "forward " b:term:max b':term:max dv:term:max : tactic => `(tactic| (
  iapply (p2_step m ρ K c 16 $b $b' 0 (by decide) (by decide) (by decide) _ (devY_of c _ ($dv c)) (sem_s2 _ _) (sem_r2 _ _)) $$ [HR1 HS2 HOW]
  · isplitr; · iexact HR
    isplitl [HR1]; · iexact HR1
    isplitl [HS2] <;> iassumption
  iintro ⟨HR1, HS2, HOW⟩))

set_option hygiene false in
/-- The part's end: the state handed back. -/
local macro "finish3" : tactic => `(tactic| (
  rw [wp_ret]
  imodintro
  isplitl [HR1]; · iexact HR1
  isplitl [HS2] <;> iassumption))

/-- Chunk 15 across x; arrival 0; forward 0. -/
theorem part8_spec (v2 v5 v6 v7 v24 : BitVec 32) :
    iprop(records m ρ K ∗ levAts L lv ∗ S1 m ρ c 15 0 ∗ R1 m ρ c 0 0 ∗ S2 m ρ c 0 0 ∗ OW c 15 0)
      ⊢ wp frame (wpE (defs₀ (F := F)) 𝒱₀ (c : Thread nD τ) none) Set.univ
          (k0_part8 (F := F) xM (Memref.isWhole_whole _) oM (Memref.isWhole_whole _) cc0_scratch0 cc0_scratch1 cc0_scratch2 cc0_scratch3 cc0_scratch4 c v2 v5 v6 v7 v24)
          (fun _ => iprop(S1 m ρ c 16 0 ∗ R1 m ρ c 1 1 ∗ S2 m ρ c 1 0 ∗ OW c 16 1)) := by
  rw [k0_part8_eq_skeleton]
  unfold k0_part8_skel
  simp only [Prog.lift, Prog.bind_op, Prog.bind_ret, Prog.pure_eq_ret]
  iintro ⟨#HR, #Hlev, HS1, HR1, HS2, HOW⟩
  iapply (p1_step m ρ K c 15 0 0 (by decide) (by decide) _ (devX_of c _ (k0_dev18_eq c)) (sem_s1 _ _) (sem_r1 _ _)) $$ [HS1 HOW]
  · isplitr; · iexact HR
    isplitl [HS1] <;> iassumption
  iintro ⟨HS1, HOW⟩
  arrive 0 0
  forward 1 0 k0_dev19_eq
  rw [wp_ret]
  imodintro
  isplitl [HS1]; · iexact HS1
  isplitl [HR1]; · iexact HR1
  isplitl [HS2] <;> iassumption

/-- Arrival 1; forward 1; arrival 2. -/
theorem part9_spec (v2 v5 v6 v7 v24 v253 v254 : BitVec 32) :
    iprop(records m ρ K ∗ levAts L lv ∗ R1 m ρ c 1 1 ∗ S2 m ρ c 1 0 ∗ OW c 16 1)
      ⊢ wp frame (wpE (defs₀ (F := F)) 𝒱₀ (c : Thread nD τ) none) Set.univ
          (k0_part9 (F := F) xM (Memref.isWhole_whole _) oM (Memref.isWhole_whole _) cc0_scratch0 cc0_scratch1 cc0_scratch2 cc0_scratch3 cc0_scratch4 c v2 v5 v6 v7 v24 v253 v254)
          (fun _ => iprop(R1 m ρ c 3 2 ∗ S2 m ρ c 2 0 ∗ OW c 16 2)) := by
  enter k0_part9_eq_skeleton k0_part9_skel
  arrive 1 1
  forward 2 1 k0_dev20_eq
  arrive 2 2
  finish3

/-- Forward 2; arrival 3; forward 3; arrival 4. -/
theorem part10_spec (v2 v5 v6 v7 v24 : BitVec 32) :
    iprop(records m ρ K ∗ levAts L lv ∗ R1 m ρ c 3 2 ∗ S2 m ρ c 2 0 ∗ OW c 16 2)
      ⊢ wp frame (wpE (defs₀ (F := F)) 𝒱₀ (c : Thread nD τ) none) Set.univ
          (k0_part10 (F := F) xM (Memref.isWhole_whole _) oM (Memref.isWhole_whole _) cc0_scratch0 cc0_scratch1 cc0_scratch2 cc0_scratch3 cc0_scratch4 c v2 v5 v6 v7 v24)
          (fun _ => iprop(R1 m ρ c 5 4 ∗ S2 m ρ c 4 0 ∗ OW c 16 4)) := by
  enter k0_part10_eq_skeleton k0_part10_skel
  forward 3 2 k0_dev21_eq
  arrive 3 3
  forward 4 3 k0_dev22_eq
  arrive 4 4
  finish3

/-- Forward 4; arrival 5; forward 5. -/
theorem part11_spec (v2 v5 v6 v7 v24 : BitVec 32) :
    iprop(records m ρ K ∗ levAts L lv ∗ R1 m ρ c 5 4 ∗ S2 m ρ c 4 0 ∗ OW c 16 4)
      ⊢ wp frame (wpE (defs₀ (F := F)) 𝒱₀ (c : Thread nD τ) none) Set.univ
          (k0_part11 (F := F) xM (Memref.isWhole_whole _) oM (Memref.isWhole_whole _) cc0_scratch0 cc0_scratch1 cc0_scratch2 cc0_scratch3 cc0_scratch4 c v2 v5 v6 v7 v24)
          (fun _ => iprop(R1 m ρ c 6 6 ∗ S2 m ρ c 6 0 ∗ OW c 16 6)) := by
  enter k0_part11_eq_skeleton k0_part11_skel
  forward 5 4 k0_dev23_eq
  arrive 5 5
  forward 6 5 k0_dev24_eq
  finish3

/-- Arrival 6; forward 6; arrival 7. -/
theorem part12_spec (v2 v5 v6 v7 v24 v348 v349 : BitVec 32) :
    iprop(records m ρ K ∗ levAts L lv ∗ R1 m ρ c 6 6 ∗ S2 m ρ c 6 0 ∗ OW c 16 6)
      ⊢ wp frame (wpE (defs₀ (F := F)) 𝒱₀ (c : Thread nD τ) none) Set.univ
          (k0_part12 (F := F) xM (Memref.isWhole_whole _) oM (Memref.isWhole_whole _) cc0_scratch0 cc0_scratch1 cc0_scratch2 cc0_scratch3 cc0_scratch4 c v2 v5 v6 v7 v24 v348 v349)
          (fun _ => iprop(R1 m ρ c 8 7 ∗ S2 m ρ c 7 0 ∗ OW c 16 7)) := by
  enter k0_part12_eq_skeleton k0_part12_skel
  arrive 6 6
  forward 7 6 k0_dev25_eq
  arrive 7 7
  finish3

/-- Forward 7; arrival 8; forward 8; arrival 9. -/
theorem part13_spec (v2 v5 v6 v7 v24 : BitVec 32) :
    iprop(records m ρ K ∗ levAts L lv ∗ R1 m ρ c 8 7 ∗ S2 m ρ c 7 0 ∗ OW c 16 7)
      ⊢ wp frame (wpE (defs₀ (F := F)) 𝒱₀ (c : Thread nD τ) none) Set.univ
          (k0_part13 (F := F) xM (Memref.isWhole_whole _) oM (Memref.isWhole_whole _) cc0_scratch0 cc0_scratch1 cc0_scratch2 cc0_scratch3 cc0_scratch4 c v2 v5 v6 v7 v24)
          (fun _ => iprop(R1 m ρ c 10 9 ∗ S2 m ρ c 9 0 ∗ OW c 16 9)) := by
  enter k0_part13_eq_skeleton k0_part13_skel
  forward 8 7 k0_dev26_eq
  arrive 8 8
  forward 9 8 k0_dev27_eq
  arrive 9 9
  finish3

/-- Forward 9; arrival 10; forward 10. -/
theorem part14_spec (v2 v5 v6 v7 v24 : BitVec 32) :
    iprop(records m ρ K ∗ levAts L lv ∗ R1 m ρ c 10 9 ∗ S2 m ρ c 9 0 ∗ OW c 16 9)
      ⊢ wp frame (wpE (defs₀ (F := F)) 𝒱₀ (c : Thread nD τ) none) Set.univ
          (k0_part14 (F := F) xM (Memref.isWhole_whole _) oM (Memref.isWhole_whole _) cc0_scratch0 cc0_scratch1 cc0_scratch2 cc0_scratch3 cc0_scratch4 c v2 v5 v6 v7 v24)
          (fun _ => iprop(R1 m ρ c 11 11 ∗ S2 m ρ c 11 0 ∗ OW c 16 11)) := by
  enter k0_part14_eq_skeleton k0_part14_skel
  forward 10 9 k0_dev28_eq
  arrive 10 10
  forward 11 10 k0_dev29_eq
  finish3

/-- Arrival 11; forward 11; arrival 12. -/
theorem part15_spec (v2 v5 v6 v7 v24 v443 v444 : BitVec 32) :
    iprop(records m ρ K ∗ levAts L lv ∗ R1 m ρ c 11 11 ∗ S2 m ρ c 11 0 ∗ OW c 16 11)
      ⊢ wp frame (wpE (defs₀ (F := F)) 𝒱₀ (c : Thread nD τ) none) Set.univ
          (k0_part15 (F := F) xM (Memref.isWhole_whole _) oM (Memref.isWhole_whole _) cc0_scratch0 cc0_scratch1 cc0_scratch2 cc0_scratch3 cc0_scratch4 c v2 v5 v6 v7 v24 v443 v444)
          (fun _ => iprop(R1 m ρ c 13 12 ∗ S2 m ρ c 12 0 ∗ OW c 16 12)) := by
  enter k0_part15_eq_skeleton k0_part15_skel
  arrive 11 11
  forward 12 11 k0_dev30_eq
  arrive 12 12
  finish3

/-- Forward 12; arrival 13; forward 13; arrival 14. -/
theorem part16_spec (v2 v5 v6 v7 v24 : BitVec 32) :
    iprop(records m ρ K ∗ levAts L lv ∗ R1 m ρ c 13 12 ∗ S2 m ρ c 12 0 ∗ OW c 16 12)
      ⊢ wp frame (wpE (defs₀ (F := F)) 𝒱₀ (c : Thread nD τ) none) Set.univ
          (k0_part16 (F := F) xM (Memref.isWhole_whole _) oM (Memref.isWhole_whole _) cc0_scratch0 cc0_scratch1 cc0_scratch2 cc0_scratch3 cc0_scratch4 c v2 v5 v6 v7 v24)
          (fun _ => iprop(R1 m ρ c 15 14 ∗ S2 m ρ c 14 0 ∗ OW c 16 14)) := by
  enter k0_part16_eq_skeleton k0_part16_skel
  forward 13 12 k0_dev31_eq
  arrive 13 13
  forward 14 13 k0_dev32_eq
  arrive 14 14
  finish3

/-- Forward 14; arrival 15; forward 15. -/
theorem part17_spec (v2 v5 v6 v7 v24 : BitVec 32) :
    iprop(records m ρ K ∗ levAts L lv ∗ R1 m ρ c 15 14 ∗ S2 m ρ c 14 0 ∗ OW c 16 14)
      ⊢ wp frame (wpE (defs₀ (F := F)) 𝒱₀ (c : Thread nD τ) none) Set.univ
          (k0_part17 (F := F) xM (Memref.isWhole_whole _) oM (Memref.isWhole_whole _) cc0_scratch0 cc0_scratch1 cc0_scratch2 cc0_scratch3 cc0_scratch4 c v2 v5 v6 v7 v24)
          (fun _ => iprop(R1 m ρ c 16 16 ∗ S2 m ρ c 16 0 ∗ OW c 16 16)) := by
  enter k0_part17_eq_skeleton k0_part17_skel
  forward 15 14 k0_dev33_eq
  arrive 15 15
  forward 16 15 k0_dev34_eq
  finish3

/-- info: 'Cert.Kernel.AG.part8_spec' depends on axioms: [propext, Classical.choice, Quot.sound] -/
#guard_msgs in #print axioms part8_spec

/-- info: 'Cert.Kernel.AG.part10_spec' depends on axioms: [propext, Classical.choice, Quot.sound] -/
#guard_msgs in #print axioms part10_spec

/-- info: 'Cert.Kernel.AG.part17_spec' depends on axioms: [propext, Classical.choice, Quot.sound] -/
#guard_msgs in #print axioms part17_spec

end Parts

end Cert.Kernel.AG

end
-- ==== Proof.Kernel.AgStepW2.lean ====
/-
  The transitions of the closing waits across y.
-/
import proofs.«900089_g7700000000000090_dist_ag_v7x_xy2x2_x_m512_n512_f32_1_alg».proof.Proof.Kernel.AgSteps

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- The closing wait on departure e across y (e < b': it was forwarded). -/
theorem s2w_step (a b' e : ℕ) (he : e < b') (hb' : b' ≤ 16) {sm : DmaSem sig} (hsm : sm = s2S ⟨e, by omega⟩)
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α} :
    iprop(records m ρ K ∗ levAts L lv ∗ S2 m ρ c b' e ∗ OW c a b')
      ⊢ iprop((iprop(S2 m ρ c b' (e + 1) ∗ OW c a b') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  have he16 : e < 16 := by omega
  -- what a unit on a departure cell across y hands back is the rows forwarded
  have hp : dPay m ρ c 2 ⟨e, he16⟩ = r1Pay m ρ c ⟨e, he16⟩ := rfl
  unfold S2 OW
  -- the head of the credit run and of the position run is chunk e; the advanced position goes on top of the done run
  rw [Ring.bigSep_rangeSet_head (Φ := fun k : Fin 16 => (cred (tallyAt (s2Cell c k) () N16) : sProp 𝕄)) he he16,
    Ring.bigSep_rangeSet_head (Φ := fun k : Fin 16 => (atPos ER (s2Cell c k) 0 ∅ 0 : sProp 𝕄)) he16 he16,
    bigSep_rangeSet_snoc (fun k : Fin 16 => (iprop(atPos ER (s2Cell c k) 1 ∅ 0 ∗ r1Pay m ρ c k) : sProp 𝕄)) (Nat.zero_le e) he16]
  iintro ⟨#HR, #Hlev, ⟨Hy, Ht1, Ht2, ⟨Hc, Hcs⟩, ⟨Hat, Hats⟩, Hdone⟩, ⟨%W, HO⟩⟩ Hk
  iapply (wp_dwait m ρ K c 2 ⟨e, he16⟩ hsm hdc (O := owe2 c b' + owe1 c a) (W := W)) $$ [Hc HO Hat]
  · isplitr; · iexact HR
    isplitl [Hc]; · iexact Hc
    isplitl [HO]; · iexact HO
    isplitr
    · iapply (mayWait_gen c (.dma (dsem 2 ⟨e, he16⟩)) a b'
        (fun _ => (lv_s2 c ⟨e, he16⟩).trans_lt (by decide)) (fun _ => (lv_s2 c ⟨e, he16⟩).trans_lt (by decide)))
      iexact Hlev
    iexact Hat
  iintro ⟨HO, Hat', Hpay⟩
  ihave Hp := (Entails.of_eq hp) $$ Hpay
  iapply Hk
  isplitr [HO]
  · isplitl [Hy]; · iexact Hy
    isplitl [Ht1]; · iexact Ht1
    isplitl [Ht2]; · iexact Ht2
    isplitl [Hcs]; · iexact Hcs
    isplitl [Hats]; · iexact Hats
    isplitr [Hdone]
    · isplitl [Hat']; · iexact Hat'
      iexact Hp
    iexact Hdone
  · iexists (insert (SemLoc.dma (dsem 2 ⟨e, he16⟩), ()) W)
    iexact HO

/-- The closing wait on arrival f across y (everything sent and forwarded: nothing owed). -/
theorem r2w_step (f : ℕ) (hf : f < 16) {sm : DmaSem sig} (hsm : sm = r2S ⟨f, hf⟩)
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α} :
    iprop(records m ρ K ∗ levAts L lv ∗ R2 m ρ c f ∗ OW c 16 16)
      ⊢ iprop((iprop(R2 m ρ c (f + 1) ∗ OW c 16 16) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  -- what a unit on an arrival cell across y hands over is the rows landed
  have hp : dPay m ρ c 3 ⟨f, hf⟩ = r2Pay m ρ c ⟨f, hf⟩ := rfl
  unfold R2 OW
  -- the head of the pending run is chunk f; the advanced position with its rows goes on top of the done run
  rw [Ring.bigSep_rangeSet_head
      (Φ := fun k : Fin 16 => (iprop(cred (tallyAt (r2Cell c k) () N16) ∗ atPos ER (r2Cell c k) 0 ∅ 0) : sProp 𝕄)) hf hf,
    bigSep_rangeSet_snoc (fun k : Fin 16 => (iprop(atPos ER (r2Cell c k) 1 ∅ 0 ∗ r2Pay m ρ c k) : sProp 𝕄)) (Nat.zero_le f) hf]
  iintro ⟨#HR, #Hlev, ⟨⟨⟨Hc, Hat⟩, Hpend⟩, Hdone⟩, ⟨%W, HO⟩⟩ Hk
  iapply (wp_dwait m ρ K c 3 ⟨f, hf⟩ hsm hdc (O := owe2 c 16 + owe1 c 16) (W := W)) $$ [Hc HO Hat]
  · isplitr; · iexact HR
    isplitl [Hc]; · iexact Hc
    isplitl [HO]; · iexact HO
    isplitr
    · iapply (mayWait_gen c (.dma (dsem 3 ⟨f, hf⟩)) 16 16
        (fun h => absurd h (lt_irrefl 16)) (fun h => absurd h (lt_irrefl 16)))
      iexact Hlev
    iexact Hat
  iintro ⟨HO, Hat', Hpay⟩
  ihave Hp := (Entails.of_eq hp) $$ Hpay
  iapply Hk
  isplitr [HO]
  · isplitl [Hpend]; · iexact Hpend
    isplitr [Hdone]
    · isplitl [Hat']; · iexact Hat'
      iexact Hp
    iexact Hdone
  · iexists (insert (SemLoc.dma (dsem 3 ⟨f, hf⟩), ()) W)
    iexact HO

end State

/-- info: 'Cert.Kernel.AG.s2w_step' depends on axioms: [propext, Classical.choice, Quot.sound] -/
#guard_msgs in #print axioms s2w_step

/-- info: 'Cert.Kernel.AG.r2w_step' depends on axioms: [propext, Classical.choice, Quot.sound] -/
#guard_msgs in #print axioms r2w_step

end Cert.Kernel.AG

end
-- ==== Proof.Kernel.AgPartsW.lean ====
/-
  The closing waits, printed part by printed part: per chunk the departure across x read out, the departure across y
  read out, the arrival across y landed. Each part moves the three closing counters (d, e, f) as stated.
-/
import proofs.«900089_g7700000000000090_dist_ag_v7x_xy2x2_x_m512_n512_f32_1_alg».proof.Proof.Kernel.AgStepW
import proofs.«900089_g7700000000000090_dist_ag_v7x_xy2x2_x_m512_n512_f32_1_alg».proof.Proof.Kernel.AgStepW2
import proofs.«900089_g7700000000000090_dist_ag_v7x_xy2x2_x_m512_n512_f32_1_alg».proof.Proof.Gen.Kernel.Skeleton

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Parts

variable (K : Dev nD × CIx → ℕ) (c : Dev nD)

variable {α : Type} {Q : α → sProp (MT nD τ sig Unit (Elt F) ℕ UU ℕ)}

/-! ## One closing wait, over the whole state of the closing stretch

  During the closing waits everything has been sent and forwarded (a = b' = 16: nothing is owed), and the state is the
  three closing counters: d departures across x read out, e departures across y read out, f arrivals across y landed.
  Each lemma turns "the rest of the program from the state after the wait" into "the wait and the rest from the state
  before it", the semaphore spelt as the program spells it (slot d of its array, squeezed), so that the counter and the
  slot are read off the program and a printed part is the chain of its waits in program order. -/

/-- The wait on departure d across x moves d. -/
private theorem s1w_at {d e f : ℕ} (hd : d < 16) {h : ∀ a, (![d] : Fin 1 → Nat) a + Cert.Kernel.S1.size a ≤ S16.size a}
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α}
    (hk : iprop(records m ρ K ∗ levAts L lv ∗ S1 m ρ c 16 (d + 1) ∗ S2 m ρ c 16 e ∗ R2 m ρ c f ∗ OW c 16 16)
      ⊢ wp frame (wpE (defs₀ (F := F)) 𝒱₀ (c : Thread nD τ) none) Set.univ (kk ⟨⟩) Q) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ
          (.op (.waitDma2 ((SemArray.slice cc0_scratch0 (Rect.unit (s := S16) ![d] Cert.Kernel.S1.size h)).squeeze S_ squeezes_S1_S_).sem
            src dst hsrc hdst) kk) Q := by
  iintro ⟨#HR, #Hlev, HS1, HS2, HR2, HOW⟩
  iapply (s1w_step m ρ K c 16 d 16 hd (le_refl 16) (sem_s1 ⟨d, hd⟩ h) hdc) $$ [HS1 HOW]
  · isplitr; · iexact HR
    isplitr; · iexact Hlev
    isplitl [HS1] <;> iassumption
  iintro ⟨HS1, HOW⟩
  iapply hk
  isplitr; · iexact HR
  isplitr; · iexact Hlev
  isplitl [HS1]; · iexact HS1
  isplitl [HS2]; · iexact HS2
  isplitl [HR2]; · iexact HR2
  iexact HOW

/-- The wait on departure e across y moves e. -/
private theorem s2w_at {d e f : ℕ} (he : e < 16) {h : ∀ a, (![e] : Fin 1 → Nat) a + Cert.Kernel.S1.size a ≤ S16.size a}
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α}
    (hk : iprop(records m ρ K ∗ levAts L lv ∗ S1 m ρ c 16 d ∗ S2 m ρ c 16 (e + 1) ∗ R2 m ρ c f ∗ OW c 16 16)
      ⊢ wp frame (wpE (defs₀ (F := F)) 𝒱₀ (c : Thread nD τ) none) Set.univ (kk ⟨⟩) Q) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ
          (.op (.waitDma2 ((SemArray.slice cc0_scratch2 (Rect.unit (s := S16) ![e] Cert.Kernel.S1.size h)).squeeze S_ squeezes_S1_S_).sem
            src dst hsrc hdst) kk) Q := by
  iintro ⟨#HR, #Hlev, HS1, HS2, HR2, HOW⟩
  iapply (s2w_step m ρ K c 16 16 e he (le_refl 16) (sem_s2 ⟨e, he⟩ h) hdc) $$ [HS2 HOW]
  · isplitr; · iexact HR
    isplitr; · iexact Hlev
    isplitl [HS2] <;> iassumption
  iintro ⟨HS2, HOW⟩
  iapply hk
  isplitr; · iexact HR
  isplitr; · iexact Hlev
  isplitl [HS1]; · iexact HS1
  isplitl [HS2]; · iexact HS2
  isplitl [HR2]; · iexact HR2
  iexact HOW

/-- The wait on arrival f across y moves f. -/
private theorem r2w_at {d e f : ℕ} (hf : f < 16) {h : ∀ a, (![f] : Fin 1 → Nat) a + Cert.Kernel.S1.size a ≤ S16.size a}
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α}
    (hk : iprop(records m ρ K ∗ levAts L lv ∗ S1 m ρ c 16 d ∗ S2 m ρ c 16 e ∗ R2 m ρ c (f + 1) ∗ OW c 16 16)
      ⊢ wp frame (wpE (defs₀ (F := F)) 𝒱₀ (c : Thread nD τ) none) Set.univ (kk ⟨⟩) Q) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ
          (.op (.waitDma2 ((SemArray.slice cc0_scratch3 (Rect.unit (s := S16) ![f] Cert.Kernel.S1.size h)).squeeze S_ squeezes_S1_S_).sem
            src dst hsrc hdst) kk) Q := by
  iintro ⟨#HR, #Hlev, HS1, HS2, HR2, HOW⟩
  iapply (r2w_step m ρ K c f hf (sem_r2 ⟨f, hf⟩ h) hdc) $$ [HR2 HOW]
  · isplitr; · iexact HR
    isplitr; · iexact Hlev
    isplitl [HR2] <;> iassumption
  iintro ⟨HR2, HOW⟩
  iapply hk
  isplitr; · iexact HR
  isplitr; · iexact Hlev
  isplitl [HS1]; · iexact HS1
  isplitl [HS2]; · iexact HS2
  isplitl [HR2]; · iexact HR2
  iexact HOW

/-- The end of a part: the state is handed on as it stands. -/
private theorem closing_done (d e f : ℕ) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ (.ret ⟨⟩)
          (fun _ : PUnit => iprop(S1 m ρ c 16 d ∗ S2 m ρ c 16 e ∗ R2 m ρ c f ∗ OW c 16 16)) := by
  rw [wp_ret]
  iintro ⟨-, -, H⟩
  imodintro
  iexact H

/-! One wait of each kind as a step of a part's proof: the lemma of its array, the counters and the slot found by
    unification with the program's text; the opening of a part's skeleton, and its end. -/
set_option hygiene false in
local macro "w_s1" : tactic => `(tactic| refine s1w_at m ρ K c (by decide) (by rfl) ?_)
set_option hygiene false in
local macro "w_s2" : tactic => `(tactic| refine s2w_at m ρ K c (by decide) (by rfl) ?_)
set_option hygiene false in
local macro "w_r2" : tactic => `(tactic| refine r2w_at m ρ K c (by decide) (by rfl) ?_)
local macro "w_open" : tactic => `(tactic| simp only [Prog.lift, Prog.bind_op, Prog.bind_ret, Prog.pure_eq_ret])
set_option hygiene false in
local macro "w_done" : tactic => `(tactic| exact closing_done m ρ K c _ _ _)

/-! ## The parts -/

theorem part18_spec (v2 v7 : BitVec 32) :
    iprop(records m ρ K ∗ levAts L lv ∗ S1 m ρ c 16 0 ∗ S2 m ρ c 16 0 ∗ R2 m ρ c 0 ∗ OW c 16 16)
      ⊢ wp frame (wpE (defs₀ (F := F)) 𝒱₀ (c : Thread nD τ) none) Set.univ
          (k0_part18 (F := F) xM (Memref.isWhole_whole _) oM (Memref.isWhole_whole _) cc0_scratch0 cc0_scratch1 cc0_scratch2 cc0_scratch3 cc0_scratch4 c v2 v7)
          (fun _ => iprop(S1 m ρ c 16 2 ∗ S2 m ρ c 16 2 ∗ R2 m ρ c 1 ∗ OW c 16 16)) := by
  rw [k0_part18_eq_skeleton]; unfold k0_part18_skel; w_open
  w_s1; w_s2; w_r2; w_s1; w_s2
  w_done

theorem part19_spec (v2 v7 : BitVec 32) :
    iprop(records m ρ K ∗ levAts L lv ∗ S1 m ρ c 16 2 ∗ S2 m ρ c 16 2 ∗ R2 m ρ c 1 ∗ OW c 16 16)
      ⊢ wp frame (wpE (defs₀ (F := F)) 𝒱₀ (c : Thread nD τ) none) Set.univ
          (k0_part19 (F := F) xM (Memref.isWhole_whole _) oM (Memref.isWhole_whole _) cc0_scratch0 cc0_scratch1 cc0_scratch2 cc0_scratch3 cc0_scratch4 c v2 v7)
          (fun _ => iprop(S1 m ρ c 16 4 ∗ S2 m ρ c 16 4 ∗ R2 m ρ c 3 ∗ OW c 16 16)) := by
  rw [k0_part19_eq_skeleton]; unfold k0_part19_skel; w_open
  w_r2; w_s1; w_s2; w_r2; w_s1; w_s2
  w_done

theorem part20_spec (v2 v7 : BitVec 32) :
    iprop(records m ρ K ∗ levAts L lv ∗ S1 m ρ c 16 4 ∗ S2 m ρ c 16 4 ∗ R2 m ρ c 3 ∗ OW c 16 16)
      ⊢ wp frame (wpE (defs₀ (F := F)) 𝒱₀ (c : Thread nD τ) none) Set.univ
          (k0_part20 (F := F) xM (Memref.isWhole_whole _) oM (Memref.isWhole_whole _) cc0_scratch0 cc0_scratch1 cc0_scratch2 cc0_scratch3 cc0_scratch4 c v2 v7)
          (fun _ => iprop(S1 m ρ c 16 5 ∗ S2 m ρ c 16 5 ∗ R2 m ρ c 5 ∗ OW c 16 16)) := by
  rw [k0_part20_eq_skeleton]; unfold k0_part20_skel; w_open
  w_r2; w_s1; w_s2; w_r2
  w_done

theorem part21_spec (v2 v7 : BitVec 32) :
    iprop(records m ρ K ∗ levAts L lv ∗ S1 m ρ c 16 5 ∗ S2 m ρ c 16 5 ∗ R2 m ρ c 5 ∗ OW c 16 16)
      ⊢ wp frame (wpE (defs₀ (F := F)) 𝒱₀ (c : Thread nD τ) none) Set.univ
          (k0_part21 (F := F) xM (Memref.isWhole_whole _) oM (Memref.isWhole_whole _) cc0_scratch0 cc0_scratch1 cc0_scratch2 cc0_scratch3 cc0_scratch4 c v2 v7)
          (fun _ => iprop(S1 m ρ c 16 7 ∗ S2 m ρ c 16 7 ∗ R2 m ρ c 6 ∗ OW c 16 16)) := by
  rw [k0_part21_eq_skeleton]; unfold k0_part21_skel; w_open
  w_s1; w_s2; w_r2; w_s1; w_s2
  w_done

theorem part22_spec (v2 v7 : BitVec 32) :
    iprop(records m ρ K ∗ levAts L lv ∗ S1 m ρ c 16 7 ∗ S2 m ρ c 16 7 ∗ R2 m ρ c 6 ∗ OW c 16 16)
      ⊢ wp frame (wpE (defs₀ (F := F)) 𝒱₀ (c : Thread nD τ) none) Set.univ
          (k0_part22 (F := F) xM (Memref.isWhole_whole _) oM (Memref.isWhole_whole _) cc0_scratch0 cc0_scratch1 cc0_scratch2 cc0_scratch3 cc0_scratch4 c v2 v7)
          (fun _ => iprop(S1 m ρ c 16 9 ∗ S2 m ρ c 16 9 ∗ R2 m ρ c 8 ∗ OW c 16 16)) := by
  rw [k0_part22_eq_skeleton]; unfold k0_part22_skel; w_open
  w_r2; w_s1; w_s2; w_r2; w_s1; w_s2
  w_done

theorem part23_spec (v2 v7 : BitVec 32) :
    iprop(records m ρ K ∗ levAts L lv ∗ S1 m ρ c 16 9 ∗ S2 m ρ c 16 9 ∗ R2 m ρ c 8 ∗ OW c 16 16)
      ⊢ wp frame (wpE (defs₀ (F := F)) 𝒱₀ (c : Thread nD τ) none) Set.univ
          (k0_part23 (F := F) xM (Memref.isWhole_whole _) oM (Memref.isWhole_whole _) cc0_scratch0 cc0_scratch1 cc0_scratch2 cc0_scratch3 cc0_scratch4 c v2 v7)
          (fun _ => iprop(S1 m ρ c 16 10 ∗ S2 m ρ c 16 10 ∗ R2 m ρ c 10 ∗ OW c 16 16)) := by
  rw [k0_part23_eq_skeleton]; unfold k0_part23_skel; w_open
  w_r2; w_s1; w_s2; w_r2
  w_done

theorem part24_spec (v2 v7 : BitVec 32) :
    iprop(records m ρ K ∗ levAts L lv ∗ S1 m ρ c 16 10 ∗ S2 m ρ c 16 10 ∗ R2 m ρ c 10 ∗ OW c 16 16)
      ⊢ wp frame (wpE (defs₀ (F := F)) 𝒱₀ (c : Thread nD τ) none) Set.univ
          (k0_part24 (F := F) xM (Memref.isWhole_whole _) oM (Memref.isWhole_whole _) cc0_scratch0 cc0_scratch1 cc0_scratch2 cc0_scratch3 cc0_scratch4 c v2 v7)
          (fun _ => iprop(S1 m ρ c 16 12 ∗ S2 m ρ c 16 12 ∗ R2 m ρ c 11 ∗ OW c 16 16)) := by
  rw [k0_part24_eq_skeleton]; unfold k0_part24_skel; w_open
  w_s1; w_s2; w_r2; w_s1; w_s2
  w_done

theorem part25_spec (v2 v7 : BitVec 32) :
    iprop(records m ρ K ∗ levAts L lv ∗ S1 m ρ c 16 12 ∗ S2 m ρ c 16 12 ∗ R2 m ρ c 11 ∗ OW c 16 16)
      ⊢ wp frame (wpE (defs₀ (F := F)) 𝒱₀ (c : Thread nD τ) none) Set.univ
          (k0_part25 (F := F) xM (Memref.isWhole_whole _) oM (Memref.isWhole_whole _) cc0_scratch0 cc0_scratch1 cc0_scratch2 cc0_scratch3 cc0_scratch4 c v2 v7)
          (fun _ => iprop(S1 m ρ c 16 14 ∗ S2 m ρ c 16 14 ∗ R2 m ρ c 13 ∗ OW c 16 16)) := by
  rw [k0_part25_eq_skeleton]; unfold k0_part25_skel; w_open
  w_r2; w_s1; w_s2; w_r2; w_s1; w_s2
  w_done

theorem part26_spec (v2 v7 : BitVec 32) :
    iprop(records m ρ K ∗ levAts L lv ∗ S1 m ρ c 16 14 ∗ S2 m ρ c 16 14 ∗ R2 m ρ c 13 ∗ OW c 16 16)
      ⊢ wp frame (wpE (defs₀ (F := F)) 𝒱₀ (c : Thread nD τ) none) Set.univ
          (k0_part26 (F := F) xM (Memref.isWhole_whole _) oM (Memref.isWhole_whole _) cc0_scratch0 cc0_scratch1 cc0_scratch2 cc0_scratch3 cc0_scratch4 c v2 v7)
          (fun _ => iprop(S1 m ρ c 16 15 ∗ S2 m ρ c 16 15 ∗ R2 m ρ c 15 ∗ OW c 16 16)) := by
  rw [k0_part26_eq_skeleton]; unfold k0_part26_skel; w_open
  w_r2; w_s1; w_s2; w_r2
  w_done

end Parts

end Cert.Kernel.AG

end
-- ==== Proof.Kernel.AgOblig.lean ====
/-
  The pipeline's body obligation at the one grid point, from the body's specification: what the pipeline hands the
  body (the invariant before the point, what the device owes, the two staging buffers) is what the specification
  starts from, and what it ends with is what the pipeline takes back.
-/
import proofs.«900089_g7700000000000090_dist_ag_v7x_xy2x2_x_m512_n512_f32_1_alg».proof.Proof.Kernel.AgSteps
import proofs.«900089_g7700000000000090_dist_ag_v7x_xy2x2_x_m512_n512_f32_1_alg».proof.Proof.Gen.Kernel.Skeleton
import proofs.«900089_g7700000000000090_dist_ag_v7x_xy2x2_x_m512_n512_f32_1_alg».proof.Proof.Gen.Kernel.Points

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's specification on device c: from the launch's ghost state, what it owes, its staged operand block and its
    result staging buffer at any contents, the body runs to the end with its own cells closed, nothing owed, the
    operand block as it was and the result buffer at the gathered contents. -/
def BodySpec : Prop := ∀ (K : Dev nD × CIx → ℕ) (c : Dev nD),
  iprop(records m ρ K ∗ levAts L lv ∗ poss c ∗ payToks c ∗ creds0 c ∗ (∃ W, owes (c : Thread nD τ) (O₀ c) W)
      ∗ (((c : Thread nD τ).loc cc0_stg0_0) ↦{fullShare} Xc m ρ c) ∗ (∃ f, ((c : Thread nD τ).loc cc0_stg1_0) ↦{fullShare} f))
    ⊢ wp frame (wpE (defs₀ (F := F)) 𝒱₀ (c : Thread nD τ) none) Set.univ
        (cc0_body (F := F) xM (Memref.isWhole_whole _) oM (Memref.isWhole_whole _) cc0_scratch0 cc0_scratch1 cc0_scratch2 cc0_scratch3 cc0_scratch4)
        (fun _ => iprop(Φ₁ c ∗ (∃ W, owes (c : Thread nD τ) 0 W) ∗ (((c : Thread nD τ).loc cc0_stg0_0) ↦{fullShare} Xc m ρ c)
          ∗ (((c : Thread nD τ).loc cc0_stg1_0) ↦{fullShare} Gout m ρ c)))

/-- Owning a whole buffer at contents X: the buffer at some contents that are X. -/
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

private abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body at the one point, and what it takes back. -/
private def oblPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
private def oblPost (c : Dev nD) : sProp 𝕄 :=
  iprop(Φ₁ c ∗ (dats m ρ 0 c).owesAt () t0_0.succ ∗ stg c cc0_stg0_0 (Xc m ρ c) ∗ stg c cc0_stg1_0 (Gout m ρ c))

/-- The library's body obligation on device c. -/
theorem body_obligation_of (h : BodySpec m ρ) (c : Dev nD) :
    BodyObligation (dats (F := F) m ρ 0 c) (defs₀ (F := F)) 𝒱₀ () Set.univ := fun t => by
  rw [Gen.fin_N0 t]
  rw [Gen.bigSep_W0, Gen.bigSep_W0]
  simp only [owns_whole_eq]
  show oblPre m ρ c ⊢ wp frame (wpE (defs₀ (F := F)) 𝒱₀ (c : Thread nD τ) none) Set.univ
      (cc0_body (F := F) xM (Memref.isWhole_whole _) oM (Memref.isWhole_whole _) cc0_scratch0 cc0_scratch1 cc0_scratch2 cc0_scratch3 cc0_scratch4)
      (fun _ => oblPost m ρ c)
  have hpost : ∀ a : PUnit, iprop(Φ₁ c ∗ (∃ W, owes (c : Thread nD τ) 0 W) ∗ (((c : Thread nD τ).loc cc0_stg0_0) ↦{fullShare} Xc m ρ c)
          ∗ (((c : Thread nD τ).loc cc0_stg1_0) ↦{fullShare} Gout m ρ c)) ⊢ oblPost m ρ c := fun _ => by
    unfold oblPost Dat.owesAt Pipeline.owesWithin
    rw [show (dats m ρ 0 c).owed t0_0.succ = 0 from rfl]
    iintro ⟨HΦ, ⟨%W, HO⟩, Hx, Hout⟩
    isplitl [HΦ]; · iexact HΦ
    isplitl [HO]
    · iexists W
      isplitr; · ipureintro; exact fun _ _ => Or.inl trivial
      iexact HO
    isplitl [Hx]
    · iexists _; isplitr; · (ipureintro; rfl)
      iexact Hx
    iexists _; isplitr; · (ipureintro; rfl)
    iexact Hout
  unfold oblPre Φ₀ start ghost Dat.owesAt Pipeline.owesWithin
  rw [show (dats m ρ 0 c).owed t0_0.castSucc = O₀ c from rfl]
  iintro ⟨⟨⟨%K, HR, Hposs, Htoks⟩, Hcreds, Hlev⟩, ⟨%W, %hW, HO⟩, ⟨%d0, %g0, %hg0, Hx⟩, ⟨%d1, %g1, %hg1, Hout⟩⟩
  have hx : g0 = Xc m ρ c := by rw [hg0]; unfold Dat.before; rw [if_pos (Gen.fetch0_0 _)]; rfl
  subst hx
  iapply ((h K c).trans (wp_mono _ _ _ hpost))
  isplitl [HR]; · iexact HR
  isplitl [Hlev]; · iexact Hlev
  isplitl [Hposs]; · iexact Hposs
  isplitl [Htoks]; · iexact Htoks
  isplitl [Hcreds]; · iexact Hcreds
  isplitl [HO]; · iexists W; iexact HO
  isplitl [Hx]; · iexact Hx
  iexists g1; iexact Hout

/-- info: 'Cert.Kernel.AG.body_obligation_of' depends on axioms: [propext, Classical.choice, Quot.sound] -/
#guard_msgs in #print axioms body_obligation_of

end Cert.Kernel.AG

end
-- ==== Proof.Kernel.AgSpec.lean ====
/-
  The body's specification on one device: the printed parts run one after the other, each moving the thread's
  counters; then the last chunk's closing waits and the local copy's; the buffers whole again and the own cells closed.
-/
import proofs.«900089_g7700000000000090_dist_ag_v7x_xy2x2_x_m512_n512_f32_1_alg».proof.Proof.Kernel.AgHead
import proofs.«900089_g7700000000000090_dist_ag_v7x_xy2x2_x_m512_n512_f32_1_alg».proof.Proof.Kernel.AgPartsP
import proofs.«900089_g7700000000000090_dist_ag_v7x_xy2x2_x_m512_n512_f32_1_alg».proof.Proof.Kernel.AgPartsF
import proofs.«900089_g7700000000000090_dist_ag_v7x_xy2x2_x_m512_n512_f32_1_alg».proof.Proof.Kernel.AgPartsW
import proofs.«900089_g7700000000000090_dist_ag_v7x_xy2x2_x_m512_n512_f32_1_alg».proof.Proof.Kernel.AgOblig

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Spec

variable (K : Dev nD × CIx → ℕ) (c : Dev nD)

/-- Two programs in sequence: the first to an intermediate assertion, the second from it. -/
theorem wp_seq {β α : Type} {p : Prog (TpuEff nD τ sig (Elt F) Λ₀ .tc) β} {k : β → Prog (TpuEff nD τ sig (Elt F) Λ₀ .tc) α}
    {Q : α → sProp 𝕄} (R : β → sProp 𝕄) :
    iprop(wp frame (wpE (defs₀ (F := F)) 𝒱₀ (c : Thread nD τ) none) Set.univ p R
        ∗ (∀ b, R b -∗ wp frame (wpE (defs₀ (F := F)) 𝒱₀ (c : Thread nD τ) none) Set.univ (k b) Q))
      ⊢ wp frame (wpE (defs₀ (F := F)) 𝒱₀ (c : Thread nD τ) none) Set.univ (p >>= k) Q := by
  rw [wp_bind]; exact wp_wand_r _ _ _

theorem rangeSet_end : rangeSet 16 16 16 = ∅ := Ring.rangeSet_empty (Nat.le_refl 16)

set_option maxHeartbeats 3200000 in
set_option maxRecDepth 65536 in
theorem body_spec : BodySpec (F := F) m ρ := by
  intro K c
  rw [cc0_body_eq_skeleton]; unfold cc0_body_skel
  simp only [Prog.lift, Prog.bind_op, Prog.bind_ret, Prog.pure_eq_ret]
  iintro ⟨#HR, #Hlev, Hpos, Htok, Hcr, HO, Hx, Hout⟩
  -- part 1: the local copy and the entry barrier
  iapply (wp_seq c (fun r => iprop(⌜r.1 = c⌝ ∗ S1 m ρ c 0 0 ∗ R1 m ρ c 0 0 ∗ S2 m ρ c 0 0 ∗ R2 m ρ c 0 ∗ OW c 0 0 ∗ LocSt m ρ c)))
  isplitl [Hpos Htok Hcr HO Hx Hout]
  · iapply (head_spec m ρ K c)
    isplitr; · iexact HR
    isplitr; · iexact Hlev
    isplitl [Hpos]; · iexact Hpos
    isplitl [Htok]; · iexact Htok
    isplitl [Hcr]; · iexact Hcr
    isplitl [HO]; · iexact HO
    isplitl [Hx]; · iexact Hx
    iexact Hout
  iintro %r ⟨%hr, HS1, HR1, HS2, HR2, HOW, HL⟩
  obtain ⟨d0, v2, v5, v6, v7, v21, v24⟩ := r
  have hd0 : d0 = c := hr
  subst hd0
  dsimp only
  -- parts 2 to 7: the transfers across x
  iapply (wp_seq d0 (fun _ => iprop(S1 m ρ d0 2 0 ∗ OW d0 2 0)))
  isplitl [HS1 HOW]
  · iapply (part2_spec m ρ K d0 v5 v6 v21); isplitr; · iexact HR
    isplitl [HS1] <;> iassumption
  iintro %_ ⟨HS1, HOW⟩
  iapply (wp_seq d0 (fun _ => iprop(S1 m ρ d0 5 0 ∗ OW d0 5 0)))
  isplitl [HS1 HOW]
  · iapply (part3_spec m ρ K d0 v5 v6 v21); isplitr; · iexact HR
    isplitl [HS1] <;> iassumption
  iintro %_ ⟨HS1, HOW⟩
  iapply (wp_seq d0 (fun _ => iprop(S1 m ρ d0 7 0 ∗ OW d0 7 0)))
  isplitl [HS1 HOW]
  · iapply (part4_spec m ρ K d0 v5 v6 v21); isplitr; · iexact HR
    isplitl [HS1] <;> iassumption
  iintro %_ ⟨HS1, HOW⟩
  iapply (wp_seq d0 (fun _ => iprop(S1 m ρ d0 10 0 ∗ OW d0 10 0)))
  isplitl [HS1 HOW]
  · iapply (part5_spec m ρ K d0 v5 v6 v21); isplitr; · iexact HR
    isplitl [HS1] <;> iassumption
  iintro %_ ⟨HS1, HOW⟩
  iapply (wp_seq d0 (fun _ => iprop(S1 m ρ d0 12 0 ∗ OW d0 12 0)))
  isplitl [HS1 HOW]
  · iapply (part6_spec m ρ K d0 v5 v6 v21); isplitr; · iexact HR
    isplitl [HS1] <;> iassumption
  iintro %_ ⟨HS1, HOW⟩
  iapply (wp_seq d0 (fun _ => iprop(S1 m ρ d0 15 0 ∗ OW d0 15 0)))
  isplitl [HS1 HOW]
  · iapply (part7_spec m ρ K d0 v5 v6 v21); isplitr; · iexact HR
    isplitl [HS1] <;> iassumption
  iintro %_ ⟨HS1, HOW⟩
  -- part 8: the last transfer across x, the first arrival and forward
  iapply (wp_seq d0 (fun _ => iprop(S1 m ρ d0 16 0 ∗ R1 m ρ d0 1 1 ∗ S2 m ρ d0 1 0 ∗ OW d0 16 1)))
  isplitl [HS1 HR1 HS2 HOW]
  · iapply (part8_spec m ρ K d0 v2 v5 v6 v7 v24); isplitr; · iexact HR
    isplitr; · iexact Hlev
    isplitl [HS1]; · iexact HS1
    isplitl [HR1]; · iexact HR1
    isplitl [HS2] <;> iassumption
  iintro %r8 ⟨HS1, HR1, HS2, HOW⟩
  obtain ⟨v253, v254⟩ := r8
  dsimp only
  iapply (wp_seq d0 (fun _ => iprop(R1 m ρ d0 3 2 ∗ S2 m ρ d0 2 0 ∗ OW d0 16 2)))
  isplitl [HR1 HS2 HOW]
  · iapply (part9_spec m ρ K d0 v2 v5 v6 v7 v24 v253 v254); isplitr; · iexact HR
    isplitr; · iexact Hlev
    isplitl [HR1]; · iexact HR1
    isplitl [HS2] <;> iassumption
  iintro %_ ⟨HR1, HS2, HOW⟩
  iapply (wp_seq d0 (fun _ => iprop(R1 m ρ d0 5 4 ∗ S2 m ρ d0 4 0 ∗ OW d0 16 4)))
  isplitl [HR1 HS2 HOW]
  · iapply (part10_spec m ρ K d0 v2 v5 v6 v7 v24); isplitr; · iexact HR
    isplitr; · iexact Hlev
    isplitl [HR1]; · iexact HR1
    isplitl [HS2] <;> iassumption
  iintro %_ ⟨HR1, HS2, HOW⟩
  iapply (wp_seq d0 (fun _ => iprop(R1 m ρ d0 6 6 ∗ S2 m ρ d0 6 0 ∗ OW d0 16 6)))
  isplitl [HR1 HS2 HOW]
  · iapply (part11_spec m ρ K d0 v2 v5 v6 v7 v24); isplitr; · iexact HR
    isplitr; · iexact Hlev
    isplitl [HR1]; · iexact HR1
    isplitl [HS2] <;> iassumption
  iintro %r11 ⟨HR1, HS2, HOW⟩
  obtain ⟨v348, v349⟩ := r11
  dsimp only
  iapply (wp_seq d0 (fun _ => iprop(R1 m ρ d0 8 7 ∗ S2 m ρ d0 7 0 ∗ OW d0 16 7)))
  isplitl [HR1 HS2 HOW]
  · iapply (part12_spec m ρ K d0 v2 v5 v6 v7 v24 v348 v349); isplitr; · iexact HR
    isplitr; · iexact Hlev
    isplitl [HR1]; · iexact HR1
    isplitl [HS2] <;> iassumption
  iintro %_ ⟨HR1, HS2, HOW⟩
  iapply (wp_seq d0 (fun _ => iprop(R1 m ρ d0 10 9 ∗ S2 m ρ d0 9 0 ∗ OW d0 16 9)))
  isplitl [HR1 HS2 HOW]
  · iapply (part13_spec m ρ K d0 v2 v5 v6 v7 v24); isplitr; · iexact HR
    isplitr; · iexact Hlev
    isplitl [HR1]; · iexact HR1
    isplitl [HS2] <;> iassumption
  iintro %_ ⟨HR1, HS2, HOW⟩
  iapply (wp_seq d0 (fun _ => iprop(R1 m ρ d0 11 11 ∗ S2 m ρ d0 11 0 ∗ OW d0 16 11)))
  isplitl [HR1 HS2 HOW]
  · iapply (part14_spec m ρ K d0 v2 v5 v6 v7 v24); isplitr; · iexact HR
    isplitr; · iexact Hlev
    isplitl [HR1]; · iexact HR1
    isplitl [HS2] <;> iassumption
  iintro %r14 ⟨HR1, HS2, HOW⟩
  obtain ⟨v443, v444⟩ := r14
  dsimp only
  iapply (wp_seq d0 (fun _ => iprop(R1 m ρ d0 13 12 ∗ S2 m ρ d0 12 0 ∗ OW d0 16 12)))
  isplitl [HR1 HS2 HOW]
  · iapply (part15_spec m ρ K d0 v2 v5 v6 v7 v24 v443 v444); isplitr; · iexact HR
    isplitr; · iexact Hlev
    isplitl [HR1]; · iexact HR1
    isplitl [HS2] <;> iassumption
  iintro %_ ⟨HR1, HS2, HOW⟩
  iapply (wp_seq d0 (fun _ => iprop(R1 m ρ d0 15 14 ∗ S2 m ρ d0 14 0 ∗ OW d0 16 14)))
  isplitl [HR1 HS2 HOW]
  · iapply (part16_spec m ρ K d0 v2 v5 v6 v7 v24); isplitr; · iexact HR
    isplitr; · iexact Hlev
    isplitl [HR1]; · iexact HR1
    isplitl [HS2] <;> iassumption
  iintro %_ ⟨HR1, HS2, HOW⟩
  iapply (wp_seq d0 (fun _ => iprop(R1 m ρ d0 16 16 ∗ S2 m ρ d0 16 0 ∗ OW d0 16 16)))
  isplitl [HR1 HS2 HOW]
  · iapply (part17_spec m ρ K d0 v2 v5 v6 v7 v24); isplitr; · iexact HR
    isplitr; · iexact Hlev
    isplitl [HR1]; · iexact HR1
    isplitl [HS2] <;> iassumption
  iintro %_ ⟨HR1, HS2, HOW⟩
  -- parts 18 to 26: the closing waits of chunks 0 to 14
  iapply (wp_seq d0 (fun _ => iprop(S1 m ρ d0 16 2 ∗ S2 m ρ d0 16 2 ∗ R2 m ρ d0 1 ∗ OW d0 16 16)))
  isplitl [HS1 HS2 HR2 HOW]
  · iapply (part18_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 4 ∗ S2 m ρ d0 16 4 ∗ R2 m ρ d0 3 ∗ OW d0 16 16)))
  isplitl [HS1 HS2 HR2 HOW]
  · iapply (part19_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 5 ∗ S2 m ρ d0 16 5 ∗ R2 m ρ d0 5 ∗ OW d0 16 16)))
  isplitl [HS1 HS2 HR2 HOW]
  · iapply (part20_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 7 ∗ S2 m ρ d0 16 7 ∗ R2 m ρ d0 6 ∗ OW d0 16 16)))
  isplitl [HS1 HS2 HR2 HOW]
  · iapply (part21_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 9 ∗ S2 m ρ d0 16 9 ∗ R2 m ρ d0 8 ∗ OW d0 16 16)))
  isplitl [HS1 HS2 HR2 HOW]
  · iapply (part22_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 10 ∗ S2 m ρ d0 16 10 ∗ R2 m ρ d0 10 ∗ OW d0 16 16)))
  isplitl [HS1 HS2 HR2 HOW]
  · iapply (part23_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 12 ∗ S2 m ρ d0 16 12 ∗ R2 m ρ d0 11 ∗ OW d0 16 16)))
  isplitl [HS1 HS2 HR2 HOW]
  · iapply (part24_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 14 ∗ S2 m ρ d0 16 14 ∗ R2 m ρ d0 13 ∗ OW d0 16 16)))
  isplitl [HS1 HS2 HR2 HOW]
  · iapply (part25_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 15 ∗ S2 m ρ d0 16 15 ∗ R2 m ρ d0 15 ∗ OW d0 16 16)))
  isplitl [HS1 HS2 HR2 HOW]
  · iapply (part26_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  -- chunk 15's closing waits
  iapply (s1w_step m ρ K d0 16 15 16 (by decide) (by decide) (sem_s1 _ _) (by rfl)) $$ [HS1 HOW]
  · isplitr; · iexact HR
    isplitr; · iexact Hlev
    isplitl [HS1] <;> iassumption
  iintro ⟨HS1, HOW⟩
  iapply (s2w_step m ρ K d0 16 16 15 (by decide) (by decide) (sem_s2 _ _) (by rfl)) $$ [HS2 HOW]
  · isplitr; · iexact HR
    isplitr; · iexact Hlev
    isplitl [HS2] <;> iassumption
  iintro ⟨HS2, HOW⟩
  iapply (r2w_step m ρ K d0 15 (by decide) (sem_r2 _ _) (by rfl)) $$ [HR2 HOW]
  · isplitr; · iexact HR
    isplitr; · iexact Hlev
    isplitl [HR2] <;> iassumption
  iintro ⟨HR2, HOW⟩
  -- the local copy's closing wait, nothing owed any more
  unfold OW LocSt
  rw [owe1_end, owe2_end, add_zero]
  icases HOW with ⟨%W, HO⟩
  icases HL with ⟨HcL, HaL, HxRest⟩
  iapply (wp_locwait m ρ K d0 sem_loc (by rfl)) $$ [HcL HO HaL]
  · isplitr; · iexact HR
    isplitl [HcL]; · iexact HcL
    isplitl [HO]; · iexact HO
    iexact HaL
  iintro ⟨HO, HaL, Hloc⟩
  rw [wp_ret]
  -- the buffers whole again, the own cells closed
  unfold locPay
  icases Hloc with ⟨HoA, HxL⟩
  unfold S1 R1 S2 R2
  simp only [rangeSet_end, bigSep_empty, bigSep_sep']
  icases HS1 with ⟨-, -, -, -, -, -, Hp0, Hs1⟩
  icases HR1 with ⟨-, Hp1, -⟩
  icases HS2 with ⟨-, -, -, -, -, Hp2, Hb⟩
  icases HR2 with ⟨-, Hp3, Hcc⟩
  ihave HxW := (x_join m ρ d0) $$ [HxL Hs1 HxRest]
  · isplitl [HxL]; · rw [← x_whole_eq]; iexact HxL
    isplitl [Hs1]; · iexact Hs1
    iexact HxRest
  ihave HoW := (out_join m ρ d0) $$ [HoA Hb Hcc]
  · isplitl [HoA]; · iexact HoA
    isplitl [Hb]; · iexact Hb
    iexact Hcc
  imod (close_own m ρ K d0) $$ [HaL Hp0 Hp1 Hp2 Hp3] with HΦ
  · isplitr; · iexact HR
    isplitl [HaL]; · iexact HaL
    isplitl [Hp0]; · iexact Hp0
    isplitl [Hp1]; · iexact Hp1
    isplitl [Hp2]; · iexact Hp2
    iexact Hp3
  imodintro
  isplitl [HΦ]; · iexact HΦ
  isplitl [HO]; · iexists _; iexact HO
  isplitl [HxW]; · iexact HxW
  iexact HoW

end Spec

/-- info: 'Cert.Kernel.AG.body_spec' depends on axioms: [propext, Classical.choice, Quot.sound] -/
#guard_msgs in #print axioms body_spec

end Cert.Kernel.AG

end
-- ==== Proof.Kernel.AgLaunch.lean ====
/-
  The launch: every cell's invariant allocated for all four devices at once, the duty tokens dealt to their payers
  across the two axes, the launch credit read as one token per arrival and two barrier units; and the run of @main.
-/
import proofs.«900089_g7700000000000090_dist_ag_v7x_xy2x2_x_m512_n512_f32_1_alg».proof.Proof.Kernel.AgSched
import proofs.«900089_g7700000000000090_dist_ag_v7x_xy2x2_x_m512_n512_f32_1_alg».proof.Proof.Kernel.AgLevels

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

/-- The kernel's own semaphores are scoped, pairwise distinct, and none is a staging semaphore. -/
theorem ownSemFacts : Pipeline.OwnSemFacts cfg0.spec osem := by decide

theorem share_eq (c : Dev nD) (w : Fin cfg0.W) : (dats m ρ 0 c).share w = fullShare := by unfold Dat.share; split <;> rfl

/-! ## Small splittings of a conjunction over a finite index -/

theorem bigSep_bool {M : Type} [URA M] (Φ : Bool → sProp M) : bigSep Finset.univ Φ = iprop(Φ false ∗ Φ true) :=
  bigSep_univ_eq_bigSepL [false, true] (by decide) (by decide) Φ
theorem bigSep_unit {M : Type} [URA M] (Φ : Unit → sProp M) : bigSep Finset.univ Φ = Φ () := bigSep_univ_of_subsingleton ()
/-- A conjunction over a sum of index types is the two summands', stated with the proof mode's separating conjunction. -/
theorem bigSep_sum' {M : Type} [URA M] {α β : Type} [Fintype α] [Fintype β] (Φ : α ⊕ β → sProp M) :
    bigSep Finset.univ Φ = iprop(bigSep Finset.univ (fun a => Φ (.inl a)) ∗ bigSep Finset.univ (fun b => Φ (.inr b))) := bigSep_univ_sum Φ
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-! ## The cells and the tokens, enumerated -/

/-- Cell (j, k) is semaphore 2 + 16 j + k: distinct pairs are distinct semaphores, and none is the local copy's, 66. -/
theorem osem_injective : Function.Injective (osem : OIx → SemLoc sig) := by
  rintro (⟨⟩ | ⟨j, k⟩) (⟨⟩ | ⟨j', k'⟩) h
  · rfl
  · have h1 : locS = dsem j' k' := SemLoc.dma.inj h
    have h2 : (66 : ℕ) = 2 + 16 * j'.val + k'.val := congrArg Fin.val h1
    have := j'.isLt; have := k'.isLt; omega
  · have h1 : dsem j k = locS := SemLoc.dma.inj h
    have h2 : 2 + 16 * j.val + k.val = (66 : ℕ) := congrArg Fin.val h1
    have := j.isLt; have := k.isLt; omega
  · have h1 : dsem j k = dsem j' k' := SemLoc.dma.inj h
    have h2 : 2 + 16 * j.val + k.val = 2 + 16 * j'.val + k'.val := congrArg Fin.val h1
    have hj : j = j' := Fin.ext (by have := k.isLt; have := k'.isLt; omega)
    have hk : k = k' := Fin.ext (by have := k.isLt; have := k'.isLt; omega)
    subst hj; subst hk; rfl

theorem csem_injective : Function.Injective (csem : CIx → SemLoc sig) := by
  rintro (⟨⟩ | i) (⟨⟩ | i') h
  · rfl
  · rcases i' with ⟨⟩ | ⟨j, k⟩ <;> cases h
  · rcases i with ⟨⟩ | ⟨j, k⟩ <;> cases h
  · exact congrArg Sum.inr (osem_injective h)

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]
def ringCells : Finset (GSem nD τ sig) := Finset.univ.map ⟨kcell, kcell_injective⟩

/-- A device's own cells' duty tokens as minted: its barrier's two, then one per own cell. -/
abbrev TIx : Type := Bool ⊕ OIx
abbrev tokOf (ct : Dev nD × TIx) : GSem nD τ sig × ℕ × Bool := match ct.2 with
  | .inl b => (barCell ct.1, 0, b)
  | .inr i => (((ct.1 : Thread nD τ), osem i), 0, false)
theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    rcases t with b | i <;> rcases t' with b' | i' <;> exact this
  subst h1
  have : t = t' := by
    rcases t with b | i <;> rcases t' with b' | i'
    · have hb : b = b' := congrArg (fun x : GSem nD τ sig × ℕ × Bool => x.2.2) h
      rw [hb]
    · have h2 : (SemLoc.reg barS : SemLoc sig) = osem i' := congrArg (fun x : GSem nD τ sig × ℕ × Bool => x.1.2) h
      rcases i' with ⟨⟩ | ⟨j, k⟩ <;> cases h2
    · have h2 : osem i = (SemLoc.reg barS : SemLoc sig) := congrArg (fun x : GSem nD τ sig × ℕ × Bool => x.1.2) h
      rcases i with ⟨⟩ | ⟨j, k⟩ <;> cases h2
    · have h2 : osem i = osem i' := congrArg (fun x : GSem nD τ sig × ℕ × Bool => x.1.2) h
      rw [osem_injective h2]
  subst this; rfl
def ringToks : Finset (GSem nD τ sig × ℕ × Bool) := Finset.univ.map ⟨tokOf, tokOf_injective⟩

/-- The launch element: the pipeline's cells and tokens, and the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop((dutyTok ER (barCell c) 0 false ∗ dutyTok ER (barCell c) 0 true) ∗ dutyTok ER (locCell c) 0 false
    ∗ bigSep Finset.univ fun jk : Fin 4 × Fin 16 => dutyTok ER (dCell c jk.1 jk.2) 0 false)

/-- What the launch element deals device c. -/
def G (c : Dev nD) : sProp 𝕄 :=
  iprop((bigSep Finset.univ fun i : CIx => roundState ER (agRd m ρ) (kcell (c, i)) 0)
    ∗ (bigSep Finset.univ fun i : CIx => iprop(atPos ER (kcell (c, i)) 0 ∅ 0 ∗ reached ER (kcell (c, i)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_sum', bigSep_sum', bigSep_bool, bigSep_unit]; rfl
  iintro HX
  imod (Rounds.fund ER (agRd m ρ) ringCells ringToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the allocation of the cells' invariants -/

/-- The barrier semaphore is the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [unscopedSems0_eq, bigSep_sum', bigSep_unit]
  unfold Pipeline.ownSems0
  iintro ⟨Ho, Hb⟩
  isplitl [Hb]; · iexact Hb
  iexact Ho

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CIx => iprop(∃ κ : ℕ, cellInv ER (agRd m ρ) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (agRd m ρ) (kcell (c, i)) 0)
      ⊢ (|={Set.univ}=> bigSep Finset.univ fun i : CIx => iprop(∃ κ : ℕ, cellInv ER (agRd m ρ) κ (kcell (c, i))) : sProp 𝕄) from by
        rw [← bigSep_sep']
        exact (bigSep_mono fun i _ => (Rounds.body_intro ER (agRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## From the devices' own cells to what each device holds -/

theorem ghost_intro (K : Dev nD × CIx → ℕ) (c : Dev nD) : iprop(records m ρ K ∗ poss c ∗ payToks c) ⊢ G' m ρ c := by
  unfold G' ghost
  iintro H
  iexists K
  iexact H

/-- A device's positions on its own cells, cell by cell. -/
theorem poss_eq (c : Dev nD) : (bigSep Finset.univ fun i : CIx => (atPos ER (kcell (c, i)) 0 ∅ 0 : sProp 𝕄)) = poss c := by
  unfold poss; rw [bigSep_sum', bigSep_sum', bigSep_unit, bigSep_unit]

/-- A device's own tokens, the sixteen of each of the four arrays apart. -/
theorem toks_eq (c : Dev nD) : (toks c : sProp 𝕄) = iprop((dutyTok ER (barCell c) 0 false ∗ dutyTok ER (barCell c) 0 true) ∗ dutyTok ER (locCell c) 0 false
      ∗ (bigSep Finset.univ fun k : Fin 16 => dutyTok ER (dCell c 0 k) 0 false) ∗ (bigSep Finset.univ fun k : Fin 16 => dutyTok ER (dCell c 1 k) 0 false)
      ∗ (bigSep Finset.univ fun k : Fin 16 => dutyTok ER (dCell c 2 k) 0 false) ∗ (bigSep Finset.univ fun k : Fin 16 => dutyTok ER (dCell c 3 k) 0 false)) := by
  unfold toks; rw [bigSep_univ_prod, bigSep_fin4] <;> rfl

/-- The tokens dealt across the mesh: a barrier's false token and the tokens of the arrivals across x go to the device
    across x, a barrier's true token and the tokens of the arrivals across y to the device across y; the rest stay. -/
theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => (bigSep Finset.univ fun k : Fin 16 => dutyTok ER (dCell c 1 k) 0 false : sProp 𝕄)),
    bigSep_univ_equiv swapY (fun c : Dev nD => (bigSep Finset.univ fun k : Fin 16 => dutyTok ER (dCell c 3 k) 0 false : sProp 𝕄))]
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CIx => iprop(∃ κ : ℕ, cellInv ER (agRd m ρ) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CIx => iprop(∃ κ : ℕ, cellInv ER (agRd m ρ) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄)),
    bigSep_congr (s := Finset.univ) (fun (c : Dev nD) _ => poss_eq (F := F) c)]
  iintro ⟨HI, ⟨Hat, #HR⟩, Htok⟩
  ihave HK := (BI.bigSep_exists_pi Finset.univ (fun (ck : Dev nD × CIx) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (poss c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Two barrier units make the credit of the barrier's whole round. -/
theorem cred_bar2 (c : Dev nD) :
    iprop(cred (tallyAt (barCell c) () 1) ∗ cred (tallyAt (barCell c) () 1)) ⊢ (cred (tallyAt (barCell c) () 2) : sProp 𝕄) :=
  (cred_add _ _).2.trans (Entails.of_eq (congrArg cred (tallyAt_add (barCell c) () 1 1)))

/-- The arrivals across x owed at launch, read at device c: one chunk's worth on each of its sixteen cells. -/
theorem cred_r1 (c : Dev nD) :
    (bigSep Finset.univ fun k : Fin 16 => Pipeline.launchCred (fun d => tallyAt (r1Cell (px d) k) () N16) c : sProp 𝕄)
      ⊢ bigSep Finset.univ fun k : Fin 16 => cred (tallyAt (r1Cell c k) () N16) :=
  bigSep_mono fun k _ => Pipeline.launchCred_tallyAt (.dma (r1S k)) px px px_px px_px () N16 c
/-- The arrivals across y likewise. -/
theorem cred_r2 (c : Dev nD) :
    (bigSep Finset.univ fun k : Fin 16 => Pipeline.launchCred (fun d => tallyAt (r2Cell (py d) k) () N16) c : sProp 𝕄)
      ⊢ bigSep Finset.univ fun k : Fin 16 => cred (tallyAt (r2Cell c k) () N16) :=
  bigSep_mono fun k _ => Pipeline.launchCred_tallyAt (.dma (r2S k)) py py py_py py_py () N16 c

/-- What the devices owe at launch, read at device c: a unit on its barrier from each of its two peers, and one chunk's
    worth on each of its thirty-two arrival cells. -/
theorem creds (c : Dev nD) : (Pipeline.launchCred O₀ c : sProp 𝕄) ⊢ creds0 c := by
  have s0 : (Pipeline.launchCred O₀ c : sProp 𝕄)
      = iprop(Pipeline.launchCred O₁ c ∗ Pipeline.launchCred (fun d => tallyAt (barCell (px d)) () 1) c) :=
    Pipeline.launchCred_add O₁ (fun d => tallyAt (barCell (px d)) () 1) c
  have s1 : (Pipeline.launchCred O₁ c : sProp 𝕄)
      = iprop(Pipeline.launchCred O₂ c ∗ Pipeline.launchCred (fun d => tallyAt (barCell (py d)) () 1) c) :=
    Pipeline.launchCred_add O₂ (fun d => tallyAt (barCell (py d)) () 1) c
  have s2 : (Pipeline.launchCred O₂ c : sProp 𝕄)
      = iprop(Pipeline.launchCred (fun d => owe2 d 0) c ∗ Pipeline.launchCred (fun d => owe1 d 0) c) :=
    Pipeline.launchCred_add (fun d => owe2 d 0) (fun d => owe1 d 0) c
  have s3 : (Pipeline.launchCred (fun d => owe1 d 0) c : sProp 𝕄)
      = bigSep (Ring.rangeSet 16 0 16) fun k => Pipeline.launchCred (fun d => tallyAt (r1Cell (px d) k) () N16) c :=
    Pipeline.launchCred_sum (Ring.rangeSet 16 0 16) (fun k d => tallyAt (r1Cell (px d) k) () N16) c
  have s4 : (Pipeline.launchCred (fun d => owe2 d 0) c : sProp 𝕄)
      = bigSep (Ring.rangeSet 16 0 16) fun k => Pipeline.launchCred (fun d => tallyAt (r2Cell (py d) k) () N16) c :=
    Pipeline.launchCred_sum (Ring.rangeSet 16 0 16) (fun k d => tallyAt (r2Cell (py d) k) () N16) c
  rw [s0, s1, s2, s3, s4, Ring.rangeSet_univ]
  unfold creds0
  iintro ⟨⟨⟨H2, H1⟩, Hy⟩, Hx⟩
  ihave Hx' := (Pipeline.launchCred_tallyAt (.reg barS) px px px_px px_px () 1 c) $$ Hx
  ihave Hy' := (Pipeline.launchCred_tallyAt (.reg barS) py py py_py py_py () 1 c) $$ Hy
  ihave H1' := (cred_r1 (F := F) c) $$ H1
  ihave H2' := (cred_r2 (F := F) c) $$ H2
  isplitl [Hx' Hy']
  · iapply (cred_bar2 (F := F) c)
    isplitl [Hx'] <;> iassumption
  isplitl [H1']; · iexact H1'
  iexact H2'

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Pipeline.ownSems0 osem c from rfl, scopedRest0_eq]
  iintro H
  isplitr; · iempintro
  isplitl [H]; · iexact H
  iempintro

/-! ## The run -/

/-- What the run ends with: every window's array at the proof data's final contents. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of four devices, from any memory with zero counters: every weakly fair execution of @main
    terminates without fault with every window's array at the proof data's final contents, given each device's
    body obligation. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.AG.run_main' depends on axioms: [propext, Classical.choice, Quot.sound] -/
#guard_msgs in #print axioms run_main

end Cert.Kernel.AG

end
-- ==== Proof.Kernel.AgValue.lean ====
/-
  What the run leaves in the arrays: the operand block unchanged, the result at the gathered contents.
-/
import proofs.«900089_g7700000000000090_dist_ag_v7x_xy2x2_x_m512_n512_f32_1_alg».proof.Proof.Kernel.AgLaunch
import proofs.«900089_g7700000000000090_dist_ag_v7x_xy2x2_x_m512_n512_f32_1_alg».proof.Proof.Gen.Kernel.Points

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged operand block is the operand array as launched (the window's one block is the whole array). -/
theorem Xc_eq (c : Dev nD) : Xc m ρ c = m ((c : Thread nD τ).loc main_arg0) := by
  unfold Xc s₀
  exact Memref.read_access_unit_zero (Elt F) main_arg0 (off := fun a => 0 * S512x512.size a)
    (funext fun a => Nat.zero_mul _) _ _

/-- The result window's one block is the whole result array, so the one write-back leaves exactly what the body
    left in the staging buffer: the gathered contents. -/
private theorem arr_out (c : Dev nD) : (dats (F := F) m ρ 0 c).arrAt (1 : Fin 2) cfg0.N = Gout m ρ c := by
  rw [show cfg0.N = ((0 : Fin 1) : Fin cfg0.N).val + 1 from rfl, (dats m ρ 0 c).arrAt_succ (1 : Fin 2) (0 : Fin 1),
    flush0_1 (0 : Fin 1), if_pos rfl]
  exact Memref.write_access_unit_zero_univ (Elt F) main_v1 (off := fun a => 0 * S1024x512.size a)
    (funext fun a => Nat.zero_mul _) _ _ _

/-- The operand window is an input: its array is never written back. -/
private theorem arr_in (c : Dev nD) : (dats (F := F) m ρ 0 c).arrAt (0 : Fin 2) cfg0.N = m ((c : Thread nD τ).loc main_arg0) :=
  (dats (F := F) m ρ 0 c).arrAt_in (0 : Fin 2) rfl _

/-- The run with its values named: on every device the result array ends at the gathered contents and the operand
    array as launched. -/
theorem run_val (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Gout m ρ c
      ∧ r.2.mem ((c.tc : Thread nD τ).loc main_arg0) = m ((c.tc : Thread nD τ).loc main_arg0)) :=
  (θ_run defs _ _).mono
    (fun _ h c => ⟨(h c (1 : Fin 2)).trans (arr_out m ρ c), (h c (0 : Fin 2)).trans (arr_in m ρ c)⟩)
    (run_main m ρ hbody)

/-- info: 'Cert.Kernel.AG.run_val' depends on axioms: [propext, Classical.choice, Quot.sound] -/
#guard_msgs in #print axioms run_val

end Cert.Kernel.AG

end
-- ==== Proof.KernelIdeal.AgDefs.lean ====
/-
  The all-gather on the 2 × 2 mesh, shared vocabulary: the two peers of a device, the slices of the staged
  operand and of the staged result the copies move, the semaphore cells, the result each device ends with, and
  the rounds schedule (one round per cell) whose payloads say what each landing hands its waiter.

  Device c = (x, y) has logical id 2 x + y. Its block of the operand is rows 512 x … 512 x + 511 of the whole
  array. The result buffer of c is filled from three sides: rows 512 x … by its own local copy; rows
  512 (1 - x) + 256 y … (sixteen chunks of sixteen rows) by the device across the x axis, from that device's
  own block; rows 512 (1 - x) + 256 (1 - y) … by the device across the y axis, which forwards what it received
  from ITS x-neighbour. Every device thus ends with both blocks, each in place.
-/
import proofs.«900089_g7700000000000090_dist_ag_v7x_xy2x2_x_m512_n512_f32_1_alg».proof.Proof.Gen.KernelIdeal
import proofs.«900089_g7700000000000090_dist_ag_v7x_xy2x2_x_m512_n512_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Ring
import Idealize.ShloMosaic.Lib.Tactic

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by Bool) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The peers -/

/-- The device across the x axis: (1 - x, y). -/
def px (c : Dev nD) : Dev nD := ⟨(c.val + 2) % 4, Nat.mod_lt _ (by decide)⟩
/-- The device across the y axis: (x, 1 - y). -/
def py (c : Dev nD) : Dev nD := ⟨2 * (c.val / 2) + (c.val + 1) % 2, by have := c.isLt; revert this; generalize c.val = v; decide +revert⟩

theorem px_px (c : Dev nD) : px (px c) = c := by revert c; decide
theorem py_py (c : Dev nD) : py (py c) = c := by revert c; decide
theorem px_py (c : Dev nD) : px (py c) = py (px c) := by revert c; decide
theorem px_ne (c : Dev nD) : px c ≠ c := by revert c; decide
theorem py_ne (c : Dev nD) : py c ≠ c := by revert c; decide
theorem px_ne_py (c : Dev nD) : px c ≠ py c := by revert c; decide

def swapX : Dev nD ≃ Dev nD := ⟨px, px, px_px, px_px⟩
def swapY : Dev nD ≃ Dev nD := ⟨py, py, py_py, py_py⟩

/-- A device-id chain that names the x-peer, in closed form. -/
theorem devX_of {n : ℕ} (c : Dev nD) (h : n < nD) (e : n = ((c.val % 2) + 2) - 2 * (c.val / 2)) : (⟨n, h⟩ : Dev nD) = px c := by
  subst e; revert c; decide
/-- A device-id chain that names the y-peer, in closed form. -/
theorem devY_of {n : ℕ} (c : Dev nD) (h : n < nD) (e : n = (2 * (c.val / 2) + 1) - (c.val % 2)) : (⟨n, h⟩ : Dev nD) = py c := by
  subst e; revert c; decide

/-! ## The memrefs -/

/-- The staged operand block and the staged result, whole. -/
abbrev xM : Memref sig .tc .vmem S512x512 .f32 := Memref.whole cc0_stg0_0
abbrev oM : Memref sig .tc .vmem S1024x512 .f32 := Memref.whole cc0_stg1_0

/-- Chunk k's constant row offset, as the program passes it. -/
abbrev wk (k : Fin 16) : BitVec 32 := BitVec.ofNat 32 (16 * k.val)

/-- Where the local copy lands: rows 512 x … of the result. -/
abbrev locDst (c : Dev nD) : Memref sig .tc .vmem S512x512 .f32 :=
  oM.slice (Rect.unit (s := S1024x512) (k0_off1 c) S512x512.size (k0_off1_inb c)) (fun _ => rfl)
/-- Chunk k of what c sends across x: rows 256 y + 16 k … of its operand block. -/
abbrev p1Src (c : Dev nD) (k : Fin 16) : Memref sig .tc .vmem S16x512 .f32 :=
  xM.slice (Rect.unit (s := S512x512) (k0_off3 c (wk k)) S16x512.size (k0_off3_inb c k)) (fun _ => rfl)
/-- Where it lands in the x-peer's result: rows 512 x + 256 y + 16 k …. -/
abbrev p1Dst (c : Dev nD) (k : Fin 16) : Memref sig .tc .vmem S16x512 .f32 :=
  oM.slice (Rect.unit (s := S1024x512) (k0_off2 c (wk k)) S16x512.size (k0_off2_inb c k)) (fun _ => rfl)
/-- Chunk k of what c forwards across y, source and destination alike: rows 512 (1 - x) + 256 y + 16 k …. -/
abbrev p2Buf (c : Dev nD) (k : Fin 16) : Memref sig .tc .vmem S16x512 .f32 :=
  oM.slice (Rect.unit (s := S1024x512) (k0_off4 c (wk k)) S16x512.size (k0_off4_inb c k)) (fun _ => rfl)

/-- What a transfer of one chunk credits, and what the local copy credits. -/
abbrev N16 : ℕ := (p2Buf (0 : Dev nD) 0).view.dmaCredit
abbrev NL : ℕ := (locDst (0 : Dev nD)).view.dmaCredit
theorem N16_pos : 0 < N16 := View.dmaCredit_pos _ (by decide)
theorem NL_pos : 0 < NL := View.dmaCredit_pos _ (by decide)

/-! ## The cells -/

abbrev barS : Sem sig := (SemArray.scalar (sig.barrier 0 rfl) : Sems sig S_).sem
/-- The four semaphore arrays of sixteen, in the kernel's order: departures across x, arrivals across x,
    departures across y, arrivals across y. -/
abbrev dsem (j : Fin 4) (k : Fin 16) : DmaSem sig :=
  ⟨2 + 16 * j.val + k.val, by have := j.isLt; have := k.isLt; show 2 + 16 * j.val + k.val < 67; omega⟩
abbrev s1S (k : Fin 16) : DmaSem sig := dsem 0 k
abbrev r1S (k : Fin 16) : DmaSem sig := dsem 1 k
abbrev s2S (k : Fin 16) : DmaSem sig := dsem 2 k
abbrev r2S (k : Fin 16) : DmaSem sig := dsem 3 k
abbrev locS : DmaSem sig := ⟨66, by decide⟩

abbrev barCell (c : Dev nD) : GSem nD τ sig := ((c : Thread nD τ), .reg barS)
abbrev locCell (c : Dev nD) : GSem nD τ sig := ((c : Thread nD τ), .dma locS)
abbrev dCell (c : Dev nD) (j : Fin 4) (k : Fin 16) : GSem nD τ sig := ((c : Thread nD τ), .dma (dsem j k))
abbrev s1Cell (c : Dev nD) (k : Fin 16) : GSem nD τ sig := dCell c 0 k
abbrev r1Cell (c : Dev nD) (k : Fin 16) : GSem nD τ sig := dCell c 1 k
abbrev s2Cell (c : Dev nD) (k : Fin 16) : GSem nD τ sig := dCell c 2 k
abbrev r2Cell (c : Dev nD) (k : Fin 16) : GSem nD τ sig := dCell c 3 k

/-- The kernel's own (scoped) semaphores as the launch indexes them: the local copy's, then the four arrays. -/
abbrev OIx : Type := Unit ⊕ (Fin 4 × Fin 16)
abbrev osem : OIx → SemLoc sig
  | .inl _ => .dma locS
  | .inr jk => .dma (dsem jk.1 jk.2)
/-- All the protocol's semaphores: the barrier, then the own ones. -/
abbrev CIx : Type := Unit ⊕ OIx
abbrev csem : CIx → SemLoc sig
  | .inl _ => .reg barS
  | .inr i => osem i
abbrev kcell (ck : Dev nD × CIx) : GSem nD τ sig := ((ck.1 : Thread nD τ), csem ck.2)

/-- Which of the protocol's cells a semaphore is. -/
inductive CK | bar | loc | d (j : Fin 4) (k : Fin 16) | other
  deriving DecidableEq

def kindOf : SemLoc sig → CK
  | .reg s => if s = barS then .bar else .other
  | .dma q =>
    if h : 2 ≤ q.val ∧ q.val < 66 then .d ⟨(q.val - 2) / 16, by omega⟩ ⟨(q.val - 2) % 16, Nat.mod_lt _ (by decide)⟩
    else if q.val = 66 then .loc else .other

/-! ## Contents -/

/-- Device c's staged operand block: its block of the whole operand as launched. -/
def Xc (c : Dev nD) : (cc0_stg0_0 : Ref sig .tc).ty.Contents (Elt F) :=
  (win0_0.blk (0 : Fin 1)).view.read (Elt F) ((s₀ m ρ).mem ((c : Thread nD τ).loc main_arg0))

/-- Row r (of 1024), column j of the result, read in a device's operand block. -/
abbrev inBlk (i : S1024x512.Idx) : S512x512.Idx :=
  fun d => match d with
    | ⟨0, _⟩ => (⟨(i 0).val % 512, Nat.mod_lt _ (by decide)⟩ : Fin 512)
    | ⟨1, _⟩ => (⟨(i 1).val, (i 1).isLt⟩ : Fin 512)

/-- What device c's result buffer ends holding: rows of its own half from its own block; of the other half, the
    quarter of its own y from its x-peer's block, the other quarter from the block of the device diagonal to it. -/
def Gout (c : Dev nD) : (cc0_stg1_0 : Ref sig .tc).ty.Contents (Elt F) := fun i =>
  if (i 0).val / 512 = c.val / 2 then Xc m ρ c (inBlk i)
  else if ((i 0).val % 512) / 256 = c.val % 2 then Xc m ρ (px c) (inBlk i)
  else Xc m ρ (px (py c)) (inBlk i)

/-! ## The payloads -/

/-- What the x-peer's barrier signal hands c: the sixteen landing chunks in the x-peer's result that c's transfers
    across x will write. -/
def barPayX (c : Dev nD) : sProp 𝕄 :=
  bigSep Finset.univ fun k : Fin 16 => iprop(∃ f, (p1Dst c k).view.loc (px c : Thread nD τ) ↦[(p1Dst c k).view.set]{fullShare} f)
/-- What the y-peer's barrier signal hands c: the sixteen landing chunks in the y-peer's result that c's forwards
    across y will write. -/
def barPayY (c : Dev nD) : sProp 𝕄 :=
  bigSep Finset.univ fun k : Fin 16 => iprop(∃ f, (p2Buf c k).view.loc (py c : Thread nD τ) ↦[(p2Buf c k).view.set]{fullShare} f)
/-- The local copy done: c's own half of the result in place, and the operand share lent to it back. -/
def locPay (c : Dev nD) : sProp 𝕄 :=
  iprop(((locDst c).view.loc (c : Thread nD τ) ↦[(locDst c).view.set]{fullShare} Gout m ρ c)
    ∗ ((xM : Memref sig .tc .vmem S512x512 .f32).view.loc (c : Thread nD τ) ↦[(xM : Memref sig .tc .vmem S512x512 .f32).view.set]{fullShare.left} Xc m ρ c))
/-- Chunk k read out across x: the source chunk's share back. -/
def s1Pay (c : Dev nD) (k : Fin 16) : sProp 𝕄 :=
  (p1Src c k).view.loc (c : Thread nD τ) ↦[(p1Src c k).view.set]{fullShare.right} Xc m ρ c
/-- Chunk k landed from the x-peer (and, the same assertion, chunk k read out across y): those rows in place. -/
def r1Pay (c : Dev nD) (k : Fin 16) : sProp 𝕄 :=
  (p2Buf c k).view.loc (c : Thread nD τ) ↦[(p2Buf c k).view.set]{fullShare} Gout m ρ c
/-- Chunk k landed from the y-peer: those rows in place. -/
def r2Pay (c : Dev nD) (k : Fin 16) : sProp 𝕄 :=
  (p2Buf (py c) k).view.loc (c : Thread nD τ) ↦[(p2Buf (py c) k).view.set]{fullShare} Gout m ρ c

/-! ## The schedule: one round per cell -/

/-- What a unit on cell (j, k) of device c hands c: a departure, its source chunk back; an arrival, the rows in place. -/
def dPay (c : Dev nD) (j : Fin 4) (k : Fin 16) : sProp 𝕄 := match j with
  | 0 => s1Pay m ρ c k
  | 1 => r1Pay m ρ c k
  | 2 => r1Pay m ρ c k
  | 3 => r2Pay m ρ c k

def agRd : Rounds.Schedule (GSem nD τ sig) Bool 𝕄 where
  duties g r :=
    if g.1.2 = .tc ∧ r = 0 then
      match kindOf g.2 with
      | .bar => Finset.univ
      | .other => ∅
      | _ => {false}
    else ∅
  unitless _ := False
  amount g _ _ := match kindOf g.2 with
    | .bar => 1
    | .other => 1
    | .loc => NL
    | .d _ _ => N16
  payload g _ d := match kindOf g.2 with
    | .bar => if d then barPayY g.1.1 else barPayX g.1.1
    | .loc => locPay m ρ g.1.1
    | .d j k => dPay m ρ g.1.1 j k
    | .other => iprop(emp)
  amount_pos g _ _ _ := by
    cases kindOf g.2 <;> first | exact Nat.one_pos | exact NL_pos | exact N16_pos

instance dPay_storable (c : Dev nD) (j : Fin 4) (k : Fin 16) : BI.Storable (upEmb : UEmb _ 𝕄) (dPay (F := F) m ρ c j k) := by
  unfold dPay s1Pay r1Pay r2Pay
  split <;> infer_instance

instance agRd_payload_storable (g : GSem nD τ sig) (r : ℕ) (d : Bool) :
    BI.Storable (upEmb : UEmb _ 𝕄) ((agRd (F := F) m ρ).payload g r d) := by
  show BI.Storable upEmb (match kindOf g.2 with
    | .bar => if d then barPayY g.1.1 else barPayX g.1.1
    | .loc => locPay m ρ g.1.1
    | .d j k => dPay m ρ g.1.1 j k
    | .other => iprop(emp))
  unfold barPayX barPayY locPay
  split <;> (try split) <;> infer_instance

/-! ## What each device owes at launch; the levels -/

/-- The arrivals across x from chunk n on, and across y from chunk n on, that c still owes. -/
def owe1 (c : Dev nD) (n : ℕ) : CellTallies nD τ sig Unit :=
  ∑ k ∈ Ring.rangeSet 16 n 16, tallyAt (r1Cell (px c) k) () N16
def owe2 (c : Dev nD) (n : ℕ) : CellTallies nD τ sig Unit :=
  ∑ k ∈ Ring.rangeSet 16 n 16, tallyAt (r2Cell (py c) k) () N16

/-- After both barrier signals; after the first; at launch (the first signal, to the x-peer, peels the last summand). -/
def O₂ (c : Dev nD) : CellTallies nD τ sig Unit := owe2 c 0 + owe1 c 0
def O₁ (c : Dev nD) : CellTallies nD τ sig Unit := O₂ c + tallyAt (barCell (py c)) () 1
def O₀ (c : Dev nD) : CellTallies nD τ sig Unit := O₁ c + tallyAt (barCell (px c)) () 1

def L (g : GSem nD τ sig) : Finset Unit := if g.1.2 = .tc then {()} else ∅
/-- The barrier at 1, the arrivals across x at 2, the arrivals across y at 3, everything else at 0. -/
def lv (g : GSem nD τ sig) (_ : Unit) : ℕ := match kindOf g.2 with
  | .bar => 1
  | .d j _ => if j = 1 then 2 else if j = 3 then 3 else 0
  | _ => 0

/-! ## The ghost state a device starts from, and the pipeline's proof data -/

/-- Every cell's invariant under the names the launch allocated, and that round 0 of every cell is reached. -/
def records (K : Dev nD × CIx → ℕ) : sProp 𝕄 :=
  iprop((bigSep Finset.univ fun ck : Dev nD × CIx => cellInv ER (agRd m ρ) (K ck) (kcell ck))
    ∗ bigSep Finset.univ fun ck : Dev nD × CIx => reached ER (kcell ck) 0)

instance records_persistent (K : Dev nD × CIx → ℕ) : BI.Persistent (records m ρ K) := by unfold records; infer_instance

/-- The tokens of the duties device c pays: the x-peer's barrier duty false, the y-peer's barrier duty true, its
    local copy's, and per chunk its two departures and the two arrivals on its peers. -/
def payToks (c : Dev nD) : sProp 𝕄 :=
  iprop(dutyTok ER (barCell (px c)) 0 false ∗ dutyTok ER (barCell (py c)) 0 true ∗ dutyTok ER (locCell c) 0 false
    ∗ (bigSep Finset.univ fun k : Fin 16 => dutyTok ER (s1Cell c k) 0 false)
    ∗ (bigSep Finset.univ fun k : Fin 16 => dutyTok ER (r1Cell (px c) k) 0 false)
    ∗ (bigSep Finset.univ fun k : Fin 16 => dutyTok ER (s2Cell c k) 0 false)
    ∗ (bigSep Finset.univ fun k : Fin 16 => dutyTok ER (r2Cell (py c) k) 0 false))

/-- Device c's positions on its own cells. -/
def poss (c : Dev nD) : sProp 𝕄 :=
  iprop(atPos ER (barCell c) 0 ∅ 0 ∗ atPos ER (locCell c) 0 ∅ 0
    ∗ bigSep Finset.univ fun jk : Fin 4 × Fin 16 => atPos ER (dCell c jk.1 jk.2) 0 ∅ 0)

def ghost (K : Dev nD × CIx → ℕ) (c : Dev nD) : sProp 𝕄 := iprop(records m ρ K ∗ poss c ∗ payToks c)

/-- The credit dealt at launch for what others owe c's cells. -/
def creds0 (c : Dev nD) : sProp 𝕄 :=
  iprop(cred (tallyAt (barCell c) () 2)
    ∗ (bigSep Finset.univ fun k : Fin 16 => cred (tallyAt (r1Cell c k) () N16))
    ∗ (bigSep Finset.univ fun k : Fin 16 => cred (tallyAt (r2Cell c k) () N16)))

def start (c : Dev nD) : sProp 𝕄 := iprop((∃ K, ghost m ρ K c) ∗ creds0 c ∗ levAts L lv)

def Φ₀ (c : Dev nD) : sProp 𝕄 := start m ρ c
/-- After the point: the kernel's own cells closed, their counters at zero. -/
def Φ₁ (c : Dev nD) : sProp 𝕄 := bigSep Finset.univ fun i : OIx => semVal ((c : Thread nD τ), osem i) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xc m ρ c
    | ⟨1, _⟩ => Gout m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.AG

end
-- ==== Proof.KernelIdeal.AgSched.lean ====
/-
  The schedule's tables, computed: per cell its duties, amounts, expected units and payloads at round 0, and that no
  later round has a duty; the semaphores as the program spells them.
-/
import proofs.«900089_g7700000000000090_dist_ag_v7x_xy2x2_x_m512_n512_f32_1_alg».proof.Proof.KernelIdeal.AgDefs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell a semaphore is -/

theorem kindOf_bar : kindOf (.reg barS : SemLoc sig) = .bar := by decide
theorem kindOf_loc : kindOf (.dma locS : SemLoc sig) = .loc := by decide
theorem kindOf_d (j : Fin 4) (k : Fin 16) : kindOf (.dma (dsem j k) : SemLoc sig) = .d j k := by revert j k; decide
/-- The pipeline's two staging semaphores are none of the protocol's. -/
theorem kindOf_stage (q : DmaSem sig) (hq : q.val < 2) : kindOf (.dma q : SemLoc sig) = .other := by
  unfold kindOf
  dsimp only
  rw [dif_neg (by omega), if_neg (by omega)]

/-! ## The semaphores as the program spells them: slot k of each array, squeezed -/

theorem inbS (k : Fin 16) : ∀ a, (![k.val] : Fin 1 → Nat) a + S1.size a ≤ S16.size a := by revert k; decide
theorem sem_s1 (k : Fin 16) (h) : ((SemArray.slice cc0_scratch0 (Rect.unit (s := S16) ![k.val] S1.size h)).squeeze S_ squeezes_S1_S_).sem = s1S k := by
  revert h; revert k; decide
theorem sem_r1 (k : Fin 16) (h) : ((SemArray.slice cc0_scratch1 (Rect.unit (s := S16) ![k.val] S1.size h)).squeeze S_ squeezes_S1_S_).sem = r1S k := by
  revert h; revert k; decide
theorem sem_s2 (k : Fin 16) (h) : ((SemArray.slice cc0_scratch2 (Rect.unit (s := S16) ![k.val] S1.size h)).squeeze S_ squeezes_S1_S_).sem = s2S k := by
  revert h; revert k; decide
theorem sem_r2 (k : Fin 16) (h) : ((SemArray.slice cc0_scratch3 (Rect.unit (s := S16) ![k.val] S1.size h)).squeeze S_ squeezes_S1_S_).sem = r2S k := by
  revert h; revert k; decide
theorem sem_loc : (cc0_scratch4 : DmaSems sig S_).sem = locS := by decide

/-! ## The tables -/

section Sched
variable (c : Dev nD) (j : Fin 4) (k : Fin 16)

theorem duties_bar : (agRd (F := F) m ρ).duties (barCell c) 0 = Finset.univ := by
  dsimp only [agRd]
  rw [if_pos ⟨rfl, rfl⟩, kindOf_bar]
theorem duties_loc : (agRd (F := F) m ρ).duties (locCell c) 0 = {false} := by
  dsimp only [agRd]
  rw [if_pos ⟨rfl, rfl⟩, kindOf_loc]
theorem duties_d : (agRd (F := F) m ρ).duties (dCell c j k) 0 = {false} := by
  dsimp only [agRd]
  rw [if_pos ⟨rfl, rfl⟩, kindOf_d]
theorem duties_later (g : GSem nD τ sig) : ∀ r, 1 ≤ r → (agRd (F := F) m ρ).duties g r = ∅ := by
  intro r hr
  dsimp only [agRd]
  exact if_neg (fun h => by omega)

theorem amount_bar (r : ℕ) (d : Bool) : (agRd (F := F) m ρ).amount (barCell c) r d = 1 := by
  dsimp only [agRd]
  rw [kindOf_bar]
theorem amount_loc (r : ℕ) (d : Bool) : (agRd (F := F) m ρ).amount (locCell c) r d = NL := by
  dsimp only [agRd]
  rw [kindOf_loc]
theorem amount_d (r : ℕ) (d : Bool) : (agRd (F := F) m ρ).amount (dCell c j k) r d = N16 := by
  dsimp only [agRd]
  rw [kindOf_d]

theorem expect_bar : (agRd (F := F) m ρ).expect (barCell c) 0 = 2 := by
  unfold Schedule.expect Schedule.amountOf
  rw [duties_bar]
  simp only [amount_bar, Finset.sum_const, Finset.card_univ, Fintype.card_bool, smul_eq_mul]
theorem expect_loc : (agRd (F := F) m ρ).expect (locCell c) 0 = NL := by
  unfold Schedule.expect Schedule.amountOf
  rw [duties_loc, Finset.sum_singleton, amount_loc]
theorem expect_d : (agRd (F := F) m ρ).expect (dCell c j k) 0 = N16 := by
  unfold Schedule.expect Schedule.amountOf
  rw [duties_d, Finset.sum_singleton, amount_d]

theorem payload_bar_false (r : ℕ) : (agRd (F := F) m ρ).payload (barCell c) r false = barPayX c := by
  dsimp only [agRd]
  rw [kindOf_bar]; rfl
theorem payload_bar_true (r : ℕ) : (agRd (F := F) m ρ).payload (barCell c) r true = barPayY c := by
  dsimp only [agRd]
  rw [kindOf_bar]; rfl
theorem payload_loc (r : ℕ) (d : Bool) : (agRd (F := F) m ρ).payload (locCell c) r d = locPay m ρ c := by
  dsimp only [agRd]
  rw [kindOf_loc]
theorem payload_d (r : ℕ) (d : Bool) : (agRd (F := F) m ρ).payload (dCell c j k) r d = dPay m ρ c j k := by
  dsimp only [agRd]
  rw [kindOf_d]

/-! A wait for a whole round, no duty taken yet, gets the round's payloads. -/
theorem rest_bar : bigSep ((agRd (F := F) m ρ).duties (barCell c) 0 \ ∅) (fun d => (agRd (F := F) m ρ).payload (barCell c) 0 d) = iprop(barPayX c ∗ barPayY c) := by
  rw [duties_bar, Finset.sdiff_empty, bigSep_univ_eq_bigSepL [false, true] (by decide) (by decide), bigSepL_cons_cons,
    bigSepL_singleton, payload_bar_false, payload_bar_true]
  rfl
theorem rest_loc : bigSep ((agRd (F := F) m ρ).duties (locCell c) 0 \ ∅) (fun d => (agRd (F := F) m ρ).payload (locCell c) 0 d) = locPay m ρ c := by
  rw [duties_loc, Finset.sdiff_empty, bigSep_singleton, payload_loc]
theorem rest_d : bigSep ((agRd (F := F) m ρ).duties (dCell c j k) 0 \ ∅) (fun d => (agRd (F := F) m ρ).payload (dCell c j k) 0 d) = dPay m ρ c j k := by
  rw [duties_d, Finset.sdiff_empty, bigSep_singleton, payload_d]

end Sched

/-! ## A cell's invariant and its reached round 0, out of the records -/

theorem inv_at (K : Dev nD × CIx → ℕ) (ck : Dev nD × CIx) : records m ρ K ⊢ cellInv ER (agRd m ρ) (K ck) (kcell ck) := by
  unfold records
  exact (BI.sep_and.trans and_elimL).trans (bigSep_elim (Finset.mem_univ ck))
theorem reached_at (K : Dev nD × CIx → ℕ) (ck : Dev nD × CIx) : records m ρ K ⊢ (reached ER (kcell ck) 0 : sProp 𝕄) := by
  unfold records
  exact (BI.sep_and.trans and_elimR).trans (bigSep_elim (Finset.mem_univ ck))

end Cert.KernelIdeal.AG

end
-- ==== Proof.KernelIdeal.AgRegions.lean ====
/-
  The rows each slice covers; the result buffer cut into its thirty-three pieces and the operand block into its
  chunks; what each copy leaves where it lands.
-/
import proofs.«900089_g7700000000000090_dist_ag_v7x_xy2x2_x_m512_n512_f32_1_alg».proof.Proof.KernelIdeal.AgDefs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Arithmetic on the mesh: the coordinates of the two peers -/

private theorem px_div (c : Dev nD) : (px c).val / 2 = 1 - c.val / 2 := by revert c; decide
private theorem px_mod (c : Dev nD) : (px c).val % 2 = c.val % 2 := by revert c; decide
private theorem py_div (c : Dev nD) : (py c).val / 2 = c.val / 2 := by revert c; decide
private theorem py_mod (c : Dev nD) : (py c).val % 2 = 1 - c.val % 2 := by revert c; decide

/-! ## Rows: a full-width unit rectangle holds an index exactly when it holds its row -/

private theorem mem_rows {R : ℕ} {off size : Fin 2 → ℕ} {inb : ∀ a, off a + size a ≤ (⟨2, ![R, 512]⟩ : Shape).size a}
    (r0 n : ℕ) (ho : off = ![r0, 0]) (hs : size = ![n, 512]) (i : (⟨2, ![R, 512]⟩ : Shape).Idx) :
    i ∈ (Rect.unit (s := ⟨2, ![R, 512]⟩) off size inb).set ↔ r0 ≤ (i 0).val ∧ (i 0).val < r0 + n := by
  subst ho hs
  have h1 : (i 1).val < 512 := (i 1).isLt
  rw [Rect.mem_set_unit]
  constructor
  · intro h; exact h 0
  · intro h
    refine Fin.forall_fin_two.mpr ⟨h, Nat.zero_le _, ?_⟩
    show (i 1).val < 0 + 512
    omega

/-- Two full-width unit rectangles whose row ranges are apart are disjoint. -/
private theorem rows_disjoint {R : ℕ} {off size off' size' : Fin 2 → ℕ}
    {inb : ∀ a, off a + size a ≤ (⟨2, ![R, 512]⟩ : Shape).size a} {inb' : ∀ a, off' a + size' a ≤ (⟨2, ![R, 512]⟩ : Shape).size a}
    (h : off 0 + size 0 ≤ off' 0 ∨ off' 0 + size' 0 ≤ off 0) :
    Disjoint (Rect.unit (s := ⟨2, ![R, 512]⟩) off size inb).set (Rect.unit (s := ⟨2, ![R, 512]⟩) off' size' inb').set :=
  Rect.unit_disjoint 0 h

/-! ## The slices' element sets and first rows -/

private theorem set_locDst (c : Dev nD) :
    (locDst c).view.set = (Rect.unit (s := S1024x512) (k0_off1 c) S512x512.size (k0_off1_inb c)).set :=
  View.set_slice_whole cc0_stg1_0 _
private theorem set_p1Dst (c : Dev nD) (k : Fin 16) :
    (p1Dst c k).view.set = (Rect.unit (s := S1024x512) (k0_off2 c (wk k)) S16x512.size (k0_off2_inb c k)).set :=
  View.set_slice_whole cc0_stg1_0 _
private theorem set_p1Src (c : Dev nD) (k : Fin 16) :
    (p1Src c k).view.set = (Rect.unit (s := S512x512) (k0_off3 c (wk k)) S16x512.size (k0_off3_inb c k)).set :=
  View.set_slice_whole cc0_stg0_0 _
private theorem set_p2Buf (c : Dev nD) (k : Fin 16) :
    (p2Buf c k).view.set = (Rect.unit (s := S1024x512) (k0_off4 c (wk k)) S16x512.size (k0_off4_inb c k)).set :=
  View.set_slice_whole cc0_stg1_0 _

private theorem off1_0 (c : Dev nD) : k0_off1 c 0 = 512 * (c.val / 2) := congrFun (k0_off1_eq c) 0
private theorem off2_0 (c : Dev nD) (k : Fin 16) : k0_off2 c (wk k) 0 = 512 * (c.val / 2) + 256 * (c.val % 2) + 16 * k.val :=
  congrFun (k0_off2_eq c k) 0
private theorem off3_0 (c : Dev nD) (k : Fin 16) : k0_off3 c (wk k) 0 = 256 * (c.val % 2) + 16 * k.val :=
  congrFun (k0_off3_eq c k) 0
private theorem off4_0 (c : Dev nD) (k : Fin 16) :
    k0_off4 c (wk k) 0 = (256 * (c.val % 2) + 16 * k.val + 512) - 512 * (c.val / 2) :=
  congrFun (k0_off4_eq c k) 0
private theorem off1_1 (c : Dev nD) : k0_off1 c 1 = 0 := congrFun (k0_off1_eq c) 1
private theorem off2_1 (c : Dev nD) (k : Fin 16) : k0_off2 c (wk k) 1 = 0 := congrFun (k0_off2_eq c k) 1
private theorem off3_1 (c : Dev nD) (k : Fin 16) : k0_off3 c (wk k) 1 = 0 := congrFun (k0_off3_eq c k) 1
private theorem off4_1 (c : Dev nD) (k : Fin 16) : k0_off4 c (wk k) 1 = 0 := congrFun (k0_off4_eq c k) 1

private theorem mem_locDst (c : Dev nD) (i : S1024x512.Idx) :
    i ∈ (locDst c).view.set ↔ 512 * (c.val / 2) ≤ (i 0).val ∧ (i 0).val < 512 * (c.val / 2) + 512 := by
  rw [set_locDst]; exact mem_rows _ 512 (k0_off1_eq c) rfl i
private theorem mem_p1Dst (c : Dev nD) (k : Fin 16) (i : S1024x512.Idx) :
    i ∈ (p1Dst c k).view.set ↔ 512 * (c.val / 2) + 256 * (c.val % 2) + 16 * k.val ≤ (i 0).val
      ∧ (i 0).val < 512 * (c.val / 2) + 256 * (c.val % 2) + 16 * k.val + 16 := by
  rw [set_p1Dst]; exact mem_rows _ 16 (k0_off2_eq c k) rfl i
private theorem mem_p1Src (c : Dev nD) (k : Fin 16) (i : S512x512.Idx) :
    i ∈ (p1Src c k).view.set ↔ 256 * (c.val % 2) + 16 * k.val ≤ (i 0).val ∧ (i 0).val < 256 * (c.val % 2) + 16 * k.val + 16 := by
  rw [set_p1Src]; exact mem_rows _ 16 (k0_off3_eq c k) rfl i
private theorem mem_p2Buf (c : Dev nD) (k : Fin 16) (i : S1024x512.Idx) :
    i ∈ (p2Buf c k).view.set ↔ (256 * (c.val % 2) + 16 * k.val + 512) - 512 * (c.val / 2) ≤ (i 0).val
      ∧ (i 0).val < (256 * (c.val % 2) + 16 * k.val + 512) - 512 * (c.val / 2) + 16 := by
  rw [set_p2Buf]; exact mem_rows _ 16 (k0_off4_eq c k) rfl i

/-! ## The slices as each other's: where c writes across x is where its x-peer forwards from -/

/-- The rows c's transfers across x write are the rows its x-peer forwards across y. -/
theorem p1Dst_eq (c : Dev nD) (k : Fin 16) : p1Dst c k = p2Buf (px c) k := by
  refine Memref.slice_unit_congr oM ?_ _ _ _ _
  rw [k0_off2_eq c k, k0_off4_eq (px c) k, px_div, px_mod]
  have hc : c.val < 4 := c.isLt
  congr 1
  omega

/-! ## Cutting the buffers -/

section Cut

variable {ℓ : Loc nD τ sig} {q : PosShare TreeShare} {f : Buf (Elt F) ℓ}

/-- A whole buffer cut into one region and two families of sixteen, all pairwise disjoint and covering it. -/
private theorem pointsTo_cut3 (A : Finset (Idx ℓ)) (B C : Fin 16 → Finset (Idx ℓ))
    (hB : ∀ k k', k ≠ k' → Disjoint (B k) (B k')) (hC : ∀ k k', k ≠ k' → Disjoint (C k) (C k'))
    (hAB : Disjoint A (Finset.univ.biUnion B ∪ Finset.univ.biUnion C))
    (hBC : Disjoint (Finset.univ.biUnion B) (Finset.univ.biUnion C))
    (hU : ∀ i, i ∈ A ∪ (Finset.univ.biUnion B ∪ Finset.univ.biUnion C)) :
    (ℓ ↦{q} f : sProp 𝕄)
      = iprop((ℓ ↦[A]{q} f) ∗ (bigSep Finset.univ fun k : Fin 16 => ℓ ↦[B k]{q} f)
          ∗ (bigSep Finset.univ fun k : Fin 16 => ℓ ↦[C k]{q} f)) := by
  have e1 : (ℓ ↦[A ∪ (Finset.univ.biUnion B ∪ Finset.univ.biUnion C)]{q} f : sProp 𝕄) ⊣⊢ _ := pointsTo_union hAB
  have e2 : (ℓ ↦[Finset.univ.biUnion B ∪ Finset.univ.biUnion C]{q} f : sProp 𝕄) ⊣⊢ _ := pointsTo_union hBC
  rw [← pointsTo_biUnion Finset.univ B (fun k _ k' _ h => hB k k' h),
    ← pointsTo_biUnion Finset.univ C (fun k _ k' _ h => hC k k' h),
    ← BI.equiv_iff.mp ⟨e2.1, e2.2⟩, ← BI.equiv_iff.mp ⟨e1.1, e1.2⟩, Finset.eq_univ_iff_forall.mpr hU]

/-- A whole buffer cut into a family of sixteen pairwise disjoint regions and the rest. -/
private theorem pointsTo_cut2 (B : Fin 16 → Finset (Idx ℓ)) (hB : ∀ k k', k ≠ k' → Disjoint (B k) (B k')) :
    (ℓ ↦{q} f : sProp 𝕄)
      = iprop((bigSep Finset.univ fun k : Fin 16 => ℓ ↦[B k]{q} f) ∗ ℓ ↦[Finset.univ \ Finset.univ.biUnion B]{q} f) := by
  have e1 : (ℓ ↦{q} f : sProp 𝕄) ⊣⊢ _ := pointsTo_split_subset (Finset.subset_univ (Finset.univ.biUnion B))
  rw [← pointsTo_biUnion Finset.univ B (fun k _ k' _ h => hB k k' h), ← BI.equiv_iff.mp ⟨e1.1, e1.2⟩]

end Cut

private theorem p2Buf_disjoint (c : Dev nD) (k k' : Fin 16) (h : k ≠ k') :
    Disjoint (p2Buf c k).view.set (p2Buf c k').view.set := by
  rw [set_p2Buf, set_p2Buf]
  refine rows_disjoint ?_
  rw [off4_0, off4_0]
  have hc : c.val < 4 := c.isLt
  have hk : k.val ≠ k'.val := fun e => h (Fin.ext e)
  show _ + 16 ≤ _ ∨ _ + 16 ≤ _
  omega

private theorem p1Src_disjoint (c : Dev nD) (k k' : Fin 16) (h : k ≠ k') :
    Disjoint (p1Src c k).view.set (p1Src c k').view.set := by
  rw [set_p1Src, set_p1Src]
  refine rows_disjoint ?_
  rw [off3_0, off3_0]
  have hk : k.val ≠ k'.val := fun e => h (Fin.ext e)
  show _ + 16 ≤ _ ∨ _ + 16 ≤ _
  omega

/-- The chunk rows of c's result that device d forwards from (or, on c's y-peer, into). -/
private abbrev chunkRows (d : Dev nD) (k : Fin 16) : Finset S1024x512.Idx := (p2Buf d k).view.set

/-- The result buffer of c, whole, is its own half, the sixteen chunks it receives across x (and forwards), and the
    sixteen it receives across y. -/
theorem out_split (c : Dev nD) (f : (cc0_stg1_0 : Ref sig .tc).ty.Contents (Elt F)) :
    (((c : Thread nD τ).loc cc0_stg1_0) ↦{fullShare} f : sProp 𝕄)
      ⊣⊢ iprop(((locDst c).view.loc (c : Thread nD τ) ↦[(locDst c).view.set]{fullShare} f)
        ∗ (bigSep Finset.univ fun k : Fin 16 => (p2Buf c k).view.loc (c : Thread nD τ) ↦[(p2Buf c k).view.set]{fullShare} f)
        ∗ (bigSep Finset.univ fun k : Fin 16 => (p2Buf (py c) k).view.loc (c : Thread nD τ) ↦[(p2Buf (py c) k).view.set]{fullShare} f)) := by
  have hc : c.val < 4 := c.isLt
  -- the three families of rows: the own half, the quarter of c's own y in the other half, the other quarter
  have hAB : Disjoint ((locDst c).view.set : Finset S1024x512.Idx)
      (Finset.univ.biUnion (chunkRows c) ∪ Finset.univ.biUnion (chunkRows (py c))) := by
    refine Finset.disjoint_left.mpr fun i hA hBC => ?_
    rw [mem_locDst] at hA
    rcases Finset.mem_union.mp hBC with hB | hC
    · obtain ⟨k, -, hk⟩ := Finset.mem_biUnion.mp hB
      rw [mem_p2Buf] at hk
      have := k.isLt
      omega
    · obtain ⟨k, -, hk⟩ := Finset.mem_biUnion.mp hC
      rw [mem_p2Buf, py_div, py_mod] at hk
      have := k.isLt
      omega
  have hBC : Disjoint (Finset.univ.biUnion (chunkRows c)) (Finset.univ.biUnion (chunkRows (py c))) := by
    refine Finset.disjoint_left.mpr fun i hB hC => ?_
    obtain ⟨k, -, hk⟩ := Finset.mem_biUnion.mp hB
    obtain ⟨k', -, hk'⟩ := Finset.mem_biUnion.mp hC
    rw [mem_p2Buf] at hk
    rw [mem_p2Buf, py_div, py_mod] at hk'
    have := k.isLt
    have := k'.isLt
    omega
  have hU : ∀ i : S1024x512.Idx, i ∈ ((locDst c).view.set : Finset S1024x512.Idx)
      ∪ (Finset.univ.biUnion (chunkRows c) ∪ Finset.univ.biUnion (chunkRows (py c))) := by
    intro i
    have hi : (i 0).val < 1024 := (i 0).isLt
    rw [Finset.mem_union, Finset.mem_union, mem_locDst]
    by_cases h1 : (i 0).val / 512 = c.val / 2
    · left; omega
    · right
      by_cases h2 : ((i 0).val % 512) / 256 = c.val % 2
      · left
        refine Finset.mem_biUnion.mpr ⟨⟨((i 0).val % 256) / 16, by omega⟩, Finset.mem_univ _, ?_⟩
        rw [mem_p2Buf]
        simp only [Fin.val_mk]
        constructor <;> omega
      · right
        refine Finset.mem_biUnion.mpr ⟨⟨((i 0).val % 256) / 16, by omega⟩, Finset.mem_univ _, ?_⟩
        rw [mem_p2Buf, py_div, py_mod]
        simp only [Fin.val_mk]
        constructor <;> omega
  exact BiEntails.of_eq (pointsTo_cut3 (ℓ := (c : Thread nD τ).loc cc0_stg1_0) (locDst c).view.set (chunkRows c) (chunkRows (py c))
    (p2Buf_disjoint c) (p2Buf_disjoint (py c)) hAB hBC hU)

/-- The rows of the operand block no transfer reads. -/
def xRest (c : Dev nD) : Finset (S512x512.Idx) :=
  Finset.univ \ (Finset.univ : Finset (Fin 16)).biUnion fun k => (p1Src c k).view.set

/-- A share of the operand block, whole, is the sixteen chunks sent across x and the rest. -/
theorem x_split (c : Dev nD) (q : PosShare TreeShare) (f : (cc0_stg0_0 : Ref sig .tc).ty.Contents (Elt F)) :
    (((c : Thread nD τ).loc cc0_stg0_0) ↦{q} f : sProp 𝕄)
      ⊣⊢ iprop((bigSep Finset.univ fun k : Fin 16 => (p1Src c k).view.loc (c : Thread nD τ) ↦[(p1Src c k).view.set]{q} f)
        ∗ (((c : Thread nD τ).loc cc0_stg0_0) ↦[xRest c]{q} f)) :=
  BiEntails.of_eq (pointsTo_cut2 (ℓ := (c : Thread nD τ).loc cc0_stg0_0) (fun k : Fin 16 => (p1Src c k).view.set)
    (p1Src_disjoint c))

/-! ## What each copy leaves -/

/-- Two indices of the operand block with the same row and the same column are equal. -/
private theorem idx_ext {u v : S512x512.Idx} (h0 : (u 0).val = (v 0).val) (h1 : (u 1).val = (v 1).val) : u = v := by
  funext d
  match d with
  | ⟨0, _⟩ => exact Fin.ext h0
  | ⟨1, _⟩ => exact Fin.ext h1

private theorem inBlk_0 (i : S1024x512.Idx) : (inBlk i 0).val = (i 0).val % 512 := rfl
private theorem inBlk_1 (i : S1024x512.Idx) : (inBlk i 1).val = (i 1).val := rfl

/-- An element of a slice of a whole buffer through a unit rectangle sits at the rectangle's offset plus its
    coordinate inside the slice. -/
private theorem slice_emb_val {b : Ref sig .tc} {off size : Fin b.ty.shape.rank → ℕ} {inb : ∀ a, off a + size a ≤ b.ty.shape.size a}
    (y : (Rect.unit off size inb).shape.Idx) (a : Fin b.ty.shape.rank) :
    ((((View.whole b).slice (Rect.unit off size inb)).emb y) a).val = off a + (y a).val := by
  show off a + 1 * (y a).val = _
  rw [Nat.one_mul]

/-- The result of c read at an index of its own half. -/
private theorem Gout_own (c : Dev nD) (i : S1024x512.Idx) (h : (i 0).val / 512 = c.val / 2) :
    Gout m ρ c i = Xc m ρ c (inBlk i) := by
  simp only [Gout]
  rw [if_pos h]

/-- The result of c read at an index of the other half, in the quarter of c's own y. -/
private theorem Gout_x (c : Dev nD) (i : S1024x512.Idx) (h : ¬ (i 0).val / 512 = c.val / 2)
    (h' : ((i 0).val % 512) / 256 = c.val % 2) : Gout m ρ c i = Xc m ρ (px c) (inBlk i) := by
  simp only [Gout]
  rw [if_neg h, if_pos h']

/-- The result of c read at an index of the other half, in the other quarter. -/
private theorem Gout_xy (c : Dev nD) (i : S1024x512.Idx) (h : ¬ (i 0).val / 512 = c.val / 2)
    (h' : ¬ ((i 0).val % 512) / 256 = c.val % 2) : Gout m ρ c i = Xc m ρ (px (py c)) (inBlk i) := by
  simp only [Gout]
  rw [if_neg h, if_neg h']

/-- The local copy leaves c's own half of the result in place. -/
theorem loc_val (c : Dev nD) (fd : (cc0_stg1_0 : Ref sig .tc).ty.Contents (Elt F)) :
    ∀ i ∈ (locDst c).view.set,
      (locDst c).view.write (Elt F) fd ((xM : Memref sig .tc .vmem S512x512 .f32).view.read (Elt F) (Xc m ρ c)) Finset.univ i = Gout m ρ c i := by
  intro i hi
  obtain ⟨y, rfl⟩ := View.exists_emb_of_mem_set _ hi
  clear hi
  rw [View.write_emb_of_mem _ _ (Finset.mem_univ y)]
  have hc : c.val < 4 := c.isLt
  have hy : (y 0).val < 512 := (y 0).isLt
  have e0 : (((locDst c).view.emb y) 0).val = 512 * (c.val / 2) + (y 0).val := by
    have := slice_emb_val (b := cc0_stg1_0) (inb := k0_off1_inb c) y 0
    rw [off1_0] at this; exact this
  have e1 : (((locDst c).view.emb y) 1).val = (y 1).val := by
    have := slice_emb_val (b := cc0_stg1_0) (inb := k0_off1_inb c) y 1
    rw [off1_1, Nat.zero_add] at this; exact this
  rw [Gout_own m ρ c _ (by omega)]
  show Xc m ρ c y = _
  refine congrArg (Xc m ρ c) (idx_ext ?_ ?_)
  · rw [inBlk_0]; omega
  · rw [inBlk_1]; omega

/-- Chunk k across x leaves, in the x-peer's result, the rows that peer is to end with. -/
theorem p1_val (c : Dev nD) (k : Fin 16) (fd : (cc0_stg1_0 : Ref sig .tc).ty.Contents (Elt F)) :
    ∀ i ∈ (p1Dst c k).view.set,
      (p1Dst c k).view.write (Elt F) fd ((p1Src c k).view.read (Elt F) (Xc m ρ c)) Finset.univ i = Gout m ρ (px c) i := by
  intro i hi
  obtain ⟨y, rfl⟩ := View.exists_emb_of_mem_set _ hi
  clear hi
  rw [View.write_emb_of_mem _ _ (Finset.mem_univ y)]
  have hc : c.val < 4 := c.isLt
  have hk : k.val < 16 := k.isLt
  have hy : (y 0).val < 16 := (y 0).isLt
  have e0 : (((p1Dst c k).view.emb y) 0).val = 512 * (c.val / 2) + 256 * (c.val % 2) + 16 * k.val + (y 0).val := by
    have := slice_emb_val (b := cc0_stg1_0) (inb := k0_off2_inb c k) y 0
    rw [off2_0] at this; exact this
  have e1 : (((p1Dst c k).view.emb y) 1).val = (y 1).val := by
    have := slice_emb_val (b := cc0_stg1_0) (inb := k0_off2_inb c k) y 1
    rw [off2_1, Nat.zero_add] at this; exact this
  have s0 : (((p1Src c k).view.emb y) 0).val = 256 * (c.val % 2) + 16 * k.val + (y 0).val := by
    have := slice_emb_val (b := cc0_stg0_0) (inb := k0_off3_inb c k) y 0
    rw [off3_0] at this; exact this
  have s1 : (((p1Src c k).view.emb y) 1).val = (y 1).val := by
    have := slice_emb_val (b := cc0_stg0_0) (inb := k0_off3_inb c k) y 1
    rw [off3_1, Nat.zero_add] at this; exact this
  rw [Gout_x m ρ (px c) _ (by rw [px_div]; omega) (by rw [px_mod]; omega), px_px]
  show Xc m ρ c ((p1Src c k).view.emb y) = _
  refine congrArg (Xc m ρ c) (idx_ext ?_ ?_)
  · rw [inBlk_0]; omega
  · rw [inBlk_1]; omega

/-- Chunk k forwarded across y, read from rows already in place on c, leaves in the y-peer's result the rows that
    peer is to end with. -/
theorem p2_val (c : Dev nD) (k : Fin 16) (fd fs : (cc0_stg1_0 : Ref sig .tc).ty.Contents (Elt F))
    (hfs : ∀ i ∈ (p2Buf c k).view.set, fs i = Gout m ρ c i) :
    ∀ i ∈ (p2Buf c k).view.set,
      (p2Buf c k).view.write (Elt F) fd ((p2Buf c k).view.read (Elt F) fs) Finset.univ i = Gout m ρ (py c) i := by
  intro i hi
  have hc : c.val < 4 := c.isLt
  have hk : k.val < 16 := k.isLt
  -- on these rows both devices are to end with the same element: of the block of c's x-peer
  have hG : Gout m ρ c i = Gout m ρ (py c) i := by
    obtain ⟨h1, h2⟩ := (mem_p2Buf c k i).mp hi
    rw [Gout_x m ρ c i (by omega) (by omega),
      Gout_xy m ρ (py c) i (by rw [py_div]; omega) (by rw [py_mod]; omega), py_py]
  rw [← hG, ← hfs i hi]
  obtain ⟨y, rfl⟩ := View.exists_emb_of_mem_set _ hi
  rw [View.write_emb_of_mem _ _ (Finset.mem_univ y)]
  rfl

/-- info: 'Cert.KernelIdeal.AG.out_split' depends on axioms: [propext, Classical.choice, Quot.sound] -/
#guard_msgs in #print axioms out_split

/-- info: 'Cert.KernelIdeal.AG.x_split' depends on axioms: [propext, Classical.choice, Quot.sound] -/
#guard_msgs in #print axioms x_split

/-- info: 'Cert.KernelIdeal.AG.p1_val' depends on axioms: [propext, Classical.choice, Quot.sound] -/
#guard_msgs in #print axioms p1_val

/-- info: 'Cert.KernelIdeal.AG.p2_val' depends on axioms: [propext, Classical.choice, Quot.sound] -/
#guard_msgs in #print axioms p2_val

end Cert.KernelIdeal.AG

end
-- ==== Proof.KernelIdeal.AgLevels.lean ====
/-
  What a device still owes, chunk by chunk; and that each of its waits is on a cell below everything it owes then
  (the barrier below the arrivals across x, those below the arrivals across y).
-/
import proofs.«900089_g7700000000000090_dist_ag_v7x_xy2x2_x_m512_n512_f32_1_alg».proof.Proof.KernelIdeal.AgDefs

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The dues, peeled a chunk at a time -/

theorem owe1_succ (c : Dev nD) (n : ℕ) (hn : n < 16) : owe1 c n = owe1 c (n + 1) + tallyAt (r1Cell (px c) ⟨n, hn⟩) () N16 := by
  unfold owe1
  rw [Ring.rangeSet_head hn hn, Finset.sum_insert (Ring.head_not_mem_rangeSet hn), add_comm]
theorem owe2_succ (c : Dev nD) (n : ℕ) (hn : n < 16) : owe2 c n = owe2 c (n + 1) + tallyAt (r2Cell (py c) ⟨n, hn⟩) () N16 := by
  unfold owe2
  rw [Ring.rangeSet_head hn hn, Finset.sum_insert (Ring.head_not_mem_rangeSet hn), add_comm]
theorem owe1_end (c : Dev nD) : owe1 c 16 = 0 := by
  unfold owe1
  rw [Ring.rangeSet_empty (le_refl 16), Finset.sum_empty]
theorem owe2_end (c : Dev nD) : owe2 c 16 = 0 := by
  unfold owe2
  rw [Ring.rangeSet_empty (le_refl 16), Finset.sum_empty]

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- Which cell each of the protocol's semaphores is. -/
private theorem kindOf_bar : kindOf (.reg barS) = .bar := by decide
private theorem kindOf_loc : kindOf (.dma locS) = .loc := by decide
private theorem kindOf_d (j : Fin 4) (k : Fin 16) : kindOf (.dma (dsem j k)) = .d j k := by revert j k; decide
/-- The pipeline's two staging semaphores are none of the protocol's. -/
private theorem kindOf_stage (q : DmaSem sig) (hq : q.val < 2) : kindOf (.dma q) = .other := by
  revert q; decide

theorem lv_bar (c : Dev nD) : lv (barCell c) () = 1 := by
  show (match kindOf (.reg barS) with | .bar => 1 | .d j _ => if j = 1 then 2 else if j = 3 then 3 else 0 | _ => 0) = 1
  rw [kindOf_bar]
theorem lv_loc (c : Dev nD) : lv (locCell c) () = 0 := by
  show (match kindOf (.dma locS) with | .bar => 1 | .d j _ => if j = 1 then 2 else if j = 3 then 3 else 0 | _ => 0) = 0
  rw [kindOf_loc]
/-- The level of one of the sixty-four transfer cells, by its array. -/
private theorem lv_d (c : Dev nD) (j : Fin 4) (k : Fin 16) : lv (dCell c j k) () = if j = 1 then 2 else if j = 3 then 3 else 0 := by
  show (match kindOf (.dma (dsem j k)) with | .bar => 1 | .d j _ => if j = 1 then 2 else if j = 3 then 3 else 0 | _ => 0) = _
  rw [kindOf_d]
theorem lv_s1 (c : Dev nD) (k : Fin 16) : lv (s1Cell c k) () = 0 := by rw [lv_d]; rfl
theorem lv_r1 (c : Dev nD) (k : Fin 16) : lv (r1Cell c k) () = 2 := by rw [lv_d]; rfl
theorem lv_s2 (c : Dev nD) (k : Fin 16) : lv (s2Cell c k) () = 0 := by rw [lv_d]; rfl
theorem lv_r2 (c : Dev nD) (k : Fin 16) : lv (r2Cell c k) () = 3 := by rw [lv_d]; rfl
/-- A staging semaphore sits at level 0. -/
private theorem lv_stage (c : Dev nD) (q : DmaSem sig) (hq : q.val < 2) : lv ((c : Thread nD τ), .dma q) () = 0 := by
  show (match kindOf (.dma q) with | .bar => 1 | .d j _ => if j = 1 then 2 else if j = 3 then 3 else 0 | _ => 0) = 0
  rw [kindOf_stage q hq]

/-- Where the arrivals still owed are positive: at an arrival cell across y of the y-peer from chunk b on, or at an
    arrival cell across x of the x-peer from chunk a on. -/
private theorem owe_pos {c : Dev nD} {a b : ℕ} {g : GSem nD τ sig} {i : Unit} (h : 0 < (owe2 c b + owe1 c a) g i) :
    (∃ k : Fin 16, b ≤ k.val ∧ g = r2Cell (py c) k) ∨ (∃ k : Fin 16, a ≤ k.val ∧ g = r1Cell (px c) k) := by
  rcases Pipeline.add_pos_cases h with h | h
  · unfold owe2 at h
    obtain ⟨k, hk, hpos⟩ := Pipeline.sum_pos_exists h
    exact Or.inl ⟨k, ((Ring.mem_rangeSet _ _ _).mp hk).1, (Pipeline.tallyAt_pos hpos).1⟩
  · unfold owe1 at h
    obtain ⟨k, hk, hpos⟩ := Pipeline.sum_pos_exists h
    exact Or.inr ⟨k, ((Ring.mem_rangeSet _ _ _).mp hk).1, (Pipeline.tallyAt_pos hpos).1⟩

/-- A wait on one of c's cells while c owes the arrivals across x from chunk a on and across y from chunk b on:
    allowed when the cell is below 2 if an arrival across x is still owed, below 3 if one across y is. -/
theorem mayWait_gen (c : Dev nD) (sm : SemLoc sig) (a b : ℕ)
    (h1 : a < 16 → lv ((c : Thread nD τ), sm) () < 2) (h2 : b < 16 → lv ((c : Thread nD τ), sm) () < 3) :
    (levAts L lv : sProp 𝕄) ⊢ MayWait (c : Thread nD τ) sm () (owe2 c b + owe1 c a) := by
  refine Pipeline.mayWait_of_levAts (by rw [L_tc]; exact Finset.mem_singleton_self _) fun g i hg => ?_
  rcases owe_pos hg with ⟨k, hk, rfl⟩ | ⟨k, hk, rfl⟩
  · refine ⟨by rw [L_tc]; exact Finset.mem_singleton_self _, ?_⟩
    rw [lv_r2]; exact h2 (lt_of_le_of_lt hk k.isLt)
  · refine ⟨by rw [L_tc]; exact Finset.mem_singleton_self _, ?_⟩
    rw [lv_r1]; exact h1 (lt_of_le_of_lt hk k.isLt)

/-- Everything a device owes at launch sits at a positive level: its arrivals at 3 and 2, the two barrier signals at 1. -/
private theorem O₀_pos {c : Dev nD} {g : GSem nD τ sig} {i : Unit} (h : 0 < O₀ c g i) : i ∈ L g ∧ 0 < lv g i := by
  unfold O₀ O₁ O₂ at h
  rcases Pipeline.add_pos_cases h with h | h
  · rcases Pipeline.add_pos_cases h with h | h
    · rcases owe_pos h with ⟨k, hk, rfl⟩ | ⟨k, hk, rfl⟩
      · refine ⟨by rw [L_tc]; exact Finset.mem_singleton_self _, ?_⟩
        rw [lv_r2]; decide
      · refine ⟨by rw [L_tc]; exact Finset.mem_singleton_self _, ?_⟩
        rw [lv_r1]; decide
    · obtain ⟨rfl, rfl⟩ := Pipeline.tallyAt_pos h
      refine ⟨by rw [L_tc]; exact Finset.mem_singleton_self _, ?_⟩
      rw [lv_bar]; decide
  · obtain ⟨rfl, rfl⟩ := Pipeline.tallyAt_pos h
    refine ⟨by rw [L_tc]; exact Finset.mem_singleton_self _, ?_⟩
    rw [lv_bar]; decide

/-- The pipeline's own waits (on its staging semaphores, at level 0) while the device owes everything or nothing. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    rw [lv_stage c q hq]
    exact O₀_pos hg
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.KernelIdeal.AG.waits' depends on axioms: [propext, Classical.choice, Quot.sound] -/
#guard_msgs in #print axioms waits
/-- info: 'Cert.KernelIdeal.AG.mayWait_gen' depends on axioms: [propext, Classical.choice, Quot.sound] -/
#guard_msgs in #print axioms mayWait_gen

end Cert.KernelIdeal.AG

end
-- ==== Proof.KernelIdeal.AgState.lean ====
/-
  The kernel's remote statements as rules over the all-gather's schedule, one per shape and for any chunk; then the
  state a device's thread is in between two statements, as six counters — chunks sent across x, arrivals across x
  waited for, chunks forwarded across y, and the three kinds of closing waits done — and one transition per statement.
-/
import proofs.«900089_g7700000000000090_dist_ag_v7x_xy2x2_x_m512_n512_f32_1_alg».proof.Proof.KernelIdeal.AgSched
import proofs.«900089_g7700000000000090_dist_ag_v7x_xy2x2_x_m512_n512_f32_1_alg».proof.Proof.KernelIdeal.AgRegions
import proofs.«900089_g7700000000000090_dist_ag_v7x_xy2x2_x_m512_n512_f32_1_alg».proof.Proof.KernelIdeal.AgLevels

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

/-! ## The rows c writes across x are the rows its x-peer holds as its forwarding chunk -/

theorem unit_set_congr {s : Shape} {off off' size : Fin s.rank → Nat} (h : off = off') (p : ∀ a, off a + size a ≤ s.size a)
    (p' : ∀ a, off' a + size a ≤ s.size a) : (Rect.unit off size p).set = (Rect.unit off' size p').set := by
  subst h; rfl

theorem off2_closed (c : Dev nD) (k : Fin 16) : k0_off2 c (wk k) = ![512 * (c.val / 2) + 256 * (c.val % 2) + 16 * k.val, 0] := k0_off2_eq c k
theorem off4_closed (c : Dev nD) (k : Fin 16) :
    k0_off4 (px c) (wk k) = ![(256 * ((px c).val % 2) + 16 * k.val + 512) - 512 * ((px c).val / 2), 0] := k0_off4_eq (px c) k
theorem row24 (c : Dev nD) (k : Fin 16) :
    512 * (c.val / 2) + 256 * (c.val % 2) + 16 * k.val = (256 * ((px c).val % 2) + 16 * k.val + 512) - 512 * ((px c).val / 2) := by
  have hc : (px c).val = (c.val + 2) % 4 := rfl
  have h4 : c.val < 4 := c.isLt
  rw [hc]; omega
theorem off24 (c : Dev nD) (k : Fin 16) : k0_off2 c (wk k) = k0_off4 (px c) (wk k) := by
  rw [off2_closed, off4_closed, row24]

theorem p1Dst_set (c : Dev nD) (k : Fin 16) :
    ((p1Dst c k).view.set : Finset (cc0_stg1_0 : Ref sig .tc).ty.shape.Idx) = (p2Buf (px c) k).view.set := by
  have h1 : ((p1Dst c k).view.set : Finset (cc0_stg1_0 : Ref sig .tc).ty.shape.Idx)
      = (Rect.unit (s := S1024x512) (k0_off2 c (wk k)) S16x512.size (k0_off2_inb c k)).set := View.set_slice_whole cc0_stg1_0 _
  have h2 : ((p2Buf (px c) k).view.set : Finset (cc0_stg1_0 : Ref sig .tc).ty.shape.Idx)
      = (Rect.unit (s := S1024x512) (k0_off4 (px c) (wk k)) S16x512.size (k0_off4_inb (px c) k)).set := View.set_slice_whole cc0_stg1_0 _
  rw [h1, h2]
  exact unit_set_congr (off24 c k) _ _

section Rules

variable {α : Type} {Q : α → sProp (MT nD τ sig Unit (Elt F) ℕ UU ℕ)} (K : Dev nD × CIx → ℕ) (c : Dev nD)

/-- A wait on cell (j, k) of c for its one round: the round's payload comes with it. -/
theorem wp_dwait (j : Fin 4) (k : Fin 16) {sm : DmaSem sig} (hsm : sm = dsem j k)
    {sp' : Space} {s' : Shape} {e' : EltTy} {src : Memref sig .tc sp' s' e'} {κ' : Idealize.ShloMosaic.Kind}
    {dst : Memref sig κ' .vmem S16x512 .f32} (hd : dst.view.dmaCredit = N16) {hsrc : src.view.WordExact} {hdst : dst.view.WordExact}
    {kk : PUnit → Prog (TpuEff nD τ sig (Elt F) Λ₀ .tc) α} {O : CellTallies nD τ sig Unit} {W : Waits sig Unit} :
    iprop(records m ρ K ∗ cred (tallyAt (dCell c j k) () N16) ∗ owes (c : Thread nD τ) O W
        ∗ MayWait (c : Thread nD τ) (.dma (dsem j k)) () O ∗ atPos ER (dCell c j k) 0 ∅ 0)
      ⊢ iprop(((owes (c : Thread nD τ) O (insert (SemLoc.dma (dsem j k), ()) W) ∗ atPos ER (dCell c j k) 1 ∅ 0 ∗ dPay m ρ c j k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm
  rw [← hd]
  iintro ⟨#HR, Hc, HO, #Hmw, Hat⟩ Hk
  ihave #HI := (inv_at m ρ K (c, .inr (.inr (j, k)))) $$ HR
  iapply (Rounds.wp_wait_rest_token 𝒱₀ ER (agRd m ρ) (c : Thread nD τ) none (κ := K (c, .inr (.inr (j, k)))) (k' := dst.view.dmaCredit)
      (wpE_waitDma2_eq 𝒱₀ (c : Thread nD τ) none Set.univ) (Set.mem_univ _) () (O := O) (W := W) (R := 0) (m := 0) (T := ∅)
      (by rw [Nat.zero_add, hd, expect_d m ρ c j k])) $$ [Hc HO Hat]
  · isplitr; · iexact HI
    isplitl [Hc]; · iexact Hc
    isplitl [HO]; · iexact HO
    isplitr; · iexact Hmw
    iexact Hat
  iintro ⟨HO, Hat, -, Hpay⟩
  iapply Hk
  ihave Hp := (Entails.of_eq (rest_d m ρ c j k)) $$ Hpay
  isplitl [HO]; · iexact HO
  isplitl [Hat]; · iexact Hat
  iexact Hp

/-- Chunk k sent across x: pays the x-peer's arrival duty with those rows of its result rewritten, and c's own
    departure duty with the source chunk's share. -/
theorem wp_p1send (n : Dev nD) (hn : n = px c) (k : Fin 16) {sS sR : DmaSem sig} (hsS : sS = s1S k) (hsR : sR = r1S k)
    {hsc : (p1Dst c k : Memref sig (Dev.tc n : Thread nD τ).2.kind .vmem S16x512 .f32).view.ref.isScScratch = false}
    {hsrc : (p1Src c k).view.WordExact} {hdst : (p1Dst c k).view.WordExact}
    {hsem : DmaTarget.Typed .vmem (.dma sR) (.remote (Dev.tc n : Thread nD τ) (p1Dst c k) (.dma sS) hsc)}
    {kk : PUnit → Prog (TpuEff nD τ sig (Elt F) Λ₀ .tc) α}
    (fd : Buf (Elt F) ((p1Dst c k).view.loc (px c : Thread nD τ))) (O : CellTallies nD τ sig Unit) (W : Waits sig Unit) :
    iprop(records m ρ K ∗ s1Pay m ρ c k ∗ ((p1Dst c k).view.loc (px c : Thread nD τ) ↦[(p1Dst c k).view.set]{fullShare} fd)
        ∗ owes (c : Thread nD τ) (O + tallyAt (r1Cell (px c) k) () N16) W
        ∗ dutyTok ER (s1Cell c k) 0 false ∗ dutyTok ER (r1Cell (px c) k) 0 false)
      ⊢ iprop(((cred (tallyAt (s1Cell c k) () N16) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p1Src c k) (.remote (Dev.tc n : Thread nD τ) (p1Dst c k) (.dma sS) hsc) (.dma sR) hsrc hdst hsem) kk) Q) := by
  subst hn hsS hsR
  unfold s1Pay
  iintro ⟨#HR, Hs, Hd, HO, Ht1, Ht2⟩ Hk
  ihave #HI1 := (inv_at m ρ K (c, .inr (.inr (0, k)))) $$ HR
  ihave #HI2 := (inv_at m ρ K (px c, .inr (.inr (1, k)))) $$ HR
  ihave #Hr1 := (reached_at m ρ K (c, .inr (.inr (0, k)))) $$ HR
  ihave #Hr2 := (reached_at m ρ K (px c, .inr (.inr (1, k)))) $$ HR
  iapply (Rounds.wp_send_pointsTo 𝒱₀ ER (agRd m ρ) (c : Thread nD τ) none (κ₁ := K (c, .inr (.inr (0, k)))) (κ₂ := K (px c, .inr (.inr (1, k))))
      (r₁ := 0) (r₂ := 0) (d₁ := false) (d₂ := false) (fd := fd)
      (by rw [duties_d m ρ c 0 k]; exact Finset.mem_singleton_self _) (by rw [duties_d m ρ (px c) 1 k]; exact Finset.mem_singleton_self _)
      () () N16 rfl (amount_d m ρ c 0 k 0 false) (amount_d m ρ (px c) 1 k 0 false) O rfl (W := W)
      (by rw [payload_d]; exact BI.Entails.refl _)
      (by
        rw [payload_d]; show _ ⊢ r1Pay m ρ (px c) k
        unfold r1Pay
        show ((((px c : Dev nD) : Thread nD τ).loc cc0_stg1_0) ↦[((p1Dst c k).view.set : Finset (cc0_stg1_0 : Ref sig .tc).ty.shape.Idx)]{fullShare}
              ((p1Dst c k).view.write (Elt F) fd ((p1Src c k).view.read (Elt F) (Xc m ρ c)) Finset.univ) : sProp 𝕄)
            ⊢ ((((px c : Dev nD) : Thread nD τ).loc cc0_stg1_0) ↦[((p2Buf (px c) k).view.set : Finset (cc0_stg1_0 : Ref sig .tc).ty.shape.Idx)]{fullShare} Gout m ρ (px c))
        rw [← p1Dst_set c k, pointsTo_congr (p1_val m ρ c k fd)]
        all_goals exact BI.Entails.refl _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- Chunk k forwarded across y, from rows of c's result already in place: pays the y-peer's arrival duty with those
    rows of its result rewritten, and c's own departure duty with the source rows. -/
theorem wp_p2send (n : Dev nD) (hn : n = py c) (k : Fin 16) {sS sR : DmaSem sig} (hsS : sS = s2S k) (hsR : sR = r2S k)
    {hsc : (p2Buf c k : Memref sig (Dev.tc n : Thread nD τ).2.kind .vmem S16x512 .f32).view.ref.isScScratch = false}
    {hsrc : (p2Buf c k).view.WordExact} {hdst : (p2Buf c k).view.WordExact}
    {hsem : DmaTarget.Typed .vmem (.dma sR) (.remote (Dev.tc n : Thread nD τ) (p2Buf c k) (.dma sS) hsc)}
    {kk : PUnit → Prog (TpuEff nD τ sig (Elt F) Λ₀ .tc) α}
    (fd : Buf (Elt F) ((p2Buf c k).view.loc (py c : Thread nD τ))) (O : CellTallies nD τ sig Unit) (W : Waits sig Unit) :
    iprop(records m ρ K ∗ r1Pay m ρ c k ∗ ((p2Buf c k).view.loc (py c : Thread nD τ) ↦[(p2Buf c k).view.set]{fullShare} fd)
        ∗ owes (c : Thread nD τ) (O + tallyAt (r2Cell (py c) k) () N16) W
        ∗ dutyTok ER (s2Cell c k) 0 false ∗ dutyTok ER (r2Cell (py c) k) 0 false)
      ⊢ iprop(((cred (tallyAt (s2Cell c k) () N16) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p2Buf c k) (.remote (Dev.tc n : Thread nD τ) (p2Buf c k) (.dma sS) hsc) (.dma sR) hsrc hdst hsem) kk) Q) := by
  subst hn hsS hsR
  unfold r1Pay
  iintro ⟨#HR, Hs, Hd, HO, Ht1, Ht2⟩ Hk
  ihave #HI1 := (inv_at m ρ K (c, .inr (.inr (2, k)))) $$ HR
  ihave #HI2 := (inv_at m ρ K (py c, .inr (.inr (3, k)))) $$ HR
  ihave #Hr1 := (reached_at m ρ K (c, .inr (.inr (2, k)))) $$ HR
  ihave #Hr2 := (reached_at m ρ K (py c, .inr (.inr (3, k)))) $$ HR
  iapply (Rounds.wp_send_pointsTo 𝒱₀ ER (agRd m ρ) (c : Thread nD τ) none (κ₁ := K (c, .inr (.inr (2, k)))) (κ₂ := K (py c, .inr (.inr (3, k))))
      (r₁ := 0) (r₂ := 0) (d₁ := false) (d₂ := false) (fd := fd)
      (by rw [duties_d m ρ c 2 k]; exact Finset.mem_singleton_self _) (by rw [duties_d m ρ (py c) 3 k]; exact Finset.mem_singleton_self _)
      () () N16 rfl (amount_d m ρ c 2 k 0 false) (amount_d m ρ (py c) 3 k 0 false) O rfl (W := W)
      (by rw [payload_d]; exact BI.Entails.refl _)
      (by
        rw [payload_d]; show _ ⊢ r2Pay m ρ (py c) k
        unfold r2Pay
        rw [py_py, pointsTo_congr (p2_val m ρ c k fd (Gout m ρ c) (fun _ _ => rfl))]
        all_goals exact BI.Entails.refl _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

end Rules

end Cert.KernelIdeal.AG

end
-- ==== Proof.KernelIdeal.AgSteps.lean ====
/-
  The state of a device's thread between two of the kernel's statements, as six counters — a chunks sent across x,
  b arrivals across x waited for, b' chunks forwarded across y, and d, e, f closing waits done on the departures
  across x, the departures across y and the arrivals across y — and one transition per statement.
-/
import proofs.«900089_g7700000000000090_dist_ag_v7x_xy2x2_x_m512_n512_f32_1_alg».proof.Proof.KernelIdeal.AgState

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

/-- A run of chunks grows at its upper end. -/
theorem bigSep_rangeSet_snoc {M : Type} [URA M] (Φ : Fin 16 → sProp M) {lo n : ℕ} (h : lo ≤ n) (hn : n < 16) :
    bigSep (rangeSet 16 lo (n + 1)) Φ = iprop(Φ ⟨n, hn⟩ ∗ bigSep (rangeSet 16 lo n) Φ) := by
  have hs : rangeSet 16 lo (n + 1) = insert (⟨n, hn⟩ : Fin 16) (rangeSet 16 lo n) := by
    ext b; rw [Finset.mem_insert, Ring.mem_rangeSet, Ring.mem_rangeSet, Fin.ext_iff]; dsimp only; omega
  have hm : (⟨n, hn⟩ : Fin 16) ∉ rangeSet 16 lo n := by rw [Ring.mem_rangeSet]; dsimp only; omega
  rw [hs, bigSep_insert hm]; rfl

section State

variable (K : Dev nD × CIx → ℕ) (c : Dev nD)

/-- The landing chunk k in the x-peer's result, and in the y-peer's, at contents not named. -/
def dstX (k : Fin 16) : sProp 𝕄 := iprop(∃ f, (p1Dst c k).view.loc (px c : Thread nD τ) ↦[(p1Dst c k).view.set]{fullShare} f)
def dstY (k : Fin 16) : sProp 𝕄 := iprop(∃ f, (p2Buf c k).view.loc (py c : Thread nD τ) ↦[(p2Buf c k).view.set]{fullShare} f)

/-- Across x: chunks a … 15 still to send (source share, landing chunk, the two tokens); the credit of the chunks sent
    and not yet waited for (d … a − 1); the departure cells' positions, advanced for chunks 0 … d − 1, whose source
    shares are back. -/
def S1 (a d : ℕ) : sProp 𝕄 :=
  iprop((bigSep (rangeSet 16 a 16) fun k => s1Pay m ρ c k) ∗ (bigSep (rangeSet 16 a 16) fun k => dstX c k)
    ∗ (bigSep (rangeSet 16 a 16) fun k => dutyTok ER (s1Cell c k) 0 false)
    ∗ (bigSep (rangeSet 16 a 16) fun k => dutyTok ER (r1Cell (px c) k) 0 false)
    ∗ (bigSep (rangeSet 16 d a) fun k => cred (tallyAt (s1Cell c k) () N16))
    ∗ (bigSep (rangeSet 16 d 16) fun k => atPos ER (s1Cell c k) 0 ∅ 0)
    ∗ (bigSep (rangeSet 16 0 d) fun k => iprop(atPos ER (s1Cell c k) 1 ∅ 0 ∗ s1Pay m ρ c k)))

/-- The arrivals across x: credit and position for chunks b … 15 not yet waited for; the advanced positions of
    0 … b − 1; the landed rows of the chunks waited for and not yet forwarded (b' … b − 1). -/
def R1 (b b' : ℕ) : sProp 𝕄 :=
  iprop((bigSep (rangeSet 16 b 16) fun k => iprop(cred (tallyAt (r1Cell c k) () N16) ∗ atPos ER (r1Cell c k) 0 ∅ 0))
    ∗ (bigSep (rangeSet 16 0 b) fun k => atPos ER (r1Cell c k) 1 ∅ 0)
    ∗ (bigSep (rangeSet 16 b' b) fun k => r1Pay m ρ c k))

/-- Across y: chunks b' … 15 still to forward (landing chunk, the two tokens); the credit of the chunks forwarded and not
    yet waited for (e … b' − 1); the departure cells' positions, advanced for 0 … e − 1, whose rows are back. -/
def S2 (b' e : ℕ) : sProp 𝕄 :=
  iprop((bigSep (rangeSet 16 b' 16) fun k => dstY c k)
    ∗ (bigSep (rangeSet 16 b' 16) fun k => dutyTok ER (s2Cell c k) 0 false)
    ∗ (bigSep (rangeSet 16 b' 16) fun k => dutyTok ER (r2Cell (py c) k) 0 false)
    ∗ (bigSep (rangeSet 16 e b') fun k => cred (tallyAt (s2Cell c k) () N16))
    ∗ (bigSep (rangeSet 16 e 16) fun k => atPos ER (s2Cell c k) 0 ∅ 0)
    ∗ (bigSep (rangeSet 16 0 e) fun k => iprop(atPos ER (s2Cell c k) 1 ∅ 0 ∗ r1Pay m ρ c k)))

/-- The arrivals across y: credit and position for chunks f … 15; for 0 … f − 1 the advanced position and the rows. -/
def R2 (f : ℕ) : sProp 𝕄 :=
  iprop((bigSep (rangeSet 16 f 16) fun k => iprop(cred (tallyAt (r2Cell c k) () N16) ∗ atPos ER (r2Cell c k) 0 ∅ 0))
    ∗ (bigSep (rangeSet 16 0 f) fun k => iprop(atPos ER (r2Cell c k) 1 ∅ 0 ∗ r2Pay m ρ c k)))

/-- What the device still owes: the arrivals across x from chunk a on and across y from chunk b' on. -/
def OW (a b' : ℕ) : sProp 𝕄 := iprop(∃ W, owes (c : Thread nD τ) (owe2 c b' + owe1 c a) W)

end State

end Cert.KernelIdeal.AG

end
-- ==== Proof.KernelIdeal.AgClose.lean ====
/-
  The ends of a device's run: what it hands its two peers at the entry barrier, the buffers whole again at the exit,
  and its own cells closed.
-/
import proofs.«900089_g7700000000000090_dist_ag_v7x_xy2x2_x_m512_n512_f32_1_alg».proof.Proof.KernelIdeal.AgSteps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

variable (K : Dev nD × CIx → ℕ) (c : Dev nD)

/-! ## Small splittings of a conjunction over a finite index -/

theorem close_bigSep_unit {M : Type} [URA M] (Φ : Unit → sProp M) : bigSep Finset.univ Φ = Φ () := bigSep_univ_of_subsingleton ()
theorem close_bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ
theorem close_bigSep_sum {M : Type} [URA M] {α β : Type} [Fintype α] [Fintype β] (Φ : α ⊕ β → sProp M) :
    bigSep Finset.univ Φ = iprop(bigSep Finset.univ (fun a => Φ (.inl a)) ∗ bigSep Finset.univ (fun b => Φ (.inr b))) := bigSep_univ_sum Φ
/-- A persistent assertion in hand serves every summand. -/
theorem close_bigSep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The sixteen chunks of c's result that its x-peer will write are what the x-peer's barrier cell is owed by c. -/
theorem barX_pay (f : (cc0_stg1_0 : Ref sig .tc).ty.Contents (Elt F)) :
    (bigSep Finset.univ fun k : Fin 16 => ((p2Buf c k).view.loc (c : Thread nD τ) ↦[(p2Buf c k).view.set]{fullShare} f : sProp 𝕄))
      ⊢ barPayX (px c) := by
  unfold barPayX
  rw [px_px]
  refine bigSep_mono fun k _ => ?_
  have hs : ((p1Dst (px c) k).view.set : Finset (cc0_stg1_0 : Ref sig .tc).ty.shape.Idx) = (p2Buf c k).view.set :=
    (p1Dst_set (px c) k).trans (by rw [px_px])
  show ((((c : Dev nD) : Thread nD τ).loc cc0_stg1_0) ↦[((p2Buf c k).view.set : Finset (cc0_stg1_0 : Ref sig .tc).ty.shape.Idx)]{fullShare} f : sProp 𝕄)
    ⊢ iprop(∃ f', (((c : Dev nD) : Thread nD τ).loc cc0_stg1_0) ↦[((p1Dst (px c) k).view.set : Finset (cc0_stg1_0 : Ref sig .tc).ty.shape.Idx)]{fullShare} f')
  rw [hs]
  iintro H
  iexists f
  iexact H

/-- The sixteen chunks of c's result that its y-peer will write are what the y-peer's barrier cell is owed by c. -/
theorem barY_pay (f : (cc0_stg1_0 : Ref sig .tc).ty.Contents (Elt F)) :
    (bigSep Finset.univ fun k : Fin 16 => ((p2Buf (py c) k).view.loc (c : Thread nD τ) ↦[(p2Buf (py c) k).view.set]{fullShare} f : sProp 𝕄))
      ⊢ barPayY (py c) := by
  unfold barPayY
  rw [py_py]
  refine bigSep_mono fun k _ => ?_
  show ((((c : Dev nD) : Thread nD τ).loc cc0_stg1_0) ↦[((p2Buf (py c) k).view.set : Finset (cc0_stg1_0 : Ref sig .tc).ty.shape.Idx)]{fullShare} f : sProp 𝕄)
    ⊢ iprop(∃ f', (((c : Dev nD) : Thread nD τ).loc cc0_stg1_0) ↦[((p2Buf (py c) k).view.set : Finset (cc0_stg1_0 : Ref sig .tc).ty.shape.Idx)]{fullShare} f')
  iintro H
  iexists f
  iexact H

/-- The operand block whole again: the share lent to the local copy, the sixteen chunk shares, and the rest. -/
theorem x_join :
    iprop((((c : Thread nD τ).loc cc0_stg0_0) ↦{fullShare.left} Xc m ρ c)
        ∗ (bigSep (rangeSet 16 0 16) fun k => s1Pay m ρ c k)
        ∗ (((c : Thread nD τ).loc cc0_stg0_0) ↦[xRest c]{fullShare.right} Xc m ρ c))
      ⊢ (((c : Thread nD τ).loc cc0_stg0_0) ↦{fullShare} Xc m ρ c : sProp 𝕄) := by
  rw [Ring.rangeSet_univ]
  unfold s1Pay
  iintro ⟨Hl, Hs, Hr⟩
  ihave Hright := ((x_split (F := F) c fullShare.right (Xc m ρ c)).2) $$ [Hs Hr]
  · isplitl [Hs] <;> iassumption
  iapply (pointsTo_share (PosShare.mem_left_op_right fullShare)).2
  isplitl [Hl] <;> iassumption

/-- The result whole at the gathered contents: its own half, the chunks received across x, the chunks received across y. -/
theorem out_join :
    iprop(((locDst c).view.loc (c : Thread nD τ) ↦[(locDst c).view.set]{fullShare} Gout m ρ c)
        ∗ (bigSep (rangeSet 16 0 16) fun k => r1Pay m ρ c k)
        ∗ (bigSep (rangeSet 16 0 16) fun k => r2Pay m ρ c k))
      ⊢ (((c : Thread nD τ).loc cc0_stg1_0) ↦{fullShare} Gout m ρ c : sProp 𝕄) := by
  rw [Ring.rangeSet_univ]
  unfold r1Pay r2Pay
  exact (out_split (F := F) c (Gout m ρ c)).2

/-- One own cell of c past its one round closes: its counter comes back at zero. -/
theorem close_cell (i : OIx) :
    iprop(records m ρ K ∗ atPos ER ((c : Thread nD τ), osem i) 1 ∅ 0) ⊢ |={Set.univ}=> (semVal ((c : Thread nD τ), osem i) 0 : sProp 𝕄) := by
  iintro ⟨#HR, Hat⟩
  ihave #HI := (inv_at m ρ K (c, .inr i)) $$ HR
  iapply (Rounds.cell_close ER (agRd m ρ) (g := ((c : Thread nD τ), osem i)) (κ := K (c, .inr i)) (Set.mem_univ _) (fun h => h) (R := 1)
    (duties_later m ρ ((c : Thread nD τ), osem i)))
  isplitr; · iexact HI
  iexact Hat

/-- The sixteen cells of one of c's four arrays close together. -/
theorem close_run (j : Fin 4) :
    iprop(records m ρ K ∗ bigSep Finset.univ fun k : Fin 16 => atPos ER (dCell c j k) 1 ∅ 0)
      ⊢ |={Set.univ}=> (bigSep Finset.univ fun k : Fin 16 => semVal (dCell c j k) 0 : sProp 𝕄) :=
  (close_bigSep_pers (R := records m ρ K) (Φ := fun k : Fin 16 => atPos ER (dCell c j k) 1 ∅ 0)
      (Ψ := fun k : Fin 16 => iprop(|={Set.univ}=> semVal (dCell c j k) 0)) fun k _ => close_cell m ρ K c (.inr (j, k))).trans (bigSep_fupd _ _)

/-- The own semaphores of c at zero, the local copy's and then the four arrays apart. -/
theorem Φ₁_eq : (Φ₁ c : sProp 𝕄) = iprop(semVal (locCell c) 0 ∗ (bigSep Finset.univ fun k : Fin 16 => semVal (dCell c 0 k) 0)
      ∗ (bigSep Finset.univ fun k : Fin 16 => semVal (dCell c 1 k) 0) ∗ (bigSep Finset.univ fun k : Fin 16 => semVal (dCell c 2 k) 0)
      ∗ (bigSep Finset.univ fun k : Fin 16 => semVal (dCell c 3 k) 0)) := by
  unfold Φ₁; rw [close_bigSep_sum, close_bigSep_unit, bigSep_univ_prod, close_bigSep_fin4] <;> rfl

/-- Every own cell of c past its one round closes: the kernel's own semaphores are the core's again, at zero. -/
theorem close_own :
    iprop(records m ρ K ∗ atPos ER (locCell c) 1 ∅ 0
        ∗ (bigSep (rangeSet 16 0 16) fun k => atPos ER (s1Cell c k) 1 ∅ 0)
        ∗ (bigSep (rangeSet 16 0 16) fun k => atPos ER (r1Cell c k) 1 ∅ 0)
        ∗ (bigSep (rangeSet 16 0 16) fun k => atPos ER (s2Cell c k) 1 ∅ 0)
        ∗ (bigSep (rangeSet 16 0 16) fun k => atPos ER (r2Cell c k) 1 ∅ 0))
      ⊢ |={Set.univ}=> Φ₁ c := by
  rw [Ring.rangeSet_univ, Φ₁_eq]
  iintro ⟨#HR, HL, H0, H1, H2, H3⟩
  imod (close_cell m ρ K c (.inl ())) $$ [HL] with HL'
  · isplitr; · iexact HR
    iexact HL
  imod (close_run m ρ K c 0) $$ [H0] with H0'
  · isplitr; · iexact HR
    iexact H0
  imod (close_run m ρ K c 1) $$ [H1] with H1'
  · isplitr; · iexact HR
    iexact H1
  imod (close_run m ρ K c 2) $$ [H2] with H2'
  · isplitr; · iexact HR
    iexact H2
  imod (close_run m ρ K c 3) $$ [H3] with H3'
  · isplitr; · iexact HR
    iexact H3
  imodintro
  isplitl [HL']; · iexact HL'
  isplitl [H0']; · iexact H0'
  isplitl [H1']; · iexact H1'
  isplitl [H2']; · iexact H2'
  iexact H3'

/-- info: 'Cert.KernelIdeal.AG.barX_pay' depends on axioms: [propext, Classical.choice, Quot.sound] -/
#guard_msgs in #print axioms barX_pay

/-- info: 'Cert.KernelIdeal.AG.barY_pay' depends on axioms: [propext, Classical.choice, Quot.sound] -/
#guard_msgs in #print axioms barY_pay

/-- info: 'Cert.KernelIdeal.AG.x_join' depends on axioms: [propext, Classical.choice, Quot.sound] -/
#guard_msgs in #print axioms x_join

/-- info: 'Cert.KernelIdeal.AG.out_join' depends on axioms: [propext, Classical.choice, Quot.sound] -/
#guard_msgs in #print axioms out_join

/-- info: 'Cert.KernelIdeal.AG.close_own' depends on axioms: [propext, Classical.choice, Quot.sound] -/
#guard_msgs in #print axioms close_own

end Cert.KernelIdeal.AG

end
-- ==== Proof.KernelIdeal.AgHead.lean ====
/-
  The first part of the kernel's body on one device: the local copy started and the entry barrier, after which the
  thread holds everything its transfers need; and the rules for the local copy.
-/
import proofs.«900089_g7700000000000090_dist_ag_v7x_xy2x2_x_m512_n512_f32_1_alg».proof.Proof.KernelIdeal.AgClose
import proofs.«900089_g7700000000000090_dist_ag_v7x_xy2x2_x_m512_n512_f32_1_alg».proof.Proof.Gen.KernelIdeal.Skeleton

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

/-! ## The two device-id chains of the entry barrier -/

theorem dev1_eq (c : Dev nD) (h) : (⟨k0_dev1 c, h⟩ : Dev nD) = px c := devX_of c h (k0_dev1_eq c)
theorem dev2_eq (c : Dev nD) (h) : (⟨k0_dev2 c, h⟩ : Dev nD) = py c := devY_of c h (k0_dev2_eq c)

section Body

variable (K : Dev nD × CIx → ℕ) (c : Dev nD)
variable {α : Type} {Q : α → sProp (MT nD τ sig Unit (Elt F) ℕ UU ℕ)}

omit [FloatOps F] in
theorem x_whole_eq (q : PosShare TreeShare) (f : (cc0_stg0_0 : Ref sig .tc).ty.Contents (Elt F)) :
    ((xM : Memref sig .tc .vmem S512x512 .f32).view.loc (c : Thread nD τ) ↦[(xM : Memref sig .tc .vmem S512x512 .f32).view.set]{q} f : sProp 𝕄)
      = (((c : Thread nD τ).loc cc0_stg0_0) ↦{q} f) := by
  show ((View.whole cc0_stg0_0).loc (c : Thread nD τ) ↦[(View.whole cc0_stg0_0 : View sig .tc _ _ _).set]{q} f : sProp 𝕄) = _
  rw [View.set_whole]

/-- The local copy started: it pays the one duty of its own cell with c's own half of the result rewritten and the
    operand share it reads. -/
theorem wp_loccopy {sm : DmaSem sig} (hsm : sm = locS)
    {hsrc : (xM : Memref sig .tc .vmem S512x512 .f32).view.WordExact} {hdst : (locDst c).view.WordExact}
    {hsem : DmaTarget.Typed (nD := nD) .vmem (.dma sm) (DmaTarget.here (p := (Proc.tc : Proc τ)) (locDst c))}
    {kk : PUnit → Prog (TpuEff nD τ sig (Elt F) Λ₀ .tc) α} (fd : Buf (Elt F) ((locDst c).view.loc (c : Thread nD τ))) :
    iprop(records m ρ K ∗ (((c : Thread nD τ).loc cc0_stg0_0) ↦{fullShare.left} Xc m ρ c)
        ∗ ((locDst c).view.loc (c : Thread nD τ) ↦[(locDst c).view.set]{fullShare} fd) ∗ dutyTok ER (locCell c) 0 false)
      ⊢ iprop((cred (tallyAt (locCell c) () NL) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (DmaTarget.here (p := (Proc.tc : Proc τ)) (locDst c)) (.dma sm) hsrc hdst hsem) kk) Q) := by
  subst hsm
  rw [← x_whole_eq]
  iintro ⟨#HR, Hs, Hd, Ht⟩ Hk
  ihave #HI := (inv_at m ρ K (c, .inr (.inl ()))) $$ HR
  ihave #Hr := (reached_at m ρ K (c, .inr (.inl ()))) $$ HR
  iapply (Rounds.wp_copy_pointsTo 𝒱₀ ER (agRd m ρ) (c : Thread nD τ) none (κ := K (c, .inr (.inl ()))) (r := 0) (d := false) (fd := fd)
      (by rw [duties_loc]; exact Finset.mem_singleton_self _) () NL rfl (amount_loc m ρ c 0 false)
      (by
        rw [payload_loc]; unfold locPay
        rw [pointsTo_congr (loc_val m ρ c fd)]
        all_goals exact BI.Entails.refl _)) $$ [Hs Hd Ht]
  · isplitr; · iexact HI
    isplitl [Hs]; · iexact Hs
    isplitl [Hd]; · iexact Hd
    isplitl [Ht]; · iexact Ht
    iexact Hr
  iexact Hk

/-- The closing wait on the local copy's cell, nothing owed: c's own half in place and the operand share back. -/
theorem wp_locwait {sm : DmaSem sig} (hsm : sm = locS)
    {sp' : Space} {s' : Shape} {e' : EltTy} {src : Memref sig .tc sp' s' e'} {κ' : Idealize.ShloMosaic.Kind}
    {dst : Memref sig κ' .vmem S512x512 .f32} (hd : dst.view.dmaCredit = NL) {hsrc : src.view.WordExact} {hdst : dst.view.WordExact}
    {kk : PUnit → Prog (TpuEff nD τ sig (Elt F) Λ₀ .tc) α} {W : Waits sig Unit} :
    iprop(records m ρ K ∗ cred (tallyAt (locCell c) () NL) ∗ owes (c : Thread nD τ) 0 W ∗ atPos ER (locCell c) 0 ∅ 0)
      ⊢ iprop(((owes (c : Thread nD τ) 0 (insert (SemLoc.dma locS, ()) W) ∗ atPos ER (locCell c) 1 ∅ 0 ∗ locPay m ρ c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm
  rw [← hd]
  iintro ⟨#HR, Hc, HO, Hat⟩ Hk
  ihave #HI := (inv_at m ρ K (c, .inr (.inl ()))) $$ HR
  iapply (Rounds.wp_wait_rest_token 𝒱₀ ER (agRd m ρ) (c : Thread nD τ) none (κ := K (c, .inr (.inl ()))) (k' := dst.view.dmaCredit)
      (wpE_waitDma2_eq 𝒱₀ (c : Thread nD τ) none Set.univ) (Set.mem_univ _) () (O := 0) (W := W) (R := 0) (m := 0) (T := ∅)
      (by rw [Nat.zero_add, hd, expect_loc m ρ c])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  ihave Hp := (Entails.of_eq (rest_loc m ρ c)) $$ Hpay
  isplitl [HO]; · iexact HO
  isplitl [Hat]; · iexact Hat
  iexact Hp

/-! ## The local copy and the entry barrier -/

/-- What the thread holds for the local copy while the transfers run: its credit and position, and the operand rows
    no transfer reads. -/
def LocSt : sProp 𝕄 :=
  iprop(cred (tallyAt (locCell c) () NL) ∗ atPos ER (locCell c) 0 ∅ 0
    ∗ (((c : Thread nD τ).loc cc0_stg0_0) ↦[xRest c]{fullShare.right} Xc m ρ c))

omit [FloatOps F] in
theorem fin4_sep (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rangeSet_00 : rangeSet 16 0 0 = ∅ := Ring.rangeSet_empty (Nat.le_refl 0)

set_option maxHeartbeats 1600000 in
/-- The first part of the body: the device reads its id, starts the local copy, signals both peers' barrier
    semaphores — handing each the sixteen chunks of its result that peer will write — and waits for both of theirs:
    the thread then holds everything the transfers need, all six counters at zero. -/
theorem head_spec :
    iprop(records m ρ K ∗ levAts L lv ∗ poss c ∗ payToks c ∗ creds0 c ∗ (∃ W, owes (c : Thread nD τ) (O₀ c) W)
        ∗ (((c : Thread nD τ).loc cc0_stg0_0) ↦{fullShare} Xc m ρ c) ∗ (∃ f, ((c : Thread nD τ).loc cc0_stg1_0) ↦{fullShare} f))
      ⊢ wp frame (wpE (defs₀ (F := F)) 𝒱₀ (c : Thread nD τ) none) Set.univ
          (k0_part1 (F := F) xM (Memref.isWhole_whole _) oM (Memref.isWhole_whole _) cc0_scratch0 cc0_scratch1 cc0_scratch2 cc0_scratch3 cc0_scratch4)
          (fun r => iprop(⌜r.1 = c⌝ ∗ S1 m ρ c 0 0 ∗ R1 m ρ c 0 0 ∗ S2 m ρ c 0 0 ∗ R2 m ρ c 0 ∗ OW c 0 0 ∗ LocSt m ρ c)) := by
  rw [k0_part1_eq_skeleton]; unfold k0_part1_skel
  simp only [semSignalWord, semWaitWord, Prog.lift, Prog.bind_op, Prog.bind_ret, Prog.pure_eq_ret, wp_deviceId]
  simp only [dev1_eq, dev2_eq]
  unfold poss payToks creds0
  iintro ⟨#HR, #Hlev, ⟨HaB, HaL, HaD⟩, ⟨HtBX, HtBY, HtL, Ht0, Ht1, Ht2, Ht3⟩, ⟨HcB, Hc1, Hc3⟩, ⟨%W, HO⟩, Hx, ⟨%f0, Hout⟩⟩
  ihave Hx2 := (pointsTo_share (PosShare.mem_left_op_right fullShare)).1 $$ Hx
  icases Hx2 with ⟨HxL, HxR⟩
  ihave HxS := (x_split c fullShare.right (Xc m ρ c)).1 $$ HxR
  icases HxS with ⟨HxK, HxRest⟩
  ihave Ho3 := (out_split c f0).1 $$ Hout
  icases Ho3 with ⟨HoA, HoB, HoC⟩
  ihave HaD' := (Entails.of_eq ((bigSep_univ_prod _).trans (fin4_sep _))) $$ HaD
  icases HaD' with ⟨Ha0, Ha1, Ha2, Ha3⟩
  -- the local copy
  iapply (wp_loccopy m ρ K c sem_loc f0) $$ [HxL HoA HtL]
  · isplitr; · iexact HR
    isplitl [HxL]; · iexact HxL
    isplitl [HoA]; · iexact HoA
    iexact HtL
  iintro HcL
  -- the signal to the x-peer: the chunks it will write
  iapply (Rounds.wp_signal 𝒱₀ ER (agRd m ρ) (c : Thread nD τ) none (dst := (px c : Thread nD τ)) (κ := K (px c, .inl ()))
      (d := false) (by rw [duties_bar]; exact Finset.mem_univ _) ((amount_bar m ρ (px c) 0 false).trans (by decide)) () (O₁ c) rfl) $$ [HO HtBX HoB]
  · isplitr; · iapply (inv_at m ρ K (px c, .inl ())); iexact HR
    isplitl [HO]; · iexact HO
    isplitl [HtBX]; · iexact HtBX
    isplitl [HoB]
    · rw [payload_bar_false]; iapply (barX_pay c f0); iexact HoB
    · iapply (reached_at m ρ K (px c, .inl ())); iexact HR
  iintro HO
  -- the signal to the y-peer
  iapply (Rounds.wp_signal 𝒱₀ ER (agRd m ρ) (c : Thread nD τ) none (dst := (py c : Thread nD τ)) (κ := K (py c, .inl ()))
      (d := true) (by rw [duties_bar]; exact Finset.mem_univ _) ((amount_bar m ρ (py c) 0 true).trans (by decide)) () (O₂ c) rfl) $$ [HO HtBY HoC]
  · isplitr; · iapply (inv_at m ρ K (py c, .inl ())); iexact HR
    isplitl [HO]; · iexact HO
    isplitl [HtBY]; · iexact HtBY
    isplitl [HoC]
    · rw [payload_bar_true]; iapply (barY_pay c f0); iexact HoC
    · iapply (reached_at m ρ K (py c, .inl ())); iexact HR
  iintro HO
  -- the wait for both peers: their landing chunks come with it
  iapply (Rounds.wp_wait_rest_token 𝒱₀ ER (agRd m ρ) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [HcB HO HaB]
  · isplitr; · iapply (inv_at m ρ K (c, .inl ())); iexact HR
    isplitl [HcB]; · iexact HcB
    isplitl [HO]; · iexact HO
    isplitr
    · iapply (mayWait_gen c (.reg barS) 0 0 (fun _ => by rw [lv_bar]; decide) (fun _ => by rw [lv_bar]; decide)); iexact Hlev
    iexact HaB
  iintro ⟨HO, -, -, Hpay⟩
  ihave Hp := (Entails.of_eq (rest_bar m ρ c)) $$ Hpay
  icases Hp with ⟨HdX, HdY⟩
  rw [wp_ret]; imodintro
  unfold S1 R1 S2 R2 OW LocSt s1Pay dstX dstY
  simp only [Ring.rangeSet_univ, rangeSet_00, bigSep_empty, bigSep_sep']
  unfold barPayX barPayY
  isplitr; · ipureintro; trivial
  isplitl [HxK HdX Ht0 Ht1 Ha0]
  · isplitl [HxK]; · iexact HxK
    isplitl [HdX]; · iexact HdX
    isplitl [Ht0]; · iexact Ht0
    isplitl [Ht1]; · iexact Ht1
    isplitr; · iempintro
    isplitl [Ha0]; · iexact Ha0
    isplitr <;> iempintro
  isplitl [Hc1 Ha1]
  · isplitl [Hc1 Ha1]
    · isplitl [Hc1]; · iexact Hc1
      iexact Ha1
    isplitr <;> iempintro
  isplitl [HdY Ht2 Ht3 Ha2]
  · isplitl [HdY]; · iexact HdY
    isplitl [Ht2]; · iexact Ht2
    isplitl [Ht3]; · iexact Ht3
    isplitr; · iempintro
    isplitl [Ha2]; · iexact Ha2
    isplitr <;> iempintro
  isplitl [Hc3 Ha3]
  · isplitl [Hc3 Ha3]
    · isplitl [Hc3]; · iexact Hc3
      iexact Ha3
    isplitr <;> iempintro
  isplitl [HO]
  · iexists (insert (SemLoc.reg barS, ()) W); iexact HO
  isplitl [HcL]; · iexact HcL
  isplitl [HaL]; · iexact HaL
  iexact HxRest

end Body

end Cert.KernelIdeal.AG

end
-- ==== Proof.KernelIdeal.AgStepP1.lean ====
/-
  The transition of a transfer across x.
-/
import proofs.«900089_g7700000000000090_dist_ag_v7x_xy2x2_x_m512_n512_f32_1_alg».proof.Proof.KernelIdeal.AgSteps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- Chunk a sent across x. -/
theorem p1_step (a d b' : ℕ) (ha : a < 16) (hda : d ≤ a) (n : Dev nD) (hn : n = px c) {sS sR : DmaSem sig} (hsS : sS = s1S ⟨a, ha⟩) (hsR : sR = r1S ⟨a, ha⟩)
    {hsc : (p1Dst c ⟨a, ha⟩ : Memref sig (Dev.tc n : Thread nD τ).2.kind .vmem S16x512 .f32).view.ref.isScScratch = false}
    {hsrc : (p1Src c ⟨a, ha⟩).view.WordExact} {hdst : (p1Dst c ⟨a, ha⟩).view.WordExact}
    {hsem : DmaTarget.Typed .vmem (.dma sR) (.remote (Dev.tc n : Thread nD τ) (p1Dst c ⟨a, ha⟩) (.dma sS) hsc)}
    {kk : PUnit → Prog (TpuEff nD τ sig (Elt F) Λ₀ .tc) α} :
    iprop(records m ρ K ∗ S1 m ρ c a d ∗ OW c a b')
      ⊢ iprop((iprop(S1 m ρ c (a + 1) d ∗ OW c (a + 1) b') -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p1Src c ⟨a, ha⟩) (.remote (Dev.tc n : Thread nD τ) (p1Dst c ⟨a, ha⟩) (.dma sS) hsc) (.dma sR) hsrc hdst hsem) kk) Q) := by
  have hO : owe2 c b' + owe1 c a = (owe2 c b' + owe1 c (a + 1)) + tallyAt (r1Cell (px c) ⟨a, ha⟩) () N16 := by
    rw [owe1_succ c a ha, add_assoc]
  unfold S1 OW
  rw [Ring.bigSep_rangeSet_head (Φ := fun k => s1Pay m ρ c k) ha ha,
    Ring.bigSep_rangeSet_head (Φ := fun k => dstX c k) ha ha,
    Ring.bigSep_rangeSet_head (Φ := fun k => dutyTok ER (s1Cell c k) 0 false) ha ha,
    Ring.bigSep_rangeSet_head (Φ := fun k => dutyTok ER (r1Cell (px c) k) 0 false) ha ha,
    bigSep_rangeSet_snoc (fun k => cred (tallyAt (s1Cell c k) () N16)) hda ha, hO]
  unfold dstX
  iintro ⟨#HR, ⟨⟨Hs, Hss⟩, ⟨Hd, Hds⟩, ⟨Ht1, Ht1s⟩, ⟨Ht2, Ht2s⟩, Hcr, Hat, Hdone⟩, ⟨%W, HO⟩⟩ Hk
  icases Hd with ⟨%fd, Hd⟩
  iapply (wp_p1send m ρ K c n hn ⟨a, ha⟩ hsS hsR fd (owe2 c b' + owe1 c (a + 1)) W) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iintro ⟨Hc, HO⟩
  iapply Hk
  isplitr [HO]
  · isplitl [Hss]; · iexact Hss
    isplitl [Hds]; · iexact Hds
    isplitl [Ht1s]; · iexact Ht1s
    isplitl [Ht2s]; · iexact Ht2s
    isplitl [Hc Hcr]
    · isplitl [Hc]; · iexact Hc
      iexact Hcr
    isplitl [Hat]; · iexact Hat
    iexact Hdone
  iexists W; iexact HO

end State

end Cert.KernelIdeal.AG

end
-- ==== Proof.KernelIdeal.AgPartsP.lean ====
/-
  The sixteen transfers across x, printed part by printed part: each part sends the chunks it holds; the counter a
  of chunks sent moves as stated.
-/
import proofs.«900089_g7700000000000090_dist_ag_v7x_xy2x2_x_m512_n512_f32_1_alg».proof.Proof.KernelIdeal.AgStepP1
import proofs.«900089_g7700000000000090_dist_ag_v7x_xy2x2_x_m512_n512_f32_1_alg».proof.Proof.Gen.KernelIdeal.Skeleton

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Parts

variable (K : Dev nD × CIx → ℕ) (c : Dev nD)

set_option hygiene false in
/-- One transfer across x: the transition of chunk a, its side goal handed the records and the state, and the new
    state taken back under the same names. -/
local macro "p1_send " a:num " with " e:term : tactic =>
  `(tactic| (
    iapply (p1_step m ρ K c $a 0 0 (by decide) (by decide) _ (devX_of c _ ($e c)) (sem_s1 _ _) (sem_r1 _ _)) $$ [HS1 HOW]
    · isplitr; · iexact HR
      isplitl [HS1]; · iexact HS1
      iexact HOW
    iintro ⟨HS1, HOW⟩))

set_option hygiene false in
/-- The part's last statement returns: the state goes back to the caller. -/
local macro "p1_done" : tactic =>
  `(tactic| (
    rw [wp_ret]; imodintro
    isplitl [HS1]; · iexact HS1
    iexact HOW))

/-- Chunks 0 and 1. -/
theorem part2_spec (v5 v6 v21 : BitVec 32) :
    iprop(records m ρ K ∗ S1 m ρ c 0 0 ∗ OW c 0 0)
      ⊢ wp frame (wpE (defs₀ (F := F)) 𝒱₀ (c : Thread nD τ) none) Set.univ
          (k0_part2 (F := F) xM (Memref.isWhole_whole _) oM (Memref.isWhole_whole _) cc0_scratch0 cc0_scratch1 cc0_scratch2 cc0_scratch3 cc0_scratch4 c v5 v6 v21)
          (fun _ => iprop(S1 m ρ c 2 0 ∗ OW c 2 0)) := by
  rw [k0_part2_eq_skeleton]; unfold k0_part2_skel
  simp only [Prog.lift, Prog.bind_op, Prog.bind_ret, Prog.pure_eq_ret]
  iintro ⟨#HR, HS1, HOW⟩
  p1_send 0 with k0_dev3_eq
  p1_send 1 with k0_dev4_eq
  p1_done

/-- Chunks 2, 3 and 4. -/
theorem part3_spec (v5 v6 v21 : BitVec 32) :
    iprop(records m ρ K ∗ S1 m ρ c 2 0 ∗ OW c 2 0)
      ⊢ wp frame (wpE (defs₀ (F := F)) 𝒱₀ (c : Thread nD τ) none) Set.univ
          (k0_part3 (F := F) xM (Memref.isWhole_whole _) oM (Memref.isWhole_whole _) cc0_scratch0 cc0_scratch1 cc0_scratch2 cc0_scratch3 cc0_scratch4 c v5 v6 v21)
          (fun _ => iprop(S1 m ρ c 5 0 ∗ OW c 5 0)) := by
  rw [k0_part3_eq_skeleton]; unfold k0_part3_skel
  simp only [Prog.lift, Prog.bind_op, Prog.bind_ret, Prog.pure_eq_ret]
  iintro ⟨#HR, HS1, HOW⟩
  p1_send 2 with k0_dev5_eq
  p1_send 3 with k0_dev6_eq
  p1_send 4 with k0_dev7_eq
  p1_done

/-- Chunks 5 and 6. -/
theorem part4_spec (v5 v6 v21 : BitVec 32) :
    iprop(records m ρ K ∗ S1 m ρ c 5 0 ∗ OW c 5 0)
      ⊢ wp frame (wpE (defs₀ (F := F)) 𝒱₀ (c : Thread nD τ) none) Set.univ
          (k0_part4 (F := F) xM (Memref.isWhole_whole _) oM (Memref.isWhole_whole _) cc0_scratch0 cc0_scratch1 cc0_scratch2 cc0_scratch3 cc0_scratch4 c v5 v6 v21)
          (fun _ => iprop(S1 m ρ c 7 0 ∗ OW c 7 0)) := by
  rw [k0_part4_eq_skeleton]; unfold k0_part4_skel
  simp only [Prog.lift, Prog.bind_op, Prog.bind_ret, Prog.pure_eq_ret]
  iintro ⟨#HR, HS1, HOW⟩
  p1_send 5 with k0_dev8_eq
  p1_send 6 with k0_dev9_eq
  p1_done

/-- Chunks 7, 8 and 9. -/
theorem part5_spec (v5 v6 v21 : BitVec 32) :
    iprop(records m ρ K ∗ S1 m ρ c 7 0 ∗ OW c 7 0)
      ⊢ wp frame (wpE (defs₀ (F := F)) 𝒱₀ (c : Thread nD τ) none) Set.univ
          (k0_part5 (F := F) xM (Memref.isWhole_whole _) oM (Memref.isWhole_whole _) cc0_scratch0 cc0_scratch1 cc0_scratch2 cc0_scratch3 cc0_scratch4 c v5 v6 v21)
          (fun _ => iprop(S1 m ρ c 10 0 ∗ OW c 10 0)) := by
  rw [k0_part5_eq_skeleton]; unfold k0_part5_skel
  simp only [Prog.lift, Prog.bind_op, Prog.bind_ret, Prog.pure_eq_ret]
  iintro ⟨#HR, HS1, HOW⟩
  p1_send 7 with k0_dev10_eq
  p1_send 8 with k0_dev11_eq
  p1_send 9 with k0_dev12_eq
  p1_done

/-- Chunks 10 and 11. -/
theorem part6_spec (v5 v6 v21 : BitVec 32) :
    iprop(records m ρ K ∗ S1 m ρ c 10 0 ∗ OW c 10 0)
      ⊢ wp frame (wpE (defs₀ (F := F)) 𝒱₀ (c : Thread nD τ) none) Set.univ
          (k0_part6 (F := F) xM (Memref.isWhole_whole _) oM (Memref.isWhole_whole _) cc0_scratch0 cc0_scratch1 cc0_scratch2 cc0_scratch3 cc0_scratch4 c v5 v6 v21)
          (fun _ => iprop(S1 m ρ c 12 0 ∗ OW c 12 0)) := by
  rw [k0_part6_eq_skeleton]; unfold k0_part6_skel
  simp only [Prog.lift, Prog.bind_op, Prog.bind_ret, Prog.pure_eq_ret]
  iintro ⟨#HR, HS1, HOW⟩
  p1_send 10 with k0_dev13_eq
  p1_send 11 with k0_dev14_eq
  p1_done

/-- Chunks 12, 13 and 14. -/
theorem part7_spec (v5 v6 v21 : BitVec 32) :
    iprop(records m ρ K ∗ S1 m ρ c 12 0 ∗ OW c 12 0)
      ⊢ wp frame (wpE (defs₀ (F := F)) 𝒱₀ (c : Thread nD τ) none) Set.univ
          (k0_part7 (F := F) xM (Memref.isWhole_whole _) oM (Memref.isWhole_whole _) cc0_scratch0 cc0_scratch1 cc0_scratch2 cc0_scratch3 cc0_scratch4 c v5 v6 v21)
          (fun _ => iprop(S1 m ρ c 15 0 ∗ OW c 15 0)) := by
  rw [k0_part7_eq_skeleton]; unfold k0_part7_skel
  simp only [Prog.lift, Prog.bind_op, Prog.bind_ret, Prog.pure_eq_ret]
  iintro ⟨#HR, HS1, HOW⟩
  p1_send 12 with k0_dev15_eq
  p1_send 13 with k0_dev16_eq
  p1_send 14 with k0_dev17_eq
  p1_done

end Parts

end Cert.KernelIdeal.AG

end
-- ==== Proof.KernelIdeal.AgStepP2.lean ====
/-
  The transition of a forward across y.
-/
import proofs.«900089_g7700000000000090_dist_ag_v7x_xy2x2_x_m512_n512_f32_1_alg».proof.Proof.KernelIdeal.AgSteps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- Chunk b' forwarded across y, its rows landed (b' < b). -/
theorem p2_step (a b b' e : ℕ) (hb' : b' < b) (hb : b ≤ 16) (he : e ≤ b') (n : Dev nD) (hn : n = py c)
    {sS sR : DmaSem sig} (hsS : sS = s2S ⟨b', by omega⟩) (hsR : sR = r2S ⟨b', by omega⟩)
    {hsc : (p2Buf c ⟨b', by omega⟩ : Memref sig (Dev.tc n : Thread nD τ).2.kind .vmem S16x512 .f32).view.ref.isScScratch = false}
    {hsrc : (p2Buf c ⟨b', by omega⟩).view.WordExact} {hdst : (p2Buf c ⟨b', by omega⟩).view.WordExact}
    {hsem : DmaTarget.Typed .vmem (.dma sR) (.remote (Dev.tc n : Thread nD τ) (p2Buf c ⟨b', by omega⟩) (.dma sS) hsc)}
    {kk : PUnit → Prog (TpuEff nD τ sig (Elt F) Λ₀ .tc) α} :
    iprop(records m ρ K ∗ R1 m ρ c b b' ∗ S2 m ρ c b' e ∗ OW c a b')
      ⊢ iprop((iprop(R1 m ρ c b (b' + 1) ∗ S2 m ρ c (b' + 1) e ∗ OW c a (b' + 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (p2Buf c ⟨b', by omega⟩) (.remote (Dev.tc n : Thread nD τ) (p2Buf c ⟨b', by omega⟩) (.dma sS) hsc) (.dma sR) hsrc hdst hsem) kk) Q) := by
  have hlt : b' < 16 := by omega
  unfold R1 S2 OW dstY
  rw [Ring.bigSep_rangeSet_head (lo := b') (hi := b) hb' hlt,
    Ring.bigSep_rangeSet_head (lo := b') (hi := 16) hlt hlt,
    Ring.bigSep_rangeSet_head (lo := b') (hi := 16) hlt hlt,
    Ring.bigSep_rangeSet_head (lo := b') (hi := 16) hlt hlt,
    bigSep_rangeSet_snoc _ he hlt,
    owe2_succ c b' hlt,
    add_right_comm (owe2 c (b' + 1)) (tallyAt (r2Cell (py c) ⟨b', hlt⟩) () N16) (owe1 c a)]
  iintro ⟨#HR, ⟨HA, HB, Hsrc, HC⟩, ⟨⟨Hd, HD1⟩, ⟨Ht1, HD2⟩, ⟨Ht2, HD3⟩, HD4, HD5, HD6⟩, HO⟩ Hk
  icases Hd with ⟨%fd, Hd⟩
  icases HO with ⟨%W, HO⟩
  iapply (wp_p2send m ρ K c n hn ⟨b', hlt⟩ hsS hsR fd (owe2 c (b' + 1) + owe1 c a) W) $$ [Hsrc Hd HO Ht1 Ht2]
  · isplitr; · iexact HR
    isplitl [Hsrc]; · iexact Hsrc
    isplitl [Hd]; · iexact Hd
    isplitl [HO]; · iexact HO
    isplitl [Ht1]; · iexact Ht1
    iexact Ht2
  iintro ⟨Hc, HO⟩
  iapply Hk
  isplitl [HA HB HC]
  · isplitl [HA]; · iexact HA
    isplitl [HB]; · iexact HB
    iexact HC
  isplitr [HO]
  · isplitl [HD1]; · iexact HD1
    isplitl [HD2]; · iexact HD2
    isplitl [HD3]; · iexact HD3
    isplitl [Hc HD4]
    · isplitl [Hc]; · iexact Hc
      iexact HD4
    isplitl [HD5]; · iexact HD5
    iexact HD6
  iexists W; iexact HO

end State

/-- info: 'Cert.KernelIdeal.AG.p2_step' depends on axioms: [propext, Classical.choice, Quot.sound] -/
#guard_msgs in #print axioms p2_step

end Cert.KernelIdeal.AG

end
-- ==== Proof.KernelIdeal.AgStepW.lean ====
/-
  The transitions of the four kinds of wait.
-/
import proofs.«900089_g7700000000000090_dist_ag_v7x_xy2x2_x_m512_n512_f32_1_alg».proof.Proof.KernelIdeal.AgSteps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- What a unit on a departure cell across x hands back, and on an arrival cell across x: the schedule's payload at
    those two arrays, by name. -/
private theorem dPay_s1 (k : Fin 16) : dPay (F := F) m ρ c 0 k = s1Pay m ρ c k := rfl
private theorem dPay_r1 (k : Fin 16) : dPay (F := F) m ρ c 1 k = r1Pay m ρ c k := rfl

/-- The wait for arrival b across x (everything across x sent: nothing owed at its level or below). -/
theorem r1w_step (b b' : ℕ) (hb : b < 16) (hbb : b' ≤ b) {sm : DmaSem sig} (hsm : sm = r1S ⟨b, hb⟩)
    {sp' : Space} {s' : Shape} {e' : EltTy} {src : Memref sig .tc sp' s' e'} {κ' : Idealize.ShloMosaic.Kind}
    {dst : Memref sig κ' .vmem S16x512 .f32} (hd : dst.view.dmaCredit = N16) {hsrc : src.view.WordExact} {hdst : dst.view.WordExact}
    {kk : PUnit → Prog (TpuEff nD τ sig (Elt F) Λ₀ .tc) α} :
    iprop(records m ρ K ∗ levAts L lv ∗ R1 m ρ c b b' ∗ OW c 16 b')
      ⊢ iprop((iprop(R1 m ρ c (b + 1) b' ∗ OW c 16 b') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  unfold R1 OW
  rw [Ring.bigSep_rangeSet_head hb hb, bigSep_rangeSet_snoc _ (Nat.zero_le b) hb, bigSep_rangeSet_snoc _ hbb hb]
  iintro ⟨#HR, #Hlev, ⟨⟨⟨Hc, Hat⟩, Hrest⟩, Hdone, Hpay⟩, ⟨%W, HO⟩⟩ Hk
  ihave #Hmw := (mayWait_gen (F := F) c (.dma (dsem 1 ⟨b, hb⟩)) 16 b' (fun h => absurd h (by decide))
    (fun _ => lt_of_eq_of_lt (lv_r1 c ⟨b, hb⟩) (by decide))) $$ Hlev
  iapply (wp_dwait m ρ K c 1 ⟨b, hb⟩ hsm hd (O := owe2 c b' + owe1 c 16) (W := W)) $$ [Hc HO Hat]
  · isplitr; · iexact HR
    isplitl [Hc]; · iexact Hc
    isplitl [HO]; · iexact HO
    isplitr; · iexact Hmw
    iexact Hat
  iintro ⟨HO, Hat, Hp⟩
  iapply Hk
  isplitr [HO]
  · isplitl [Hrest]; · iexact Hrest
    isplitl [Hat Hdone]
    · isplitl [Hat]; · iexact Hat
      iexact Hdone
    isplitl [Hp]
    · ihave Hp' := (Entails.of_eq (dPay_r1 m ρ c ⟨b, hb⟩)) $$ Hp
      iexact Hp'
    iexact Hpay
  · iexists _; iexact HO

/-- The closing wait on departure d across x (d < a: it was sent). -/
theorem s1w_step (a d b' : ℕ) (hd : d < a) (ha : a ≤ 16) {sm : DmaSem sig} (hsm : sm = s1S ⟨d, by omega⟩)
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α} :
    iprop(records m ρ K ∗ levAts L lv ∗ S1 m ρ c a d ∗ OW c a b')
      ⊢ iprop((iprop(S1 m ρ c a (d + 1) ∗ OW c a b') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  have hd16 : d < 16 := by omega
  unfold S1 OW
  rw [Ring.bigSep_rangeSet_head hd hd16, Ring.bigSep_rangeSet_head (lo := d) (hi := 16) hd16 hd16,
    bigSep_rangeSet_snoc _ (Nat.zero_le d) hd16]
  iintro ⟨#HR, #Hlev, ⟨Hsrc, Hdst, Ht1, Ht2, ⟨Hc, Hcs⟩, ⟨Hat, Hats⟩, Hdone⟩, ⟨%W, HO⟩⟩ Hk
  ihave #Hmw := (mayWait_gen (F := F) c (.dma (dsem 0 ⟨d, hd16⟩)) a b' (fun _ => lt_of_eq_of_lt (lv_s1 c ⟨d, hd16⟩) (by decide))
    (fun _ => lt_of_eq_of_lt (lv_s1 c ⟨d, hd16⟩) (by decide))) $$ Hlev
  iapply (wp_dwait m ρ K c 0 ⟨d, hd16⟩ hsm hdc (O := owe2 c b' + owe1 c a) (W := W)) $$ [Hc HO Hat]
  · isplitr; · iexact HR
    isplitl [Hc]; · iexact Hc
    isplitl [HO]; · iexact HO
    isplitr; · iexact Hmw
    iexact Hat
  iintro ⟨HO, Hat, Hp⟩
  iapply Hk
  isplitr [HO]
  · isplitl [Hsrc]; · iexact Hsrc
    isplitl [Hdst]; · iexact Hdst
    isplitl [Ht1]; · iexact Ht1
    isplitl [Ht2]; · iexact Ht2
    isplitl [Hcs]; · iexact Hcs
    isplitl [Hats]; · iexact Hats
    isplitl [Hat Hp]
    · isplitl [Hat]; · iexact Hat
      ihave Hp' := (Entails.of_eq (dPay_s1 m ρ c ⟨d, hd16⟩)) $$ Hp
      iexact Hp'
    iexact Hdone
  · iexists _; iexact HO

end State

end Cert.KernelIdeal.AG

end
-- ==== Proof.KernelIdeal.AgPartsF.lean ====
/-
  The forwards across y, printed part by printed part: the last transfer across x, then per chunk the wait for its
  arrival across x and its forward; the counters b (arrivals waited for) and b' (chunks forwarded) move as stated.
-/
import proofs.«900089_g7700000000000090_dist_ag_v7x_xy2x2_x_m512_n512_f32_1_alg».proof.Proof.KernelIdeal.AgStepP1
import proofs.«900089_g7700000000000090_dist_ag_v7x_xy2x2_x_m512_n512_f32_1_alg».proof.Proof.KernelIdeal.AgStepP2
import proofs.«900089_g7700000000000090_dist_ag_v7x_xy2x2_x_m512_n512_f32_1_alg».proof.Proof.KernelIdeal.AgStepW
import proofs.«900089_g7700000000000090_dist_ag_v7x_xy2x2_x_m512_n512_f32_1_alg».proof.Proof.Gen.KernelIdeal.Skeleton

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Parts

variable (K : Dev nD × CIx → ℕ) (c : Dev nD)

set_option hygiene false in
/-- A part's start: the part as its skeleton's chain of operations, and the state's pieces named. -/
local macro "enter " eq:ident skel:ident : tactic => `(tactic| (
  rw [$eq:ident]
  unfold $skel:ident
  simp only [Prog.lift, Prog.bind_op, Prog.bind_ret, Prog.pure_eq_ret]
  iintro ⟨#HR, #Hlev, HR1, HS2, HOW⟩))

set_option hygiene false in
/-- The wait for arrival b across x, b' chunks forwarded so far: from R1 b b' to R1 (b + 1) b'. -/
local macro "arrive " b:term:max b':term:max : tactic => `(tactic| (
  iapply (r1w_step m ρ K c $b $b' (by decide) (by decide) (sem_r1 _ _) (by rfl)) $$ [HR1 HOW]
  · isplitr; · iexact HR
    isplitr; · iexact Hlev
    isplitl [HR1] <;> iassumption
  iintro ⟨HR1, HOW⟩))

set_option hygiene false in
/-- The forward of chunk b' across y with b arrivals waited for (the addressed device is the y-peer by dv): from
    R1 b b', S2 b' 0, OW 16 b' to the same at b' + 1. -/
local macro "forward " b:term:max b':term:max dv:term:max : tactic => `(tactic| (
  iapply (p2_step m ρ K c 16 $b $b' 0 (by decide) (by decide) (by decide) _ (devY_of c _ ($dv c)) (sem_s2 _ _) (sem_r2 _ _)) $$ [HR1 HS2 HOW]
  · isplitr; · iexact HR
    isplitl [HR1]; · iexact HR1
    isplitl [HS2] <;> iassumption
  iintro ⟨HR1, HS2, HOW⟩))

set_option hygiene false in
/-- The part's end: the state handed back. -/
local macro "finish3" : tactic => `(tactic| (
  rw [wp_ret]
  imodintro
  isplitl [HR1]; · iexact HR1
  isplitl [HS2] <;> iassumption))

/-- Chunk 15 across x; arrival 0; forward 0. -/
theorem part8_spec (v2 v5 v6 v7 v24 : BitVec 32) :
    iprop(records m ρ K ∗ levAts L lv ∗ S1 m ρ c 15 0 ∗ R1 m ρ c 0 0 ∗ S2 m ρ c 0 0 ∗ OW c 15 0)
      ⊢ wp frame (wpE (defs₀ (F := F)) 𝒱₀ (c : Thread nD τ) none) Set.univ
          (k0_part8 (F := F) xM (Memref.isWhole_whole _) oM (Memref.isWhole_whole _) cc0_scratch0 cc0_scratch1 cc0_scratch2 cc0_scratch3 cc0_scratch4 c v2 v5 v6 v7 v24)
          (fun _ => iprop(S1 m ρ c 16 0 ∗ R1 m ρ c 1 1 ∗ S2 m ρ c 1 0 ∗ OW c 16 1)) := by
  rw [k0_part8_eq_skeleton]
  unfold k0_part8_skel
  simp only [Prog.lift, Prog.bind_op, Prog.bind_ret, Prog.pure_eq_ret]
  iintro ⟨#HR, #Hlev, HS1, HR1, HS2, HOW⟩
  iapply (p1_step m ρ K c 15 0 0 (by decide) (by decide) _ (devX_of c _ (k0_dev18_eq c)) (sem_s1 _ _) (sem_r1 _ _)) $$ [HS1 HOW]
  · isplitr; · iexact HR
    isplitl [HS1] <;> iassumption
  iintro ⟨HS1, HOW⟩
  arrive 0 0
  forward 1 0 k0_dev19_eq
  rw [wp_ret]
  imodintro
  isplitl [HS1]; · iexact HS1
  isplitl [HR1]; · iexact HR1
  isplitl [HS2] <;> iassumption

/-- Arrival 1; forward 1; arrival 2. -/
theorem part9_spec (v2 v5 v6 v7 v24 v253 v254 : BitVec 32) :
    iprop(records m ρ K ∗ levAts L lv ∗ R1 m ρ c 1 1 ∗ S2 m ρ c 1 0 ∗ OW c 16 1)
      ⊢ wp frame (wpE (defs₀ (F := F)) 𝒱₀ (c : Thread nD τ) none) Set.univ
          (k0_part9 (F := F) xM (Memref.isWhole_whole _) oM (Memref.isWhole_whole _) cc0_scratch0 cc0_scratch1 cc0_scratch2 cc0_scratch3 cc0_scratch4 c v2 v5 v6 v7 v24 v253 v254)
          (fun _ => iprop(R1 m ρ c 3 2 ∗ S2 m ρ c 2 0 ∗ OW c 16 2)) := by
  enter k0_part9_eq_skeleton k0_part9_skel
  arrive 1 1
  forward 2 1 k0_dev20_eq
  arrive 2 2
  finish3

/-- Forward 2; arrival 3; forward 3; arrival 4. -/
theorem part10_spec (v2 v5 v6 v7 v24 : BitVec 32) :
    iprop(records m ρ K ∗ levAts L lv ∗ R1 m ρ c 3 2 ∗ S2 m ρ c 2 0 ∗ OW c 16 2)
      ⊢ wp frame (wpE (defs₀ (F := F)) 𝒱₀ (c : Thread nD τ) none) Set.univ
          (k0_part10 (F := F) xM (Memref.isWhole_whole _) oM (Memref.isWhole_whole _) cc0_scratch0 cc0_scratch1 cc0_scratch2 cc0_scratch3 cc0_scratch4 c v2 v5 v6 v7 v24)
          (fun _ => iprop(R1 m ρ c 5 4 ∗ S2 m ρ c 4 0 ∗ OW c 16 4)) := by
  enter k0_part10_eq_skeleton k0_part10_skel
  forward 3 2 k0_dev21_eq
  arrive 3 3
  forward 4 3 k0_dev22_eq
  arrive 4 4
  finish3

/-- Forward 4; arrival 5; forward 5. -/
theorem part11_spec (v2 v5 v6 v7 v24 : BitVec 32) :
    iprop(records m ρ K ∗ levAts L lv ∗ R1 m ρ c 5 4 ∗ S2 m ρ c 4 0 ∗ OW c 16 4)
      ⊢ wp frame (wpE (defs₀ (F := F)) 𝒱₀ (c : Thread nD τ) none) Set.univ
          (k0_part11 (F := F) xM (Memref.isWhole_whole _) oM (Memref.isWhole_whole _) cc0_scratch0 cc0_scratch1 cc0_scratch2 cc0_scratch3 cc0_scratch4 c v2 v5 v6 v7 v24)
          (fun _ => iprop(R1 m ρ c 6 6 ∗ S2 m ρ c 6 0 ∗ OW c 16 6)) := by
  enter k0_part11_eq_skeleton k0_part11_skel
  forward 5 4 k0_dev23_eq
  arrive 5 5
  forward 6 5 k0_dev24_eq
  finish3

/-- Arrival 6; forward 6; arrival 7. -/
theorem part12_spec (v2 v5 v6 v7 v24 v348 v349 : BitVec 32) :
    iprop(records m ρ K ∗ levAts L lv ∗ R1 m ρ c 6 6 ∗ S2 m ρ c 6 0 ∗ OW c 16 6)
      ⊢ wp frame (wpE (defs₀ (F := F)) 𝒱₀ (c : Thread nD τ) none) Set.univ
          (k0_part12 (F := F) xM (Memref.isWhole_whole _) oM (Memref.isWhole_whole _) cc0_scratch0 cc0_scratch1 cc0_scratch2 cc0_scratch3 cc0_scratch4 c v2 v5 v6 v7 v24 v348 v349)
          (fun _ => iprop(R1 m ρ c 8 7 ∗ S2 m ρ c 7 0 ∗ OW c 16 7)) := by
  enter k0_part12_eq_skeleton k0_part12_skel
  arrive 6 6
  forward 7 6 k0_dev25_eq
  arrive 7 7
  finish3

/-- Forward 7; arrival 8; forward 8; arrival 9. -/
theorem part13_spec (v2 v5 v6 v7 v24 : BitVec 32) :
    iprop(records m ρ K ∗ levAts L lv ∗ R1 m ρ c 8 7 ∗ S2 m ρ c 7 0 ∗ OW c 16 7)
      ⊢ wp frame (wpE (defs₀ (F := F)) 𝒱₀ (c : Thread nD τ) none) Set.univ
          (k0_part13 (F := F) xM (Memref.isWhole_whole _) oM (Memref.isWhole_whole _) cc0_scratch0 cc0_scratch1 cc0_scratch2 cc0_scratch3 cc0_scratch4 c v2 v5 v6 v7 v24)
          (fun _ => iprop(R1 m ρ c 10 9 ∗ S2 m ρ c 9 0 ∗ OW c 16 9)) := by
  enter k0_part13_eq_skeleton k0_part13_skel
  forward 8 7 k0_dev26_eq
  arrive 8 8
  forward 9 8 k0_dev27_eq
  arrive 9 9
  finish3

/-- Forward 9; arrival 10; forward 10. -/
theorem part14_spec (v2 v5 v6 v7 v24 : BitVec 32) :
    iprop(records m ρ K ∗ levAts L lv ∗ R1 m ρ c 10 9 ∗ S2 m ρ c 9 0 ∗ OW c 16 9)
      ⊢ wp frame (wpE (defs₀ (F := F)) 𝒱₀ (c : Thread nD τ) none) Set.univ
          (k0_part14 (F := F) xM (Memref.isWhole_whole _) oM (Memref.isWhole_whole _) cc0_scratch0 cc0_scratch1 cc0_scratch2 cc0_scratch3 cc0_scratch4 c v2 v5 v6 v7 v24)
          (fun _ => iprop(R1 m ρ c 11 11 ∗ S2 m ρ c 11 0 ∗ OW c 16 11)) := by
  enter k0_part14_eq_skeleton k0_part14_skel
  forward 10 9 k0_dev28_eq
  arrive 10 10
  forward 11 10 k0_dev29_eq
  finish3

/-- Arrival 11; forward 11; arrival 12. -/
theorem part15_spec (v2 v5 v6 v7 v24 v443 v444 : BitVec 32) :
    iprop(records m ρ K ∗ levAts L lv ∗ R1 m ρ c 11 11 ∗ S2 m ρ c 11 0 ∗ OW c 16 11)
      ⊢ wp frame (wpE (defs₀ (F := F)) 𝒱₀ (c : Thread nD τ) none) Set.univ
          (k0_part15 (F := F) xM (Memref.isWhole_whole _) oM (Memref.isWhole_whole _) cc0_scratch0 cc0_scratch1 cc0_scratch2 cc0_scratch3 cc0_scratch4 c v2 v5 v6 v7 v24 v443 v444)
          (fun _ => iprop(R1 m ρ c 13 12 ∗ S2 m ρ c 12 0 ∗ OW c 16 12)) := by
  enter k0_part15_eq_skeleton k0_part15_skel
  arrive 11 11
  forward 12 11 k0_dev30_eq
  arrive 12 12
  finish3

/-- Forward 12; arrival 13; forward 13; arrival 14. -/
theorem part16_spec (v2 v5 v6 v7 v24 : BitVec 32) :
    iprop(records m ρ K ∗ levAts L lv ∗ R1 m ρ c 13 12 ∗ S2 m ρ c 12 0 ∗ OW c 16 12)
      ⊢ wp frame (wpE (defs₀ (F := F)) 𝒱₀ (c : Thread nD τ) none) Set.univ
          (k0_part16 (F := F) xM (Memref.isWhole_whole _) oM (Memref.isWhole_whole _) cc0_scratch0 cc0_scratch1 cc0_scratch2 cc0_scratch3 cc0_scratch4 c v2 v5 v6 v7 v24)
          (fun _ => iprop(R1 m ρ c 15 14 ∗ S2 m ρ c 14 0 ∗ OW c 16 14)) := by
  enter k0_part16_eq_skeleton k0_part16_skel
  forward 13 12 k0_dev31_eq
  arrive 13 13
  forward 14 13 k0_dev32_eq
  arrive 14 14
  finish3

/-- Forward 14; arrival 15; forward 15. -/
theorem part17_spec (v2 v5 v6 v7 v24 : BitVec 32) :
    iprop(records m ρ K ∗ levAts L lv ∗ R1 m ρ c 15 14 ∗ S2 m ρ c 14 0 ∗ OW c 16 14)
      ⊢ wp frame (wpE (defs₀ (F := F)) 𝒱₀ (c : Thread nD τ) none) Set.univ
          (k0_part17 (F := F) xM (Memref.isWhole_whole _) oM (Memref.isWhole_whole _) cc0_scratch0 cc0_scratch1 cc0_scratch2 cc0_scratch3 cc0_scratch4 c v2 v5 v6 v7 v24)
          (fun _ => iprop(R1 m ρ c 16 16 ∗ S2 m ρ c 16 0 ∗ OW c 16 16)) := by
  enter k0_part17_eq_skeleton k0_part17_skel
  forward 15 14 k0_dev33_eq
  arrive 15 15
  forward 16 15 k0_dev34_eq
  finish3

/-- info: 'Cert.KernelIdeal.AG.part8_spec' depends on axioms: [propext, Classical.choice, Quot.sound] -/
#guard_msgs in #print axioms part8_spec

/-- info: 'Cert.KernelIdeal.AG.part10_spec' depends on axioms: [propext, Classical.choice, Quot.sound] -/
#guard_msgs in #print axioms part10_spec

/-- info: 'Cert.KernelIdeal.AG.part17_spec' depends on axioms: [propext, Classical.choice, Quot.sound] -/
#guard_msgs in #print axioms part17_spec

end Parts

end Cert.KernelIdeal.AG

end
-- ==== Proof.KernelIdeal.AgStepW2.lean ====
/-
  The transitions of the closing waits across y.
-/
import proofs.«900089_g7700000000000090_dist_ag_v7x_xy2x2_x_m512_n512_f32_1_alg».proof.Proof.KernelIdeal.AgSteps

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section State

variable (K : Dev nD × CIx → ℕ) (c : Dev nD)

variable {α : Type} {Q : α → sProp (MT nD τ sig Unit (Elt F) ℕ UU ℕ)}

/-- The closing wait on departure e across y (e < b': it was forwarded). -/
theorem s2w_step (a b' e : ℕ) (he : e < b') (hb' : b' ≤ 16) {sm : DmaSem sig} (hsm : sm = s2S ⟨e, by omega⟩)
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α} :
    iprop(records m ρ K ∗ levAts L lv ∗ S2 m ρ c b' e ∗ OW c a b')
      ⊢ iprop((iprop(S2 m ρ c b' (e + 1) ∗ OW c a b') -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  have he16 : e < 16 := by omega
  -- what a unit on a departure cell across y hands back is the rows forwarded
  have hp : dPay m ρ c 2 ⟨e, he16⟩ = r1Pay m ρ c ⟨e, he16⟩ := rfl
  unfold S2 OW
  -- the head of the credit run and of the position run is chunk e; the advanced position goes on top of the done run
  rw [Ring.bigSep_rangeSet_head (Φ := fun k : Fin 16 => (cred (tallyAt (s2Cell c k) () N16) : sProp 𝕄)) he he16,
    Ring.bigSep_rangeSet_head (Φ := fun k : Fin 16 => (atPos ER (s2Cell c k) 0 ∅ 0 : sProp 𝕄)) he16 he16,
    bigSep_rangeSet_snoc (fun k : Fin 16 => (iprop(atPos ER (s2Cell c k) 1 ∅ 0 ∗ r1Pay m ρ c k) : sProp 𝕄)) (Nat.zero_le e) he16]
  iintro ⟨#HR, #Hlev, ⟨Hy, Ht1, Ht2, ⟨Hc, Hcs⟩, ⟨Hat, Hats⟩, Hdone⟩, ⟨%W, HO⟩⟩ Hk
  iapply (wp_dwait m ρ K c 2 ⟨e, he16⟩ hsm hdc (O := owe2 c b' + owe1 c a) (W := W)) $$ [Hc HO Hat]
  · isplitr; · iexact HR
    isplitl [Hc]; · iexact Hc
    isplitl [HO]; · iexact HO
    isplitr
    · iapply (mayWait_gen c (.dma (dsem 2 ⟨e, he16⟩)) a b'
        (fun _ => (lv_s2 c ⟨e, he16⟩).trans_lt (by decide)) (fun _ => (lv_s2 c ⟨e, he16⟩).trans_lt (by decide)))
      iexact Hlev
    iexact Hat
  iintro ⟨HO, Hat', Hpay⟩
  ihave Hp := (Entails.of_eq hp) $$ Hpay
  iapply Hk
  isplitr [HO]
  · isplitl [Hy]; · iexact Hy
    isplitl [Ht1]; · iexact Ht1
    isplitl [Ht2]; · iexact Ht2
    isplitl [Hcs]; · iexact Hcs
    isplitl [Hats]; · iexact Hats
    isplitr [Hdone]
    · isplitl [Hat']; · iexact Hat'
      iexact Hp
    iexact Hdone
  · iexists (insert (SemLoc.dma (dsem 2 ⟨e, he16⟩), ()) W)
    iexact HO

/-- The closing wait on arrival f across y (everything sent and forwarded: nothing owed). -/
theorem r2w_step (f : ℕ) (hf : f < 16) {sm : DmaSem sig} (hsm : sm = r2S ⟨f, hf⟩)
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α} :
    iprop(records m ρ K ∗ levAts L lv ∗ R2 m ρ c f ∗ OW c 16 16)
      ⊢ iprop((iprop(R2 m ρ c (f + 1) ∗ OW c 16 16) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  -- what a unit on an arrival cell across y hands over is the rows landed
  have hp : dPay m ρ c 3 ⟨f, hf⟩ = r2Pay m ρ c ⟨f, hf⟩ := rfl
  unfold R2 OW
  -- the head of the pending run is chunk f; the advanced position with its rows goes on top of the done run
  rw [Ring.bigSep_rangeSet_head
      (Φ := fun k : Fin 16 => (iprop(cred (tallyAt (r2Cell c k) () N16) ∗ atPos ER (r2Cell c k) 0 ∅ 0) : sProp 𝕄)) hf hf,
    bigSep_rangeSet_snoc (fun k : Fin 16 => (iprop(atPos ER (r2Cell c k) 1 ∅ 0 ∗ r2Pay m ρ c k) : sProp 𝕄)) (Nat.zero_le f) hf]
  iintro ⟨#HR, #Hlev, ⟨⟨⟨Hc, Hat⟩, Hpend⟩, Hdone⟩, ⟨%W, HO⟩⟩ Hk
  iapply (wp_dwait m ρ K c 3 ⟨f, hf⟩ hsm hdc (O := owe2 c 16 + owe1 c 16) (W := W)) $$ [Hc HO Hat]
  · isplitr; · iexact HR
    isplitl [Hc]; · iexact Hc
    isplitl [HO]; · iexact HO
    isplitr
    · iapply (mayWait_gen c (.dma (dsem 3 ⟨f, hf⟩)) 16 16
        (fun h => absurd h (lt_irrefl 16)) (fun h => absurd h (lt_irrefl 16)))
      iexact Hlev
    iexact Hat
  iintro ⟨HO, Hat', Hpay⟩
  ihave Hp := (Entails.of_eq hp) $$ Hpay
  iapply Hk
  isplitr [HO]
  · isplitl [Hpend]; · iexact Hpend
    isplitr [Hdone]
    · isplitl [Hat']; · iexact Hat'
      iexact Hp
    iexact Hdone
  · iexists (insert (SemLoc.dma (dsem 3 ⟨f, hf⟩), ()) W)
    iexact HO

end State

/-- info: 'Cert.KernelIdeal.AG.s2w_step' depends on axioms: [propext, Classical.choice, Quot.sound] -/
#guard_msgs in #print axioms s2w_step

/-- info: 'Cert.KernelIdeal.AG.r2w_step' depends on axioms: [propext, Classical.choice, Quot.sound] -/
#guard_msgs in #print axioms r2w_step

end Cert.KernelIdeal.AG

end
-- ==== Proof.KernelIdeal.AgPartsW.lean ====
/-
  The closing waits, printed part by printed part: per chunk the departure across x read out, the departure across y
  read out, the arrival across y landed. Each part moves the three closing counters (d, e, f) as stated.
-/
import proofs.«900089_g7700000000000090_dist_ag_v7x_xy2x2_x_m512_n512_f32_1_alg».proof.Proof.KernelIdeal.AgStepW
import proofs.«900089_g7700000000000090_dist_ag_v7x_xy2x2_x_m512_n512_f32_1_alg».proof.Proof.KernelIdeal.AgStepW2
import proofs.«900089_g7700000000000090_dist_ag_v7x_xy2x2_x_m512_n512_f32_1_alg».proof.Proof.Gen.KernelIdeal.Skeleton

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Parts

variable (K : Dev nD × CIx → ℕ) (c : Dev nD)

variable {α : Type} {Q : α → sProp (MT nD τ sig Unit (Elt F) ℕ UU ℕ)}

/-! ## One closing wait, over the whole state of the closing stretch

  During the closing waits everything has been sent and forwarded (a = b' = 16: nothing is owed), and the state is the
  three closing counters: d departures across x read out, e departures across y read out, f arrivals across y landed.
  Each lemma turns "the rest of the program from the state after the wait" into "the wait and the rest from the state
  before it", the semaphore spelt as the program spells it (slot d of its array, squeezed), so that the counter and the
  slot are read off the program and a printed part is the chain of its waits in program order. -/

/-- The wait on departure d across x moves d. -/
private theorem s1w_at {d e f : ℕ} (hd : d < 16) {h : ∀ a, (![d] : Fin 1 → Nat) a + Cert.KernelIdeal.S1.size a ≤ S16.size a}
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α}
    (hk : iprop(records m ρ K ∗ levAts L lv ∗ S1 m ρ c 16 (d + 1) ∗ S2 m ρ c 16 e ∗ R2 m ρ c f ∗ OW c 16 16)
      ⊢ wp frame (wpE (defs₀ (F := F)) 𝒱₀ (c : Thread nD τ) none) Set.univ (kk ⟨⟩) Q) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ
          (.op (.waitDma2 ((SemArray.slice cc0_scratch0 (Rect.unit (s := S16) ![d] Cert.KernelIdeal.S1.size h)).squeeze S_ squeezes_S1_S_).sem
            src dst hsrc hdst) kk) Q := by
  iintro ⟨#HR, #Hlev, HS1, HS2, HR2, HOW⟩
  iapply (s1w_step m ρ K c 16 d 16 hd (le_refl 16) (sem_s1 ⟨d, hd⟩ h) hdc) $$ [HS1 HOW]
  · isplitr; · iexact HR
    isplitr; · iexact Hlev
    isplitl [HS1] <;> iassumption
  iintro ⟨HS1, HOW⟩
  iapply hk
  isplitr; · iexact HR
  isplitr; · iexact Hlev
  isplitl [HS1]; · iexact HS1
  isplitl [HS2]; · iexact HS2
  isplitl [HR2]; · iexact HR2
  iexact HOW

/-- The wait on departure e across y moves e. -/
private theorem s2w_at {d e f : ℕ} (he : e < 16) {h : ∀ a, (![e] : Fin 1 → Nat) a + Cert.KernelIdeal.S1.size a ≤ S16.size a}
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α}
    (hk : iprop(records m ρ K ∗ levAts L lv ∗ S1 m ρ c 16 d ∗ S2 m ρ c 16 (e + 1) ∗ R2 m ρ c f ∗ OW c 16 16)
      ⊢ wp frame (wpE (defs₀ (F := F)) 𝒱₀ (c : Thread nD τ) none) Set.univ (kk ⟨⟩) Q) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ
          (.op (.waitDma2 ((SemArray.slice cc0_scratch2 (Rect.unit (s := S16) ![e] Cert.KernelIdeal.S1.size h)).squeeze S_ squeezes_S1_S_).sem
            src dst hsrc hdst) kk) Q := by
  iintro ⟨#HR, #Hlev, HS1, HS2, HR2, HOW⟩
  iapply (s2w_step m ρ K c 16 16 e he (le_refl 16) (sem_s2 ⟨e, he⟩ h) hdc) $$ [HS2 HOW]
  · isplitr; · iexact HR
    isplitr; · iexact Hlev
    isplitl [HS2] <;> iassumption
  iintro ⟨HS2, HOW⟩
  iapply hk
  isplitr; · iexact HR
  isplitr; · iexact Hlev
  isplitl [HS1]; · iexact HS1
  isplitl [HS2]; · iexact HS2
  isplitl [HR2]; · iexact HR2
  iexact HOW

/-- The wait on arrival f across y moves f. -/
private theorem r2w_at {d e f : ℕ} (hf : f < 16) {h : ∀ a, (![f] : Fin 1 → Nat) a + Cert.KernelIdeal.S1.size a ≤ S16.size a}
    {sp' : Space} {s' : Shape} {e' : EltTy} {src : Memref sig .tc sp' s' e'} {κ' : Idealize.ShloMosaic.Kind}
    {dst : Memref sig κ' .vmem S16x512 .f32} (hdc : dst.view.dmaCredit = N16) {hsrc : src.view.WordExact} {hdst : dst.view.WordExact}
    {kk : PUnit → Prog (TpuEff nD τ sig (Elt F) Λ₀ .tc) α}
    (hk : iprop(records m ρ K ∗ levAts L lv ∗ S1 m ρ c 16 d ∗ S2 m ρ c 16 e ∗ R2 m ρ c (f + 1) ∗ OW c 16 16)
      ⊢ wp frame (wpE (defs₀ (F := F)) 𝒱₀ (c : Thread nD τ) none) Set.univ (kk ⟨⟩) Q) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ
          (.op (.waitDma2 ((SemArray.slice cc0_scratch3 (Rect.unit (s := S16) ![f] Cert.KernelIdeal.S1.size h)).squeeze S_ squeezes_S1_S_).sem
            src dst hsrc hdst) kk) Q := by
  iintro ⟨#HR, #Hlev, HS1, HS2, HR2, HOW⟩
  iapply (r2w_step m ρ K c f hf (sem_r2 ⟨f, hf⟩ h) hdc) $$ [HR2 HOW]
  · isplitr; · iexact HR
    isplitr; · iexact Hlev
    isplitl [HR2] <;> iassumption
  iintro ⟨HR2, HOW⟩
  iapply hk
  isplitr; · iexact HR
  isplitr; · iexact Hlev
  isplitl [HS1]; · iexact HS1
  isplitl [HS2]; · iexact HS2
  isplitl [HR2]; · iexact HR2
  iexact HOW

/-- The end of a part: the state is handed on as it stands. -/
private theorem closing_done (d e f : ℕ) :
    iprop(records m ρ K ∗ levAts L lv ∗ S1 m ρ c 16 d ∗ S2 m ρ c 16 e ∗ R2 m ρ c f ∗ OW c 16 16)
      ⊢ wp frame (wpE (defs₀ (F := F)) 𝒱₀ (c : Thread nD τ) none) Set.univ (.ret ⟨⟩)
          (fun _ : PUnit => iprop(S1 m ρ c 16 d ∗ S2 m ρ c 16 e ∗ R2 m ρ c f ∗ OW c 16 16)) := by
  rw [wp_ret]
  iintro ⟨-, -, H⟩
  imodintro
  iexact H

/-! One wait of each kind as a step of a part's proof: the lemma of its array, the counters and the slot found by
    unification with the program's text; the opening of a part's skeleton, and its end. -/
set_option hygiene false in
local macro "w_s1" : tactic => `(tactic| refine s1w_at m ρ K c (by decide) (by rfl) ?_)
set_option hygiene false in
local macro "w_s2" : tactic => `(tactic| refine s2w_at m ρ K c (by decide) (by rfl) ?_)
set_option hygiene false in
local macro "w_r2" : tactic => `(tactic| refine r2w_at m ρ K c (by decide) (by rfl) ?_)
local macro "w_open" : tactic => `(tactic| simp only [Prog.lift, Prog.bind_op, Prog.bind_ret, Prog.pure_eq_ret])
set_option hygiene false in
local macro "w_done" : tactic => `(tactic| exact closing_done m ρ K c _ _ _)

/-! ## The parts -/

theorem part18_spec (v2 v7 : BitVec 32) :
    iprop(records m ρ K ∗ levAts L lv ∗ S1 m ρ c 16 0 ∗ S2 m ρ c 16 0 ∗ R2 m ρ c 0 ∗ OW c 16 16)
      ⊢ wp frame (wpE (defs₀ (F := F)) 𝒱₀ (c : Thread nD τ) none) Set.univ
          (k0_part18 (F := F) xM (Memref.isWhole_whole _) oM (Memref.isWhole_whole _) cc0_scratch0 cc0_scratch1 cc0_scratch2 cc0_scratch3 cc0_scratch4 c v2 v7)
          (fun _ => iprop(S1 m ρ c 16 2 ∗ S2 m ρ c 16 2 ∗ R2 m ρ c 1 ∗ OW c 16 16)) := by
  rw [k0_part18_eq_skeleton]; unfold k0_part18_skel; w_open
  w_s1; w_s2; w_r2; w_s1; w_s2
  w_done

theorem part19_spec (v2 v7 : BitVec 32) :
    iprop(records m ρ K ∗ levAts L lv ∗ S1 m ρ c 16 2 ∗ S2 m ρ c 16 2 ∗ R2 m ρ c 1 ∗ OW c 16 16)
      ⊢ wp frame (wpE (defs₀ (F := F)) 𝒱₀ (c : Thread nD τ) none) Set.univ
          (k0_part19 (F := F) xM (Memref.isWhole_whole _) oM (Memref.isWhole_whole _) cc0_scratch0 cc0_scratch1 cc0_scratch2 cc0_scratch3 cc0_scratch4 c v2 v7)
          (fun _ => iprop(S1 m ρ c 16 4 ∗ S2 m ρ c 16 4 ∗ R2 m ρ c 3 ∗ OW c 16 16)) := by
  rw [k0_part19_eq_skeleton]; unfold k0_part19_skel; w_open
  w_r2; w_s1; w_s2; w_r2; w_s1; w_s2
  w_done

theorem part20_spec (v2 v7 : BitVec 32) :
    iprop(records m ρ K ∗ levAts L lv ∗ S1 m ρ c 16 4 ∗ S2 m ρ c 16 4 ∗ R2 m ρ c 3 ∗ OW c 16 16)
      ⊢ wp frame (wpE (defs₀ (F := F)) 𝒱₀ (c : Thread nD τ) none) Set.univ
          (k0_part20 (F := F) xM (Memref.isWhole_whole _) oM (Memref.isWhole_whole _) cc0_scratch0 cc0_scratch1 cc0_scratch2 cc0_scratch3 cc0_scratch4 c v2 v7)
          (fun _ => iprop(S1 m ρ c 16 5 ∗ S2 m ρ c 16 5 ∗ R2 m ρ c 5 ∗ OW c 16 16)) := by
  rw [k0_part20_eq_skeleton]; unfold k0_part20_skel; w_open
  w_r2; w_s1; w_s2; w_r2
  w_done

theorem part21_spec (v2 v7 : BitVec 32) :
    iprop(records m ρ K ∗ levAts L lv ∗ S1 m ρ c 16 5 ∗ S2 m ρ c 16 5 ∗ R2 m ρ c 5 ∗ OW c 16 16)
      ⊢ wp frame (wpE (defs₀ (F := F)) 𝒱₀ (c : Thread nD τ) none) Set.univ
          (k0_part21 (F := F) xM (Memref.isWhole_whole _) oM (Memref.isWhole_whole _) cc0_scratch0 cc0_scratch1 cc0_scratch2 cc0_scratch3 cc0_scratch4 c v2 v7)
          (fun _ => iprop(S1 m ρ c 16 7 ∗ S2 m ρ c 16 7 ∗ R2 m ρ c 6 ∗ OW c 16 16)) := by
  rw [k0_part21_eq_skeleton]; unfold k0_part21_skel; w_open
  w_s1; w_s2; w_r2; w_s1; w_s2
  w_done

theorem part22_spec (v2 v7 : BitVec 32) :
    iprop(records m ρ K ∗ levAts L lv ∗ S1 m ρ c 16 7 ∗ S2 m ρ c 16 7 ∗ R2 m ρ c 6 ∗ OW c 16 16)
      ⊢ wp frame (wpE (defs₀ (F := F)) 𝒱₀ (c : Thread nD τ) none) Set.univ
          (k0_part22 (F := F) xM (Memref.isWhole_whole _) oM (Memref.isWhole_whole _) cc0_scratch0 cc0_scratch1 cc0_scratch2 cc0_scratch3 cc0_scratch4 c v2 v7)
          (fun _ => iprop(S1 m ρ c 16 9 ∗ S2 m ρ c 16 9 ∗ R2 m ρ c 8 ∗ OW c 16 16)) := by
  rw [k0_part22_eq_skeleton]; unfold k0_part22_skel; w_open
  w_r2; w_s1; w_s2; w_r2; w_s1; w_s2
  w_done

theorem part23_spec (v2 v7 : BitVec 32) :
    iprop(records m ρ K ∗ levAts L lv ∗ S1 m ρ c 16 9 ∗ S2 m ρ c 16 9 ∗ R2 m ρ c 8 ∗ OW c 16 16)
      ⊢ wp frame (wpE (defs₀ (F := F)) 𝒱₀ (c : Thread nD τ) none) Set.univ
          (k0_part23 (F := F) xM (Memref.isWhole_whole _) oM (Memref.isWhole_whole _) cc0_scratch0 cc0_scratch1 cc0_scratch2 cc0_scratch3 cc0_scratch4 c v2 v7)
          (fun _ => iprop(S1 m ρ c 16 10 ∗ S2 m ρ c 16 10 ∗ R2 m ρ c 10 ∗ OW c 16 16)) := by
  rw [k0_part23_eq_skeleton]; unfold k0_part23_skel; w_open
  w_r2; w_s1; w_s2; w_r2
  w_done

theorem part24_spec (v2 v7 : BitVec 32) :
    iprop(records m ρ K ∗ levAts L lv ∗ S1 m ρ c 16 10 ∗ S2 m ρ c 16 10 ∗ R2 m ρ c 10 ∗ OW c 16 16)
      ⊢ wp frame (wpE (defs₀ (F := F)) 𝒱₀ (c : Thread nD τ) none) Set.univ
          (k0_part24 (F := F) xM (Memref.isWhole_whole _) oM (Memref.isWhole_whole _) cc0_scratch0 cc0_scratch1 cc0_scratch2 cc0_scratch3 cc0_scratch4 c v2 v7)
          (fun _ => iprop(S1 m ρ c 16 12 ∗ S2 m ρ c 16 12 ∗ R2 m ρ c 11 ∗ OW c 16 16)) := by
  rw [k0_part24_eq_skeleton]; unfold k0_part24_skel; w_open
  w_s1; w_s2; w_r2; w_s1; w_s2
  w_done

theorem part25_spec (v2 v7 : BitVec 32) :
    iprop(records m ρ K ∗ levAts L lv ∗ S1 m ρ c 16 12 ∗ S2 m ρ c 16 12 ∗ R2 m ρ c 11 ∗ OW c 16 16)
      ⊢ wp frame (wpE (defs₀ (F := F)) 𝒱₀ (c : Thread nD τ) none) Set.univ
          (k0_part25 (F := F) xM (Memref.isWhole_whole _) oM (Memref.isWhole_whole _) cc0_scratch0 cc0_scratch1 cc0_scratch2 cc0_scratch3 cc0_scratch4 c v2 v7)
          (fun _ => iprop(S1 m ρ c 16 14 ∗ S2 m ρ c 16 14 ∗ R2 m ρ c 13 ∗ OW c 16 16)) := by
  rw [k0_part25_eq_skeleton]; unfold k0_part25_skel; w_open
  w_r2; w_s1; w_s2; w_r2; w_s1; w_s2
  w_done

theorem part26_spec (v2 v7 : BitVec 32) :
    iprop(records m ρ K ∗ levAts L lv ∗ S1 m ρ c 16 14 ∗ S2 m ρ c 16 14 ∗ R2 m ρ c 13 ∗ OW c 16 16)
      ⊢ wp frame (wpE (defs₀ (F := F)) 𝒱₀ (c : Thread nD τ) none) Set.univ
          (k0_part26 (F := F) xM (Memref.isWhole_whole _) oM (Memref.isWhole_whole _) cc0_scratch0 cc0_scratch1 cc0_scratch2 cc0_scratch3 cc0_scratch4 c v2 v7)
          (fun _ => iprop(S1 m ρ c 16 15 ∗ S2 m ρ c 16 15 ∗ R2 m ρ c 15 ∗ OW c 16 16)) := by
  rw [k0_part26_eq_skeleton]; unfold k0_part26_skel; w_open
  w_r2; w_s1; w_s2; w_r2
  w_done

end Parts

end Cert.KernelIdeal.AG

end
-- ==== Proof.KernelIdeal.AgOblig.lean ====
/-
  The pipeline's body obligation at the one grid point, from the body's specification: what the pipeline hands the
  body (the invariant before the point, what the device owes, the two staging buffers) is what the specification
  starts from, and what it ends with is what the pipeline takes back.
-/
import proofs.«900089_g7700000000000090_dist_ag_v7x_xy2x2_x_m512_n512_f32_1_alg».proof.Proof.KernelIdeal.AgSteps
import proofs.«900089_g7700000000000090_dist_ag_v7x_xy2x2_x_m512_n512_f32_1_alg».proof.Proof.Gen.KernelIdeal.Skeleton
import proofs.«900089_g7700000000000090_dist_ag_v7x_xy2x2_x_m512_n512_f32_1_alg».proof.Proof.Gen.KernelIdeal.Points

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body's specification on device c: from the launch's ghost state, what it owes, its staged operand block and its
    result staging buffer at any contents, the body runs to the end with its own cells closed, nothing owed, the
    operand block as it was and the result buffer at the gathered contents. -/
def BodySpec : Prop := ∀ (K : Dev nD × CIx → ℕ) (c : Dev nD),
  iprop(records m ρ K ∗ levAts L lv ∗ poss c ∗ payToks c ∗ creds0 c ∗ (∃ W, owes (c : Thread nD τ) (O₀ c) W)
      ∗ (((c : Thread nD τ).loc cc0_stg0_0) ↦{fullShare} Xc m ρ c) ∗ (∃ f, ((c : Thread nD τ).loc cc0_stg1_0) ↦{fullShare} f))
    ⊢ wp frame (wpE (defs₀ (F := F)) 𝒱₀ (c : Thread nD τ) none) Set.univ
        (cc0_body (F := F) xM (Memref.isWhole_whole _) oM (Memref.isWhole_whole _) cc0_scratch0 cc0_scratch1 cc0_scratch2 cc0_scratch3 cc0_scratch4)
        (fun _ => iprop(Φ₁ c ∗ (∃ W, owes (c : Thread nD τ) 0 W) ∗ (((c : Thread nD τ).loc cc0_stg0_0) ↦{fullShare} Xc m ρ c)
          ∗ (((c : Thread nD τ).loc cc0_stg1_0) ↦{fullShare} Gout m ρ c)))

/-- Owning a whole buffer at contents X: the buffer at some contents that are X. -/
private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

private abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body at the one point, and what it takes back. -/
private def oblPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
private def oblPost (c : Dev nD) : sProp 𝕄 :=
  iprop(Φ₁ c ∗ (dats m ρ 0 c).owesAt () t0_0.succ ∗ stg c cc0_stg0_0 (Xc m ρ c) ∗ stg c cc0_stg1_0 (Gout m ρ c))

/-- The library's body obligation on device c. -/
theorem body_obligation_of (h : BodySpec m ρ) (c : Dev nD) :
    BodyObligation (dats (F := F) m ρ 0 c) (defs₀ (F := F)) 𝒱₀ () Set.univ := fun t => by
  rw [Gen.fin_N0 t]
  rw [Gen.bigSep_W0, Gen.bigSep_W0]
  simp only [owns_whole_eq]
  show oblPre m ρ c ⊢ wp frame (wpE (defs₀ (F := F)) 𝒱₀ (c : Thread nD τ) none) Set.univ
      (cc0_body (F := F) xM (Memref.isWhole_whole _) oM (Memref.isWhole_whole _) cc0_scratch0 cc0_scratch1 cc0_scratch2 cc0_scratch3 cc0_scratch4)
      (fun _ => oblPost m ρ c)
  have hpost : ∀ a : PUnit, iprop(Φ₁ c ∗ (∃ W, owes (c : Thread nD τ) 0 W) ∗ (((c : Thread nD τ).loc cc0_stg0_0) ↦{fullShare} Xc m ρ c)
          ∗ (((c : Thread nD τ).loc cc0_stg1_0) ↦{fullShare} Gout m ρ c)) ⊢ oblPost m ρ c := fun _ => by
    unfold oblPost Dat.owesAt Pipeline.owesWithin
    rw [show (dats m ρ 0 c).owed t0_0.succ = 0 from rfl]
    iintro ⟨HΦ, ⟨%W, HO⟩, Hx, Hout⟩
    isplitl [HΦ]; · iexact HΦ
    isplitl [HO]
    · iexists W
      isplitr; · ipureintro; exact fun _ _ => Or.inl trivial
      iexact HO
    isplitl [Hx]
    · iexists _; isplitr; · (ipureintro; rfl)
      iexact Hx
    iexists _; isplitr; · (ipureintro; rfl)
    iexact Hout
  unfold oblPre Φ₀ start ghost Dat.owesAt Pipeline.owesWithin
  rw [show (dats m ρ 0 c).owed t0_0.castSucc = O₀ c from rfl]
  iintro ⟨⟨⟨%K, HR, Hposs, Htoks⟩, Hcreds, Hlev⟩, ⟨%W, %hW, HO⟩, ⟨%d0, %g0, %hg0, Hx⟩, ⟨%d1, %g1, %hg1, Hout⟩⟩
  have hx : g0 = Xc m ρ c := by rw [hg0]; unfold Dat.before; rw [if_pos (Gen.fetch0_0 _)]; rfl
  subst hx
  iapply ((h K c).trans (wp_mono _ _ _ hpost))
  isplitl [HR]; · iexact HR
  isplitl [Hlev]; · iexact Hlev
  isplitl [Hposs]; · iexact Hposs
  isplitl [Htoks]; · iexact Htoks
  isplitl [Hcreds]; · iexact Hcreds
  isplitl [HO]; · iexists W; iexact HO
  isplitl [Hx]; · iexact Hx
  iexists g1; iexact Hout

/-- info: 'Cert.KernelIdeal.AG.body_obligation_of' depends on axioms: [propext, Classical.choice, Quot.sound] -/
#guard_msgs in #print axioms body_obligation_of

end Cert.KernelIdeal.AG

end
-- ==== Proof.KernelIdeal.AgSpec.lean ====
/-
  The body's specification on one device: the printed parts run one after the other, each moving the thread's
  counters; then the last chunk's closing waits and the local copy's; the buffers whole again and the own cells closed.
-/
import proofs.«900089_g7700000000000090_dist_ag_v7x_xy2x2_x_m512_n512_f32_1_alg».proof.Proof.KernelIdeal.AgHead
import proofs.«900089_g7700000000000090_dist_ag_v7x_xy2x2_x_m512_n512_f32_1_alg».proof.Proof.KernelIdeal.AgPartsP
import proofs.«900089_g7700000000000090_dist_ag_v7x_xy2x2_x_m512_n512_f32_1_alg».proof.Proof.KernelIdeal.AgPartsF
import proofs.«900089_g7700000000000090_dist_ag_v7x_xy2x2_x_m512_n512_f32_1_alg».proof.Proof.KernelIdeal.AgPartsW
import proofs.«900089_g7700000000000090_dist_ag_v7x_xy2x2_x_m512_n512_f32_1_alg».proof.Proof.KernelIdeal.AgOblig

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Ring (rangeSet)

section Spec

variable (K : Dev nD × CIx → ℕ) (c : Dev nD)

/-- Two programs in sequence: the first to an intermediate assertion, the second from it. -/
theorem wp_seq {β α : Type} {p : Prog (TpuEff nD τ sig (Elt F) Λ₀ .tc) β} {k : β → Prog (TpuEff nD τ sig (Elt F) Λ₀ .tc) α}
    {Q : α → sProp 𝕄} (R : β → sProp 𝕄) :
    iprop(wp frame (wpE (defs₀ (F := F)) 𝒱₀ (c : Thread nD τ) none) Set.univ p R
        ∗ (∀ b, R b -∗ wp frame (wpE (defs₀ (F := F)) 𝒱₀ (c : Thread nD τ) none) Set.univ (k b) Q))
      ⊢ wp frame (wpE (defs₀ (F := F)) 𝒱₀ (c : Thread nD τ) none) Set.univ (p >>= k) Q := by
  rw [wp_bind]; exact wp_wand_r _ _ _

theorem rangeSet_end : rangeSet 16 16 16 = ∅ := Ring.rangeSet_empty (Nat.le_refl 16)

set_option maxHeartbeats 3200000 in
set_option maxRecDepth 65536 in
theorem body_spec : BodySpec (F := F) m ρ := by
  intro K c
  rw [cc0_body_eq_skeleton]; unfold cc0_body_skel
  simp only [Prog.lift, Prog.bind_op, Prog.bind_ret, Prog.pure_eq_ret]
  iintro ⟨#HR, #Hlev, Hpos, Htok, Hcr, HO, Hx, Hout⟩
  -- part 1: the local copy and the entry barrier
  iapply (wp_seq c (fun r => iprop(⌜r.1 = c⌝ ∗ S1 m ρ c 0 0 ∗ R1 m ρ c 0 0 ∗ S2 m ρ c 0 0 ∗ R2 m ρ c 0 ∗ OW c 0 0 ∗ LocSt m ρ c)))
  isplitl [Hpos Htok Hcr HO Hx Hout]
  · iapply (head_spec m ρ K c)
    isplitr; · iexact HR
    isplitr; · iexact Hlev
    isplitl [Hpos]; · iexact Hpos
    isplitl [Htok]; · iexact Htok
    isplitl [Hcr]; · iexact Hcr
    isplitl [HO]; · iexact HO
    isplitl [Hx]; · iexact Hx
    iexact Hout
  iintro %r ⟨%hr, HS1, HR1, HS2, HR2, HOW, HL⟩
  obtain ⟨d0, v2, v5, v6, v7, v21, v24⟩ := r
  have hd0 : d0 = c := hr
  subst hd0
  dsimp only
  -- parts 2 to 7: the transfers across x
  iapply (wp_seq d0 (fun _ => iprop(S1 m ρ d0 2 0 ∗ OW d0 2 0)))
  isplitl [HS1 HOW]
  · iapply (part2_spec m ρ K d0 v5 v6 v21); isplitr; · iexact HR
    isplitl [HS1] <;> iassumption
  iintro %_ ⟨HS1, HOW⟩
  iapply (wp_seq d0 (fun _ => iprop(S1 m ρ d0 5 0 ∗ OW d0 5 0)))
  isplitl [HS1 HOW]
  · iapply (part3_spec m ρ K d0 v5 v6 v21); isplitr; · iexact HR
    isplitl [HS1] <;> iassumption
  iintro %_ ⟨HS1, HOW⟩
  iapply (wp_seq d0 (fun _ => iprop(S1 m ρ d0 7 0 ∗ OW d0 7 0)))
  isplitl [HS1 HOW]
  · iapply (part4_spec m ρ K d0 v5 v6 v21); isplitr; · iexact HR
    isplitl [HS1] <;> iassumption
  iintro %_ ⟨HS1, HOW⟩
  iapply (wp_seq d0 (fun _ => iprop(S1 m ρ d0 10 0 ∗ OW d0 10 0)))
  isplitl [HS1 HOW]
  · iapply (part5_spec m ρ K d0 v5 v6 v21); isplitr; · iexact HR
    isplitl [HS1] <;> iassumption
  iintro %_ ⟨HS1, HOW⟩
  iapply (wp_seq d0 (fun _ => iprop(S1 m ρ d0 12 0 ∗ OW d0 12 0)))
  isplitl [HS1 HOW]
  · iapply (part6_spec m ρ K d0 v5 v6 v21); isplitr; · iexact HR
    isplitl [HS1] <;> iassumption
  iintro %_ ⟨HS1, HOW⟩
  iapply (wp_seq d0 (fun _ => iprop(S1 m ρ d0 15 0 ∗ OW d0 15 0)))
  isplitl [HS1 HOW]
  · iapply (part7_spec m ρ K d0 v5 v6 v21); isplitr; · iexact HR
    isplitl [HS1] <;> iassumption
  iintro %_ ⟨HS1, HOW⟩
  -- part 8: the last transfer across x, the first arrival and forward
  iapply (wp_seq d0 (fun _ => iprop(S1 m ρ d0 16 0 ∗ R1 m ρ d0 1 1 ∗ S2 m ρ d0 1 0 ∗ OW d0 16 1)))
  isplitl [HS1 HR1 HS2 HOW]
  · iapply (part8_spec m ρ K d0 v2 v5 v6 v7 v24); isplitr; · iexact HR
    isplitr; · iexact Hlev
    isplitl [HS1]; · iexact HS1
    isplitl [HR1]; · iexact HR1
    isplitl [HS2] <;> iassumption
  iintro %r8 ⟨HS1, HR1, HS2, HOW⟩
  obtain ⟨v253, v254⟩ := r8
  dsimp only
  iapply (wp_seq d0 (fun _ => iprop(R1 m ρ d0 3 2 ∗ S2 m ρ d0 2 0 ∗ OW d0 16 2)))
  isplitl [HR1 HS2 HOW]
  · iapply (part9_spec m ρ K d0 v2 v5 v6 v7 v24 v253 v254); isplitr; · iexact HR
    isplitr; · iexact Hlev
    isplitl [HR1]; · iexact HR1
    isplitl [HS2] <;> iassumption
  iintro %_ ⟨HR1, HS2, HOW⟩
  iapply (wp_seq d0 (fun _ => iprop(R1 m ρ d0 5 4 ∗ S2 m ρ d0 4 0 ∗ OW d0 16 4)))
  isplitl [HR1 HS2 HOW]
  · iapply (part10_spec m ρ K d0 v2 v5 v6 v7 v24); isplitr; · iexact HR
    isplitr; · iexact Hlev
    isplitl [HR1]; · iexact HR1
    isplitl [HS2] <;> iassumption
  iintro %_ ⟨HR1, HS2, HOW⟩
  iapply (wp_seq d0 (fun _ => iprop(R1 m ρ d0 6 6 ∗ S2 m ρ d0 6 0 ∗ OW d0 16 6)))
  isplitl [HR1 HS2 HOW]
  · iapply (part11_spec m ρ K d0 v2 v5 v6 v7 v24); isplitr; · iexact HR
    isplitr; · iexact Hlev
    isplitl [HR1]; · iexact HR1
    isplitl [HS2] <;> iassumption
  iintro %r11 ⟨HR1, HS2, HOW⟩
  obtain ⟨v348, v349⟩ := r11
  dsimp only
  iapply (wp_seq d0 (fun _ => iprop(R1 m ρ d0 8 7 ∗ S2 m ρ d0 7 0 ∗ OW d0 16 7)))
  isplitl [HR1 HS2 HOW]
  · iapply (part12_spec m ρ K d0 v2 v5 v6 v7 v24 v348 v349); isplitr; · iexact HR
    isplitr; · iexact Hlev
    isplitl [HR1]; · iexact HR1
    isplitl [HS2] <;> iassumption
  iintro %_ ⟨HR1, HS2, HOW⟩
  iapply (wp_seq d0 (fun _ => iprop(R1 m ρ d0 10 9 ∗ S2 m ρ d0 9 0 ∗ OW d0 16 9)))
  isplitl [HR1 HS2 HOW]
  · iapply (part13_spec m ρ K d0 v2 v5 v6 v7 v24); isplitr; · iexact HR
    isplitr; · iexact Hlev
    isplitl [HR1]; · iexact HR1
    isplitl [HS2] <;> iassumption
  iintro %_ ⟨HR1, HS2, HOW⟩
  iapply (wp_seq d0 (fun _ => iprop(R1 m ρ d0 11 11 ∗ S2 m ρ d0 11 0 ∗ OW d0 16 11)))
  isplitl [HR1 HS2 HOW]
  · iapply (part14_spec m ρ K d0 v2 v5 v6 v7 v24); isplitr; · iexact HR
    isplitr; · iexact Hlev
    isplitl [HR1]; · iexact HR1
    isplitl [HS2] <;> iassumption
  iintro %r14 ⟨HR1, HS2, HOW⟩
  obtain ⟨v443, v444⟩ := r14
  dsimp only
  iapply (wp_seq d0 (fun _ => iprop(R1 m ρ d0 13 12 ∗ S2 m ρ d0 12 0 ∗ OW d0 16 12)))
  isplitl [HR1 HS2 HOW]
  · iapply (part15_spec m ρ K d0 v2 v5 v6 v7 v24 v443 v444); isplitr; · iexact HR
    isplitr; · iexact Hlev
    isplitl [HR1]; · iexact HR1
    isplitl [HS2] <;> iassumption
  iintro %_ ⟨HR1, HS2, HOW⟩
  iapply (wp_seq d0 (fun _ => iprop(R1 m ρ d0 15 14 ∗ S2 m ρ d0 14 0 ∗ OW d0 16 14)))
  isplitl [HR1 HS2 HOW]
  · iapply (part16_spec m ρ K d0 v2 v5 v6 v7 v24); isplitr; · iexact HR
    isplitr; · iexact Hlev
    isplitl [HR1]; · iexact HR1
    isplitl [HS2] <;> iassumption
  iintro %_ ⟨HR1, HS2, HOW⟩
  iapply (wp_seq d0 (fun _ => iprop(R1 m ρ d0 16 16 ∗ S2 m ρ d0 16 0 ∗ OW d0 16 16)))
  isplitl [HR1 HS2 HOW]
  · iapply (part17_spec m ρ K d0 v2 v5 v6 v7 v24); isplitr; · iexact HR
    isplitr; · iexact Hlev
    isplitl [HR1]; · iexact HR1
    isplitl [HS2] <;> iassumption
  iintro %_ ⟨HR1, HS2, HOW⟩
  -- parts 18 to 26: the closing waits of chunks 0 to 14
  iapply (wp_seq d0 (fun _ => iprop(S1 m ρ d0 16 2 ∗ S2 m ρ d0 16 2 ∗ R2 m ρ d0 1 ∗ OW d0 16 16)))
  isplitl [HS1 HS2 HR2 HOW]
  · iapply (part18_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 4 ∗ S2 m ρ d0 16 4 ∗ R2 m ρ d0 3 ∗ OW d0 16 16)))
  isplitl [HS1 HS2 HR2 HOW]
  · iapply (part19_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 5 ∗ S2 m ρ d0 16 5 ∗ R2 m ρ d0 5 ∗ OW d0 16 16)))
  isplitl [HS1 HS2 HR2 HOW]
  · iapply (part20_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 7 ∗ S2 m ρ d0 16 7 ∗ R2 m ρ d0 6 ∗ OW d0 16 16)))
  isplitl [HS1 HS2 HR2 HOW]
  · iapply (part21_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 9 ∗ S2 m ρ d0 16 9 ∗ R2 m ρ d0 8 ∗ OW d0 16 16)))
  isplitl [HS1 HS2 HR2 HOW]
  · iapply (part22_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 10 ∗ S2 m ρ d0 16 10 ∗ R2 m ρ d0 10 ∗ OW d0 16 16)))
  isplitl [HS1 HS2 HR2 HOW]
  · iapply (part23_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 12 ∗ S2 m ρ d0 16 12 ∗ R2 m ρ d0 11 ∗ OW d0 16 16)))
  isplitl [HS1 HS2 HR2 HOW]
  · iapply (part24_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 14 ∗ S2 m ρ d0 16 14 ∗ R2 m ρ d0 13 ∗ OW d0 16 16)))
  isplitl [HS1 HS2 HR2 HOW]
  · iapply (part25_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  iapply (wp_seq d0 (fun _ => iprop(S1 m ρ d0 16 15 ∗ S2 m ρ d0 16 15 ∗ R2 m ρ d0 15 ∗ OW d0 16 16)))
  isplitl [HS1 HS2 HR2 HOW]
  · iapply (part26_spec m ρ K d0 v2 v7); isplitr; · iexact HR
    isplitr; · iexact Hlev
    isplitl [HS1]; · iexact HS1
    isplitl [HS2]; · iexact HS2
    isplitl [HR2] <;> iassumption
  iintro %_ ⟨HS1, HS2, HR2, HOW⟩
  -- chunk 15's closing waits
  iapply (s1w_step m ρ K d0 16 15 16 (by decide) (by decide) (sem_s1 _ _) (by rfl)) $$ [HS1 HOW]
  · isplitr; · iexact HR
    isplitr; · iexact Hlev
    isplitl [HS1] <;> iassumption
  iintro ⟨HS1, HOW⟩
  iapply (s2w_step m ρ K d0 16 16 15 (by decide) (by decide) (sem_s2 _ _) (by rfl)) $$ [HS2 HOW]
  · isplitr; · iexact HR
    isplitr; · iexact Hlev
    isplitl [HS2] <;> iassumption
  iintro ⟨HS2, HOW⟩
  iapply (r2w_step m ρ K d0 15 (by decide) (sem_r2 _ _) (by rfl)) $$ [HR2 HOW]
  · isplitr; · iexact HR
    isplitr; · iexact Hlev
    isplitl [HR2] <;> iassumption
  iintro ⟨HR2, HOW⟩
  -- the local copy's closing wait, nothing owed any more
  unfold OW LocSt
  rw [owe1_end, owe2_end, add_zero]
  icases HOW with ⟨%W, HO⟩
  icases HL with ⟨HcL, HaL, HxRest⟩
  iapply (wp_locwait m ρ K d0 sem_loc (by rfl)) $$ [HcL HO HaL]
  · isplitr; · iexact HR
    isplitl [HcL]; · iexact HcL
    isplitl [HO]; · iexact HO
    iexact HaL
  iintro ⟨HO, HaL, Hloc⟩
  rw [wp_ret]
  -- the buffers whole again, the own cells closed
  unfold locPay
  icases Hloc with ⟨HoA, HxL⟩
  unfold S1 R1 S2 R2
  simp only [rangeSet_end, bigSep_empty, bigSep_sep']
  icases HS1 with ⟨-, -, -, -, -, -, Hp0, Hs1⟩
  icases HR1 with ⟨-, Hp1, -⟩
  icases HS2 with ⟨-, -, -, -, -, Hp2, Hb⟩
  icases HR2 with ⟨-, Hp3, Hcc⟩
  ihave HxW := (x_join m ρ d0) $$ [HxL Hs1 HxRest]
  · isplitl [HxL]; · rw [← x_whole_eq]; iexact HxL
    isplitl [Hs1]; · iexact Hs1
    iexact HxRest
  ihave HoW := (out_join m ρ d0) $$ [HoA Hb Hcc]
  · isplitl [HoA]; · iexact HoA
    isplitl [Hb]; · iexact Hb
    iexact Hcc
  imod (close_own m ρ K d0) $$ [HaL Hp0 Hp1 Hp2 Hp3] with HΦ
  · isplitr; · iexact HR
    isplitl [HaL]; · iexact HaL
    isplitl [Hp0]; · iexact Hp0
    isplitl [Hp1]; · iexact Hp1
    isplitl [Hp2]; · iexact Hp2
    iexact Hp3
  imodintro
  isplitl [HΦ]; · iexact HΦ
  isplitl [HO]; · iexists _; iexact HO
  isplitl [HxW]; · iexact HxW
  iexact HoW

end Spec

/-- info: 'Cert.KernelIdeal.AG.body_spec' depends on axioms: [propext, Classical.choice, Quot.sound] -/
#guard_msgs in #print axioms body_spec

end Cert.KernelIdeal.AG

end
-- ==== Proof.KernelIdeal.AgLaunch.lean ====
/-
  The launch: every cell's invariant allocated for all four devices at once, the duty tokens dealt to their payers
  across the two axes, the launch credit read as one token per arrival and two barrier units; and the run of @main.
-/
import proofs.«900089_g7700000000000090_dist_ag_v7x_xy2x2_x_m512_n512_f32_1_alg».proof.Proof.KernelIdeal.AgSched
import proofs.«900089_g7700000000000090_dist_ag_v7x_xy2x2_x_m512_n512_f32_1_alg».proof.Proof.KernelIdeal.AgLevels

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts -/

/-- The kernel's own semaphores are scoped, pairwise distinct, and none is a staging semaphore. -/
theorem ownSemFacts : Pipeline.OwnSemFacts cfg0.spec osem := by decide

theorem share_eq (c : Dev nD) (w : Fin cfg0.W) : (dats m ρ 0 c).share w = fullShare := by unfold Dat.share; split <;> rfl

/-! ## Small splittings of a conjunction over a finite index -/

theorem bigSep_bool {M : Type} [URA M] (Φ : Bool → sProp M) : bigSep Finset.univ Φ = iprop(Φ false ∗ Φ true) :=
  bigSep_univ_eq_bigSepL [false, true] (by decide) (by decide) Φ
theorem bigSep_unit {M : Type} [URA M] (Φ : Unit → sProp M) : bigSep Finset.univ Φ = Φ () := bigSep_univ_of_subsingleton ()
/-- A conjunction over a sum of index types is the two summands', stated with the proof mode's separating conjunction. -/
theorem bigSep_sum' {M : Type} [URA M] {α β : Type} [Fintype α] [Fintype β] (Φ : α ⊕ β → sProp M) :
    bigSep Finset.univ Φ = iprop(bigSep Finset.univ (fun a => Φ (.inl a)) ∗ bigSep Finset.univ (fun b => Φ (.inr b))) := bigSep_univ_sum Φ
theorem bigSep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-! ## The cells and the tokens, enumerated -/

/-- Cell (j, k) is semaphore 2 + 16 j + k: distinct pairs are distinct semaphores, and none is the local copy's, 66. -/
theorem osem_injective : Function.Injective (osem : OIx → SemLoc sig) := by
  rintro (⟨⟩ | ⟨j, k⟩) (⟨⟩ | ⟨j', k'⟩) h
  · rfl
  · have h1 : locS = dsem j' k' := SemLoc.dma.inj h
    have h2 : (66 : ℕ) = 2 + 16 * j'.val + k'.val := congrArg Fin.val h1
    have := j'.isLt; have := k'.isLt; omega
  · have h1 : dsem j k = locS := SemLoc.dma.inj h
    have h2 : 2 + 16 * j.val + k.val = (66 : ℕ) := congrArg Fin.val h1
    have := j.isLt; have := k.isLt; omega
  · have h1 : dsem j k = dsem j' k' := SemLoc.dma.inj h
    have h2 : 2 + 16 * j.val + k.val = 2 + 16 * j'.val + k'.val := congrArg Fin.val h1
    have hj : j = j' := Fin.ext (by have := k.isLt; have := k'.isLt; omega)
    have hk : k = k' := Fin.ext (by have := k.isLt; have := k'.isLt; omega)
    subst hj; subst hk; rfl

theorem csem_injective : Function.Injective (csem : CIx → SemLoc sig) := by
  rintro (⟨⟩ | i) (⟨⟩ | i') h
  · rfl
  · rcases i' with ⟨⟩ | ⟨j, k⟩ <;> cases h
  · rcases i with ⟨⟩ | ⟨j, k⟩ <;> cases h
  · exact congrArg Sum.inr (osem_injective h)

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]
def ringCells : Finset (GSem nD τ sig) := Finset.univ.map ⟨kcell, kcell_injective⟩

/-- A device's own cells' duty tokens as minted: its barrier's two, then one per own cell. -/
abbrev TIx : Type := Bool ⊕ OIx
abbrev tokOf (ct : Dev nD × TIx) : GSem nD τ sig × ℕ × Bool := match ct.2 with
  | .inl b => (barCell ct.1, 0, b)
  | .inr i => (((ct.1 : Thread nD τ), osem i), 0, false)
theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    rcases t with b | i <;> rcases t' with b' | i' <;> exact this
  subst h1
  have : t = t' := by
    rcases t with b | i <;> rcases t' with b' | i'
    · have hb : b = b' := congrArg (fun x : GSem nD τ sig × ℕ × Bool => x.2.2) h
      rw [hb]
    · have h2 : (SemLoc.reg barS : SemLoc sig) = osem i' := congrArg (fun x : GSem nD τ sig × ℕ × Bool => x.1.2) h
      rcases i' with ⟨⟩ | ⟨j, k⟩ <;> cases h2
    · have h2 : osem i = (SemLoc.reg barS : SemLoc sig) := congrArg (fun x : GSem nD τ sig × ℕ × Bool => x.1.2) h
      rcases i with ⟨⟩ | ⟨j, k⟩ <;> cases h2
    · have h2 : osem i = osem i' := congrArg (fun x : GSem nD τ sig × ℕ × Bool => x.1.2) h
      rw [osem_injective h2]
  subst this; rfl
def ringToks : Finset (GSem nD τ sig × ℕ × Bool) := Finset.univ.map ⟨tokOf, tokOf_injective⟩

/-- The launch element: the pipeline's cells and tokens, and the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop((dutyTok ER (barCell c) 0 false ∗ dutyTok ER (barCell c) 0 true) ∗ dutyTok ER (locCell c) 0 false
    ∗ bigSep Finset.univ fun jk : Fin 4 × Fin 16 => dutyTok ER (dCell c jk.1 jk.2) 0 false)

/-- What the launch element deals device c. -/
def G (c : Dev nD) : sProp 𝕄 :=
  iprop((bigSep Finset.univ fun i : CIx => roundState ER (agRd m ρ) (kcell (c, i)) 0)
    ∗ (bigSep Finset.univ fun i : CIx => iprop(atPos ER (kcell (c, i)) 0 ∅ 0 ∗ reached ER (kcell (c, i)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_sum', bigSep_sum', bigSep_bool, bigSep_unit]; rfl
  iintro HX
  imod (Rounds.fund ER (agRd m ρ) ringCells ringToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the allocation of the cells' invariants -/

/-- The barrier semaphore is the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [unscopedSems0_eq, bigSep_sum', bigSep_unit]
  unfold Pipeline.ownSems0
  iintro ⟨Ho, Hb⟩
  isplitl [Hb]; · iexact Hb
  iexact Ho

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CIx => iprop(∃ κ : ℕ, cellInv ER (agRd m ρ) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (agRd m ρ) (kcell (c, i)) 0)
      ⊢ (|={Set.univ}=> bigSep Finset.univ fun i : CIx => iprop(∃ κ : ℕ, cellInv ER (agRd m ρ) κ (kcell (c, i))) : sProp 𝕄) from by
        rw [← bigSep_sep']
        exact (bigSep_mono fun i _ => (Rounds.body_intro ER (agRd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## From the devices' own cells to what each device holds -/

theorem ghost_intro (K : Dev nD × CIx → ℕ) (c : Dev nD) : iprop(records m ρ K ∗ poss c ∗ payToks c) ⊢ G' m ρ c := by
  unfold G' ghost
  iintro H
  iexists K
  iexact H

/-- A device's positions on its own cells, cell by cell. -/
theorem poss_eq (c : Dev nD) : (bigSep Finset.univ fun i : CIx => (atPos ER (kcell (c, i)) 0 ∅ 0 : sProp 𝕄)) = poss c := by
  unfold poss; rw [bigSep_sum', bigSep_sum', bigSep_unit, bigSep_unit]

/-- A device's own tokens, the sixteen of each of the four arrays apart. -/
theorem toks_eq (c : Dev nD) : (toks c : sProp 𝕄) = iprop((dutyTok ER (barCell c) 0 false ∗ dutyTok ER (barCell c) 0 true) ∗ dutyTok ER (locCell c) 0 false
      ∗ (bigSep Finset.univ fun k : Fin 16 => dutyTok ER (dCell c 0 k) 0 false) ∗ (bigSep Finset.univ fun k : Fin 16 => dutyTok ER (dCell c 1 k) 0 false)
      ∗ (bigSep Finset.univ fun k : Fin 16 => dutyTok ER (dCell c 2 k) 0 false) ∗ (bigSep Finset.univ fun k : Fin 16 => dutyTok ER (dCell c 3 k) 0 false)) := by
  unfold toks; rw [bigSep_univ_prod, bigSep_fin4] <;> rfl

/-- The tokens dealt across the mesh: a barrier's false token and the tokens of the arrivals across x go to the device
    across x, a barrier's true token and the tokens of the arrivals across y to the device across y; the rest stay. -/
theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => (bigSep Finset.univ fun k : Fin 16 => dutyTok ER (dCell c 1 k) 0 false : sProp 𝕄)),
    bigSep_univ_equiv swapY (fun c : Dev nD => (bigSep Finset.univ fun k : Fin 16 => dutyTok ER (dCell c 3 k) 0 false : sProp 𝕄))]
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CIx => iprop(∃ κ : ℕ, cellInv ER (agRd m ρ) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ck : Dev nD × CIx => iprop(∃ κ : ℕ, cellInv ER (agRd m ρ) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄)),
    bigSep_congr (s := Finset.univ) (fun (c : Dev nD) _ => poss_eq (F := F) c)]
  iintro ⟨HI, ⟨Hat, #HR⟩, Htok⟩
  ihave HK := (BI.bigSep_exists_pi Finset.univ (fun (ck : Dev nD × CIx) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (poss c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Two barrier units make the credit of the barrier's whole round. -/
theorem cred_bar2 (c : Dev nD) :
    iprop(cred (tallyAt (barCell c) () 1) ∗ cred (tallyAt (barCell c) () 1)) ⊢ (cred (tallyAt (barCell c) () 2) : sProp 𝕄) :=
  (cred_add _ _).2.trans (Entails.of_eq (congrArg cred (tallyAt_add (barCell c) () 1 1)))

/-- The arrivals across x owed at launch, read at device c: one chunk's worth on each of its sixteen cells. -/
theorem cred_r1 (c : Dev nD) :
    (bigSep Finset.univ fun k : Fin 16 => Pipeline.launchCred (fun d => tallyAt (r1Cell (px d) k) () N16) c : sProp 𝕄)
      ⊢ bigSep Finset.univ fun k : Fin 16 => cred (tallyAt (r1Cell c k) () N16) :=
  bigSep_mono fun k _ => Pipeline.launchCred_tallyAt (.dma (r1S k)) px px px_px px_px () N16 c
/-- The arrivals across y likewise. -/
theorem cred_r2 (c : Dev nD) :
    (bigSep Finset.univ fun k : Fin 16 => Pipeline.launchCred (fun d => tallyAt (r2Cell (py d) k) () N16) c : sProp 𝕄)
      ⊢ bigSep Finset.univ fun k : Fin 16 => cred (tallyAt (r2Cell c k) () N16) :=
  bigSep_mono fun k _ => Pipeline.launchCred_tallyAt (.dma (r2S k)) py py py_py py_py () N16 c

/-- What the devices owe at launch, read at device c: a unit on its barrier from each of its two peers, and one chunk's
    worth on each of its thirty-two arrival cells. -/
theorem creds (c : Dev nD) : (Pipeline.launchCred O₀ c : sProp 𝕄) ⊢ creds0 c := by
  have s0 : (Pipeline.launchCred O₀ c : sProp 𝕄)
      = iprop(Pipeline.launchCred O₁ c ∗ Pipeline.launchCred (fun d => tallyAt (barCell (px d)) () 1) c) :=
    Pipeline.launchCred_add O₁ (fun d => tallyAt (barCell (px d)) () 1) c
  have s1 : (Pipeline.launchCred O₁ c : sProp 𝕄)
      = iprop(Pipeline.launchCred O₂ c ∗ Pipeline.launchCred (fun d => tallyAt (barCell (py d)) () 1) c) :=
    Pipeline.launchCred_add O₂ (fun d => tallyAt (barCell (py d)) () 1) c
  have s2 : (Pipeline.launchCred O₂ c : sProp 𝕄)
      = iprop(Pipeline.launchCred (fun d => owe2 d 0) c ∗ Pipeline.launchCred (fun d => owe1 d 0) c) :=
    Pipeline.launchCred_add (fun d => owe2 d 0) (fun d => owe1 d 0) c
  have s3 : (Pipeline.launchCred (fun d => owe1 d 0) c : sProp 𝕄)
      = bigSep (Ring.rangeSet 16 0 16) fun k => Pipeline.launchCred (fun d => tallyAt (r1Cell (px d) k) () N16) c :=
    Pipeline.launchCred_sum (Ring.rangeSet 16 0 16) (fun k d => tallyAt (r1Cell (px d) k) () N16) c
  have s4 : (Pipeline.launchCred (fun d => owe2 d 0) c : sProp 𝕄)
      = bigSep (Ring.rangeSet 16 0 16) fun k => Pipeline.launchCred (fun d => tallyAt (r2Cell (py d) k) () N16) c :=
    Pipeline.launchCred_sum (Ring.rangeSet 16 0 16) (fun k d => tallyAt (r2Cell (py d) k) () N16) c
  rw [s0, s1, s2, s3, s4, Ring.rangeSet_univ]
  unfold creds0
  iintro ⟨⟨⟨H2, H1⟩, Hy⟩, Hx⟩
  ihave Hx' := (Pipeline.launchCred_tallyAt (.reg barS) px px px_px px_px () 1 c) $$ Hx
  ihave Hy' := (Pipeline.launchCred_tallyAt (.reg barS) py py py_py py_py () 1 c) $$ Hy
  ihave H1' := (cred_r1 (F := F) c) $$ H1
  ihave H2' := (cred_r2 (F := F) c) $$ H2
  isplitl [Hx' Hy']
  · iapply (cred_bar2 (F := F) c)
    isplitl [Hx'] <;> iassumption
  isplitl [H1']; · iexact H1'
  iexact H2'

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Pipeline.ownSems0 osem c from rfl, scopedRest0_eq]
  iintro H
  isplitr; · iempintro
  isplitl [H]; · iexact H
  iempintro

/-! ## The run -/

/-- What the run ends with: every window's array at the proof data's final contents. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of four devices, from any memory with zero counters: every weakly fair execution of @main
    terminates without fault with every window's array at the proof data's final contents, given each device's
    body obligation. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.AG.run_main' depends on axioms: [propext, Classical.choice, Quot.sound] -/
#guard_msgs in #print axioms run_main

end Cert.KernelIdeal.AG

end
-- ==== Proof.KernelIdeal.AgValue.lean ====
/-
  What the run leaves in the arrays: the operand block unchanged, the result at the gathered contents.
-/
import proofs.«900089_g7700000000000090_dist_ag_v7x_xy2x2_x_m512_n512_f32_1_alg».proof.Proof.KernelIdeal.AgLaunch
import proofs.«900089_g7700000000000090_dist_ag_v7x_xy2x2_x_m512_n512_f32_1_alg».proof.Proof.Gen.KernelIdeal.Points

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged operand block is the operand array as launched (the window's one block is the whole array). -/
theorem Xc_eq (c : Dev nD) : Xc m ρ c = m ((c : Thread nD τ).loc main_arg0) := by
  unfold Xc s₀
  exact Memref.read_access_unit_zero (Elt F) main_arg0 (off := fun a => 0 * S512x512.size a)
    (funext fun a => Nat.zero_mul _) _ _

/-- The result window's one block is the whole result array, so the one write-back leaves exactly what the body
    left in the staging buffer: the gathered contents. -/
private theorem arr_out (c : Dev nD) : (dats (F := F) m ρ 0 c).arrAt (1 : Fin 2) cfg0.N = Gout m ρ c := by
  rw [show cfg0.N = ((0 : Fin 1) : Fin cfg0.N).val + 1 from rfl, (dats m ρ 0 c).arrAt_succ (1 : Fin 2) (0 : Fin 1),
    flush0_1 (0 : Fin 1), if_pos rfl]
  exact Memref.write_access_unit_zero_univ (Elt F) main_v1 (off := fun a => 0 * S1024x512.size a)
    (funext fun a => Nat.zero_mul _) _ _ _

/-- The operand window is an input: its array is never written back. -/
private theorem arr_in (c : Dev nD) : (dats (F := F) m ρ 0 c).arrAt (0 : Fin 2) cfg0.N = m ((c : Thread nD τ).loc main_arg0) :=
  (dats (F := F) m ρ 0 c).arrAt_in (0 : Fin 2) rfl _

/-- The run with its values named: on every device the result array ends at the gathered contents and the operand
    array as launched. -/
theorem run_val (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Gout m ρ c
      ∧ r.2.mem ((c.tc : Thread nD τ).loc main_arg0) = m ((c.tc : Thread nD τ).loc main_arg0)) :=
  (θ_run defs _ _).mono
    (fun _ h c => ⟨(h c (1 : Fin 2)).trans (arr_out m ρ c), (h c (0 : Fin 2)).trans (arr_in m ρ c)⟩)
    (run_main m ρ hbody)

/-- info: 'Cert.KernelIdeal.AG.run_val' depends on axioms: [propext, Classical.choice, Quot.sound] -/
#guard_msgs in #print axioms run_val

end Cert.KernelIdeal.AG

end
-- ==== Proof.AgAlg.lean ====
/-
  The reference's run (it is the identity: no operation), and that the gathered contents of every device are the
  whole operand when each device's block is its block of it.
-/
import proofs.«900089_g7700000000000090_dist_ag_v7x_xy2x2_x_m512_n512_f32_1_alg».proof.Defs
import proofs.«900089_g7700000000000090_dist_ag_v7x_xy2x2_x_m512_n512_f32_1_alg».proof.Proof.Gen.ReferenceIdeal
import proofs.«900089_g7700000000000090_dist_ag_v7x_xy2x2_x_m512_n512_f32_1_alg».proof.Proof.KernelIdeal.AgValue
import Idealize.ShloMosaic.Lib.StableHlo.Run
import Idealize.ShloMosaic.Lib.Layout

noncomputable section

namespace Cert.Proof.AG

open Idealize.ShloMosaic Idealize.ShloMosaic.TcCoe Idealize.SL.Sem

/-- The reference runs to the end, its one array unchanged (it is its own result). -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run _ _ _).mono (fun _ h c => h c Cert.ReferenceIdeal.main_arg0)
    (StableHlo.run_seq (by decide) (by decide) (Cert.ReferenceIdeal.defs (F := Ideal)) (Cert.ReferenceIdeal.main (F := Ideal))
      (fun _ => []) (fun _ => rfl) (fun _ => trivial) m' ρ')

section
open Cert.KernelIdeal Cert.KernelIdeal.AG

/-- On the 2 × 2 mesh, cut along dimension 0 by the x axis only: device d holds block d / 2 of dimension 0, -/
private theorem mb0 (d : Dev nD) : ((Layout.meshBlock [2, 2] ![[0], []] d) 0).val = d.val / 2 := by revert d; decide
/-- and the one block of dimension 1. -/
private theorem mb1 (d : Dev nD) : ((Layout.meshBlock [2, 2] ![[0], []] d) 1).val = 0 := by revert d; decide

/-- Crossing the x axis changes the half; crossing the y axis does not. -/
private theorem px_half (c : Dev nD) : (px c).val / 2 = 1 - c.val / 2 := by revert c; decide
private theorem pxpy_half (c : Dev nD) : (px (py c)).val / 2 = 1 - c.val / 2 := by revert c; decide

/-- Row r of the whole array, read in the block of a device whose half holds it, at row r mod 512: the row itself,
    since 512 (r / 512) + r mod 512 = r. -/
private theorem blk_at {α : Type} (X : (⟨2, ![1024, 512]⟩ : Shape).Idx → α) (d : Dev nD) (i : S1024x512.Idx)
    (h : (i 0).val / 512 = d.val / 2) :
    (Layout.blockN ⟨2, ![512, 512]⟩ ⟨2, ![1024, 512]⟩ (Layout.meshBlock [2, 2] ![[0], []] d) X) (inBlk i) = X i := by
  rw [Layout.blockN_apply]
  congr 1
  funext b
  apply Fin.ext
  rw [Layout.TilesN.idx_val]
  match b with
  | ⟨0, _⟩ =>
    show ((Layout.meshBlock [2, 2] ![[0], []] d) 0).val * 512 + (i 0).val % 512 = (i 0).val
    rw [mb0, ← h]; exact Nat.div_add_mod' _ _
  | ⟨1, _⟩ =>
    show ((Layout.meshBlock [2, 2] ![[0], []] d) 1).val * 512 + (i 1).val = (i 1).val
    rw [mb1]; omega

end

/-- If every device's operand block is its block of one whole array (dimension 0 cut in two along the mesh's x axis,
    the y axis not cutting it), what every device gathers is that array. -/
theorem gathered (m : (ℓ : Loc Cert.KernelIdeal.nD Cert.KernelIdeal.τ Cert.KernelIdeal.sig) → Buf (Elt Ideal) ℓ) (ρ : Dev Cert.KernelIdeal.nD → PrngReg)
    (X : Buf (Elt Ideal) (((0 : Dev Cert.ReferenceIdeal.nD).tc : Thread Cert.ReferenceIdeal.nD Cert.ReferenceIdeal.τ).loc Cert.ReferenceIdeal.main_arg0))
    (hagree : ∀ c : Dev Cert.KernelIdeal.nD,
      m ((c.tc : Thread Cert.KernelIdeal.nD Cert.KernelIdeal.τ).loc Cert.KernelIdeal.main_arg0)
        = Layout.blockN ⟨2, ![512, 512]⟩ ⟨2, ![1024, 512]⟩ (Layout.meshBlock [2, 2] ![[0], []] c) X)
    (c : Dev Cert.KernelIdeal.nD) :
    Cert.KernelIdeal.AG.Gout (F := Ideal) m ρ c = X := by
  have hX : ∀ d : Dev Cert.KernelIdeal.nD, Cert.KernelIdeal.AG.Xc (F := Ideal) m ρ d
      = Layout.blockN ⟨2, ![512, 512]⟩ ⟨2, ![1024, 512]⟩ (Layout.meshBlock [2, 2] ![[0], []] d) X :=
    fun d => (Cert.KernelIdeal.AG.Xc_eq m ρ d).trans (hagree d)
  funext i
  have h0 : (i 0).val < 1024 := (i 0).isLt
  have hc : c.val < 4 := c.isLt
  show (if (i 0).val / 512 = c.val / 2 then Cert.KernelIdeal.AG.Xc m ρ c (Cert.KernelIdeal.AG.inBlk i)
    else if ((i 0).val % 512) / 256 = c.val % 2 then Cert.KernelIdeal.AG.Xc m ρ (Cert.KernelIdeal.AG.px c) (Cert.KernelIdeal.AG.inBlk i)
    else Cert.KernelIdeal.AG.Xc m ρ (Cert.KernelIdeal.AG.px (Cert.KernelIdeal.AG.py c)) (Cert.KernelIdeal.AG.inBlk i)) = X i
  rw [hX c, hX (Cert.KernelIdeal.AG.px c), hX (Cert.KernelIdeal.AG.px (Cert.KernelIdeal.AG.py c))]
  by_cases h1 : (i 0).val / 512 = c.val / 2
  · rw [if_pos h1]; exact blk_at X c i h1
  · rw [if_neg h1]
    by_cases h2 : ((i 0).val % 512) / 256 = c.val % 2
    · rw [if_pos h2]; exact blk_at X _ i (by rw [px_half]; omega)
    · rw [if_neg h2]; exact blk_at X _ i (by rw [pxpy_half]; omega)

end Cert.Proof.AG

end
-- ==== Proof.lean ====
/-
  The all-gather on the 2 × 2 mesh against the identity: every device ends with the whole operand.

  Device (x, y) starts from its block of the operand (rows 512 x … of 1024; the two devices of one x hold the same
  block). Its kernel copies that block into its own half of its result; across the x axis it sends, in sixteen chunks
  of sixteen rows, the quarter 256 y … of its block into the same rows of the x-peer's result; and each chunk it
  receives across x it forwards across y, so that the y-peer gets the quarter it was not sent. An entry barrier with
  both peers (a unit signalled to each, two waited for) says both are inside the kernel before anything lands in their
  result buffers, and hands over the rows that will be written; every transfer is waited for at both ends before the
  body returns. No two pending copies touch a common element, and no landing rows are read before their arrival's
  wait. So on every device the result is the own block in its half and the other block in the other half, each row
  in place: the whole operand, which is what the identity reference returns.

  The frames are the run of the launch with the values dropped; the idealization rewrote nothing, so there is nothing
  to preserve; the algebraic claim reads the gathered contents through the blocks' layout.
-/
import proofs.«900089_g7700000000000090_dist_ag_v7x_xy2x2_x_m512_n512_f32_1_alg».proof.Defs
import proofs.«900089_g7700000000000090_dist_ag_v7x_xy2x2_x_m512_n512_f32_1_alg».proof.Proof.Gen.Kernel
import proofs.«900089_g7700000000000090_dist_ag_v7x_xy2x2_x_m512_n512_f32_1_alg».proof.Proof.Gen.KernelIdeal
import proofs.«900089_g7700000000000090_dist_ag_v7x_xy2x2_x_m512_n512_f32_1_alg».proof.Proof.Gen.ReferenceIdeal
import proofs.«900089_g7700000000000090_dist_ag_v7x_xy2x2_x_m512_n512_f32_1_alg».proof.Proof.Gen.Pre_finite_inputs_Kernel
import proofs.«900089_g7700000000000090_dist_ag_v7x_xy2x2_x_m512_n512_f32_1_alg».proof.Proof.Gen.Pre_finite_inputs_ReferenceIdeal
import proofs.«900089_g7700000000000090_dist_ag_v7x_xy2x2_x_m512_n512_f32_1_alg».proof.Proof.Kernel.AgSpec
import proofs.«900089_g7700000000000090_dist_ag_v7x_xy2x2_x_m512_n512_f32_1_alg».proof.Proof.Kernel.AgValue
import proofs.«900089_g7700000000000090_dist_ag_v7x_xy2x2_x_m512_n512_f32_1_alg».proof.Proof.KernelIdeal.AgSpec
import proofs.«900089_g7700000000000090_dist_ag_v7x_xy2x2_x_m512_n512_f32_1_alg».proof.Proof.KernelIdeal.AgValue
import proofs.«900089_g7700000000000090_dist_ag_v7x_xy2x2_x_m512_n512_f32_1_alg».proof.Proof.AgAlg
import Idealize.ShloMosaic.Adequacy
import Idealize.ShloMosaic.Init

noncomputable section

namespace Cert.Proof

open Idealize.ShloMosaic Idealize.SL.Sem

/-- The kernel at the word level runs to the end on all four devices and leaves every operand block as it was. -/
theorem frame_k : Cert.frame_Kernel := fun m ρ _ =>
  (θ_run (Cert.Kernel.defs (F := Bits)) _ _).mono (fun _ h c => (h c).2)
    (Cert.Kernel.AG.run_val (F := Bits) m ρ (Cert.Kernel.AG.body_obligation_of m ρ (Cert.Kernel.AG.body_spec m ρ)))

/-- The same over the extended reals. -/
theorem frame_ki : Cert.frame_KernelIdeal := fun m ρ _ =>
  (θ_run (Cert.KernelIdeal.defs (F := Ideal)) _ _).mono (fun _ h c => (h c).2)
    (Cert.KernelIdeal.AG.run_val (F := Ideal) m ρ (Cert.KernelIdeal.AG.body_obligation_of m ρ (Cert.KernelIdeal.AG.body_spec m ρ)))

/-- The reference is the identity: it runs to the end with its array as it was. -/
theorem frame_ri : Cert.frame_ReferenceIdeal := fun m ρ _ => AG.ref_run m ρ

/-- From memories where each device's operand block is its block of the reference's array, every device's result ends
    at that whole array — what the reference's result (its argument) holds. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run (Cert.KernelIdeal.defs (F := Ideal)) _ _).mono
      (fun _ h c => ⟨((h c).1).trans (AG.gathered m ρ _ hagree c), (h c).2⟩)
      (Cert.KernelIdeal.AG.run_val (F := Ideal) m ρ (Cert.KernelIdeal.AG.body_obligation_of m ρ (Cert.KernelIdeal.AG.body_spec m ρ)))
  · exact (θ_run (Cert.ReferenceIdeal.defs (F := Ideal)) _ _).mono (fun _ h => ⟨h 0, h 0⟩) (AG.ref_run m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
